-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v428)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v428) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v578) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000x3 : Shape := ⟨2, ![600000, 3]⟩
abbrev S50000 : Shape := ⟨1, ![50000]⟩
abbrev S5x3x8x128 : Shape := ⟨4, ![5, 3, 8, 128]⟩
abbrev S5x128x128 : Shape := ⟨3, ![5, 128, 128]⟩
abbrev S5x128 : Shape := ⟨2, ![5, 128]⟩
abbrev S6x128x10 : Shape := ⟨3, ![6, 128, 10]⟩
abbrev S6x10 : Shape := ⟨2, ![6, 10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S5x3x8x128 : S_.BroadcastsInDim S5x3x8x128 (![] : Fin 0 → Fin S5x3x8x128.rank)
  reducesTo_S5x3x8x128_S_d0_1_2_3 : S5x3x8x128.ReducesTo [0, 1, 2, 3] S_
  bcast_S_S5x128x128 : S_.BroadcastsInDim S5x128x128 (![] : Fin 0 → Fin S5x128x128.rank)
  reducesTo_S5x128x128_S_d0_1_2 : S5x128x128.ReducesTo [0, 1, 2] S_
  bcast_S_S5x128 : S_.BroadcastsInDim S5x128 (![] : Fin 0 → Fin S5x128.rank)
  reducesTo_S5x128_S_d0_1 : S5x128.ReducesTo [0, 1] S_
  bcast_S_S6x128x10 : S_.BroadcastsInDim S6x128x10 (![] : Fin 0 → Fin S6x128x10.rank)
  reducesTo_S6x128x10_S_d0_1_2 : S6x128x10.ReducesTo [0, 1, 2] S_
  bcast_S_S6x10 : S_.BroadcastsInDim S6x10 (![] : Fin 0 → Fin S6x10.rank)
  reducesTo_S6x10_S_d0_1 : S6x10.ReducesTo [0, 1] S_

variable [Facts]

def fn_part4 {F : FTy → Type} [FloatOps F] (main_arg17 : FVec F S6x128x10 .f32) (main_arg18 : FVec F S6x10 .f32) (main_v63 : IVec S_ 1) (main_v67 : IVec S_ 1) : IVec S_ 1 :=
  let main_v68 : IVec S_ 1 := andi main_v63 main_v67
  let main_v69 : FVec F S6x128x10 .f32 := Host.absf main_arg17
  let main_cst_26 : FVec F S_ .f32 := constant S_ .f32 0x7F800000#32
  let main_v70 : FVec F S6x128x10 .f32 := broadcastInDim S6x128x10 ![] bcast_S_S6x128x10 main_cst_26
  let main_v71 : IVec S6x128x10 1 := cmpf .olt main_v69 main_v70
  let main_c_27 : IVec S_ 1 := constantI S_ 1 1#1
  let main_v72 : IVec S_ 1 := (fun x v => Host.reduce IntOp.andi x v reducesTo_S6x128x10_S_d0_1_2 h_S_) main_v71 main_c_27
  let main_v73 : IVec S_ 1 := andi main_v68 main_v72
  let main_v74 : FVec F S6x10 .f32 := Host.absf main_arg18
  let main_cst_28 : FVec F S_ .f32 := constant S_ .f32 0x7F800000#32
  let main_v75 : FVec F S6x10 .f32 := broadcastInDim S6x10 ![] bcast_S_S6x10 main_cst_28
  let main_v76 : IVec S6x10 1 := cmpf .olt main_v74 main_v75
  let main_c_29 : IVec S_ 1 := constantI S_ 1 1#1
  let main_v77 : IVec S_ 1 := (fun x v => Host.reduce IntOp.andi x v reducesTo_S6x10_S_d0_1 h_S_) main_v76 main_c_29
  let main_v78 : IVec S_ 1 := andi main_v73 main_v77
  main_v78

def fn_part3 {F : FTy → Type} [FloatOps F] (main_arg14 : FVec F S5x128 .f32) (main_arg15 : FVec F S5x128 .f32) (main_arg16 : FVec F S5x128 .f32) (main_arg17 : FVec F S6x128x10 .f32) (main_arg18 : FVec F S6x10 .f32) (main_v48 : IVec S_ 1) (main_v49 : FVec F S5x128 .f32) (main_v50 : FVec F S5x128 .f32) : IVec S_ 1 :=
  let main_v51 : IVec S5x128 1 := cmpf .olt main_v49 main_v50
  let main_c_19 : IVec S_ 1 := constantI S_ 1 1#1
  let main_v52 : IVec S_ 1 := (fun x v => Host.reduce IntOp.andi x v reducesTo_S5x128_S_d0_1 h_S_) main_v51 main_c_19
  let main_v53 : IVec S_ 1 := andi main_v48 main_v52
  let main_v54 : FVec F S5x128 .f32 := Host.absf main_arg14
  let main_cst_20 : FVec F S_ .f32 := constant S_ .f32 0x7F800000#32
  let main_v55 : FVec F S5x128 .f32 := broadcastInDim S5x128 ![] bcast_S_S5x128 main_cst_20
  let main_v56 : IVec S5x128 1 := cmpf .olt main_v54 main_v55
  let main_c_21 : IVec S_ 1 := constantI S_ 1 1#1
  let main_v57 : IVec S_ 1 := (fun x v => Host.reduce IntOp.andi x v reducesTo_S5x128_S_d0_1 h_S_) main_v56 main_c_21
  let main_v58 : IVec S_ 1 := andi main_v53 main_v57
  let main_v59 : FVec F S5x128 .f32 := Host.absf main_arg15
  let main_cst_22 : FVec F S_ .f32 := constant S_ .f32 0x7F800000#32
  let main_v60 : FVec F S5x128 .f32 := broadcastInDim S5x128 ![] bcast_S_S5x128 main_cst_22
  let main_v61 : IVec S5x128 1 := cmpf .olt main_v59 main_v60
  let main_c_23 : IVec S_ 1 := constantI S_ 1 1#1
  let main_v62 : IVec S_ 1 := (fun x v => Host.reduce IntOp.andi x v reducesTo_S5x128_S_d0_1 h_S_) main_v61 main_c_23
  let main_v63 : IVec S_ 1 := andi main_v58 main_v62
  let main_v64 : FVec F S5x128 .f32 := Host.absf main_arg16
  let main_cst_24 : FVec F S_ .f32 := constant S_ .f32 0x7F800000#32
  let main_v65 : FVec F S5x128 .f32 := broadcastInDim S5x128 ![] bcast_S_S5x128 main_cst_24
  let main_v66 : IVec S5x128 1 := cmpf .olt main_v64 main_v65
  let main_c_25 : IVec S_ 1 := constantI S_ 1 1#1
  let main_v67 : IVec S_ 1 := (fun x v => Host.reduce IntOp.andi x v reducesTo_S5x128_S_d0_1 h_S_) main_v66 main_c_25
  fn_part4 (F := F) main_arg17 main_arg18 main_v63 main_v67

def fn_part2 {F : FTy → Type} [FloatOps F] (main_arg10 : FVec F S5x128 .f32) (main_arg11 : FVec F S5x128x128 .f32) (main_arg12 : FVec F S5x128 .f32) (main_arg13 : FVec F S5x128 .f32) (main_arg14 : FVec F S5x128 .f32) (main_arg15 : FVec F S5x128 .f32) (main_arg16 : FVec F S5x128 .f32) (main_arg17 : FVec F S6x128x10 .f32) (main_arg18 : FVec F S6x10 .f32) (main_v33 : IVec S_ 1) : IVec S_ 1 :=
  let main_v34 : FVec F S5x128 .f32 := Host.absf main_arg10
  let main_cst_12 : FVec F S_ .f32 := constant S_ .f32 0x7F800000#32
  let main_v35 : FVec F S5x128 .f32 := broadcastInDim S5x128 ![] bcast_S_S5x128 main_cst_12
  let main_v36 : IVec S5x128 1 := cmpf .olt main_v34 main_v35
  let main_c_13 : IVec S_ 1 := constantI S_ 1 1#1
  let main_v37 : IVec S_ 1 := (fun x v => Host.reduce IntOp.andi x v reducesTo_S5x128_S_d0_1 h_S_) main_v36 main_c_13
  let main_v38 : IVec S_ 1 := andi main_v33 main_v37
  let main_v39 : FVec F S5x128x128 .f32 := Host.absf main_arg11
  let main_cst_14 : FVec F S_ .f32 := constant S_ .f32 0x7F800000#32
  let main_v40 : FVec F S5x128x128 .f32 := broadcastInDim S5x128x128 ![] bcast_S_S5x128x128 main_cst_14
  let main_v41 : IVec S5x128x128 1 := cmpf .olt main_v39 main_v40
  let main_c_15 : IVec S_ 1 := constantI S_ 1 1#1
  let main_v42 : IVec S_ 1 := (fun x v => Host.reduce IntOp.andi x v reducesTo_S5x128x128_S_d0_1_2 h_S_) main_v41 main_c_15
  let main_v43 : IVec S_ 1 := andi main_v38 main_v42
  let main_v44 : FVec F S5x128 .f32 := Host.absf main_arg12
  let main_cst_16 : FVec F S_ .f32 := constant S_ .f32 0x7F800000#32
  let main_v45 : FVec F S5x128 .f32 := broadcastInDim S5x128 ![] bcast_S_S5x128 main_cst_16
  let main_v46 : IVec S5x128 1 := cmpf .olt main_v44 main_v45
  let main_c_17 : IVec S_ 1 := constantI S_ 1 1#1
  let main_v47 : IVec S_ 1 := (fun x v => Host.reduce IntOp.andi x v reducesTo_S5x128_S_d0_1 h_S_) main_v46 main_c_17
  let main_v48 : IVec S_ 1 := andi main_v43 main_v47
  let main_v49 : FVec F S5x128 .f32 := Host.absf main_arg13
  let main_cst_18 : FVec F S_ .f32 := constant S_ .f32 0x7F800000#32
  let main_v50 : FVec F S5x128 .f32 := broadcastInDim S5x128 ![] bcast_S_S5x128 main_cst_18
  fn_part3 (F := F) main_arg14 main_arg15 main_arg16 main_arg17 main_arg18 main_v48 main_v49 main_v50

def fn_part1 {F : FTy → Type} [FloatOps F] (main_arg7 : FVec F S5x128 .f32) (main_arg8 : FVec F S5x128 .f32) (main_arg9 : FVec F S5x128 .f32) (main_arg10 : FVec F S5x128 .f32) (main_arg11 : FVec F S5x128x128 .f32) (main_arg12 : FVec F S5x128 .f32) (main_arg13 : FVec F S5x128 .f32) (main_arg14 : FVec F S5x128 .f32) (main_arg15 : FVec F S5x128 .f32) (main_arg16 : FVec F S5x128 .f32) (main_arg17 : FVec F S6x128x10 .f32) (main_arg18 : FVec F S6x10 .f32) (main_v13 : IVec S_ 1) (main_v16 : IVec S5x128 1) : IVec S_ 1 :=
  let main_c_5 : IVec S_ 1 := constantI S_ 1 1#1
  let main_v17 : IVec S_ 1 := (fun x v => Host.reduce IntOp.andi x v reducesTo_S5x128_S_d0_1 h_S_) main_v16 main_c_5
  let main_v18 : IVec S_ 1 := andi main_v13 main_v17
  let main_v19 : FVec F S5x128 .f32 := Host.absf main_arg7
  let main_cst_6 : FVec F S_ .f32 := constant S_ .f32 0x7F800000#32
  let main_v20 : FVec F S5x128 .f32 := broadcastInDim S5x128 ![] bcast_S_S5x128 main_cst_6
  let main_v21 : IVec S5x128 1 := cmpf .olt main_v19 main_v20
  let main_c_7 : IVec S_ 1 := constantI S_ 1 1#1
  let main_v22 : IVec S_ 1 := (fun x v => Host.reduce IntOp.andi x v reducesTo_S5x128_S_d0_1 h_S_) main_v21 main_c_7
  let main_v23 : IVec S_ 1 := andi main_v18 main_v22
  let main_v24 : FVec F S5x128 .f32 := Host.absf main_arg8
  let main_cst_8 : FVec F S_ .f32 := constant S_ .f32 0x7F800000#32
  let main_v25 : FVec F S5x128 .f32 := broadcastInDim S5x128 ![] bcast_S_S5x128 main_cst_8
  let main_v26 : IVec S5x128 1 := cmpf .olt main_v24 main_v25
  let main_c_9 : IVec S_ 1 := constantI S_ 1 1#1
  let main_v27 : IVec S_ 1 := (fun x v => Host.reduce IntOp.andi x v reducesTo_S5x128_S_d0_1 h_S_) main_v26 main_c_9
  let main_v28 : IVec S_ 1 := andi main_v23 main_v27
  let main_v29 : FVec F S5x128 .f32 := Host.absf main_arg9
  let main_cst_10 : FVec F S_ .f32 := constant S_ .f32 0x7F800000#32
  let main_v30 : FVec F S5x128 .f32 := broadcastInDim S5x128 ![] bcast_S_S5x128 main_cst_10
  let main_v31 : IVec S5x128 1 := cmpf .olt main_v29 main_v30
  let main_c_11 : IVec S_ 1 := constantI S_ 1 1#1
  let main_v32 : IVec S_ 1 := (fun x v => Host.reduce IntOp.andi x v reducesTo_S5x128_S_d0_1 h_S_) main_v31 main_c_11
  let main_v33 : IVec S_ 1 := andi main_v28 main_v32
  fn_part2 (F := F) main_arg10 main_arg11 main_arg12 main_arg13 main_arg14 main_arg15 main_arg16 main_arg17 main_arg18 main_v33

def fn {F : FTy → Type} [FloatOps F] (main_arg0 : FVec F S50000x128 .f32) (main_arg1 : IVec S2x600000 32) (main_arg2 : IVec S600000x3 32) (main_arg3 : IVec S50000 32) (main_arg4 : FVec F S5x3x8x128 .f32) (main_arg5 : FVec F S5x128x128 .f32) (main_arg6 : FVec F S5x128 .f32) (main_arg7 : FVec F S5x128 .f32) (main_arg8 : FVec F S5x128 .f32) (main_arg9 : FVec F S5x128 .f32) (main_arg10 : FVec F S5x128 .f32) (main_arg11 : FVec F S5x128x128 .f32) (main_arg12 : FVec F S5x128 .f32) (main_arg13 : FVec F S5x128 .f32) (main_arg14 : FVec F S5x128 .f32) (main_arg15 : FVec F S5x128 .f32) (main_arg16 : FVec F S5x128 .f32) (main_arg17 : FVec F S6x128x10 .f32) (main_arg18 : FVec F S6x10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S5x3x8x128 .f32 := Host.absf main_arg4
  let main_cst_0 : FVec F S_ .f32 := constant S_ .f32 0x7F800000#32
  let main_v5 : FVec F S5x3x8x128 .f32 := broadcastInDim S5x3x8x128 ![] bcast_S_S5x3x8x128 main_cst_0
  let main_v6 : IVec S5x3x8x128 1 := cmpf .olt main_v4 main_v5
  let main_c_1 : IVec S_ 1 := constantI S_ 1 1#1
  let main_v7 : IVec S_ 1 := (fun x v => Host.reduce IntOp.andi x v reducesTo_S5x3x8x128_S_d0_1_2_3 h_S_) main_v6 main_c_1
  let main_v8 : IVec S_ 1 := andi main_v3 main_v7
  let main_v9 : FVec F S5x128x128 .f32 := Host.absf main_arg5
  let main_cst_2 : FVec F S_ .f32 := constant S_ .f32 0x7F800000#32
  let main_v10 : FVec F S5x128x128 .f32 := broadcastInDim S5x128x128 ![] bcast_S_S5x128x128 main_cst_2
  let main_v11 : IVec S5x128x128 1 := cmpf .olt main_v9 main_v10
  let main_c_3 : IVec S_ 1 := constantI S_ 1 1#1
  let main_v12 : IVec S_ 1 := (fun x v => Host.reduce IntOp.andi x v reducesTo_S5x128x128_S_d0_1_2 h_S_) main_v11 main_c_3
  let main_v13 : IVec S_ 1 := andi main_v8 main_v12
  let main_v14 : FVec F S5x128 .f32 := Host.absf main_arg6
  let main_cst_4 : FVec F S_ .f32 := constant S_ .f32 0x7F800000#32
  let main_v15 : FVec F S5x128 .f32 := broadcastInDim S5x128 ![] bcast_S_S5x128 main_cst_4
  let main_v16 : IVec S5x128 1 := cmpf .olt main_v14 main_v15
  fn_part1 (F := F) main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S2x600000 : Shape := ⟨2, ![2, 600000]⟩
abbrev S600000x3 : Shape := ⟨2, ![600000, 3]⟩
abbrev S50000 : Shape := ⟨1, ![50000]⟩
abbrev S5x3x8x128 : Shape := ⟨4, ![5, 3, 8, 128]⟩
abbrev S5x128x128 : Shape := ⟨3, ![5, 128, 128]⟩
abbrev S5x128 : Shape := ⟨2, ![5, 128]⟩
abbrev S6x128x10 : Shape := ⟨3, ![6, 128, 10]⟩
abbrev S6x10 : Shape := ⟨2, ![6, 10]⟩
abbrev S1x600000 : Shape := ⟨2, ![1, 600000]⟩
abbrev S600000 : Shape := ⟨1, ![600000]⟩
abbrev S3 : Shape := ⟨1, ![3]⟩
abbrev S_ : Shape := ⟨0, ![]⟩
abbrev S256 : Shape := ⟨1, ![256]⟩
abbrev S50000x1 : Shape := ⟨2, ![50000, 1]⟩
abbrev S256x10 : Shape := ⟨2, ![256, 10]⟩
abbrev S256x128 : Shape := ⟨2, ![256, 128]⟩
abbrev S256x1 : Shape := ⟨2, ![256, 1]⟩
abbrev S1x128x10 : Shape := ⟨3, ![1, 128, 10]⟩
abbrev S128x10 : Shape := ⟨2, ![128, 10]⟩
abbrev S1x10 : Shape := ⟨2, ![1, 10]⟩
abbrev S10 : Shape := ⟨1, ![10]⟩
abbrev S1x3x8x128 : Shape := ⟨4, ![1, 3, 8, 128]⟩
abbrev S3x8x128 : Shape := ⟨3, ![3, 8, 128]⟩
abbrev S600000x3x1 : Shape := ⟨3, ![600000, 3, 1]⟩
abbrev S600000x3x2 : Shape := ⟨3, ![600000, 3, 2]⟩
abbrev S600000x3x128 : Shape := ⟨3, ![600000, 3, 128]⟩
abbrev S600000x128 : Shape := ⟨2, ![600000, 128]⟩
abbrev S600000x1 : Shape := ⟨2, ![600000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩

abbrev nBuf : Space → Nat
  | .hbm => 509
  | .vmem => 90
  | .smem => 0
  | _ => 0

abbrev hbmTy0_0 (i : Nat) : BufTy := match i % 128 with
  | 0 => ⟨S50000x128, .f32⟩
  | 1 => ⟨S2x600000, .i32⟩
  | 2 => ⟨S600000x3, .i32⟩
  | 3 => ⟨S50000, .i32⟩
  | 4 => ⟨S5x3x8x128, .f32⟩
  | 5 => ⟨S5x128x128, .f32⟩
  | 6 => ⟨S5x128, .f32⟩
  | 7 => ⟨S5x128, .f32⟩
  | 8 => ⟨S5x128, .f32⟩
  | 9 => ⟨S5x128, .f32⟩
  | 10 => ⟨S5x128, .f32⟩
  | 11 => ⟨S5x128x128, .f32⟩
  | 12 => ⟨S5x128, .f32⟩
  | 13 => ⟨S5x128, .f32⟩
  | 14 => ⟨S5x128, .f32⟩
  | 15 => ⟨S5x128, .f32⟩
  | 16 => ⟨S5x128, .f32⟩
  | 17 => ⟨S6x128x10, .f32⟩
  | 18 => ⟨S6x10, .f32⟩
  | 19 => ⟨S1x600000, .i32⟩
  | 20 => ⟨S600000, .i32⟩
  | 21 => ⟨S1x600000, .i32⟩
  | 22 => ⟨S600000, .i32⟩
  | 23 => ⟨S3, .i32⟩
  | 24 => ⟨S_, .f32⟩
  | 25 => ⟨S50000, .f32⟩
  | 26 => ⟨S_, .f32⟩
  | 27 => ⟨S256, .f32⟩
  | 28 => ⟨S50000x1, .i32⟩
  | 29 => ⟨S256, .f32⟩
  | 30 => ⟨S_, .f32⟩
  | 31 => ⟨S256, .f32⟩
  | 32 => ⟨S256, .f32⟩
  | 33 => ⟨S_, .f32⟩
  | 34 => ⟨S256, .f32⟩
  | 35 => ⟨S256, .f32⟩
  | 36 => ⟨S_, .f32⟩
  | 37 => ⟨S256x10, .f32⟩
  | 38 => ⟨S_, .f32⟩
  | 39 => ⟨S256x128, .f32⟩
  | 40 => ⟨S50000x1, .i32⟩
  | 41 => ⟨S256x128, .f32⟩
  | 42 => ⟨S256x1, .f32⟩
  | 43 => ⟨S256x128, .f32⟩
  | 44 => ⟨S256x128, .f32⟩
  | 45 => ⟨S1x128x10, .f32⟩
  | 46 => ⟨S128x10, .f32⟩
  | 47 => ⟨S256x10, .f32⟩
  | 48 => ⟨S256x10, .f32⟩
  | 49 => ⟨S1x10, .f32⟩
  | 50 => ⟨S10, .f32⟩
  | 51 => ⟨S1x10, .f32⟩
  | 52 => ⟨S256x10, .f32⟩
  | 53 => ⟨S256x10, .f32⟩
  | 54 => ⟨S1x3x8x128, .f32⟩
  | 55 => ⟨S3x8x128, .f32⟩
  | 56 => ⟨S_, .i32⟩
  | 57 => ⟨S3, .i32⟩
  | 58 => ⟨S3, .i1⟩
  | 59 => ⟨S_, .i32⟩
  | 60 => ⟨S3, .i32⟩
  | 61 => ⟨S3, .i32⟩
  | 62 => ⟨S3, .i32⟩
  | 63 => ⟨S_, .i32⟩
  | 64 => ⟨S600000x3, .i32⟩
  | 65 => ⟨S600000x3, .i1⟩
  | 66 => ⟨S_, .i32⟩
  | 67 => ⟨S600000x3, .i32⟩
  | 68 => ⟨S600000x3, .i32⟩
  | 69 => ⟨S600000x3, .i32⟩
  | 70 => ⟨S600000x3, .i32⟩
  | 71 => ⟨S600000x3x1, .i32⟩
  | 72 => ⟨S600000x3x1, .i32⟩
  | 73 => ⟨S600000x3x2, .i32⟩
  | 74 => ⟨S600000x3x128, .f32⟩
  | 75 => ⟨S_, .f32⟩
  | 76 => ⟨S600000x128, .f32⟩
  | 77 => ⟨S_, .i32⟩
  | 78 => ⟨S600000, .i32⟩
  | 79 => ⟨S600000, .i1⟩
  | 80 => ⟨S_, .i32⟩
  | 81 => ⟨S600000, .i32⟩
  | 82 => ⟨S600000, .i32⟩
  | 83 => ⟨S600000, .i32⟩
  | 84 => ⟨S600000x1, .i32⟩
  | 85 => ⟨S600000x128, .f32⟩
  | 86 => ⟨S600000x128, .f32⟩
  | 87 => ⟨S_, .f32⟩
  | 88 => ⟨S600000x128, .f32⟩
  | 89 => ⟨S600000x128, .f32⟩
  | 90 => ⟨S_, .f32⟩
  | 91 => ⟨S50000x128, .f32⟩
  | 92 => ⟨S600000x1, .i32⟩
  | 93 => ⟨S50000x128, .f32⟩
  | 94 => ⟨S1x128x128, .f32⟩
  | 95 => ⟨S128x128, .f32⟩
  | 96 => ⟨S1x128, .f32⟩
  | 97 => ⟨S128, .f32⟩
  | 98 => ⟨S1x128, .f32⟩
  | 99 => ⟨S1x128, .f32⟩
  | 100 => ⟨S128, .f32⟩
  | 101 => ⟨S1x128, .f32⟩
  | 102 => ⟨S1x128, .f32⟩
  | 103 => ⟨S128, .f32⟩
  | 104 => ⟨S1x128, .f32⟩
  | 105 => ⟨S1x128, .f32⟩
  | 106 => ⟨S128, .f32⟩
  | 107 => ⟨S1x128, .f32⟩
  | 108 => ⟨S1x128, .f32⟩
  | 109 => ⟨S128, .f32⟩
  | 110 => ⟨S1x128, .f32⟩
  | 111 => ⟨S1x128x128, .f32⟩
  | 112 => ⟨S128x128, .f32⟩
  | 113 => ⟨S1x128, .f32⟩
  | 114 => ⟨S128, .f32⟩
  | 115 => ⟨S1x128, .f32⟩
  | 116 => ⟨S1x128, .f32⟩
  | 117 => ⟨S128, .f32⟩
  | 118 => ⟨S1x128, .f32⟩
  | 119 => ⟨S1x128, .f32⟩
  | 120 => ⟨S128, .f32⟩
  | 121 => ⟨S1x128, .f32⟩
  | 122 => ⟨S1x128, .f32⟩
  | 123 => ⟨S128, .f32⟩
  | 124 => ⟨S1x128, .f32⟩
  | 125 => ⟨S1x128, .f32⟩
  | 126 => ⟨S128, .f32⟩
  | 127 => ⟨S1x128, .f32⟩
  | _ => ⟨S50000x128, .f32⟩

abbrev hbmTy0_1 (i : Nat) : BufTy := match i % 128 with
  | 0 => ⟨S50000x128, .f32⟩
  | 1 => ⟨S_, .f32⟩
  | 2 => ⟨S256x128, .f32⟩
  | 3 => ⟨S50000x1, .i32⟩
  | 4 => ⟨S256x128, .f32⟩
  | 5 => ⟨S256x1, .f32⟩
  | 6 => ⟨S256x128, .f32⟩
  | 7 => ⟨S256x128, .f32⟩
  | 8 => ⟨S1x128x10, .f32⟩
  | 9 => ⟨S128x10, .f32⟩
  | 10 => ⟨S256x10, .f32⟩
  | 11 => ⟨S256x10, .f32⟩
  | 12 => ⟨S1x10, .f32⟩
  | 13 => ⟨S10, .f32⟩
  | 14 => ⟨S1x10, .f32⟩
  | 15 => ⟨S256x10, .f32⟩
  | 16 => ⟨S256x10, .f32⟩
  | 17 => ⟨S1x3x8x128, .f32⟩
  | 18 => ⟨S3x8x128, .f32⟩
  | 19 => ⟨S_, .i32⟩
  | 20 => ⟨S3, .i32⟩
  | 21 => ⟨S3, .i1⟩
  | 22 => ⟨S_, .i32⟩
  | 23 => ⟨S3, .i32⟩
  | 24 => ⟨S3, .i32⟩
  | 25 => ⟨S3, .i32⟩
  | 26 => ⟨S_, .i32⟩
  | 27 => ⟨S600000x3, .i32⟩
  | 28 => ⟨S600000x3, .i1⟩
  | 29 => ⟨S_, .i32⟩
  | 30 => ⟨S600000x3, .i32⟩
  | 31 => ⟨S600000x3, .i32⟩
  | 32 => ⟨S600000x3, .i32⟩
  | 33 => ⟨S600000x3, .i32⟩
  | 34 => ⟨S600000x3x1, .i32⟩
  | 35 => ⟨S600000x3x1, .i32⟩
  | 36 => ⟨S600000x3x2, .i32⟩
  | 37 => ⟨S600000x3x128, .f32⟩
  | 38 => ⟨S_, .f32⟩
  | 39 => ⟨S600000x128, .f32⟩
  | 40 => ⟨S_, .i32⟩
  | 41 => ⟨S600000, .i32⟩
  | 42 => ⟨S600000, .i1⟩
  | 43 => ⟨S_, .i32⟩
  | 44 => ⟨S600000, .i32⟩
  | 45 => ⟨S600000, .i32⟩
  | 46 => ⟨S600000, .i32⟩
  | 47 => ⟨S600000x1, .i32⟩
  | 48 => ⟨S600000x128, .f32⟩
  | 49 => ⟨S600000x128, .f32⟩
  | 50 => ⟨S_, .f32⟩
  | 51 => ⟨S600000x128, .f32⟩
  | 52 => ⟨S600000x128, .f32⟩
  | 53 => ⟨S_, .f32⟩
  | 54 => ⟨S50000x128, .f32⟩
  | 55 => ⟨S600000x1, .i32⟩
  | 56 => ⟨S50000x128, .f32⟩
  | 57 => ⟨S1x128x128, .f32⟩
  | 58 => ⟨S128x128, .f32⟩
  | 59 => ⟨S1x128, .f32⟩
  | 60 => ⟨S128, .f32⟩
  | 61 => ⟨S1x128, .f32⟩
  | 62 => ⟨S1x128, .f32⟩
  | 63 => ⟨S128, .f32⟩
  | 64 => ⟨S1x128, .f32⟩
  | 65 => ⟨S1x128, .f32⟩
  | 66 => ⟨S128, .f32⟩
  | 67 => ⟨S1x128, .f32⟩
  | 68 => ⟨S1x128, .f32⟩
  | 69 => ⟨S128, .f32⟩
  | 70 => ⟨S1x128, .f32⟩
  | 71 => ⟨S1x128, .f32⟩
  | 72 => ⟨S128, .f32⟩
  | 73 => ⟨S1x128, .f32⟩
  | 74 => ⟨S1x128x128, .f32⟩
  | 75 => ⟨S128x128, .f32⟩
  | 76 => ⟨S1x128, .f32⟩
  | 77 => ⟨S128, .f32⟩
  | 78 => ⟨S1x128, .f32⟩
  | 79 => ⟨S1x128, .f32⟩
  | 80 => ⟨S128, .f32⟩
  | 81 => ⟨S1x128, .f32⟩
  | 82 => ⟨S1x128, .f32⟩
  | 83 => ⟨S128, .f32⟩
  | 84 => ⟨S1x128, .f32⟩
  | 85 => ⟨S1x128, .f32⟩
  | 86 => ⟨S128, .f32⟩
  | 87 => ⟨S1x128, .f32⟩
  | 88 => ⟨S1x128, .f32⟩
  | 89 => ⟨S128, .f32⟩
  | 90 => ⟨S1x128, .f32⟩
  | 91 => ⟨S50000x128, .f32⟩
  | 92 => ⟨S_, .f32⟩
  | 93 => ⟨S256x128, .f32⟩
  | 94 => ⟨S50000x1, .i32⟩
  | 95 => ⟨S256x128, .f32⟩
  | 96 => ⟨S256x1, .f32⟩
  | 97 => ⟨S256x128, .f32⟩
  | 98 => ⟨S256x128, .f32⟩
  | 99 => ⟨S1x128x10, .f32⟩
  | 100 => ⟨S128x10, .f32⟩
  | 101 => ⟨S256x10, .f32⟩
  | 102 => ⟨S256x10, .f32⟩
  | 103 => ⟨S1x10, .f32⟩
  | 104 => ⟨S10, .f32⟩
  | 105 => ⟨S1x10, .f32⟩
  | 106 => ⟨S256x10, .f32⟩
  | 107 => ⟨S256x10, .f32⟩
  | 108 => ⟨S1x3x8x128, .f32⟩
  | 109 => ⟨S3x8x128, .f32⟩
  | 110 => ⟨S_, .i32⟩
  | 111 => ⟨S3, .i32⟩
  | 112 => ⟨S3, .i1⟩
  | 113 => ⟨S_, .i32⟩
  | 114 => ⟨S3, .i32⟩
  | 115 => ⟨S3, .i32⟩
  | 116 => ⟨S3, .i32⟩
  | 117 => ⟨S_, .i32⟩
  | 118 => ⟨S600000x3, .i32⟩
  | 119 => ⟨S600000x3, .i1⟩
  | 120 => ⟨S_, .i32⟩
  | 121 => ⟨S600000x3, .i32⟩
  | 122 => ⟨S600000x3, .i32⟩
  | 123 => ⟨S600000x3, .i32⟩
  | 124 => ⟨S600000x3, .i32⟩
  | 125 => ⟨S600000x3x1, .i32⟩
  | 126 => ⟨S600000x3x1, .i32⟩
  | 127 => ⟨S600000x3x2, .i32⟩
  | _ => ⟨S50000x128, .f32⟩

abbrev hbmTy0_2 (i : Nat) : BufTy := match i % 128 with
  | 0 => ⟨S600000x3x128, .f32⟩
  | 1 => ⟨S_, .f32⟩
  | 2 => ⟨S600000x128, .f32⟩
  | 3 => ⟨S_, .i32⟩
  | 4 => ⟨S600000, .i32⟩
  | 5 => ⟨S600000, .i1⟩
  | 6 => ⟨S_, .i32⟩
  | 7 => ⟨S600000, .i32⟩
  | 8 => ⟨S600000, .i32⟩
  | 9 => ⟨S600000, .i32⟩
  | 10 => ⟨S600000x1, .i32⟩
  | 11 => ⟨S600000x128, .f32⟩
  | 12 => ⟨S600000x128, .f32⟩
  | 13 => ⟨S_, .f32⟩
  | 14 => ⟨S600000x128, .f32⟩
  | 15 => ⟨S600000x128, .f32⟩
  | 16 => ⟨S_, .f32⟩
  | 17 => ⟨S50000x128, .f32⟩
  | 18 => ⟨S600000x1, .i32⟩
  | 19 => ⟨S50000x128, .f32⟩
  | 20 => ⟨S1x128x128, .f32⟩
  | 21 => ⟨S128x128, .f32⟩
  | 22 => ⟨S1x128, .f32⟩
  | 23 => ⟨S128, .f32⟩
  | 24 => ⟨S1x128, .f32⟩
  | 25 => ⟨S1x128, .f32⟩
  | 26 => ⟨S128, .f32⟩
  | 27 => ⟨S1x128, .f32⟩
  | 28 => ⟨S1x128, .f32⟩
  | 29 => ⟨S128, .f32⟩
  | 30 => ⟨S1x128, .f32⟩
  | 31 => ⟨S1x128, .f32⟩
  | 32 => ⟨S128, .f32⟩
  | 33 => ⟨S1x128, .f32⟩
  | 34 => ⟨S1x128, .f32⟩
  | 35 => ⟨S128, .f32⟩
  | 36 => ⟨S1x128, .f32⟩
  | 37 => ⟨S1x128x128, .f32⟩
  | 38 => ⟨S128x128, .f32⟩
  | 39 => ⟨S1x128, .f32⟩
  | 40 => ⟨S128, .f32⟩
  | 41 => ⟨S1x128, .f32⟩
  | 42 => ⟨S1x128, .f32⟩
  | 43 => ⟨S128, .f32⟩
  | 44 => ⟨S1x128, .f32⟩
  | 45 => ⟨S1x128, .f32⟩
  | 46 => ⟨S128, .f32⟩
  | 47 => ⟨S1x128, .f32⟩
  | 48 => ⟨S1x128, .f32⟩
  | 49 => ⟨S128, .f32⟩
  | 50 => ⟨S1x128, .f32⟩
  | 51 => ⟨S1x128, .f32⟩
  | 52 => ⟨S128, .f32⟩
  | 53 => ⟨S1x128, .f32⟩
  | 54 => ⟨S50000x128, .f32⟩
  | 55 => ⟨S_, .f32⟩
  | 56 => ⟨S256x128, .f32⟩
  | 57 => ⟨S50000x1, .i32⟩
  | 58 => ⟨S256x128, .f32⟩
  | 59 => ⟨S256x1, .f32⟩
  | 60 => ⟨S256x128, .f32⟩
  | 61 => ⟨S256x128, .f32⟩
  | 62 => ⟨S1x128x10, .f32⟩
  | 63 => ⟨S128x10, .f32⟩
  | 64 => ⟨S256x10, .f32⟩
  | 65 => ⟨S256x10, .f32⟩
  | 66 => ⟨S1x10, .f32⟩
  | 67 => ⟨S10, .f32⟩
  | 68 => ⟨S1x10, .f32⟩
  | 69 => ⟨S256x10, .f32⟩
  | 70 => ⟨S256x10, .f32⟩
  | 71 => ⟨S1x3x8x128, .f32⟩
  | 72 => ⟨S3x8x128, .f32⟩
  | 73 => ⟨S_, .i32⟩
  | 74 => ⟨S3, .i32⟩
  | 75 => ⟨S3, .i1⟩
  | 76 => ⟨S_, .i32⟩
  | 77 => ⟨S3, .i32⟩
  | 78 => ⟨S3, .i32⟩
  | 79 => ⟨S3, .i32⟩
  | 80 => ⟨S_, .i32⟩
  | 81 => ⟨S600000x3, .i32⟩
  | 82 => ⟨S600000x3, .i1⟩
  | 83 => ⟨S_, .i32⟩
  | 84 => ⟨S600000x3, .i32⟩
  | 85 => ⟨S600000x3, .i32⟩
  | 86 => ⟨S600000x3, .i32⟩
  | 87 => ⟨S600000x3, .i32⟩
  | 88 => ⟨S600000x3x1, .i32⟩
  | 89 => ⟨S600000x3x1, .i32⟩
  | 90 => ⟨S600000x3x2, .i32⟩
  | 91 => ⟨S600000x3x128, .f32⟩
  | 92 => ⟨S_, .f32⟩
  | 93 => ⟨S600000x128, .f32⟩
  | 94 => ⟨S_, .i32⟩
  | 95 => ⟨S600000, .i32⟩
  | 96 => ⟨S600000, .i1⟩
  | 97 => ⟨S_, .i32⟩
  | 98 => ⟨S600000, .i32⟩
  | 99 => ⟨S600000, .i32⟩
  | 100 => ⟨S600000, .i32⟩
  | 101 => ⟨S600000x1, .i32⟩
  | 102 => ⟨S600000x128, .f32⟩
  | 103 => ⟨S600000x128, .f32⟩
  | 104 => ⟨S_, .f32⟩
  | 105 => ⟨S600000x128, .f32⟩
  | 106 => ⟨S600000x128, .f32⟩
  | 107 => ⟨S_, .f32⟩
  | 108 => ⟨S50000x128, .f32⟩
  | 109 => ⟨S600000x1, .i32⟩
  | 110 => ⟨S50000x128, .f32⟩
  | 111 => ⟨S1x128x128, .f32⟩
  | 112 => ⟨S128x128, .f32⟩
  | 113 => ⟨S1x128, .f32⟩
  | 114 => ⟨S128, .f32⟩
  | 115 => ⟨S1x128, .f32⟩
  | 116 => ⟨S1x128, .f32⟩
  | 117 => ⟨S128, .f32⟩
  | 118 => ⟨S1x128, .f32⟩
  | 119 => ⟨S1x128, .f32⟩
  | 120 => ⟨S128, .f32⟩
  | 121 => ⟨S1x128, .f32⟩
  | 122 => ⟨S1x128, .f32⟩
  | 123 => ⟨S128, .f32⟩
  | 124 => ⟨S1x128, .f32⟩
  | 125 => ⟨S1x128, .f32⟩
  | 126 => ⟨S128, .f32⟩
  | 127 => ⟨S1x128, .f32⟩
  | _ => ⟨S50000x128, .f32⟩

abbrev hbmTy0_3 (i : Nat) : BufTy := match i % 128 with
  | 0 => ⟨S1x128x128, .f32⟩
  | 1 => ⟨S128x128, .f32⟩
  | 2 => ⟨S1x128, .f32⟩
  | 3 => ⟨S128, .f32⟩
  | 4 => ⟨S1x128, .f32⟩
  | 5 => ⟨S1x128, .f32⟩
  | 6 => ⟨S128, .f32⟩
  | 7 => ⟨S1x128, .f32⟩
  | 8 => ⟨S1x128, .f32⟩
  | 9 => ⟨S128, .f32⟩
  | 10 => ⟨S1x128, .f32⟩
  | 11 => ⟨S1x128, .f32⟩
  | 12 => ⟨S128, .f32⟩
  | 13 => ⟨S1x128, .f32⟩
  | 14 => ⟨S1x128, .f32⟩
  | 15 => ⟨S128, .f32⟩
  | 16 => ⟨S1x128, .f32⟩
  | 17 => ⟨S50000x128, .f32⟩
  | 18 => ⟨S_, .f32⟩
  | 19 => ⟨S256x128, .f32⟩
  | 20 => ⟨S50000x1, .i32⟩
  | 21 => ⟨S256x128, .f32⟩
  | 22 => ⟨S256x1, .f32⟩
  | 23 => ⟨S256x128, .f32⟩
  | 24 => ⟨S256x128, .f32⟩
  | 25 => ⟨S1x128x10, .f32⟩
  | 26 => ⟨S128x10, .f32⟩
  | 27 => ⟨S256x10, .f32⟩
  | 28 => ⟨S256x10, .f32⟩
  | 29 => ⟨S1x10, .f32⟩
  | 30 => ⟨S10, .f32⟩
  | 31 => ⟨S1x10, .f32⟩
  | 32 => ⟨S256x10, .f32⟩
  | 33 => ⟨S256x10, .f32⟩
  | 34 => ⟨S1x3x8x128, .f32⟩
  | 35 => ⟨S3x8x128, .f32⟩
  | 36 => ⟨S_, .i32⟩
  | 37 => ⟨S3, .i32⟩
  | 38 => ⟨S3, .i1⟩
  | 39 => ⟨S_, .i32⟩
  | 40 => ⟨S3, .i32⟩
  | 41 => ⟨S3, .i32⟩
  | 42 => ⟨S3, .i32⟩
  | 43 => ⟨S_, .i32⟩
  | 44 => ⟨S600000x3, .i32⟩
  | 45 => ⟨S600000x3, .i1⟩
  | 46 => ⟨S_, .i32⟩
  | 47 => ⟨S600000x3, .i32⟩
  | 48 => ⟨S600000x3, .i32⟩
  | 49 => ⟨S600000x3, .i32⟩
  | 50 => ⟨S600000x3, .i32⟩
  | 51 => ⟨S600000x3x1, .i32⟩
  | 52 => ⟨S600000x3x1, .i32⟩
  | 53 => ⟨S600000x3x2, .i32⟩
  | 54 => ⟨S600000x3x128, .f32⟩
  | 55 => ⟨S_, .f32⟩
  | 56 => ⟨S600000x128, .f32⟩
  | 57 => ⟨S_, .i32⟩
  | 58 => ⟨S600000, .i32⟩
  | 59 => ⟨S600000, .i1⟩
  | 60 => ⟨S_, .i32⟩
  | 61 => ⟨S600000, .i32⟩
  | 62 => ⟨S600000, .i32⟩
  | 63 => ⟨S600000, .i32⟩
  | 64 => ⟨S600000x1, .i32⟩
  | 65 => ⟨S600000x128, .f32⟩
  | 66 => ⟨S600000x128, .f32⟩
  | 67 => ⟨S_, .f32⟩
  | 68 => ⟨S600000x128, .f32⟩
  | 69 => ⟨S600000x128, .f32⟩
  | 70 => ⟨S_, .f32⟩
  | 71 => ⟨S50000x128, .f32⟩
  | 72 => ⟨S600000x1, .i32⟩
  | 73 => ⟨S50000x128, .f32⟩
  | 74 => ⟨S1x128x128, .f32⟩
  | 75 => ⟨S128x128, .f32⟩
  | 76 => ⟨S1x128, .f32⟩
  | 77 => ⟨S128, .f32⟩
  | 78 => ⟨S1x128, .f32⟩
  | 79 => ⟨S1x128, .f32⟩
  | 80 => ⟨S128, .f32⟩
  | 81 => ⟨S1x128, .f32⟩
  | 82 => ⟨S1x128, .f32⟩
  | 83 => ⟨S128, .f32⟩
  | 84 => ⟨S1x128, .f32⟩
  | 85 => ⟨S1x128, .f32⟩
  | 86 => ⟨S128, .f32⟩
  | 87 => ⟨S1x128, .f32⟩
  | 88 => ⟨S1x128, .f32⟩
  | 89 => ⟨S128, .f32⟩
  | 90 => ⟨S1x128, .f32⟩
  | 91 => ⟨S1x128x128, .f32⟩
  | 92 => ⟨S128x128, .f32⟩
  | 93 => ⟨S1x128, .f32⟩
  | 94 => ⟨S128, .f32⟩
  | 95 => ⟨S1x128, .f32⟩
  | 96 => ⟨S1x128, .f32⟩
  | 97 => ⟨S128, .f32⟩
  | 98 => ⟨S1x128, .f32⟩
  | 99 => ⟨S1x128, .f32⟩
  | 100 => ⟨S128, .f32⟩
  | 101 => ⟨S1x128, .f32⟩
  | 102 => ⟨S1x128, .f32⟩
  | 103 => ⟨S128, .f32⟩
  | 104 => ⟨S1x128, .f32⟩
  | 105 => ⟨S1x128, .f32⟩
  | 106 => ⟨S128, .f32⟩
  | 107 => ⟨S1x128, .f32⟩
  | 108 => ⟨S50000x128, .f32⟩
  | 109 => ⟨S_, .f32⟩
  | 110 => ⟨S256x128, .f32⟩
  | 111 => ⟨S50000x1, .i32⟩
  | 112 => ⟨S256x128, .f32⟩
  | 113 => ⟨S256x1, .f32⟩
  | 114 => ⟨S256x128, .f32⟩
  | 115 => ⟨S256x128, .f32⟩
  | 116 => ⟨S1x128x10, .f32⟩
  | 117 => ⟨S128x10, .f32⟩
  | 118 => ⟨S256x10, .f32⟩
  | 119 => ⟨S256x10, .f32⟩
  | 120 => ⟨S1x10, .f32⟩
  | 121 => ⟨S10, .f32⟩
  | 122 => ⟨S1x10, .f32⟩
  | 123 => ⟨S256x10, .f32⟩
  | 124 => ⟨S256x10, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S128x128, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S128x128, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | .local _ .vmem, ⟨62, _⟩ => ⟨S1x128, .f32⟩
  | .local _ .vmem, ⟨63, _⟩ => ⟨S1x128, .f32⟩
  | .local _ .vmem, ⟨64, _⟩ => ⟨S128x128, .f32⟩
  | .local _ .vmem, ⟨65, _⟩ => ⟨S1x128, .f32⟩
  | .local _ .vmem, ⟨66, _⟩ => ⟨S1x128, .f32⟩
  | .local _ .vmem, ⟨67, _⟩ => ⟨S1x128, .f32⟩
  | .local _ .vmem, ⟨68, _⟩ => ⟨S1x128, .f32⟩
  | .local _ .vmem, ⟨69, _⟩ => ⟨S1x128, .f32⟩
  | .local _ .vmem, ⟨70, _⟩ => ⟨S5000x128, .f32⟩
  | .local _ .vmem, ⟨71, _⟩ => ⟨S5000x128, .f32⟩
  | .local _ .vmem, ⟨72, _⟩ => ⟨S5000x128, .f32⟩
  | .local _ .vmem, ⟨73, _⟩ => ⟨S5000x128, .f32⟩
  | .local _ .vmem, ⟨74, _⟩ => ⟨S5000x128, .f32⟩
  | .local _ .vmem, ⟨75, _⟩ => ⟨S5000x128, .f32⟩
  | .local _ .vmem, ⟨76, _⟩ => ⟨S128x128, .f32⟩
  | .local _ .vmem, ⟨77, _⟩ => ⟨S1x128, .f32⟩
  | .local _ .vmem, ⟨78, _⟩ => ⟨S1x128, .f32⟩
  | .local _ .vmem, ⟨79, _⟩ => ⟨S1x128, .f32⟩
  | .local _ .vmem, ⟨80, _⟩ => ⟨S1x128, .f32⟩
  | .local _ .vmem, ⟨81, _⟩ => ⟨S1x128, .f32⟩
  | .local _ .vmem, ⟨82, _⟩ => ⟨S128x128, .f32⟩
  | .local _ .vmem, ⟨83, _⟩ => ⟨S1x128, .f32⟩
  | .local _ .vmem, ⟨84, _⟩ => ⟨S1x128, .f32⟩
  | .local _ .vmem, ⟨85, _⟩ => ⟨S1x128, .f32⟩
  | .local _ .vmem, ⟨86, _⟩ => ⟨S1x128, .f32⟩
  | .local _ .vmem, ⟨87, _⟩ => ⟨S1x128, .f32⟩
  | .local _ .vmem, ⟨88, _⟩ => ⟨S5000x128, .f32⟩
  | .local _ .vmem, ⟨89, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_cst_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst_1 : Ref sig .tc := ⟨.hbm, 30, rfl⟩
abbrev main_v9 : Ref sig .tc := ⟨.hbm, 31, rfl⟩
abbrev main_v10 : Ref sig .tc := ⟨.hbm, 32, rfl⟩
abbrev main_cst_2 : Ref sig .tc := ⟨.hbm, 33, rfl⟩
abbrev main_v11 : Ref sig .tc := ⟨.hbm, 34, rfl⟩
abbrev main_v12 : Ref sig .tc := ⟨.hbm, 35, rfl⟩
abbrev main_cst_3 : Ref sig .tc := ⟨.hbm, 36, rfl⟩
abbrev main_v13 : Ref sig .tc := ⟨.hbm, 37, rfl⟩
abbrev main_cst_4 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c : Ref sig .tc := ⟨.hbm, 56, rfl⟩
abbrev main_v31 : Ref sig .tc := ⟨.hbm, 57, rfl⟩
abbrev main_v32 : Ref sig .tc := ⟨.hbm, 58, rfl⟩
abbrev main_c_5 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_c_6 : Ref sig .tc := ⟨.hbm, 63, rfl⟩
abbrev main_v36 : Ref sig .tc := ⟨.hbm, 64, rfl⟩
abbrev main_v37 : Ref sig .tc := ⟨.hbm, 65, rfl⟩
abbrev main_c_7 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_8 : Ref sig .tc := ⟨.hbm, 75, rfl⟩
abbrev main_v46 : Ref sig .tc := ⟨.hbm, 76, rfl⟩
abbrev main_c_9 : Ref sig .tc := ⟨.hbm, 77, rfl⟩
abbrev main_v47 : Ref sig .tc := ⟨.hbm, 78, rfl⟩
abbrev main_v48 : Ref sig .tc := ⟨.hbm, 79, rfl⟩
abbrev main_c_10 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_call0_cst : Ref sig .tc := ⟨.hbm, 87, rfl⟩
abbrev main_call0_v0 : Ref sig .tc := ⟨.hbm, 88, rfl⟩
abbrev main_v55 : Ref sig .tc := ⟨.hbm, 89, rfl⟩
abbrev main_cst_11 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_12 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_c_13 : Ref sig .tc := ⟨.hbm, 147, rfl⟩
abbrev main_v111 : Ref sig .tc := ⟨.hbm, 148, rfl⟩
abbrev main_v112 : Ref sig .tc := ⟨.hbm, 149, rfl⟩
abbrev main_c_14 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_c_15 : Ref sig .tc := ⟨.hbm, 154, rfl⟩
abbrev main_v116 : Ref sig .tc := ⟨.hbm, 155, rfl⟩
abbrev main_v117 : Ref sig .tc := ⟨.hbm, 156, rfl⟩
abbrev main_c_16 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_cst_17 : Ref sig .tc := ⟨.hbm, 166, rfl⟩
abbrev main_v126 : Ref sig .tc := ⟨.hbm, 167, rfl⟩
abbrev main_c_18 : Ref sig .tc := ⟨.hbm, 168, rfl⟩
abbrev main_v127 : Ref sig .tc := ⟨.hbm, 169, rfl⟩
abbrev main_v128 : Ref sig .tc := ⟨.hbm, 170, rfl⟩
abbrev main_c_19 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_call1_cst : Ref sig .tc := ⟨.hbm, 178, rfl⟩
abbrev main_call1_v0 : Ref sig .tc := ⟨.hbm, 179, rfl⟩
abbrev main_v135 : Ref sig .tc := ⟨.hbm, 180, rfl⟩
abbrev main_cst_20 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_cst_21 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_c_22 : Ref sig .tc := ⟨.hbm, 238, rfl⟩
abbrev main_v191 : Ref sig .tc := ⟨.hbm, 239, rfl⟩
abbrev main_v192 : Ref sig .tc := ⟨.hbm, 240, rfl⟩
abbrev main_c_23 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_c_24 : Ref sig .tc := ⟨.hbm, 245, rfl⟩
abbrev main_v196 : Ref sig .tc := ⟨.hbm, 246, rfl⟩
abbrev main_v197 : Ref sig .tc := ⟨.hbm, 247, rfl⟩
abbrev main_c_25 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_cst_26 : Ref sig .tc := ⟨.hbm, 257, rfl⟩
abbrev main_v206 : Ref sig .tc := ⟨.hbm, 258, rfl⟩
abbrev main_c_27 : Ref sig .tc := ⟨.hbm, 259, rfl⟩
abbrev main_v207 : Ref sig .tc := ⟨.hbm, 260, rfl⟩
abbrev main_v208 : Ref sig .tc := ⟨.hbm, 261, rfl⟩
abbrev main_c_28 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_call2_cst : Ref sig .tc := ⟨.hbm, 269, rfl⟩
abbrev main_call2_v0 : Ref sig .tc := ⟨.hbm, 270, rfl⟩
abbrev main_v215 : Ref sig .tc := ⟨.hbm, 271, rfl⟩
abbrev main_cst_29 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_v229 : Ref sig .tc := ⟨.hbm, 286, rfl⟩
abbrev main_v230 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_v234 : Ref sig .tc := ⟨.hbm, 291, rfl⟩
abbrev main_v235 : Ref sig .tc := ⟨.hbm, 292, rfl⟩
abbrev main_v236 : Ref sig .tc := ⟨.hbm, 293, rfl⟩
abbrev main_v237 : Ref sig .tc := ⟨.hbm, 294, rfl⟩
abbrev main_v238 : Ref sig .tc := ⟨.hbm, 295, rfl⟩
abbrev main_v239 : Ref sig .tc := ⟨.hbm, 296, rfl⟩
abbrev main_v240 : Ref sig .tc := ⟨.hbm, 297, rfl⟩
abbrev main_v241 : Ref sig .tc := ⟨.hbm, 298, rfl⟩
abbrev main_v242 : Ref sig .tc := ⟨.hbm, 299, rfl⟩
abbrev main_v243 : Ref sig .tc := ⟨.hbm, 300, rfl⟩
abbrev main_v244 : Ref sig .tc := ⟨.hbm, 301, rfl⟩
abbrev main_v245 : Ref sig .tc := ⟨.hbm, 302, rfl⟩
abbrev main_v246 : Ref sig .tc := ⟨.hbm, 303, rfl⟩
abbrev main_v247 : Ref sig .tc := ⟨.hbm, 304, rfl⟩
abbrev main_v248 : Ref sig .tc := ⟨.hbm, 305, rfl⟩
abbrev main_v249 : Ref sig .tc := ⟨.hbm, 306, rfl⟩
abbrev main_v250 : Ref sig .tc := ⟨.hbm, 307, rfl⟩
abbrev main_v251 : Ref sig .tc := ⟨.hbm, 308, rfl⟩
abbrev main_v252 : Ref sig .tc := ⟨.hbm, 309, rfl⟩
abbrev main_v253 : Ref sig .tc := ⟨.hbm, 310, rfl⟩
abbrev main_cst_30 : Ref sig .tc := ⟨.hbm, 311, rfl⟩
abbrev main_v254 : Ref sig .tc := ⟨.hbm, 312, rfl⟩
abbrev main_v255 : Ref sig .tc := ⟨.hbm, 313, rfl⟩
abbrev main_v256 : Ref sig .tc := ⟨.hbm, 314, rfl⟩
abbrev main_v257 : Ref sig .tc := ⟨.hbm, 315, rfl⟩
abbrev main_v258 : Ref sig .tc := ⟨.hbm, 316, rfl⟩
abbrev main_v259 : Ref sig .tc := ⟨.hbm, 317, rfl⟩
abbrev main_v260 : Ref sig .tc := ⟨.hbm, 318, rfl⟩
abbrev main_v261 : Ref sig .tc := ⟨.hbm, 319, rfl⟩
abbrev main_v262 : Ref sig .tc := ⟨.hbm, 320, rfl⟩
abbrev main_v263 : Ref sig .tc := ⟨.hbm, 321, rfl⟩
abbrev main_v264 : Ref sig .tc := ⟨.hbm, 322, rfl⟩
abbrev main_v265 : Ref sig .tc := ⟨.hbm, 323, rfl⟩
abbrev main_v266 : Ref sig .tc := ⟨.hbm, 324, rfl⟩
abbrev main_v267 : Ref sig .tc := ⟨.hbm, 325, rfl⟩
abbrev main_v268 : Ref sig .tc := ⟨.hbm, 326, rfl⟩
abbrev main_v269 : Ref sig .tc := ⟨.hbm, 327, rfl⟩
abbrev main_v270 : Ref sig .tc := ⟨.hbm, 328, rfl⟩
abbrev main_c_31 : Ref sig .tc := ⟨.hbm, 329, rfl⟩
abbrev main_v271 : Ref sig .tc := ⟨.hbm, 330, rfl⟩
abbrev main_v272 : Ref sig .tc := ⟨.hbm, 331, rfl⟩
abbrev main_c_32 : Ref sig .tc := ⟨.hbm, 332, rfl⟩
abbrev main_v273 : Ref sig .tc := ⟨.hbm, 333, rfl⟩
abbrev main_v274 : Ref sig .tc := ⟨.hbm, 334, rfl⟩
abbrev main_v275 : Ref sig .tc := ⟨.hbm, 335, rfl⟩
abbrev main_c_33 : Ref sig .tc := ⟨.hbm, 336, rfl⟩
abbrev main_v276 : Ref sig .tc := ⟨.hbm, 337, rfl⟩
abbrev main_v277 : Ref sig .tc := ⟨.hbm, 338, rfl⟩
abbrev main_c_34 : Ref sig .tc := ⟨.hbm, 339, rfl⟩
abbrev main_v278 : Ref sig .tc := ⟨.hbm, 340, rfl⟩
abbrev main_v279 : Ref sig .tc := ⟨.hbm, 341, rfl⟩
abbrev main_v280 : Ref sig .tc := ⟨.hbm, 342, rfl⟩
abbrev main_v281 : Ref sig .tc := ⟨.hbm, 343, rfl⟩
abbrev main_v282 : Ref sig .tc := ⟨.hbm, 344, rfl⟩
abbrev main_v283 : Ref sig .tc := ⟨.hbm, 345, rfl⟩
abbrev main_v284 : Ref sig .tc := ⟨.hbm, 346, rfl⟩
abbrev main_v285 : Ref sig .tc := ⟨.hbm, 347, rfl⟩
abbrev main_cst_35 : Ref sig .tc := ⟨.hbm, 348, rfl⟩
abbrev main_v286 : Ref sig .tc := ⟨.hbm, 349, rfl⟩
abbrev main_c_36 : Ref sig .tc := ⟨.hbm, 350, rfl⟩
abbrev main_v287 : Ref sig .tc := ⟨.hbm, 351, rfl⟩
abbrev main_v288 : Ref sig .tc := ⟨.hbm, 352, rfl⟩
abbrev main_c_37 : Ref sig .tc := ⟨.hbm, 353, rfl⟩
abbrev main_v289 : Ref sig .tc := ⟨.hbm, 354, rfl⟩
abbrev main_v290 : Ref sig .tc := ⟨.hbm, 355, rfl⟩
abbrev main_v291 : Ref sig .tc := ⟨.hbm, 356, rfl⟩
abbrev main_v292 : Ref sig .tc := ⟨.hbm, 357, rfl⟩
abbrev main_v293 : Ref sig .tc := ⟨.hbm, 358, rfl⟩
abbrev main_v294 : Ref sig .tc := ⟨.hbm, 359, rfl⟩
abbrev main_call3_cst : Ref sig .tc := ⟨.hbm, 360, rfl⟩
abbrev main_call3_v0 : Ref sig .tc := ⟨.hbm, 361, rfl⟩
abbrev main_v295 : Ref sig .tc := ⟨.hbm, 362, rfl⟩
abbrev main_cst_38 : Ref sig .tc := ⟨.hbm, 363, rfl⟩
abbrev main_v296 : Ref sig .tc := ⟨.hbm, 364, rfl⟩
abbrev main_v297 : Ref sig .tc := ⟨.hbm, 365, rfl⟩
abbrev main_v298 : Ref sig .tc := ⟨.hbm, 366, rfl⟩
abbrev main_v299 : Ref sig .tc := ⟨.hbm, 367, rfl⟩
abbrev main_v300 : Ref sig .tc := ⟨.hbm, 368, rfl⟩
abbrev main_v301 : Ref sig .tc := ⟨.hbm, 369, rfl⟩
abbrev main_v302 : Ref sig .tc := ⟨.hbm, 370, rfl⟩
abbrev main_v303 : Ref sig .tc := ⟨.hbm, 371, rfl⟩
abbrev main_v304 : Ref sig .tc := ⟨.hbm, 372, rfl⟩
abbrev main_v305 : Ref sig .tc := ⟨.hbm, 373, rfl⟩
abbrev main_v306 : Ref sig .tc := ⟨.hbm, 374, rfl⟩
abbrev main_v307 : Ref sig .tc := ⟨.hbm, 375, rfl⟩
abbrev main_v308 : Ref sig .tc := ⟨.hbm, 376, rfl⟩
abbrev main_v309 : Ref sig .tc := ⟨.hbm, 377, rfl⟩
abbrev main_v310 : Ref sig .tc := ⟨.hbm, 378, rfl⟩
abbrev main_v311 : Ref sig .tc := ⟨.hbm, 379, rfl⟩
abbrev main_v312 : Ref sig .tc := ⟨.hbm, 380, rfl⟩
abbrev main_v313 : Ref sig .tc := ⟨.hbm, 381, rfl⟩
abbrev main_v314 : Ref sig .tc := ⟨.hbm, 382, rfl⟩
abbrev main_v315 : Ref sig .tc := ⟨.hbm, 383, rfl⟩
abbrev main_v316 : Ref sig .tc := ⟨.hbm, 384, rfl⟩
abbrev main_v317 : Ref sig .tc := ⟨.hbm, 385, rfl⟩
abbrev main_v318 : Ref sig .tc := ⟨.hbm, 386, rfl⟩
abbrev main_v319 : Ref sig .tc := ⟨.hbm, 387, rfl⟩
abbrev main_v320 : Ref sig .tc := ⟨.hbm, 388, rfl⟩
abbrev main_v321 : Ref sig .tc := ⟨.hbm, 389, rfl⟩
abbrev main_v322 : Ref sig .tc := ⟨.hbm, 390, rfl⟩
abbrev main_v323 : Ref sig .tc := ⟨.hbm, 391, rfl⟩
abbrev main_v324 : Ref sig .tc := ⟨.hbm, 392, rfl⟩
abbrev main_v325 : Ref sig .tc := ⟨.hbm, 393, rfl⟩
abbrev main_v326 : Ref sig .tc := ⟨.hbm, 394, rfl⟩
abbrev main_v327 : Ref sig .tc := ⟨.hbm, 395, rfl⟩
abbrev main_v328 : Ref sig .tc := ⟨.hbm, 396, rfl⟩
abbrev main_v329 : Ref sig .tc := ⟨.hbm, 397, rfl⟩
abbrev main_v330 : Ref sig .tc := ⟨.hbm, 398, rfl⟩
abbrev main_v331 : Ref sig .tc := ⟨.hbm, 399, rfl⟩
abbrev main_v332 : Ref sig .tc := ⟨.hbm, 400, rfl⟩
abbrev main_v333 : Ref sig .tc := ⟨.hbm, 401, rfl⟩
abbrev main_cst_39 : Ref sig .tc := ⟨.hbm, 402, rfl⟩
abbrev main_v334 : Ref sig .tc := ⟨.hbm, 403, rfl⟩
abbrev main_v335 : Ref sig .tc := ⟨.hbm, 404, rfl⟩
abbrev main_v336 : Ref sig .tc := ⟨.hbm, 405, rfl⟩
abbrev main_v337 : Ref sig .tc := ⟨.hbm, 406, rfl⟩
abbrev main_v338 : Ref sig .tc := ⟨.hbm, 407, rfl⟩
abbrev main_v339 : Ref sig .tc := ⟨.hbm, 408, rfl⟩
abbrev main_v340 : Ref sig .tc := ⟨.hbm, 409, rfl⟩
abbrev main_v341 : Ref sig .tc := ⟨.hbm, 410, rfl⟩
abbrev main_v342 : Ref sig .tc := ⟨.hbm, 411, rfl⟩
abbrev main_v343 : Ref sig .tc := ⟨.hbm, 412, rfl⟩
abbrev main_v344 : Ref sig .tc := ⟨.hbm, 413, rfl⟩
abbrev main_v345 : Ref sig .tc := ⟨.hbm, 414, rfl⟩
abbrev main_v346 : Ref sig .tc := ⟨.hbm, 415, rfl⟩
abbrev main_v347 : Ref sig .tc := ⟨.hbm, 416, rfl⟩
abbrev main_v348 : Ref sig .tc := ⟨.hbm, 417, rfl⟩
abbrev main_v349 : Ref sig .tc := ⟨.hbm, 418, rfl⟩
abbrev main_v350 : Ref sig .tc := ⟨.hbm, 419, rfl⟩
abbrev main_c_40 : Ref sig .tc := ⟨.hbm, 420, rfl⟩
abbrev main_v351 : Ref sig .tc := ⟨.hbm, 421, rfl⟩
abbrev main_v352 : Ref sig .tc := ⟨.hbm, 422, rfl⟩
abbrev main_c_41 : Ref sig .tc := ⟨.hbm, 423, rfl⟩
abbrev main_v353 : Ref sig .tc := ⟨.hbm, 424, rfl⟩
abbrev main_v354 : Ref sig .tc := ⟨.hbm, 425, rfl⟩
abbrev main_v355 : Ref sig .tc := ⟨.hbm, 426, rfl⟩
abbrev main_c_42 : Ref sig .tc := ⟨.hbm, 427, rfl⟩
abbrev main_v356 : Ref sig .tc := ⟨.hbm, 428, rfl⟩
abbrev main_v357 : Ref sig .tc := ⟨.hbm, 429, rfl⟩
abbrev main_c_43 : Ref sig .tc := ⟨.hbm, 430, rfl⟩
abbrev main_v358 : Ref sig .tc := ⟨.hbm, 431, rfl⟩
abbrev main_v359 : Ref sig .tc := ⟨.hbm, 432, rfl⟩
abbrev main_v360 : Ref sig .tc := ⟨.hbm, 433, rfl⟩
abbrev main_v361 : Ref sig .tc := ⟨.hbm, 434, rfl⟩
abbrev main_v362 : Ref sig .tc := ⟨.hbm, 435, rfl⟩
abbrev main_v363 : Ref sig .tc := ⟨.hbm, 436, rfl⟩
abbrev main_v364 : Ref sig .tc := ⟨.hbm, 437, rfl⟩
abbrev main_v365 : Ref sig .tc := ⟨.hbm, 438, rfl⟩
abbrev main_cst_44 : Ref sig .tc := ⟨.hbm, 439, rfl⟩
abbrev main_v366 : Ref sig .tc := ⟨.hbm, 440, rfl⟩
abbrev main_c_45 : Ref sig .tc := ⟨.hbm, 441, rfl⟩
abbrev main_v367 : Ref sig .tc := ⟨.hbm, 442, rfl⟩
abbrev main_v368 : Ref sig .tc := ⟨.hbm, 443, rfl⟩
abbrev main_c_46 : Ref sig .tc := ⟨.hbm, 444, rfl⟩
abbrev main_v369 : Ref sig .tc := ⟨.hbm, 445, rfl⟩
abbrev main_v370 : Ref sig .tc := ⟨.hbm, 446, rfl⟩
abbrev main_v371 : Ref sig .tc := ⟨.hbm, 447, rfl⟩
abbrev main_v372 : Ref sig .tc := ⟨.hbm, 448, rfl⟩
abbrev main_v373 : Ref sig .tc := ⟨.hbm, 449, rfl⟩
abbrev main_v374 : Ref sig .tc := ⟨.hbm, 450, rfl⟩
abbrev main_call4_cst : Ref sig .tc := ⟨.hbm, 451, rfl⟩
abbrev main_call4_v0 : Ref sig .tc := ⟨.hbm, 452, rfl⟩
abbrev main_v375 : Ref sig .tc := ⟨.hbm, 453, rfl⟩
abbrev main_cst_47 : Ref sig .tc := ⟨.hbm, 454, rfl⟩
abbrev main_v376 : Ref sig .tc := ⟨.hbm, 455, rfl⟩
abbrev main_v377 : Ref sig .tc := ⟨.hbm, 456, rfl⟩
abbrev main_v378 : Ref sig .tc := ⟨.hbm, 457, rfl⟩
abbrev main_v379 : Ref sig .tc := ⟨.hbm, 458, rfl⟩
abbrev main_v380 : Ref sig .tc := ⟨.hbm, 459, rfl⟩
abbrev main_v381 : Ref sig .tc := ⟨.hbm, 460, rfl⟩
abbrev main_v382 : Ref sig .tc := ⟨.hbm, 461, rfl⟩
abbrev main_v383 : Ref sig .tc := ⟨.hbm, 462, rfl⟩
abbrev main_v384 : Ref sig .tc := ⟨.hbm, 463, rfl⟩
abbrev main_v385 : Ref sig .tc := ⟨.hbm, 464, rfl⟩
abbrev main_v386 : Ref sig .tc := ⟨.hbm, 465, rfl⟩
abbrev main_v387 : Ref sig .tc := ⟨.hbm, 466, rfl⟩
abbrev main_v388 : Ref sig .tc := ⟨.hbm, 467, rfl⟩
abbrev main_v389 : Ref sig .tc := ⟨.hbm, 468, rfl⟩
abbrev main_v390 : Ref sig .tc := ⟨.hbm, 469, rfl⟩
abbrev main_v391 : Ref sig .tc := ⟨.hbm, 470, rfl⟩
abbrev main_v392 : Ref sig .tc := ⟨.hbm, 471, rfl⟩
abbrev main_v393 : Ref sig .tc := ⟨.hbm, 472, rfl⟩
abbrev main_v394 : Ref sig .tc := ⟨.hbm, 473, rfl⟩
abbrev main_v395 : Ref sig .tc := ⟨.hbm, 474, rfl⟩
abbrev main_v396 : Ref sig .tc := ⟨.hbm, 475, rfl⟩
abbrev main_v397 : Ref sig .tc := ⟨.hbm, 476, rfl⟩
abbrev main_v398 : Ref sig .tc := ⟨.hbm, 477, rfl⟩
abbrev main_v399 : Ref sig .tc := ⟨.hbm, 478, rfl⟩
abbrev main_v400 : Ref sig .tc := ⟨.hbm, 479, rfl⟩
abbrev main_v401 : Ref sig .tc := ⟨.hbm, 480, rfl⟩
abbrev main_v402 : Ref sig .tc := ⟨.hbm, 481, rfl⟩
abbrev main_v403 : Ref sig .tc := ⟨.hbm, 482, rfl⟩
abbrev main_v404 : Ref sig .tc := ⟨.hbm, 483, rfl⟩
abbrev main_v405 : Ref sig .tc := ⟨.hbm, 484, rfl⟩
abbrev main_v406 : Ref sig .tc := ⟨.hbm, 485, rfl⟩
abbrev main_v407 : Ref sig .tc := ⟨.hbm, 486, rfl⟩
abbrev main_v408 : Ref sig .tc := ⟨.hbm, 487, rfl⟩
abbrev main_v409 : Ref sig .tc := ⟨.hbm, 488, rfl⟩
abbrev main_v410 : Ref sig .tc := ⟨.hbm, 489, rfl⟩
abbrev main_v411 : Ref sig .tc := ⟨.hbm, 490, rfl⟩
abbrev main_v412 : Ref sig .tc := ⟨.hbm, 491, rfl⟩
abbrev main_v413 : Ref sig .tc := ⟨.hbm, 492, rfl⟩
abbrev main_cst_48 : Ref sig .tc := ⟨.hbm, 493, rfl⟩
abbrev main_v414 : Ref sig .tc := ⟨.hbm, 494, rfl⟩
abbrev main_v415 : Ref sig .tc := ⟨.hbm, 495, rfl⟩
abbrev main_v416 : Ref sig .tc := ⟨.hbm, 496, rfl⟩
abbrev main_v417 : Ref sig .tc := ⟨.hbm, 497, rfl⟩
abbrev main_v418 : Ref sig .tc := ⟨.hbm, 498, rfl⟩
abbrev main_v419 : Ref sig .tc := ⟨.hbm, 499, rfl⟩
abbrev main_v420 : Ref sig .tc := ⟨.hbm, 500, rfl⟩
abbrev main_v421 : Ref sig .tc := ⟨.hbm, 501, rfl⟩
abbrev main_v422 : Ref sig .tc := ⟨.hbm, 502, rfl⟩
abbrev main_v423 : Ref sig .tc := ⟨.hbm, 503, rfl⟩
abbrev main_v424 : Ref sig .tc := ⟨.hbm, 504, rfl⟩
abbrev main_v425 : Ref sig .tc := ⟨.hbm, 505, rfl⟩
abbrev main_v426 : Ref sig .tc := ⟨.hbm, 506, rfl⟩
abbrev main_v427 : Ref sig .tc := ⟨.hbm, 507, rfl⟩
abbrev main_v428 : Ref sig .tc := ⟨.hbm, 508, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg11_0 : Ref sig .tc := ⟨.vmem, 31, rfl⟩
abbrev cc1_stg12_0 : Ref sig .tc := ⟨.vmem, 32, rfl⟩
abbrev cc1_stg13_0 : Ref sig .tc := ⟨.vmem, 33, rfl⟩
abbrev cc1_stg14_0 : Ref sig .tc := ⟨.vmem, 34, rfl⟩
abbrev cc1_stg14_1 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg3_0 : Ref sig .tc := ⟨.vmem, 41, rfl⟩
abbrev cc2_stg4_0 : Ref sig .tc := ⟨.vmem, 42, rfl⟩
abbrev cc2_stg5_0 : Ref sig .tc := ⟨.vmem, 43, rfl⟩
abbrev cc2_stg6_0 : Ref sig .tc := ⟨.vmem, 44, rfl⟩
abbrev cc2_stg7_0 : Ref sig .tc := ⟨.vmem, 45, rfl⟩
abbrev cc2_stg8_0 : Ref sig .tc := ⟨.vmem, 46, rfl⟩
abbrev cc2_stg9_0 : Ref sig .tc := ⟨.vmem, 47, rfl⟩
abbrev cc2_stg10_0 : Ref sig .tc := ⟨.vmem, 48, rfl⟩
abbrev cc2_stg11_0 : Ref sig .tc := ⟨.vmem, 49, rfl⟩
abbrev cc2_stg12_0 : Ref sig .tc := ⟨.vmem, 50, rfl⟩
abbrev cc2_stg13_0 : Ref sig .tc := ⟨.vmem, 51, rfl⟩
abbrev cc2_stg14_0 : Ref sig .tc := ⟨.vmem, 52, rfl⟩
abbrev cc2_stg14_1 : Ref sig .tc := ⟨.vmem, 53, rfl⟩
abbrev cc3_stg0_0 : Ref sig .tc := ⟨.vmem, 54, rfl⟩
abbrev cc3_stg0_1 : Ref sig .tc := ⟨.vmem, 55, rfl⟩
abbrev cc3_stg1_0 : Ref sig .tc := ⟨.vmem, 56, rfl⟩
abbrev cc3_stg1_1 : Ref sig .tc := ⟨.vmem, 57, rfl⟩
abbrev cc3_stg2_0 : Ref sig .tc := ⟨.vmem, 58, rfl⟩
abbrev cc3_stg3_0 : Ref sig .tc := ⟨.vmem, 59, rfl⟩
abbrev cc3_stg4_0 : Ref sig .tc := ⟨.vmem, 60, rfl⟩
abbrev cc3_stg5_0 : Ref sig .tc := ⟨.vmem, 61, rfl⟩
abbrev cc3_stg6_0 : Ref sig .tc := ⟨.vmem, 62, rfl⟩
abbrev cc3_stg7_0 : Ref sig .tc := ⟨.vmem, 63, rfl⟩
abbrev cc3_stg8_0 : Ref sig .tc := ⟨.vmem, 64, rfl⟩
abbrev cc3_stg9_0 : Ref sig .tc := ⟨.vmem, 65, rfl⟩
abbrev cc3_stg10_0 : Ref sig .tc := ⟨.vmem, 66, rfl⟩
abbrev cc3_stg11_0 : Ref sig .tc := ⟨.vmem, 67, rfl⟩
abbrev cc3_stg12_0 : Ref sig .tc := ⟨.vmem, 68, rfl⟩
abbrev cc3_stg13_0 : Ref sig .tc := ⟨.vmem, 69, rfl⟩
abbrev cc3_stg14_0 : Ref sig .tc := ⟨.vmem, 70, rfl⟩
abbrev cc3_stg14_1 : Ref sig .tc := ⟨.vmem, 71, rfl⟩
abbrev cc4_stg0_0 : Ref sig .tc := ⟨.vmem, 72, rfl⟩
abbrev cc4_stg0_1 : Ref sig .tc := ⟨.vmem, 73, rfl⟩
abbrev cc4_stg1_0 : Ref sig .tc := ⟨.vmem, 74, rfl⟩
abbrev cc4_stg1_1 : Ref sig .tc := ⟨.vmem, 75, rfl⟩
abbrev cc4_stg2_0 : Ref sig .tc := ⟨.vmem, 76, rfl⟩
abbrev cc4_stg3_0 : Ref sig .tc := ⟨.vmem, 77, rfl⟩
abbrev cc4_stg4_0 : Ref sig .tc := ⟨.vmem, 78, rfl⟩
abbrev cc4_stg5_0 : Ref sig .tc := ⟨.vmem, 79, rfl⟩
abbrev cc4_stg6_0 : Ref sig .tc := ⟨.vmem, 80, rfl⟩
abbrev cc4_stg7_0 : Ref sig .tc := ⟨.vmem, 81, rfl⟩
abbrev cc4_stg8_0 : Ref sig .tc := ⟨.vmem, 82, rfl⟩
abbrev cc4_stg9_0 : Ref sig .tc := ⟨.vmem, 83, rfl⟩
abbrev cc4_stg10_0 : Ref sig .tc := ⟨.vmem, 84, rfl⟩
abbrev cc4_stg11_0 : Ref sig .tc := ⟨.vmem, 85, rfl⟩
abbrev cc4_stg12_0 : Ref sig .tc := ⟨.vmem, 86, rfl⟩
abbrev cc4_stg13_0 : Ref sig .tc := ⟨.vmem, 87, rfl⟩
abbrev cc4_stg14_0 : Ref sig .tc := ⟨.vmem, 88, rfl⟩
abbrev cc4_stg14_1 : Ref sig .tc := ⟨.vmem, 89, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem11_0 : DmaSem sig := 31
abbrev cc1_sem12_0 : DmaSem sig := 32
abbrev cc1_sem13_0 : DmaSem sig := 33
abbrev cc1_sem14_0 : DmaSem sig := 34
abbrev cc1_sem14_1 : DmaSem sig := 35
abbrev cc2_sem0_0 : DmaSem sig := 36
abbrev cc2_sem0_1 : DmaSem sig := 37
abbrev cc2_sem1_0 : DmaSem sig := 38
abbrev cc2_sem1_1 : DmaSem sig := 39
abbrev cc2_sem2_0 : DmaSem sig := 40
abbrev cc2_sem3_0 : DmaSem sig := 41
abbrev cc2_sem4_0 : DmaSem sig := 42
abbrev cc2_sem5_0 : DmaSem sig := 43
abbrev cc2_sem6_0 : DmaSem sig := 44
abbrev cc2_sem7_0 : DmaSem sig := 45
abbrev cc2_sem8_0 : DmaSem sig := 46
abbrev cc2_sem9_0 : DmaSem sig := 47
abbrev cc2_sem10_0 : DmaSem sig := 48
abbrev cc2_sem11_0 : DmaSem sig := 49
abbrev cc2_sem12_0 : DmaSem sig := 50
abbrev cc2_sem13_0 : DmaSem sig := 51
abbrev cc2_sem14_0 : DmaSem sig := 52
abbrev cc2_sem14_1 : DmaSem sig := 53
abbrev cc3_sem0_0 : DmaSem sig := 54
abbrev cc3_sem0_1 : DmaSem sig := 55
abbrev cc3_sem1_0 : DmaSem sig := 56
abbrev cc3_sem1_1 : DmaSem sig := 57
abbrev cc3_sem2_0 : DmaSem sig := 58
abbrev cc3_sem3_0 : DmaSem sig := 59
abbrev cc3_sem4_0 : DmaSem sig := 60
abbrev cc3_sem5_0 : DmaSem sig := 61
abbrev cc3_sem6_0 : DmaSem sig := 62
abbrev cc3_sem7_0 : DmaSem sig := 63
abbrev cc3_sem8_0 : DmaSem sig := 64
abbrev cc3_sem9_0 : DmaSem sig := 65
abbrev cc3_sem10_0 : DmaSem sig := 66
abbrev cc3_sem11_0 : DmaSem sig := 67
abbrev cc3_sem12_0 : DmaSem sig := 68
abbrev cc3_sem13_0 : DmaSem sig := 69
abbrev cc3_sem14_0 : DmaSem sig := 70
abbrev cc3_sem14_1 : DmaSem sig := 71
abbrev cc4_sem0_0 : DmaSem sig := 72
abbrev cc4_sem0_1 : DmaSem sig := 73
abbrev cc4_sem1_0 : DmaSem sig := 74
abbrev cc4_sem1_1 : DmaSem sig := 75
abbrev cc4_sem2_0 : DmaSem sig := 76
abbrev cc4_sem3_0 : DmaSem sig := 77
abbrev cc4_sem4_0 : DmaSem sig := 78
abbrev cc4_sem5_0 : DmaSem sig := 79
abbrev cc4_sem6_0 : DmaSem sig := 80
abbrev cc4_sem7_0 : DmaSem sig := 81
abbrev cc4_sem8_0 : DmaSem sig := 82
abbrev cc4_sem9_0 : DmaSem sig := 83
abbrev cc4_sem10_0 : DmaSem sig := 84
abbrev cc4_sem11_0 : DmaSem sig := 85
abbrev cc4_sem12_0 : DmaSem sig := 86
abbrev cc4_sem13_0 : DmaSem sig := 87
abbrev cc4_sem14_0 : DmaSem sig := 88
abbrev cc4_sem14_1 : DmaSem sig := 89

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S5000x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S5000x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 2 → Memref sig .tc .vmem S5000x128 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x128 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1x128 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 2 → Memref sig .tc .vmem S5000x128 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_14 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S128x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x128 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S1x128 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S1x128 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 1 → Memref sig .tc .vmem S1x128 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false]

abbrev stage4_14 : Fin 2 → Memref sig .tc .vmem S5000x128 .f32 := fun | 0 => Memref.whole cc4_stg14_0 | 1 => Memref.whole cc4_stg14_1 | ⟨_ + 2, h⟩ => absurd h (Nat.not_lt.2 (Nat.le_add_left _ _))
abbrev sem4_14 : Fin 2 → DmaSem sig := fun | 0 => cc4_sem14_0 | 1 => cc4_sem14_1 | ⟨_ + 2, h⟩ => absurd h (Nat.not_lt.2 (Nat.le_add_left _ _))
abbrev reads4_14 : Fin grid4.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000 : S_.BroadcastsInDim S50000 (![] : Fin 0 → Fin S50000.rank)
  bcast_S_S256 : S_.BroadcastsInDim S256 (![] : Fin 0 → Fin S256.rank)
  bcast_S50000_S50000x1_0 : S50000.BroadcastsInDim S50000x1 (![0] : Fin 1 → Fin S50000x1.rank)
  bcast_S_S256x10 : S_.BroadcastsInDim S256x10 (![] : Fin 0 → Fin S256x10.rank)
  bcast_S_S256x128 : S_.BroadcastsInDim S256x128 (![] : Fin 0 → Fin S256x128.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  slices_S6x128x10_S1x128x10_0_0_0 : S6x128x10.Slices ![0, 0, 0] S1x128x10
  shapeCasts_S1x128x10_S128x10 : S1x128x10.ShapeCasts S128x10
  slices_S6x10_S1x10_0_0 : S6x10.Slices ![0, 0] S1x10
  shapeCasts_S1x10_S10 : S1x10.ShapeCasts S10
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  slices_S5x3x8x128_S1x3x8x128_0_0_0_0 : S5x3x8x128.Slices ![0, 0, 0, 0] S1x3x8x128
  shapeCasts_S1x3x8x128_S3x8x128 : S1x3x8x128.ShapeCasts S3x8x128
  bcast_S_S3 : S_.BroadcastsInDim S3 (![] : Fin 0 → Fin S3.rank)
  bcast_S_S600000x3 : S_.BroadcastsInDim S600000x3 (![] : Fin 0 → Fin S600000x3.rank)
  bcast_S3_S600000x3_1 : S3.BroadcastsInDim S600000x3 (![1] : Fin 1 → Fin S600000x3.rank)
  bcast_S600000x3_S600000x3x1_0_1 : S600000x3.BroadcastsInDim S600000x3x1 (![0, 1] : Fin 2 → Fin S600000x3x1.rank)
  concatenates_S600000x3x1_S600000x3x1_S600000x3x2_d2 : Shape.Concatenates [S600000x3x1, S600000x3x1] S600000x3x2 2
  reducesTo_S600000x3x128_S600000x128_d1 : S600000x3x128.ReducesTo [1] S600000x128
  h_S_ : 0 < S_.numel
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S50000x128 : S_.BroadcastsInDim S50000x128 (![] : Fin 0 → Fin S50000x128.rank)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S6x128x10_S1x128x10_1_0_0 : S6x128x10.Slices ![1, 0, 0] S1x128x10
  slices_S6x10_S1x10_1_0 : S6x10.Slices ![1, 0] S1x10
  slices_S5x3x8x128_S1x3x8x128_1_0_0_0 : S5x3x8x128.Slices ![1, 0, 0, 0] S1x3x8x128
  slices_S5x128x128_S1x128x128_1_0_0 : S5x128x128.Slices ![1, 0, 0] S1x128x128
  slices_S5x128_S1x128_1_0 : S5x128.Slices ![1, 0] S1x128
  slices_S6x128x10_S1x128x10_2_0_0 : S6x128x10.Slices ![2, 0, 0] S1x128x10
  slices_S6x10_S1x10_2_0 : S6x10.Slices ![2, 0] S1x10
  slices_S5x3x8x128_S1x3x8x128_2_0_0_0 : S5x3x8x128.Slices ![2, 0, 0, 0] S1x3x8x128
  slices_S5x128x128_S1x128x128_2_0_0 : S5x128x128.Slices ![2, 0, 0] S1x128x128
  slices_S5x128_S1x128_2_0 : S5x128.Slices ![2, 0] S1x128
  slices_S6x128x10_S1x128x10_3_0_0 : S6x128x10.Slices ![3, 0, 0] S1x128x10
  slices_S6x10_S1x10_3_0 : S6x10.Slices ![3, 0] S1x10
  slices_S5x3x8x128_S1x3x8x128_3_0_0_0 : S5x3x8x128.Slices ![3, 0, 0, 0] S1x3x8x128
  slices_S5x128x128_S1x128x128_3_0_0 : S5x128x128.Slices ![3, 0, 0] S1x128x128
  slices_S5x128_S1x128_3_0 : S5x128.Slices ![3, 0] S1x128
  slices_S6x128x10_S1x128x10_4_0_0 : S6x128x10.Slices ![4, 0, 0] S1x128x10
  slices_S6x10_S1x10_4_0 : S6x10.Slices ![4, 0] S1x10
  slices_S5x3x8x128_S1x3x8x128_4_0_0_0 : S5x3x8x128.Slices ![4, 0, 0, 0] S1x3x8x128
  slices_S5x128x128_S1x128x128_4_0_0 : S5x128x128.Slices ![4, 0, 0] S1x128x128
  slices_S5x128_S1x128_4_0 : S5x128.Slices ![4, 0] S1x128
  slices_S6x128x10_S1x128x10_5_0_0 : S6x128x10.Slices ![5, 0, 0] S1x128x10
  slices_S6x10_S1x10_5_0 : S6x10.Slices ![5, 0] S1x10
  scatter_S256_S50000x1_S50000_n_0_0_1_wf : ScatterDims.WF S256 S50000x1 S50000 [] [0] [0] 1
  scatter_S256x128_S50000x1_S50000x128_1_0_0_1_wf : ScatterDims.WF S256x128 S50000x1 S50000x128 [1] [0] [0] 1
  dot_S256x128_S128x10_S256x10_1_0_0_1_n_n_wf : DotDims.WF S256x128 S128x10 S256x10 [1] [0] [0] [1] [] []
  gather_S3x8x128_S600000x3x2_S600000x3x128_2_01_n_n_01_2_11128_wf : GatherDims.WF S3x8x128 S600000x3x2 S600000x3x128 [2] [0, 1] [] [0, 1] [] 2 ![1, 1, 128]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S5000x128.size a ≤ S50000x128.size a
  hwx0_14 : ∀ i : grid0.Coords, EltTy.bits .f32 = 32 ∨ (Rect.block (s := S50000x128) S5000x128.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x128.size a ≤ S1x128.size a
  hwx1_11 : ∀ i : grid1.Coords, EltTy.bits .f32 = 32 ∨ (Rect.block (s := S1x128) S1x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x128.size a ≤ S1x128.size a
  hwx1_12 : ∀ i : grid1.Coords, EltTy.bits .f32 = 32 ∨ (Rect.block (s := S1x128) S1x128.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x128.size a ≤ S1x128.size a
  hwx1_13 : ∀ i : grid1.Coords, EltTy.bits .f32 = 32 ∨ (Rect.block (s := S1x128) S1x128.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S5000x128.size a ≤ S50000x128.size a
  hwx1_14 : ∀ i : grid1.Coords, EltTy.bits .f32 = 32 ∨ (Rect.block (s := S50000x128) S5000x128.size (cc1_transform_14 i) (hinb1_14 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x128.size a ≤ S1x128.size a
  hwx2_10 : ∀ i : grid2.Coords, EltTy.bits .f32 = 32 ∨ (Rect.block (s := S1x128) S1x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x128.size a ≤ S1x128.size a
  hwx2_11 : ∀ i : grid2.Coords, EltTy.bits .f32 = 32 ∨ (Rect.block (s := S1x128) S1x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x128.size a ≤ S1x128.size a
  hwx2_12 : ∀ i : grid2.Coords, EltTy.bits .f32 = 32 ∨ (Rect.block (s := S1x128) S1x128.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x128.size a ≤ S1x128.size a
  hwx2_13 : ∀ i : grid2.Coords, EltTy.bits .f32 = 32 ∨ (Rect.block (s := S1x128) S1x128.size (cc2_transform_13 i) (hinb2_13 i)).WholeWords (EltTy.packing .f32)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S5000x128.size a ≤ S50000x128.size a
  hwx2_14 : ∀ i : grid2.Coords, EltTy.bits .f32 = 32 ∨ (Rect.block (s := S50000x128) S5000x128.size (cc2_transform_14 i) (hinb2_14 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x128.size a ≤ S128x128.size a
  hwx3_8 : ∀ i : grid3.Coords, EltTy.bits .f32 = 32 ∨ (Rect.block (s := S128x128) S128x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x128.size a ≤ S1x128.size a
  hwx3_9 : ∀ i : grid3.Coords, EltTy.bits .f32 = 32 ∨ (Rect.block (s := S1x128) S1x128.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x128.size a ≤ S1x128.size a
  hwx3_10 : ∀ i : grid3.Coords, EltTy.bits .f32 = 32 ∨ (Rect.block (s := S1x128) S1x128.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x128.size a ≤ S1x128.size a
  hwx3_11 : ∀ i : grid3.Coords, EltTy.bits .f32 = 32 ∨ (Rect.block (s := S1x128) S1x128.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1x128.size a ≤ S1x128.size a
  hwx3_12 : ∀ i : grid3.Coords, EltTy.bits .f32 = 32 ∨ (Rect.block (s := S1x128) S1x128.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S1x128.size a ≤ S1x128.size a
  hwx3_13 : ∀ i : grid3.Coords, EltTy.bits .f32 = 32 ∨ (Rect.block (s := S1x128) S1x128.size (cc3_transform_13 i) (hinb3_13 i)).WholeWords (EltTy.packing .f32)
  hstage3_14 : ∀ j, (stage3_14 j).IsWhole
  nbuf3_14 : grid3.bufCount reads3_14 false = 2
  hreads3_14 : ∀ i i' : grid3.Coords, (∀ a, reads3_14 a = true → i a = i' a) → cc3_transform_14 i = cc3_transform_14 i'
  hinb3_14 : ∀ (i : grid3.Coords) a, (cc3_transform_14 i a + 1) * S5000x128.size a ≤ S50000x128.size a
  hwx3_14 : ∀ i : grid3.Coords, EltTy.bits .f32 = 32 ∨ (Rect.block (s := S50000x128) S5000x128.size (cc3_transform_14 i) (hinb3_14 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S128x128.size a ≤ S128x128.size a
  hwx4_8 : ∀ i : grid4.Coords, EltTy.bits .f32 = 32 ∨ (Rect.block (s := S128x128) S128x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x128.size a ≤ S1x128.size a
  hwx4_9 : ∀ i : grid4.Coords, EltTy.bits .f32 = 32 ∨ (Rect.block (s := S1x128) S1x128.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x128.size a ≤ S1x128.size a
  hwx4_10 : ∀ i : grid4.Coords, EltTy.bits .f32 = 32 ∨ (Rect.block (s := S1x128) S1x128.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S1x128.size a ≤ S1x128.size a
  hwx4_11 : ∀ i : grid4.Coords, EltTy.bits .f32 = 32 ∨ (Rect.block (s := S1x128) S1x128.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S1x128.size a ≤ S1x128.size a
  hwx4_12 : ∀ i : grid4.Coords, EltTy.bits .f32 = 32 ∨ (Rect.block (s := S1x128) S1x128.size (cc4_transform_12 i) (hinb4_12 i)).WholeWords (EltTy.packing .f32)
  hstage4_13 : ∀ j, (stage4_13 j).IsWhole
  nbuf4_13 : grid4.bufCount reads4_13 true = 1
  hreads4_13 : ∀ i i' : grid4.Coords, (∀ a, reads4_13 a = true → i a = i' a) → cc4_transform_13 i = cc4_transform_13 i'
  hinb4_13 : ∀ (i : grid4.Coords) a, (cc4_transform_13 i a + 1) * S1x128.size a ≤ S1x128.size a
  hwx4_13 : ∀ i : grid4.Coords, EltTy.bits .f32 = 32 ∨ (Rect.block (s := S1x128) S1x128.size (cc4_transform_13 i) (hinb4_13 i)).WholeWords (EltTy.packing .f32)
  hstage4_14 : ∀ j, (stage4_14 j).IsWhole
  nbuf4_14 : grid4.bufCount reads4_14 false = 2
  hreads4_14 : ∀ i i' : grid4.Coords, (∀ a, reads4_14 a = true → i a = i' a) → cc4_transform_14 i = cc4_transform_14 i'
  hinb4_14 : ∀ (i : grid4.Coords) a, (cc4_transform_14 i a + 1) * S5000x128.size a ≤ S50000x128.size a
  hwx4_14 : ∀ i : grid4.Coords, EltTy.bits .f32 = 32 ∨ (Rect.block (s := S50000x128) S5000x128.size (cc4_transform_14 i) (hinb4_14 i)).WholeWords (EltTy.packing .f32)

variable [Facts₀]

def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def dot_S256x128_S128x10_S256x10_1_0_0_1_n_n : DotDims S256x128 S128x10 S256x10 where
  lhsContracting := [1]
  rhsContracting := [0]
  lhsNonContracting := [0]
  rhsNonContracting := [1]
  lhsBatch := []
  rhsBatch := []
  wf := dot_S256x128_S128x10_S256x10_1_0_0_1_n_n_wf
def gather_S3x8x128_S600000x3x2_S600000x3x128_2_01_n_n_01_2_11128 : GatherDims S3x8x128 S600000x3x2 S600000x3x128 where
  offsetDims := [2]
  collapsedSliceDims := [0, 1]
  operandBatchingDims := []
  startIndicesBatchingDims := []
  startIndexMap := [0, 1]
  indexVectorDim := 2
  sliceSizes := ![1, 1, 128]
  wf := gather_S3x8x128_S600000x3x2_S600000x3x128_2_01_n_n_01_2_11128_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v58) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v60) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v63) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v66) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v69) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v72) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v75) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v77) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v80) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v83) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v86) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v89) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v92) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v93) S5000x128.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_v93) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v138) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v140) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v143) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v146) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v149) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v152) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v155) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v157) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v160) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v163) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v166) S1x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v169) S1x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v172) S1x128.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v173) S5000x128.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

abbrev win2_0 : Pipeline.Window sig grid2 :=
  Pipeline.Window.ofSpec (Memref.whole main_v173) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v218) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v220) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v223) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v226) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v229) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v232) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v235) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v237) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v240) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v243) S1x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v246) S1x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v249) S1x128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v252) S1x128.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v253) S5000x128.size cc2_transform_14 reads2_14 true false 2 stage2_14 sem2_14
    hrank2 hreads2_14 hinb2_14 nbuf2_14 (Memref.isWhole_whole _) hwx2_14 hstage2_14

abbrev win2 : Fin 15 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | ⟨_ + 15, h⟩ => absurd h (Nat.not_lt.2 (Nat.le_add_left _ _))
abbrev spec2 : Fin 15 → Pipeline.WinSpec sig grid2.rank := fun w => (win2 w).toWinSpec

abbrev win3_0 : Pipeline.Window sig grid3 :=
  Pipeline.Window.ofSpec (Memref.whole main_v253) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v298) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v300) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v303) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v306) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v309) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v312) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v315) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v317) S128x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v320) S1x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v323) S1x128.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v326) S1x128.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v329) S1x128.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v332) S1x128.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_v333) S5000x128.size cc3_transform_14 reads3_14 true false 2 stage3_14 sem3_14
    hrank3 hreads3_14 hinb3_14 nbuf3_14 (Memref.isWhole_whole _) hwx3_14 hstage3_14

abbrev win3 : Fin 15 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | ⟨_ + 15, h⟩ => absurd h (Nat.not_lt.2 (Nat.le_add_left _ _))
abbrev spec3 : Fin 15 → Pipeline.WinSpec sig grid3.rank := fun w => (win3 w).toWinSpec

abbrev win4_0 : Pipeline.Window sig grid4 :=
  Pipeline.Window.ofSpec (Memref.whole main_v333) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v378) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v380) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v383) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v386) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v389) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v392) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v395) S1x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v397) S128x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v400) S1x128.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v403) S1x128.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v406) S1x128.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v409) S1x128.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_v412) S1x128.size cc4_transform_13 reads4_13 false true 1 stage4_13 sem4_13
    hrank4 hreads4_13 hinb4_13 nbuf4_13 (Memref.isWhole_whole _) hwx4_13 hstage4_13

abbrev win4_14 : Pipeline.Window sig grid4 :=
  Pipeline.Window.ofSpec (Memref.whole main_v413) S5000x128.size cc4_transform_14 reads4_14 true false 2 stage4_14 sem4_14
    hrank4 hreads4_14 hinb4_14 nbuf4_14 (Memref.isWhole_whole _) hwx4_14 hstage4_14

abbrev win4 : Fin 15 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | 14 => win4_14 | ⟨_ + 15, h⟩ => absurd h (Nat.not_lt.2 (Nat.le_add_left _ _))
abbrev spec4 : Fin 15 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000x3 : Shape := ⟨2, ![600000, 3]⟩
abbrev S50000 : Shape := ⟨1, ![50000]⟩
abbrev S5x3x8x128 : Shape := ⟨4, ![5, 3, 8, 128]⟩
abbrev S5x128x128 : Shape := ⟨3, ![5, 128, 128]⟩
abbrev S5x128 : Shape := ⟨2, ![5, 128]⟩
abbrev S6x128x10 : Shape := ⟨3, ![6, 128, 10]⟩
abbrev S6x10 : Shape := ⟨2, ![6, 10]⟩
abbrev S1x600000 : Shape := ⟨2, ![1, 600000]⟩
abbrev S600000 : Shape := ⟨1, ![600000]⟩
abbrev S3 : Shape := ⟨1, ![3]⟩
abbrev S1x3x8x128 : Shape := ⟨4, ![1, 3, 8, 128]⟩
abbrev S3x8x128 : Shape := ⟨3, ![3, 8, 128]⟩
abbrev S_ : Shape := ⟨0, ![]⟩
abbrev S600000x3x1 : Shape := ⟨3, ![600000, 3, 1]⟩
abbrev S600000x3x2 : Shape := ⟨3, ![600000, 3, 2]⟩
abbrev S600000x3x128 : Shape := ⟨3, ![600000, 3, 128]⟩
abbrev S600000x128 : Shape := ⟨2, ![600000, 128]⟩
abbrev S600000x1 : Shape := ⟨2, ![600000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S256 : Shape := ⟨1, ![256]⟩
abbrev S50000x1 : Shape := ⟨2, ![50000, 1]⟩
abbrev S256x10 : Shape := ⟨2, ![256, 10]⟩
abbrev S256x128 : Shape := ⟨2, ![256, 128]⟩
abbrev S256x1 : Shape := ⟨2, ![256, 1]⟩
abbrev S1x128x10 : Shape := ⟨3, ![1, 128, 10]⟩
abbrev S128x10 : Shape := ⟨2, ![128, 10]⟩
abbrev S1x10 : Shape := ⟨2, ![1, 10]⟩
abbrev S10 : Shape := ⟨1, ![10]⟩

abbrev nBuf : Space → Nat
  | .hbm => 689
  | .vmem => 0
  | .smem => 0
  | _ => 0

abbrev hbmTy0_0 (i : Nat) : BufTy := match i % 128 with
  | 0 => ⟨S50000x128, .f32⟩
  | 1 => ⟨S2x600000, .i32⟩
  | 2 => ⟨S600000x3, .i32⟩
  | 3 => ⟨S50000, .i32⟩
  | 4 => ⟨S5x3x8x128, .f32⟩
  | 5 => ⟨S5x128x128, .f32⟩
  | 6 => ⟨S5x128, .f32⟩
  | 7 => ⟨S5x128, .f32⟩
  | 8 => ⟨S5x128, .f32⟩
  | 9 => ⟨S5x128, .f32⟩
  | 10 => ⟨S5x128, .f32⟩
  | 11 => ⟨S5x128x128, .f32⟩
  | 12 => ⟨S5x128, .f32⟩
  | 13 => ⟨S5x128, .f32⟩
  | 14 => ⟨S5x128, .f32⟩
  | 15 => ⟨S5x128, .f32⟩
  | 16 => ⟨S5x128, .f32⟩
  | 17 => ⟨S6x128x10, .f32⟩
  | 18 => ⟨S6x10, .f32⟩
  | 19 => ⟨S1x600000, .i32⟩
  | 20 => ⟨S600000, .i32⟩
  | 21 => ⟨S1x600000, .i32⟩
  | 22 => ⟨S600000, .i32⟩
  | 23 => ⟨S3, .i32⟩
  | 24 => ⟨S1x3x8x128, .f32⟩
  | 25 => ⟨S3x8x128, .f32⟩
  | 26 => ⟨S_, .i32⟩
  | 27 => ⟨S3, .i32⟩
  | 28 => ⟨S3, .i1⟩
  | 29 => ⟨S_, .i32⟩
  | 30 => ⟨S3, .i32⟩
  | 31 => ⟨S3, .i32⟩
  | 32 => ⟨S3, .i32⟩
  | 33 => ⟨S_, .i32⟩
  | 34 => ⟨S600000x3, .i32⟩
  | 35 => ⟨S600000x3, .i1⟩
  | 36 => ⟨S_, .i32⟩
  | 37 => ⟨S600000x3, .i32⟩
  | 38 => ⟨S600000x3, .i32⟩
  | 39 => ⟨S600000x3, .i32⟩
  | 40 => ⟨S600000x3, .i32⟩
  | 41 => ⟨S600000x3x1, .i32⟩
  | 42 => ⟨S600000x3x1, .i32⟩
  | 43 => ⟨S600000x3x2, .i32⟩
  | 44 => ⟨S600000x3x128, .f32⟩
  | 45 => ⟨S_, .f32⟩
  | 46 => ⟨S600000x128, .f32⟩
  | 47 => ⟨S_, .i32⟩
  | 48 => ⟨S600000, .i32⟩
  | 49 => ⟨S600000, .i1⟩
  | 50 => ⟨S_, .i32⟩
  | 51 => ⟨S600000, .i32⟩
  | 52 => ⟨S600000, .i32⟩
  | 53 => ⟨S600000, .i32⟩
  | 54 => ⟨S600000x1, .i32⟩
  | 55 => ⟨S600000x128, .f32⟩
  | 56 => ⟨S600000x128, .f32⟩
  | 57 => ⟨S_, .f32⟩
  | 58 => ⟨S600000x128, .f32⟩
  | 59 => ⟨S600000x128, .f32⟩
  | 60 => ⟨S_, .f32⟩
  | 61 => ⟨S50000x128, .f32⟩
  | 62 => ⟨S600000x1, .i32⟩
  | 63 => ⟨S50000x128, .f32⟩
  | 64 => ⟨S50000x128, .f32⟩
  | 65 => ⟨S1x128x128, .f32⟩
  | 66 => ⟨S128x128, .f32⟩
  | 67 => ⟨S50000x128, .f32⟩
  | 68 => ⟨S1x128, .f32⟩
  | 69 => ⟨S128, .f32⟩
  | 70 => ⟨S1x128, .f32⟩
  | 71 => ⟨S50000x128, .f32⟩
  | 72 => ⟨S50000x128, .f32⟩
  | 73 => ⟨S1x128, .f32⟩
  | 74 => ⟨S128, .f32⟩
  | 75 => ⟨S1x128, .f32⟩
  | 76 => ⟨S128, .f32⟩
  | 77 => ⟨S1x128, .f32⟩
  | 78 => ⟨S128, .f32⟩
  | 79 => ⟨S1x128, .f32⟩
  | 80 => ⟨S128, .f32⟩
  | 81 => ⟨S1x128, .f32⟩
  | 82 => ⟨S50000x128, .f32⟩
  | 83 => ⟨S50000x128, .f32⟩
  | 84 => ⟨S_, .f32⟩
  | 85 => ⟨S128, .f32⟩
  | 86 => ⟨S128, .f32⟩
  | 87 => ⟨S128, .f32⟩
  | 88 => ⟨S1x128, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S1x128x128, .f32⟩
  | 101 => ⟨S128x128, .f32⟩
  | 102 => ⟨S50000x128, .f32⟩
  | 103 => ⟨S1x128, .f32⟩
  | 104 => ⟨S128, .f32⟩
  | 105 => ⟨S1x128, .f32⟩
  | 106 => ⟨S50000x128, .f32⟩
  | 107 => ⟨S50000x128, .f32⟩
  | 108 => ⟨S1x128, .f32⟩
  | 109 => ⟨S128, .f32⟩
  | 110 => ⟨S1x128, .f32⟩
  | 111 => ⟨S128, .f32⟩
  | 112 => ⟨S1x128, .f32⟩
  | 113 => ⟨S128, .f32⟩
  | 114 => ⟨S1x128, .f32⟩
  | 115 => ⟨S128, .f32⟩
  | 116 => ⟨S1x128, .f32⟩
  | 117 => ⟨S50000x128, .f32⟩
  | 118 => ⟨S50000x128, .f32⟩
  | 119 => ⟨S_, .f32⟩
  | 120 => ⟨S128, .f32⟩
  | 121 => ⟨S128, .f32⟩
  | 122 => ⟨S128, .f32⟩
  | 123 => ⟨S1x128, .f32⟩
  | 124 => ⟨S50000x128, .f32⟩
  | 125 => ⟨S50000x128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | 1 => ⟨S1x128, .f32⟩
  | 2 => ⟨S50000x128, .f32⟩
  | 3 => ⟨S50000x128, .f32⟩
  | 4 => ⟨S_, .f32⟩
  | 5 => ⟨S50000x128, .f32⟩
  | 6 => ⟨S50000x128, .f32⟩
  | 7 => ⟨S1x3x8x128, .f32⟩
  | 8 => ⟨S3x8x128, .f32⟩
  | 9 => ⟨S_, .i32⟩
  | 10 => ⟨S3, .i32⟩
  | 11 => ⟨S3, .i1⟩
  | 12 => ⟨S_, .i32⟩
  | 13 => ⟨S3, .i32⟩
  | 14 => ⟨S3, .i32⟩
  | 15 => ⟨S3, .i32⟩
  | 16 => ⟨S_, .i32⟩
  | 17 => ⟨S600000x3, .i32⟩
  | 18 => ⟨S600000x3, .i1⟩
  | 19 => ⟨S_, .i32⟩
  | 20 => ⟨S600000x3, .i32⟩
  | 21 => ⟨S600000x3, .i32⟩
  | 22 => ⟨S600000x3, .i32⟩
  | 23 => ⟨S600000x3, .i32⟩
  | 24 => ⟨S600000x3x1, .i32⟩
  | 25 => ⟨S600000x3x1, .i32⟩
  | 26 => ⟨S600000x3x2, .i32⟩
  | 27 => ⟨S600000x3x128, .f32⟩
  | 28 => ⟨S_, .f32⟩
  | 29 => ⟨S600000x128, .f32⟩
  | 30 => ⟨S_, .i32⟩
  | 31 => ⟨S600000, .i32⟩
  | 32 => ⟨S600000, .i1⟩
  | 33 => ⟨S_, .i32⟩
  | 34 => ⟨S600000, .i32⟩
  | 35 => ⟨S600000, .i32⟩
  | 36 => ⟨S600000, .i32⟩
  | 37 => ⟨S600000x1, .i32⟩
  | 38 => ⟨S600000x128, .f32⟩
  | 39 => ⟨S600000x128, .f32⟩
  | 40 => ⟨S_, .f32⟩
  | 41 => ⟨S600000x128, .f32⟩
  | 42 => ⟨S600000x128, .f32⟩
  | 43 => ⟨S_, .f32⟩
  | 44 => ⟨S50000x128, .f32⟩
  | 45 => ⟨S600000x1, .i32⟩
  | 46 => ⟨S50000x128, .f32⟩
  | 47 => ⟨S50000x128, .f32⟩
  | 48 => ⟨S1x128x128, .f32⟩
  | 49 => ⟨S128x128, .f32⟩
  | 50 => ⟨S50000x128, .f32⟩
  | 51 => ⟨S1x128, .f32⟩
  | 52 => ⟨S128, .f32⟩
  | 53 => ⟨S1x128, .f32⟩
  | 54 => ⟨S50000x128, .f32⟩
  | 55 => ⟨S50000x128, .f32⟩
  | 56 => ⟨S1x128, .f32⟩
  | 57 => ⟨S128, .f32⟩
  | 58 => ⟨S1x128, .f32⟩
  | 59 => ⟨S128, .f32⟩
  | 60 => ⟨S1x128, .f32⟩
  | 61 => ⟨S128, .f32⟩
  | 62 => ⟨S1x128, .f32⟩
  | 63 => ⟨S128, .f32⟩
  | 64 => ⟨S1x128, .f32⟩
  | 65 => ⟨S50000x128, .f32⟩
  | 66 => ⟨S50000x128, .f32⟩
  | 67 => ⟨S_, .f32⟩
  | 68 => ⟨S128, .f32⟩
  | 69 => ⟨S128, .f32⟩
  | 70 => ⟨S128, .f32⟩
  | 71 => ⟨S1x128, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S1x128, .f32⟩
  | 78 => ⟨S50000x128, .f32⟩
  | 79 => ⟨S50000x128, .f32⟩
  | 80 => ⟨S_, .f32⟩
  | 81 => ⟨S50000x128, .f32⟩
  | 82 => ⟨S50000x128, .f32⟩
  | 83 => ⟨S1x128x128, .f32⟩
  | 84 => ⟨S128x128, .f32⟩
  | 85 => ⟨S50000x128, .f32⟩
  | 86 => ⟨S1x128, .f32⟩
  | 87 => ⟨S128, .f32⟩
  | 88 => ⟨S1x128, .f32⟩
  | 89 => ⟨S50000x128, .f32⟩
  | 90 => ⟨S50000x128, .f32⟩
  | 91 => ⟨S1x128, .f32⟩
  | 92 => ⟨S128, .f32⟩
  | 93 => ⟨S1x128, .f32⟩
  | 94 => ⟨S128, .f32⟩
  | 95 => ⟨S1x128, .f32⟩
  | 96 => ⟨S128, .f32⟩
  | 97 => ⟨S1x128, .f32⟩
  | 98 => ⟨S128, .f32⟩
  | 99 => ⟨S1x128, .f32⟩
  | 100 => ⟨S50000x128, .f32⟩
  | 101 => ⟨S50000x128, .f32⟩
  | 102 => ⟨S_, .f32⟩
  | 103 => ⟨S128, .f32⟩
  | 104 => ⟨S128, .f32⟩
  | 105 => ⟨S128, .f32⟩
  | 106 => ⟨S1x128, .f32⟩
  | 107 => ⟨S50000x128, .f32⟩
  | 108 => ⟨S50000x128, .f32⟩
  | 109 => ⟨S1x128, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S_, .f32⟩
  | 116 => ⟨S50000x128, .f32⟩
  | 117 => ⟨S50000x128, .f32⟩
  | 118 => ⟨S1x3x8x128, .f32⟩
  | 119 => ⟨S3x8x128, .f32⟩
  | 120 => ⟨S_, .i32⟩
  | 121 => ⟨S3, .i32⟩
  | 122 => ⟨S3, .i1⟩
  | 123 => ⟨S_, .i32⟩
  | 124 => ⟨S3, .i32⟩
  | 125 => ⟨S3, .i32⟩
  | 126 => ⟨S3, .i32⟩
  | 127 => ⟨S_, .i32⟩
  | _ => ⟨S50000x128, .f32⟩

abbrev hbmTy0_2 (i : Nat) : BufTy := match i % 128 with
  | 0 => ⟨S600000x3, .i32⟩
  | 1 => ⟨S600000x3, .i1⟩
  | 2 => ⟨S_, .i32⟩
  | 3 => ⟨S600000x3, .i32⟩
  | 4 => ⟨S600000x3, .i32⟩
  | 5 => ⟨S600000x3, .i32⟩
  | 6 => ⟨S600000x3, .i32⟩
  | 7 => ⟨S600000x3x1, .i32⟩
  | 8 => ⟨S600000x3x1, .i32⟩
  | 9 => ⟨S600000x3x2, .i32⟩
  | 10 => ⟨S600000x3x128, .f32⟩
  | 11 => ⟨S_, .f32⟩
  | 12 => ⟨S600000x128, .f32⟩
  | 13 => ⟨S_, .i32⟩
  | 14 => ⟨S600000, .i32⟩
  | 15 => ⟨S600000, .i1⟩
  | 16 => ⟨S_, .i32⟩
  | 17 => ⟨S600000, .i32⟩
  | 18 => ⟨S600000, .i32⟩
  | 19 => ⟨S600000, .i32⟩
  | 20 => ⟨S600000x1, .i32⟩
  | 21 => ⟨S600000x128, .f32⟩
  | 22 => ⟨S600000x128, .f32⟩
  | 23 => ⟨S_, .f32⟩
  | 24 => ⟨S600000x128, .f32⟩
  | 25 => ⟨S600000x128, .f32⟩
  | 26 => ⟨S_, .f32⟩
  | 27 => ⟨S50000x128, .f32⟩
  | 28 => ⟨S600000x1, .i32⟩
  | 29 => ⟨S50000x128, .f32⟩
  | 30 => ⟨S50000x128, .f32⟩
  | 31 => ⟨S1x128x128, .f32⟩
  | 32 => ⟨S128x128, .f32⟩
  | 33 => ⟨S50000x128, .f32⟩
  | 34 => ⟨S1x128, .f32⟩
  | 35 => ⟨S128, .f32⟩
  | 36 => ⟨S1x128, .f32⟩
  | 37 => ⟨S50000x128, .f32⟩
  | 38 => ⟨S50000x128, .f32⟩
  | 39 => ⟨S1x128, .f32⟩
  | 40 => ⟨S128, .f32⟩
  | 41 => ⟨S1x128, .f32⟩
  | 42 => ⟨S128, .f32⟩
  | 43 => ⟨S1x128, .f32⟩
  | 44 => ⟨S128, .f32⟩
  | 45 => ⟨S1x128, .f32⟩
  | 46 => ⟨S128, .f32⟩
  | 47 => ⟨S1x128, .f32⟩
  | 48 => ⟨S50000x128, .f32⟩
  | 49 => ⟨S50000x128, .f32⟩
  | 50 => ⟨S_, .f32⟩
  | 51 => ⟨S128, .f32⟩
  | 52 => ⟨S128, .f32⟩
  | 53 => ⟨S128, .f32⟩
  | 54 => ⟨S1x128, .f32⟩
  | 55 => ⟨S50000x128, .f32⟩
  | 56 => ⟨S50000x128, .f32⟩
  | 57 => ⟨S1x128, .f32⟩
  | 58 => ⟨S50000x128, .f32⟩
  | 59 => ⟨S50000x128, .f32⟩
  | 60 => ⟨S1x128, .f32⟩
  | 61 => ⟨S50000x128, .f32⟩
  | 62 => ⟨S50000x128, .f32⟩
  | 63 => ⟨S_, .f32⟩
  | 64 => ⟨S50000x128, .f32⟩
  | 65 => ⟨S50000x128, .f32⟩
  | 66 => ⟨S1x128x128, .f32⟩
  | 67 => ⟨S128x128, .f32⟩
  | 68 => ⟨S50000x128, .f32⟩
  | 69 => ⟨S1x128, .f32⟩
  | 70 => ⟨S128, .f32⟩
  | 71 => ⟨S1x128, .f32⟩
  | 72 => ⟨S50000x128, .f32⟩
  | 73 => ⟨S50000x128, .f32⟩
  | 74 => ⟨S1x128, .f32⟩
  | 75 => ⟨S128, .f32⟩
  | 76 => ⟨S1x128, .f32⟩
  | 77 => ⟨S128, .f32⟩
  | 78 => ⟨S1x128, .f32⟩
  | 79 => ⟨S128, .f32⟩
  | 80 => ⟨S1x128, .f32⟩
  | 81 => ⟨S128, .f32⟩
  | 82 => ⟨S1x128, .f32⟩
  | 83 => ⟨S50000x128, .f32⟩
  | 84 => ⟨S50000x128, .f32⟩
  | 85 => ⟨S_, .f32⟩
  | 86 => ⟨S128, .f32⟩
  | 87 => ⟨S128, .f32⟩
  | 88 => ⟨S128, .f32⟩
  | 89 => ⟨S1x128, .f32⟩
  | 90 => ⟨S50000x128, .f32⟩
  | 91 => ⟨S50000x128, .f32⟩
  | 92 => ⟨S1x128, .f32⟩
  | 93 => ⟨S50000x128, .f32⟩
  | 94 => ⟨S50000x128, .f32⟩
  | 95 => ⟨S1x128, .f32⟩
  | 96 => ⟨S50000x128, .f32⟩
  | 97 => ⟨S50000x128, .f32⟩
  | 98 => ⟨S_, .f32⟩
  | 99 => ⟨S50000x128, .f32⟩
  | 100 => ⟨S50000x128, .f32⟩
  | 101 => ⟨S1x3x8x128, .f32⟩
  | 102 => ⟨S3x8x128, .f32⟩
  | 103 => ⟨S_, .i32⟩
  | 104 => ⟨S3, .i32⟩
  | 105 => ⟨S3, .i1⟩
  | 106 => ⟨S_, .i32⟩
  | 107 => ⟨S3, .i32⟩
  | 108 => ⟨S3, .i32⟩
  | 109 => ⟨S3, .i32⟩
  | 110 => ⟨S_, .i32⟩
  | 111 => ⟨S600000x3, .i32⟩
  | 112 => ⟨S600000x3, .i1⟩
  | 113 => ⟨S_, .i32⟩
  | 114 => ⟨S600000x3, .i32⟩
  | 115 => ⟨S600000x3, .i32⟩
  | 116 => ⟨S600000x3, .i32⟩
  | 117 => ⟨S600000x3, .i32⟩
  | 118 => ⟨S600000x3x1, .i32⟩
  | 119 => ⟨S600000x3x1, .i32⟩
  | 120 => ⟨S600000x3x2, .i32⟩
  | 121 => ⟨S600000x3x128, .f32⟩
  | 122 => ⟨S_, .f32⟩
  | 123 => ⟨S600000x128, .f32⟩
  | 124 => ⟨S_, .i32⟩
  | 125 => ⟨S600000, .i32⟩
  | 126 => ⟨S600000, .i1⟩
  | 127 => ⟨S_, .i32⟩
  | _ => ⟨S50000x128, .f32⟩

abbrev hbmTy0_3 (i : Nat) : BufTy := match i % 128 with
  | 0 => ⟨S600000, .i32⟩
  | 1 => ⟨S600000, .i32⟩
  | 2 => ⟨S600000, .i32⟩
  | 3 => ⟨S600000x1, .i32⟩
  | 4 => ⟨S600000x128, .f32⟩
  | 5 => ⟨S600000x128, .f32⟩
  | 6 => ⟨S_, .f32⟩
  | 7 => ⟨S600000x128, .f32⟩
  | 8 => ⟨S600000x128, .f32⟩
  | 9 => ⟨S_, .f32⟩
  | 10 => ⟨S50000x128, .f32⟩
  | 11 => ⟨S600000x1, .i32⟩
  | 12 => ⟨S50000x128, .f32⟩
  | 13 => ⟨S50000x128, .f32⟩
  | 14 => ⟨S1x128x128, .f32⟩
  | 15 => ⟨S128x128, .f32⟩
  | 16 => ⟨S50000x128, .f32⟩
  | 17 => ⟨S1x128, .f32⟩
  | 18 => ⟨S128, .f32⟩
  | 19 => ⟨S1x128, .f32⟩
  | 20 => ⟨S50000x128, .f32⟩
  | 21 => ⟨S50000x128, .f32⟩
  | 22 => ⟨S1x128, .f32⟩
  | 23 => ⟨S128, .f32⟩
  | 24 => ⟨S1x128, .f32⟩
  | 25 => ⟨S128, .f32⟩
  | 26 => ⟨S1x128, .f32⟩
  | 27 => ⟨S128, .f32⟩
  | 28 => ⟨S1x128, .f32⟩
  | 29 => ⟨S128, .f32⟩
  | 30 => ⟨S1x128, .f32⟩
  | 31 => ⟨S50000x128, .f32⟩
  | 32 => ⟨S50000x128, .f32⟩
  | 33 => ⟨S_, .f32⟩
  | 34 => ⟨S128, .f32⟩
  | 35 => ⟨S128, .f32⟩
  | 36 => ⟨S128, .f32⟩
  | 37 => ⟨S1x128, .f32⟩
  | 38 => ⟨S50000x128, .f32⟩
  | 39 => ⟨S50000x128, .f32⟩
  | 40 => ⟨S1x128, .f32⟩
  | 41 => ⟨S50000x128, .f32⟩
  | 42 => ⟨S50000x128, .f32⟩
  | 43 => ⟨S1x128, .f32⟩
  | 44 => ⟨S50000x128, .f32⟩
  | 45 => ⟨S50000x128, .f32⟩
  | 46 => ⟨S_, .f32⟩
  | 47 => ⟨S50000x128, .f32⟩
  | 48 => ⟨S50000x128, .f32⟩
  | 49 => ⟨S1x128x128, .f32⟩
  | 50 => ⟨S128x128, .f32⟩
  | 51 => ⟨S50000x128, .f32⟩
  | 52 => ⟨S1x128, .f32⟩
  | 53 => ⟨S128, .f32⟩
  | 54 => ⟨S1x128, .f32⟩
  | 55 => ⟨S50000x128, .f32⟩
  | 56 => ⟨S50000x128, .f32⟩
  | 57 => ⟨S1x128, .f32⟩
  | 58 => ⟨S128, .f32⟩
  | 59 => ⟨S1x128, .f32⟩
  | 60 => ⟨S128, .f32⟩
  | 61 => ⟨S1x128, .f32⟩
  | 62 => ⟨S128, .f32⟩
  | 63 => ⟨S1x128, .f32⟩
  | 64 => ⟨S128, .f32⟩
  | 65 => ⟨S1x128, .f32⟩
  | 66 => ⟨S50000x128, .f32⟩
  | 67 => ⟨S50000x128, .f32⟩
  | 68 => ⟨S_, .f32⟩
  | 69 => ⟨S128, .f32⟩
  | 70 => ⟨S128, .f32⟩
  | 71 => ⟨S128, .f32⟩
  | 72 => ⟨S1x128, .f32⟩
  | 73 => ⟨S50000x128, .f32⟩
  | 74 => ⟨S50000x128, .f32⟩
  | 75 => ⟨S1x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S1x3x8x128, .f32⟩
  | 85 => ⟨S3x8x128, .f32⟩
  | 86 => ⟨S_, .i32⟩
  | 87 => ⟨S3, .i32⟩
  | 88 => ⟨S3, .i1⟩
  | 89 => ⟨S_, .i32⟩
  | 90 => ⟨S3, .i32⟩
  | 91 => ⟨S3, .i32⟩
  | 92 => ⟨S3, .i32⟩
  | 93 => ⟨S_, .i32⟩
  | 94 => ⟨S600000x3, .i32⟩
  | 95 => ⟨S600000x3, .i1⟩
  | 96 => ⟨S_, .i32⟩
  | 97 => ⟨S600000x3, .i32⟩
  | 98 => ⟨S600000x3, .i32⟩
  | 99 => ⟨S600000x3, .i32⟩
  | 100 => ⟨S600000x3, .i32⟩
  | 101 => ⟨S600000x3x1, .i32⟩
  | 102 => ⟨S600000x3x1, .i32⟩
  | 103 => ⟨S600000x3x2, .i32⟩
  | 104 => ⟨S600000x3x128, .f32⟩
  | 105 => ⟨S_, .f32⟩
  | 106 => ⟨S600000x128, .f32⟩
  | 107 => ⟨S_, .i32⟩
  | 108 => ⟨S600000, .i32⟩
  | 109 => ⟨S600000, .i1⟩
  | 110 => ⟨S_, .i32⟩
  | 111 => ⟨S600000, .i32⟩
  | 112 => ⟨S600000, .i32⟩
  | 113 => ⟨S600000, .i32⟩
  | 114 => ⟨S600000x1, .i32⟩
  | 115 => ⟨S600000x128, .f32⟩
  | 116 => ⟨S600000x128, .f32⟩
  | 117 => ⟨S_, .f32⟩
  | 118 => ⟨S600000x128, .f32⟩
  | 119 => ⟨S600000x128, .f32⟩
  | 120 => ⟨S_, .f32⟩
  | 121 => ⟨S50000x128, .f32⟩
  | 122 => ⟨S600000x1, .i32⟩
  | 123 => ⟨S50000x128, .f32⟩
  | 124 => ⟨S50000x128, .f32⟩
  | 125 => ⟨S1x128x128, .f32⟩
  | 126 => ⟨S128x128, .f32⟩
  | 127 => ⟨S50000x128, .f32⟩
  | _ => ⟨S50000x128, .f32⟩

abbrev hbmTy0_4 (i : Nat) : BufTy := match i % 128 with
  | 0 => ⟨S1x128, .f32⟩
  | 1 => ⟨S128, .f32⟩
  | 2 => ⟨S1x128, .f32⟩
  | 3 => ⟨S50000x128, .f32⟩
  | 4 => ⟨S50000x128, .f32⟩
  | 5 => ⟨S1x128, .f32⟩
  | 6 => ⟨S128, .f32⟩
  | 7 => ⟨S1x128, .f32⟩
  | 8 => ⟨S128, .f32⟩
  | 9 => ⟨S1x128, .f32⟩
  | 10 => ⟨S128, .f32⟩
  | 11 => ⟨S1x128, .f32⟩
  | 12 => ⟨S128, .f32⟩
  | 13 => ⟨S1x128, .f32⟩
  | 14 => ⟨S50000x128, .f32⟩
  | 15 => ⟨S50000x128, .f32⟩
  | 16 => ⟨S_, .f32⟩
  | 17 => ⟨S128, .f32⟩
  | 18 => ⟨S128, .f32⟩
  | 19 => ⟨S128, .f32⟩
  | 20 => ⟨S1x128, .f32⟩
  | 21 => ⟨S50000x128, .f32⟩
  | 22 => ⟨S50000x128, .f32⟩
  | 23 => ⟨S1x128, .f32⟩
  | 24 => ⟨S50000x128, .f32⟩
  | 25 => ⟨S50000x128, .f32⟩
  | 26 => ⟨S1x128, .f32⟩
  | 27 => ⟨S50000x128, .f32⟩
  | 28 => ⟨S50000x128, .f32⟩
  | 29 => ⟨S_, .f32⟩
  | 30 => ⟨S50000x128, .f32⟩
  | 31 => ⟨S50000x128, .f32⟩
  | 32 => ⟨S1x128x128, .f32⟩
  | 33 => ⟨S128x128, .f32⟩
  | 34 => ⟨S50000x128, .f32⟩
  | 35 => ⟨S1x128, .f32⟩
  | 36 => ⟨S128, .f32⟩
  | 37 => ⟨S1x128, .f32⟩
  | 38 => ⟨S50000x128, .f32⟩
  | 39 => ⟨S50000x128, .f32⟩
  | 40 => ⟨S1x128, .f32⟩
  | 41 => ⟨S128, .f32⟩
  | 42 => ⟨S1x128, .f32⟩
  | 43 => ⟨S128, .f32⟩
  | 44 => ⟨S1x128, .f32⟩
  | 45 => ⟨S128, .f32⟩
  | 46 => ⟨S1x128, .f32⟩
  | 47 => ⟨S128, .f32⟩
  | 48 => ⟨S1x128, .f32⟩
  | 49 => ⟨S50000x128, .f32⟩
  | 50 => ⟨S50000x128, .f32⟩
  | 51 => ⟨S_, .f32⟩
  | 52 => ⟨S128, .f32⟩
  | 53 => ⟨S128, .f32⟩
  | 54 => ⟨S128, .f32⟩
  | 55 => ⟨S1x128, .f32⟩
  | 56 => ⟨S50000x128, .f32⟩
  | 57 => ⟨S50000x128, .f32⟩
  | 58 => ⟨S1x128, .f32⟩
  | 59 => ⟨S50000x128, .f32⟩
  | 60 => ⟨S50000x128, .f32⟩
  | 61 => ⟨S1x128, .f32⟩
  | 62 => ⟨S50000x128, .f32⟩
  | 63 => ⟨S50000x128, .f32⟩
  | 64 => ⟨S_, .f32⟩
  | 65 => ⟨S50000x128, .f32⟩
  | 66 => ⟨S50000x128, .f32⟩
  | 67 => ⟨S_, .f32⟩
  | 68 => ⟨S50000, .f32⟩
  | 69 => ⟨S_, .f32⟩
  | 70 => ⟨S256, .f32⟩
  | 71 => ⟨S50000x1, .i32⟩
  | 72 => ⟨S256, .f32⟩
  | 73 => ⟨S_, .f32⟩
  | 74 => ⟨S256, .f32⟩
  | 75 => ⟨S256, .f32⟩
  | 76 => ⟨S_, .f32⟩
  | 77 => ⟨S256, .f32⟩
  | 78 => ⟨S256, .f32⟩
  | 79 => ⟨S_, .f32⟩
  | 80 => ⟨S256x10, .f32⟩
  | 81 => ⟨S_, .f32⟩
  | 82 => ⟨S256x128, .f32⟩
  | 83 => ⟨S50000x1, .i32⟩
  | 84 => ⟨S256x128, .f32⟩
  | 85 => ⟨S256x1, .f32⟩
  | 86 => ⟨S256x128, .f32⟩
  | 87 => ⟨S256x128, .f32⟩
  | 88 => ⟨S1x128x10, .f32⟩
  | 89 => ⟨S128x10, .f32⟩
  | 90 => ⟨S256x10, .f32⟩
  | 91 => ⟨S256x10, .f32⟩
  | 92 => ⟨S1x10, .f32⟩
  | 93 => ⟨S10, .f32⟩
  | 94 => ⟨S1x10, .f32⟩
  | 95 => ⟨S256x10, .f32⟩
  | 96 => ⟨S256x10, .f32⟩
  | 97 => ⟨S_, .f32⟩
  | 98 => ⟨S256x128, .f32⟩
  | 99 => ⟨S50000x1, .i32⟩
  | 100 => ⟨S256x128, .f32⟩
  | 101 => ⟨S256x1, .f32⟩
  | 102 => ⟨S256x128, .f32⟩
  | 103 => ⟨S256x128, .f32⟩
  | 104 => ⟨S1x128x10, .f32⟩
  | 105 => ⟨S128x10, .f32⟩
  | 106 => ⟨S256x10, .f32⟩
  | 107 => ⟨S256x10, .f32⟩
  | 108 => ⟨S1x10, .f32⟩
  | 109 => ⟨S10, .f32⟩
  | 110 => ⟨S1x10, .f32⟩
  | 111 => ⟨S256x10, .f32⟩
  | 112 => ⟨S256x10, .f32⟩
  | 113 => ⟨S_, .f32⟩
  | 114 => ⟨S256x128, .f32⟩
  | 115 => ⟨S50000x1, .i32⟩
  | 116 => ⟨S256x128, .f32⟩
  | 117 => ⟨S256x1, .f32⟩
  | 118 => ⟨S256x128, .f32⟩
  | 119 => ⟨S256x128, .f32⟩
  | 120 => ⟨S1x128x10, .f32⟩
  | 121 => ⟨S128x10, .f32⟩
  | 122 => ⟨S256x10, .f32⟩
  | 123 => ⟨S256x10, .f32⟩
  | 124 => ⟨S1x10, .f32⟩
  | 125 => ⟨S10, .f32⟩
  | 126 => ⟨S1x10, .f32⟩
  | 127 => ⟨S256x10, .f32⟩
  | _ => ⟨S50000x128, .f32⟩

abbrev hbmTy0_5 (i : Nat) : BufTy := match i % 128 with
  | 0 => ⟨S256x10, .f32⟩
  | 1 => ⟨S_, .f32⟩
  | 2 => ⟨S256x128, .f32⟩
  | 3 => ⟨S50000x1, .i32⟩
  | 4 => ⟨S256x128, .f32⟩
  | 5 => ⟨S256x1, .f32⟩
  | 6 => ⟨S256x128, .f32⟩
  | 7 => ⟨S256x128, .f32⟩
  | 8 => ⟨S1x128x10, .f32⟩
  | 9 => ⟨S128x10, .f32⟩
  | 10 => ⟨S256x10, .f32⟩
  | 11 => ⟨S256x10, .f32⟩
  | 12 => ⟨S1x10, .f32⟩
  | 13 => ⟨S10, .f32⟩
  | 14 => ⟨S1x10, .f32⟩
  | 15 => ⟨S256x10, .f32⟩
  | 16 => ⟨S256x10, .f32⟩
  | 17 => ⟨S_, .f32⟩
  | 18 => ⟨S256x128, .f32⟩
  | 19 => ⟨S50000x1, .i32⟩
  | 20 => ⟨S256x128, .f32⟩
  | 21 => ⟨S256x1, .f32⟩
  | 22 => ⟨S256x128, .f32⟩
  | 23 => ⟨S256x128, .f32⟩
  | 24 => ⟨S1x128x10, .f32⟩
  | 25 => ⟨S128x10, .f32⟩
  | 26 => ⟨S256x10, .f32⟩
  | 27 => ⟨S256x10, .f32⟩
  | 28 => ⟨S1x10, .f32⟩
  | 29 => ⟨S10, .f32⟩
  | 30 => ⟨S1x10, .f32⟩
  | 31 => ⟨S256x10, .f32⟩
  | 32 => ⟨S256x10, .f32⟩
  | 33 => ⟨S_, .f32⟩
  | 34 => ⟨S256x128, .f32⟩
  | 35 => ⟨S50000x1, .i32⟩
  | 36 => ⟨S256x128, .f32⟩
  | 37 => ⟨S256x1, .f32⟩
  | 38 => ⟨S256x128, .f32⟩
  | 39 => ⟨S256x128, .f32⟩
  | 40 => ⟨S1x128x10, .f32⟩
  | 41 => ⟨S128x10, .f32⟩
  | 42 => ⟨S256x10, .f32⟩
  | 43 => ⟨S256x10, .f32⟩
  | 44 => ⟨S1x10, .f32⟩
  | 45 => ⟨S10, .f32⟩
  | 46 => ⟨S1x10, .f32⟩
  | 47 => ⟨S256x10, .f32⟩
  | 48 => ⟨S256x10, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c : Ref sig .tc := ⟨.hbm, 26, rfl⟩
abbrev main_v7 : Ref sig .tc := ⟨.hbm, 27, rfl⟩
abbrev main_v8 : Ref sig .tc := ⟨.hbm, 28, rfl⟩
abbrev main_c_0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c_1 : Ref sig .tc := ⟨.hbm, 33, rfl⟩
abbrev main_v12 : Ref sig .tc := ⟨.hbm, 34, rfl⟩
abbrev main_v13 : Ref sig .tc := ⟨.hbm, 35, rfl⟩
abbrev main_c_2 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst : Ref sig .tc := ⟨.hbm, 45, rfl⟩
abbrev main_v22 : Ref sig .tc := ⟨.hbm, 46, rfl⟩
abbrev main_c_3 : Ref sig .tc := ⟨.hbm, 47, rfl⟩
abbrev main_v23 : Ref sig .tc := ⟨.hbm, 48, rfl⟩
abbrev main_v24 : Ref sig .tc := ⟨.hbm, 49, rfl⟩
abbrev main_c_4 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_call0_cst : Ref sig .tc := ⟨.hbm, 57, rfl⟩
abbrev main_call0_v0 : Ref sig .tc := ⟨.hbm, 58, rfl⟩
abbrev main_v31 : Ref sig .tc := ⟨.hbm, 59, rfl⟩
abbrev main_cst_5 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_6 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_call1_cst : Ref sig .tc := ⟨.hbm, 97, rfl⟩
abbrev main_call1_v0 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_7 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_call2_cst : Ref sig .tc := ⟨.hbm, 132, rfl⟩
abbrev main_call2_v0 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_c_8 : Ref sig .tc := ⟨.hbm, 137, rfl⟩
abbrev main_v102 : Ref sig .tc := ⟨.hbm, 138, rfl⟩
abbrev main_v103 : Ref sig .tc := ⟨.hbm, 139, rfl⟩
abbrev main_c_9 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_c_10 : Ref sig .tc := ⟨.hbm, 144, rfl⟩
abbrev main_v107 : Ref sig .tc := ⟨.hbm, 145, rfl⟩
abbrev main_v108 : Ref sig .tc := ⟨.hbm, 146, rfl⟩
abbrev main_c_11 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_12 : Ref sig .tc := ⟨.hbm, 156, rfl⟩
abbrev main_v117 : Ref sig .tc := ⟨.hbm, 157, rfl⟩
abbrev main_c_13 : Ref sig .tc := ⟨.hbm, 158, rfl⟩
abbrev main_v118 : Ref sig .tc := ⟨.hbm, 159, rfl⟩
abbrev main_v119 : Ref sig .tc := ⟨.hbm, 160, rfl⟩
abbrev main_c_14 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_call3_cst : Ref sig .tc := ⟨.hbm, 168, rfl⟩
abbrev main_call3_v0 : Ref sig .tc := ⟨.hbm, 169, rfl⟩
abbrev main_v126 : Ref sig .tc := ⟨.hbm, 170, rfl⟩
abbrev main_cst_15 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_cst_16 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_call4_cst : Ref sig .tc := ⟨.hbm, 208, rfl⟩
abbrev main_call4_v0 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_cst_17 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_call5_cst : Ref sig .tc := ⟨.hbm, 243, rfl⟩
abbrev main_call5_v0 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_c_18 : Ref sig .tc := ⟨.hbm, 248, rfl⟩
abbrev main_v197 : Ref sig .tc := ⟨.hbm, 249, rfl⟩
abbrev main_v198 : Ref sig .tc := ⟨.hbm, 250, rfl⟩
abbrev main_c_19 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_c_20 : Ref sig .tc := ⟨.hbm, 255, rfl⟩
abbrev main_v202 : Ref sig .tc := ⟨.hbm, 256, rfl⟩
abbrev main_v203 : Ref sig .tc := ⟨.hbm, 257, rfl⟩
abbrev main_c_21 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_cst_22 : Ref sig .tc := ⟨.hbm, 267, rfl⟩
abbrev main_v212 : Ref sig .tc := ⟨.hbm, 268, rfl⟩
abbrev main_c_23 : Ref sig .tc := ⟨.hbm, 269, rfl⟩
abbrev main_v213 : Ref sig .tc := ⟨.hbm, 270, rfl⟩
abbrev main_v214 : Ref sig .tc := ⟨.hbm, 271, rfl⟩
abbrev main_c_24 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_call6_cst : Ref sig .tc := ⟨.hbm, 279, rfl⟩
abbrev main_call6_v0 : Ref sig .tc := ⟨.hbm, 280, rfl⟩
abbrev main_v221 : Ref sig .tc := ⟨.hbm, 281, rfl⟩
abbrev main_cst_25 : Ref sig .tc := ⟨.hbm, 282, rfl⟩
abbrev main_v222 : Ref sig .tc := ⟨.hbm, 283, rfl⟩
abbrev main_v223 : Ref sig .tc := ⟨.hbm, 284, rfl⟩
abbrev main_v224 : Ref sig .tc := ⟨.hbm, 285, rfl⟩
abbrev main_v225 : Ref sig .tc := ⟨.hbm, 286, rfl⟩
abbrev main_v226 : Ref sig .tc := ⟨.hbm, 287, rfl⟩
abbrev main_v227 : Ref sig .tc := ⟨.hbm, 288, rfl⟩
abbrev main_v228 : Ref sig .tc := ⟨.hbm, 289, rfl⟩
abbrev main_v229 : Ref sig .tc := ⟨.hbm, 290, rfl⟩
abbrev main_v230 : Ref sig .tc := ⟨.hbm, 291, rfl⟩
abbrev main_v231 : Ref sig .tc := ⟨.hbm, 292, rfl⟩
abbrev main_v232 : Ref sig .tc := ⟨.hbm, 293, rfl⟩
abbrev main_v233 : Ref sig .tc := ⟨.hbm, 294, rfl⟩
abbrev main_v234 : Ref sig .tc := ⟨.hbm, 295, rfl⟩
abbrev main_v235 : Ref sig .tc := ⟨.hbm, 296, rfl⟩
abbrev main_v236 : Ref sig .tc := ⟨.hbm, 297, rfl⟩
abbrev main_v237 : Ref sig .tc := ⟨.hbm, 298, rfl⟩
abbrev main_v238 : Ref sig .tc := ⟨.hbm, 299, rfl⟩
abbrev main_v239 : Ref sig .tc := ⟨.hbm, 300, rfl⟩
abbrev main_v240 : Ref sig .tc := ⟨.hbm, 301, rfl⟩
abbrev main_v241 : Ref sig .tc := ⟨.hbm, 302, rfl⟩
abbrev main_v242 : Ref sig .tc := ⟨.hbm, 303, rfl⟩
abbrev main_v243 : Ref sig .tc := ⟨.hbm, 304, rfl⟩
abbrev main_v244 : Ref sig .tc := ⟨.hbm, 305, rfl⟩
abbrev main_cst_26 : Ref sig .tc := ⟨.hbm, 306, rfl⟩
abbrev main_v245 : Ref sig .tc := ⟨.hbm, 307, rfl⟩
abbrev main_v246 : Ref sig .tc := ⟨.hbm, 308, rfl⟩
abbrev main_v247 : Ref sig .tc := ⟨.hbm, 309, rfl⟩
abbrev main_v248 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_v255 : Ref sig .tc := ⟨.hbm, 317, rfl⟩
abbrev main_v256 : Ref sig .tc := ⟨.hbm, 318, rfl⟩
abbrev main_call7_cst : Ref sig .tc := ⟨.hbm, 319, rfl⟩
abbrev main_call7_v0 : Ref sig .tc := ⟨.hbm, 320, rfl⟩
abbrev main_v257 : Ref sig .tc := ⟨.hbm, 321, rfl⟩
abbrev main_v258 : Ref sig .tc := ⟨.hbm, 322, rfl⟩
abbrev main_v259 : Ref sig .tc := ⟨.hbm, 323, rfl⟩
abbrev main_v260 : Ref sig .tc := ⟨.hbm, 324, rfl⟩
abbrev main_v261 : Ref sig .tc := ⟨.hbm, 325, rfl⟩
abbrev main_v262 : Ref sig .tc := ⟨.hbm, 326, rfl⟩
abbrev main_v263 : Ref sig .tc := ⟨.hbm, 327, rfl⟩
abbrev main_v264 : Ref sig .tc := ⟨.hbm, 328, rfl⟩
abbrev main_v265 : Ref sig .tc := ⟨.hbm, 329, rfl⟩
abbrev main_v266 : Ref sig .tc := ⟨.hbm, 330, rfl⟩
abbrev main_v267 : Ref sig .tc := ⟨.hbm, 331, rfl⟩
abbrev main_v268 : Ref sig .tc := ⟨.hbm, 332, rfl⟩
abbrev main_v269 : Ref sig .tc := ⟨.hbm, 333, rfl⟩
abbrev main_v270 : Ref sig .tc := ⟨.hbm, 334, rfl⟩
abbrev main_v271 : Ref sig .tc := ⟨.hbm, 335, rfl⟩
abbrev main_v272 : Ref sig .tc := ⟨.hbm, 336, rfl⟩
abbrev main_v273 : Ref sig .tc := ⟨.hbm, 337, rfl⟩
abbrev main_v274 : Ref sig .tc := ⟨.hbm, 338, rfl⟩
abbrev main_v275 : Ref sig .tc := ⟨.hbm, 339, rfl⟩
abbrev main_v276 : Ref sig .tc := ⟨.hbm, 340, rfl⟩
abbrev main_cst_27 : Ref sig .tc := ⟨.hbm, 341, rfl⟩
abbrev main_v277 : Ref sig .tc := ⟨.hbm, 342, rfl⟩
abbrev main_v278 : Ref sig .tc := ⟨.hbm, 343, rfl⟩
abbrev main_v279 : Ref sig .tc := ⟨.hbm, 344, rfl⟩
abbrev main_v280 : Ref sig .tc := ⟨.hbm, 345, rfl⟩
abbrev main_v281 : Ref sig .tc := ⟨.hbm, 346, rfl⟩
abbrev main_v282 : Ref sig .tc := ⟨.hbm, 347, rfl⟩
abbrev main_v283 : Ref sig .tc := ⟨.hbm, 348, rfl⟩
abbrev main_v284 : Ref sig .tc := ⟨.hbm, 349, rfl⟩
abbrev main_v285 : Ref sig .tc := ⟨.hbm, 350, rfl⟩
abbrev main_v286 : Ref sig .tc := ⟨.hbm, 351, rfl⟩
abbrev main_v287 : Ref sig .tc := ⟨.hbm, 352, rfl⟩
abbrev main_v288 : Ref sig .tc := ⟨.hbm, 353, rfl⟩
abbrev main_call8_cst : Ref sig .tc := ⟨.hbm, 354, rfl⟩
abbrev main_call8_v0 : Ref sig .tc := ⟨.hbm, 355, rfl⟩
abbrev main_v289 : Ref sig .tc := ⟨.hbm, 356, rfl⟩
abbrev main_v290 : Ref sig .tc := ⟨.hbm, 357, rfl⟩
abbrev main_v291 : Ref sig .tc := ⟨.hbm, 358, rfl⟩
abbrev main_c_28 : Ref sig .tc := ⟨.hbm, 359, rfl⟩
abbrev main_v292 : Ref sig .tc := ⟨.hbm, 360, rfl⟩
abbrev main_v293 : Ref sig .tc := ⟨.hbm, 361, rfl⟩
abbrev main_c_29 : Ref sig .tc := ⟨.hbm, 362, rfl⟩
abbrev main_v294 : Ref sig .tc := ⟨.hbm, 363, rfl⟩
abbrev main_v295 : Ref sig .tc := ⟨.hbm, 364, rfl⟩
abbrev main_v296 : Ref sig .tc := ⟨.hbm, 365, rfl⟩
abbrev main_c_30 : Ref sig .tc := ⟨.hbm, 366, rfl⟩
abbrev main_v297 : Ref sig .tc := ⟨.hbm, 367, rfl⟩
abbrev main_v298 : Ref sig .tc := ⟨.hbm, 368, rfl⟩
abbrev main_c_31 : Ref sig .tc := ⟨.hbm, 369, rfl⟩
abbrev main_v299 : Ref sig .tc := ⟨.hbm, 370, rfl⟩
abbrev main_v300 : Ref sig .tc := ⟨.hbm, 371, rfl⟩
abbrev main_v301 : Ref sig .tc := ⟨.hbm, 372, rfl⟩
abbrev main_v302 : Ref sig .tc := ⟨.hbm, 373, rfl⟩
abbrev main_v303 : Ref sig .tc := ⟨.hbm, 374, rfl⟩
abbrev main_v304 : Ref sig .tc := ⟨.hbm, 375, rfl⟩
abbrev main_v305 : Ref sig .tc := ⟨.hbm, 376, rfl⟩
abbrev main_v306 : Ref sig .tc := ⟨.hbm, 377, rfl⟩
abbrev main_cst_32 : Ref sig .tc := ⟨.hbm, 378, rfl⟩
abbrev main_v307 : Ref sig .tc := ⟨.hbm, 379, rfl⟩
abbrev main_c_33 : Ref sig .tc := ⟨.hbm, 380, rfl⟩
abbrev main_v308 : Ref sig .tc := ⟨.hbm, 381, rfl⟩
abbrev main_v309 : Ref sig .tc := ⟨.hbm, 382, rfl⟩
abbrev main_c_34 : Ref sig .tc := ⟨.hbm, 383, rfl⟩
abbrev main_v310 : Ref sig .tc := ⟨.hbm, 384, rfl⟩
abbrev main_v311 : Ref sig .tc := ⟨.hbm, 385, rfl⟩
abbrev main_v312 : Ref sig .tc := ⟨.hbm, 386, rfl⟩
abbrev main_v313 : Ref sig .tc := ⟨.hbm, 387, rfl⟩
abbrev main_v314 : Ref sig .tc := ⟨.hbm, 388, rfl⟩
abbrev main_v315 : Ref sig .tc := ⟨.hbm, 389, rfl⟩
abbrev main_call9_cst : Ref sig .tc := ⟨.hbm, 390, rfl⟩
abbrev main_call9_v0 : Ref sig .tc := ⟨.hbm, 391, rfl⟩
abbrev main_v316 : Ref sig .tc := ⟨.hbm, 392, rfl⟩
abbrev main_cst_35 : Ref sig .tc := ⟨.hbm, 393, rfl⟩
abbrev main_v317 : Ref sig .tc := ⟨.hbm, 394, rfl⟩
abbrev main_v318 : Ref sig .tc := ⟨.hbm, 395, rfl⟩
abbrev main_v319 : Ref sig .tc := ⟨.hbm, 396, rfl⟩
abbrev main_v320 : Ref sig .tc := ⟨.hbm, 397, rfl⟩
abbrev main_v321 : Ref sig .tc := ⟨.hbm, 398, rfl⟩
abbrev main_v322 : Ref sig .tc := ⟨.hbm, 399, rfl⟩
abbrev main_v323 : Ref sig .tc := ⟨.hbm, 400, rfl⟩
abbrev main_v324 : Ref sig .tc := ⟨.hbm, 401, rfl⟩
abbrev main_v325 : Ref sig .tc := ⟨.hbm, 402, rfl⟩
abbrev main_v326 : Ref sig .tc := ⟨.hbm, 403, rfl⟩
abbrev main_v327 : Ref sig .tc := ⟨.hbm, 404, rfl⟩
abbrev main_v328 : Ref sig .tc := ⟨.hbm, 405, rfl⟩
abbrev main_v329 : Ref sig .tc := ⟨.hbm, 406, rfl⟩
abbrev main_v330 : Ref sig .tc := ⟨.hbm, 407, rfl⟩
abbrev main_v331 : Ref sig .tc := ⟨.hbm, 408, rfl⟩
abbrev main_v332 : Ref sig .tc := ⟨.hbm, 409, rfl⟩
abbrev main_v333 : Ref sig .tc := ⟨.hbm, 410, rfl⟩
abbrev main_v334 : Ref sig .tc := ⟨.hbm, 411, rfl⟩
abbrev main_v335 : Ref sig .tc := ⟨.hbm, 412, rfl⟩
abbrev main_v336 : Ref sig .tc := ⟨.hbm, 413, rfl⟩
abbrev main_v337 : Ref sig .tc := ⟨.hbm, 414, rfl⟩
abbrev main_v338 : Ref sig .tc := ⟨.hbm, 415, rfl⟩
abbrev main_v339 : Ref sig .tc := ⟨.hbm, 416, rfl⟩
abbrev main_cst_36 : Ref sig .tc := ⟨.hbm, 417, rfl⟩
abbrev main_v340 : Ref sig .tc := ⟨.hbm, 418, rfl⟩
abbrev main_v341 : Ref sig .tc := ⟨.hbm, 419, rfl⟩
abbrev main_v342 : Ref sig .tc := ⟨.hbm, 420, rfl⟩
abbrev main_v343 : Ref sig .tc := ⟨.hbm, 421, rfl⟩
abbrev main_v344 : Ref sig .tc := ⟨.hbm, 422, rfl⟩
abbrev main_v345 : Ref sig .tc := ⟨.hbm, 423, rfl⟩
abbrev main_v346 : Ref sig .tc := ⟨.hbm, 424, rfl⟩
abbrev main_v347 : Ref sig .tc := ⟨.hbm, 425, rfl⟩
abbrev main_v348 : Ref sig .tc := ⟨.hbm, 426, rfl⟩
abbrev main_v349 : Ref sig .tc := ⟨.hbm, 427, rfl⟩
abbrev main_v350 : Ref sig .tc := ⟨.hbm, 428, rfl⟩
abbrev main_v351 : Ref sig .tc := ⟨.hbm, 429, rfl⟩
abbrev main_call10_cst : Ref sig .tc := ⟨.hbm, 430, rfl⟩
abbrev main_call10_v0 : Ref sig .tc := ⟨.hbm, 431, rfl⟩
abbrev main_v352 : Ref sig .tc := ⟨.hbm, 432, rfl⟩
abbrev main_v353 : Ref sig .tc := ⟨.hbm, 433, rfl⟩
abbrev main_v354 : Ref sig .tc := ⟨.hbm, 434, rfl⟩
abbrev main_v355 : Ref sig .tc := ⟨.hbm, 435, rfl⟩
abbrev main_v356 : Ref sig .tc := ⟨.hbm, 436, rfl⟩
abbrev main_v357 : Ref sig .tc := ⟨.hbm, 437, rfl⟩
abbrev main_v358 : Ref sig .tc := ⟨.hbm, 438, rfl⟩
abbrev main_v359 : Ref sig .tc := ⟨.hbm, 439, rfl⟩
abbrev main_v360 : Ref sig .tc := ⟨.hbm, 440, rfl⟩
abbrev main_v361 : Ref sig .tc := ⟨.hbm, 441, rfl⟩
abbrev main_v362 : Ref sig .tc := ⟨.hbm, 442, rfl⟩
abbrev main_v363 : Ref sig .tc := ⟨.hbm, 443, rfl⟩
abbrev main_v364 : Ref sig .tc := ⟨.hbm, 444, rfl⟩
abbrev main_v365 : Ref sig .tc := ⟨.hbm, 445, rfl⟩
abbrev main_v366 : Ref sig .tc := ⟨.hbm, 446, rfl⟩
abbrev main_v367 : Ref sig .tc := ⟨.hbm, 447, rfl⟩
abbrev main_v368 : Ref sig .tc := ⟨.hbm, 448, rfl⟩
abbrev main_v369 : Ref sig .tc := ⟨.hbm, 449, rfl⟩
abbrev main_v370 : Ref sig .tc := ⟨.hbm, 450, rfl⟩
abbrev main_v371 : Ref sig .tc := ⟨.hbm, 451, rfl⟩
abbrev main_cst_37 : Ref sig .tc := ⟨.hbm, 452, rfl⟩
abbrev main_v372 : Ref sig .tc := ⟨.hbm, 453, rfl⟩
abbrev main_v373 : Ref sig .tc := ⟨.hbm, 454, rfl⟩
abbrev main_v374 : Ref sig .tc := ⟨.hbm, 455, rfl⟩
abbrev main_v375 : Ref sig .tc := ⟨.hbm, 456, rfl⟩
abbrev main_v376 : Ref sig .tc := ⟨.hbm, 457, rfl⟩
abbrev main_v377 : Ref sig .tc := ⟨.hbm, 458, rfl⟩
abbrev main_v378 : Ref sig .tc := ⟨.hbm, 459, rfl⟩
abbrev main_v379 : Ref sig .tc := ⟨.hbm, 460, rfl⟩
abbrev main_v380 : Ref sig .tc := ⟨.hbm, 461, rfl⟩
abbrev main_v381 : Ref sig .tc := ⟨.hbm, 462, rfl⟩
abbrev main_v382 : Ref sig .tc := ⟨.hbm, 463, rfl⟩
abbrev main_v383 : Ref sig .tc := ⟨.hbm, 464, rfl⟩
abbrev main_call11_cst : Ref sig .tc := ⟨.hbm, 465, rfl⟩
abbrev main_call11_v0 : Ref sig .tc := ⟨.hbm, 466, rfl⟩
abbrev main_v384 : Ref sig .tc := ⟨.hbm, 467, rfl⟩
abbrev main_v385 : Ref sig .tc := ⟨.hbm, 468, rfl⟩
abbrev main_v386 : Ref sig .tc := ⟨.hbm, 469, rfl⟩
abbrev main_c_38 : Ref sig .tc := ⟨.hbm, 470, rfl⟩
abbrev main_v387 : Ref sig .tc := ⟨.hbm, 471, rfl⟩
abbrev main_v388 : Ref sig .tc := ⟨.hbm, 472, rfl⟩
abbrev main_c_39 : Ref sig .tc := ⟨.hbm, 473, rfl⟩
abbrev main_v389 : Ref sig .tc := ⟨.hbm, 474, rfl⟩
abbrev main_v390 : Ref sig .tc := ⟨.hbm, 475, rfl⟩
abbrev main_v391 : Ref sig .tc := ⟨.hbm, 476, rfl⟩
abbrev main_c_40 : Ref sig .tc := ⟨.hbm, 477, rfl⟩
abbrev main_v392 : Ref sig .tc := ⟨.hbm, 478, rfl⟩
abbrev main_v393 : Ref sig .tc := ⟨.hbm, 479, rfl⟩
abbrev main_c_41 : Ref sig .tc := ⟨.hbm, 480, rfl⟩
abbrev main_v394 : Ref sig .tc := ⟨.hbm, 481, rfl⟩
abbrev main_v395 : Ref sig .tc := ⟨.hbm, 482, rfl⟩
abbrev main_v396 : Ref sig .tc := ⟨.hbm, 483, rfl⟩
abbrev main_v397 : Ref sig .tc := ⟨.hbm, 484, rfl⟩
abbrev main_v398 : Ref sig .tc := ⟨.hbm, 485, rfl⟩
abbrev main_v399 : Ref sig .tc := ⟨.hbm, 486, rfl⟩
abbrev main_v400 : Ref sig .tc := ⟨.hbm, 487, rfl⟩
abbrev main_v401 : Ref sig .tc := ⟨.hbm, 488, rfl⟩
abbrev main_cst_42 : Ref sig .tc := ⟨.hbm, 489, rfl⟩
abbrev main_v402 : Ref sig .tc := ⟨.hbm, 490, rfl⟩
abbrev main_c_43 : Ref sig .tc := ⟨.hbm, 491, rfl⟩
abbrev main_v403 : Ref sig .tc := ⟨.hbm, 492, rfl⟩
abbrev main_v404 : Ref sig .tc := ⟨.hbm, 493, rfl⟩
abbrev main_c_44 : Ref sig .tc := ⟨.hbm, 494, rfl⟩
abbrev main_v405 : Ref sig .tc := ⟨.hbm, 495, rfl⟩
abbrev main_v406 : Ref sig .tc := ⟨.hbm, 496, rfl⟩
abbrev main_v407 : Ref sig .tc := ⟨.hbm, 497, rfl⟩
abbrev main_v408 : Ref sig .tc := ⟨.hbm, 498, rfl⟩
abbrev main_v409 : Ref sig .tc := ⟨.hbm, 499, rfl⟩
abbrev main_v410 : Ref sig .tc := ⟨.hbm, 500, rfl⟩
abbrev main_call12_cst : Ref sig .tc := ⟨.hbm, 501, rfl⟩
abbrev main_call12_v0 : Ref sig .tc := ⟨.hbm, 502, rfl⟩
abbrev main_v411 : Ref sig .tc := ⟨.hbm, 503, rfl⟩
abbrev main_cst_45 : Ref sig .tc := ⟨.hbm, 504, rfl⟩
abbrev main_v412 : Ref sig .tc := ⟨.hbm, 505, rfl⟩
abbrev main_v413 : Ref sig .tc := ⟨.hbm, 506, rfl⟩
abbrev main_v414 : Ref sig .tc := ⟨.hbm, 507, rfl⟩
abbrev main_v415 : Ref sig .tc := ⟨.hbm, 508, rfl⟩
abbrev main_v416 : Ref sig .tc := ⟨.hbm, 509, rfl⟩
abbrev main_v417 : Ref sig .tc := ⟨.hbm, 510, rfl⟩
abbrev main_v418 : Ref sig .tc := ⟨.hbm, 511, rfl⟩
abbrev main_v419 : Ref sig .tc := ⟨.hbm, 512, rfl⟩
abbrev main_v420 : Ref sig .tc := ⟨.hbm, 513, rfl⟩
abbrev main_v421 : Ref sig .tc := ⟨.hbm, 514, rfl⟩
abbrev main_v422 : Ref sig .tc := ⟨.hbm, 515, rfl⟩
abbrev main_v423 : Ref sig .tc := ⟨.hbm, 516, rfl⟩
abbrev main_v424 : Ref sig .tc := ⟨.hbm, 517, rfl⟩
abbrev main_v425 : Ref sig .tc := ⟨.hbm, 518, rfl⟩
abbrev main_v426 : Ref sig .tc := ⟨.hbm, 519, rfl⟩
abbrev main_v427 : Ref sig .tc := ⟨.hbm, 520, rfl⟩
abbrev main_v428 : Ref sig .tc := ⟨.hbm, 521, rfl⟩
abbrev main_v429 : Ref sig .tc := ⟨.hbm, 522, rfl⟩
abbrev main_v430 : Ref sig .tc := ⟨.hbm, 523, rfl⟩
abbrev main_v431 : Ref sig .tc := ⟨.hbm, 524, rfl⟩
abbrev main_v432 : Ref sig .tc := ⟨.hbm, 525, rfl⟩
abbrev main_v433 : Ref sig .tc := ⟨.hbm, 526, rfl⟩
abbrev main_v434 : Ref sig .tc := ⟨.hbm, 527, rfl⟩
abbrev main_cst_46 : Ref sig .tc := ⟨.hbm, 528, rfl⟩
abbrev main_v435 : Ref sig .tc := ⟨.hbm, 529, rfl⟩
abbrev main_v436 : Ref sig .tc := ⟨.hbm, 530, rfl⟩
abbrev main_v437 : Ref sig .tc := ⟨.hbm, 531, rfl⟩
abbrev main_v438 : Ref sig .tc := ⟨.hbm, 532, rfl⟩
abbrev main_v439 : Ref sig .tc := ⟨.hbm, 533, rfl⟩
abbrev main_v440 : Ref sig .tc := ⟨.hbm, 534, rfl⟩
abbrev main_v441 : Ref sig .tc := ⟨.hbm, 535, rfl⟩
abbrev main_v442 : Ref sig .tc := ⟨.hbm, 536, rfl⟩
abbrev main_v443 : Ref sig .tc := ⟨.hbm, 537, rfl⟩
abbrev main_v444 : Ref sig .tc := ⟨.hbm, 538, rfl⟩
abbrev main_v445 : Ref sig .tc := ⟨.hbm, 539, rfl⟩
abbrev main_v446 : Ref sig .tc := ⟨.hbm, 540, rfl⟩
abbrev main_call13_cst : Ref sig .tc := ⟨.hbm, 541, rfl⟩
abbrev main_call13_v0 : Ref sig .tc := ⟨.hbm, 542, rfl⟩
abbrev main_v447 : Ref sig .tc := ⟨.hbm, 543, rfl⟩
abbrev main_v448 : Ref sig .tc := ⟨.hbm, 544, rfl⟩
abbrev main_v449 : Ref sig .tc := ⟨.hbm, 545, rfl⟩
abbrev main_v450 : Ref sig .tc := ⟨.hbm, 546, rfl⟩
abbrev main_v451 : Ref sig .tc := ⟨.hbm, 547, rfl⟩
abbrev main_v452 : Ref sig .tc := ⟨.hbm, 548, rfl⟩
abbrev main_v453 : Ref sig .tc := ⟨.hbm, 549, rfl⟩
abbrev main_v454 : Ref sig .tc := ⟨.hbm, 550, rfl⟩
abbrev main_v455 : Ref sig .tc := ⟨.hbm, 551, rfl⟩
abbrev main_v456 : Ref sig .tc := ⟨.hbm, 552, rfl⟩
abbrev main_v457 : Ref sig .tc := ⟨.hbm, 553, rfl⟩
abbrev main_v458 : Ref sig .tc := ⟨.hbm, 554, rfl⟩
abbrev main_v459 : Ref sig .tc := ⟨.hbm, 555, rfl⟩
abbrev main_v460 : Ref sig .tc := ⟨.hbm, 556, rfl⟩
abbrev main_v461 : Ref sig .tc := ⟨.hbm, 557, rfl⟩
abbrev main_v462 : Ref sig .tc := ⟨.hbm, 558, rfl⟩
abbrev main_v463 : Ref sig .tc := ⟨.hbm, 559, rfl⟩
abbrev main_v464 : Ref sig .tc := ⟨.hbm, 560, rfl⟩
abbrev main_v465 : Ref sig .tc := ⟨.hbm, 561, rfl⟩
abbrev main_v466 : Ref sig .tc := ⟨.hbm, 562, rfl⟩
abbrev main_cst_47 : Ref sig .tc := ⟨.hbm, 563, rfl⟩
abbrev main_v467 : Ref sig .tc := ⟨.hbm, 564, rfl⟩
abbrev main_v468 : Ref sig .tc := ⟨.hbm, 565, rfl⟩
abbrev main_v469 : Ref sig .tc := ⟨.hbm, 566, rfl⟩
abbrev main_v470 : Ref sig .tc := ⟨.hbm, 567, rfl⟩
abbrev main_v471 : Ref sig .tc := ⟨.hbm, 568, rfl⟩
abbrev main_v472 : Ref sig .tc := ⟨.hbm, 569, rfl⟩
abbrev main_v473 : Ref sig .tc := ⟨.hbm, 570, rfl⟩
abbrev main_v474 : Ref sig .tc := ⟨.hbm, 571, rfl⟩
abbrev main_v475 : Ref sig .tc := ⟨.hbm, 572, rfl⟩
abbrev main_v476 : Ref sig .tc := ⟨.hbm, 573, rfl⟩
abbrev main_v477 : Ref sig .tc := ⟨.hbm, 574, rfl⟩
abbrev main_v478 : Ref sig .tc := ⟨.hbm, 575, rfl⟩
abbrev main_call14_cst : Ref sig .tc := ⟨.hbm, 576, rfl⟩
abbrev main_call14_v0 : Ref sig .tc := ⟨.hbm, 577, rfl⟩
abbrev main_v479 : Ref sig .tc := ⟨.hbm, 578, rfl⟩
abbrev main_cst_48 : Ref sig .tc := ⟨.hbm, 579, rfl⟩
abbrev main_v480 : Ref sig .tc := ⟨.hbm, 580, rfl⟩
abbrev main_cst_49 : Ref sig .tc := ⟨.hbm, 581, rfl⟩
abbrev main_v481 : Ref sig .tc := ⟨.hbm, 582, rfl⟩
abbrev main_v482 : Ref sig .tc := ⟨.hbm, 583, rfl⟩
abbrev main_v483 : Ref sig .tc := ⟨.hbm, 584, rfl⟩
abbrev main_cst_50 : Ref sig .tc := ⟨.hbm, 585, rfl⟩
abbrev main_v484 : Ref sig .tc := ⟨.hbm, 586, rfl⟩
abbrev main_v485 : Ref sig .tc := ⟨.hbm, 587, rfl⟩
abbrev main_cst_51 : Ref sig .tc := ⟨.hbm, 588, rfl⟩
abbrev main_v486 : Ref sig .tc := ⟨.hbm, 589, rfl⟩
abbrev main_v487 : Ref sig .tc := ⟨.hbm, 590, rfl⟩
abbrev main_cst_52 : Ref sig .tc := ⟨.hbm, 591, rfl⟩
abbrev main_v488 : Ref sig .tc := ⟨.hbm, 592, rfl⟩
abbrev main_cst_53 : Ref sig .tc := ⟨.hbm, 593, rfl⟩
abbrev main_v489 : Ref sig .tc := ⟨.hbm, 594, rfl⟩
abbrev main_v490 : Ref sig .tc := ⟨.hbm, 595, rfl⟩
abbrev main_v491 : Ref sig .tc := ⟨.hbm, 596, rfl⟩
abbrev main_v492 : Ref sig .tc := ⟨.hbm, 597, rfl⟩
abbrev main_v493 : Ref sig .tc := ⟨.hbm, 598, rfl⟩
abbrev main_v494 : Ref sig .tc := ⟨.hbm, 599, rfl⟩
abbrev main_v495 : Ref sig .tc := ⟨.hbm, 600, rfl⟩
abbrev main_v496 : Ref sig .tc := ⟨.hbm, 601, rfl⟩
abbrev main_v497 : Ref sig .tc := ⟨.hbm, 602, rfl⟩
abbrev main_v498 : Ref sig .tc := ⟨.hbm, 603, rfl⟩
abbrev main_v499 : Ref sig .tc := ⟨.hbm, 604, rfl⟩
abbrev main_v500 : Ref sig .tc := ⟨.hbm, 605, rfl⟩
abbrev main_v501 : Ref sig .tc := ⟨.hbm, 606, rfl⟩
abbrev main_v502 : Ref sig .tc := ⟨.hbm, 607, rfl⟩
abbrev main_v503 : Ref sig .tc := ⟨.hbm, 608, rfl⟩
abbrev main_cst_54 : Ref sig .tc := ⟨.hbm, 609, rfl⟩
abbrev main_v504 : Ref sig .tc := ⟨.hbm, 610, rfl⟩
abbrev main_v505 : Ref sig .tc := ⟨.hbm, 611, rfl⟩
abbrev main_v506 : Ref sig .tc := ⟨.hbm, 612, rfl⟩
abbrev main_v507 : Ref sig .tc := ⟨.hbm, 613, rfl⟩
abbrev main_v508 : Ref sig .tc := ⟨.hbm, 614, rfl⟩
abbrev main_v509 : Ref sig .tc := ⟨.hbm, 615, rfl⟩
abbrev main_v510 : Ref sig .tc := ⟨.hbm, 616, rfl⟩
abbrev main_v511 : Ref sig .tc := ⟨.hbm, 617, rfl⟩
abbrev main_v512 : Ref sig .tc := ⟨.hbm, 618, rfl⟩
abbrev main_v513 : Ref sig .tc := ⟨.hbm, 619, rfl⟩
abbrev main_v514 : Ref sig .tc := ⟨.hbm, 620, rfl⟩
abbrev main_v515 : Ref sig .tc := ⟨.hbm, 621, rfl⟩
abbrev main_v516 : Ref sig .tc := ⟨.hbm, 622, rfl⟩
abbrev main_v517 : Ref sig .tc := ⟨.hbm, 623, rfl⟩
abbrev main_v518 : Ref sig .tc := ⟨.hbm, 624, rfl⟩
abbrev main_cst_55 : Ref sig .tc := ⟨.hbm, 625, rfl⟩
abbrev main_v519 : Ref sig .tc := ⟨.hbm, 626, rfl⟩
abbrev main_v520 : Ref sig .tc := ⟨.hbm, 627, rfl⟩
abbrev main_v521 : Ref sig .tc := ⟨.hbm, 628, rfl⟩
abbrev main_v522 : Ref sig .tc := ⟨.hbm, 629, rfl⟩
abbrev main_v523 : Ref sig .tc := ⟨.hbm, 630, rfl⟩
abbrev main_v524 : Ref sig .tc := ⟨.hbm, 631, rfl⟩
abbrev main_v525 : Ref sig .tc := ⟨.hbm, 632, rfl⟩
abbrev main_v526 : Ref sig .tc := ⟨.hbm, 633, rfl⟩
abbrev main_v527 : Ref sig .tc := ⟨.hbm, 634, rfl⟩
abbrev main_v528 : Ref sig .tc := ⟨.hbm, 635, rfl⟩
abbrev main_v529 : Ref sig .tc := ⟨.hbm, 636, rfl⟩
abbrev main_v530 : Ref sig .tc := ⟨.hbm, 637, rfl⟩
abbrev main_v531 : Ref sig .tc := ⟨.hbm, 638, rfl⟩
abbrev main_v532 : Ref sig .tc := ⟨.hbm, 639, rfl⟩
abbrev main_v533 : Ref sig .tc := ⟨.hbm, 640, rfl⟩
abbrev main_cst_56 : Ref sig .tc := ⟨.hbm, 641, rfl⟩
abbrev main_v534 : Ref sig .tc := ⟨.hbm, 642, rfl⟩
abbrev main_v535 : Ref sig .tc := ⟨.hbm, 643, rfl⟩
abbrev main_v536 : Ref sig .tc := ⟨.hbm, 644, rfl⟩
abbrev main_v537 : Ref sig .tc := ⟨.hbm, 645, rfl⟩
abbrev main_v538 : Ref sig .tc := ⟨.hbm, 646, rfl⟩
abbrev main_v539 : Ref sig .tc := ⟨.hbm, 647, rfl⟩
abbrev main_v540 : Ref sig .tc := ⟨.hbm, 648, rfl⟩
abbrev main_v541 : Ref sig .tc := ⟨.hbm, 649, rfl⟩
abbrev main_v542 : Ref sig .tc := ⟨.hbm, 650, rfl⟩
abbrev main_v543 : Ref sig .tc := ⟨.hbm, 651, rfl⟩
abbrev main_v544 : Ref sig .tc := ⟨.hbm, 652, rfl⟩
abbrev main_v545 : Ref sig .tc := ⟨.hbm, 653, rfl⟩
abbrev main_v546 : Ref sig .tc := ⟨.hbm, 654, rfl⟩
abbrev main_v547 : Ref sig .tc := ⟨.hbm, 655, rfl⟩
abbrev main_v548 : Ref sig .tc := ⟨.hbm, 656, rfl⟩
abbrev main_cst_57 : Ref sig .tc := ⟨.hbm, 657, rfl⟩
abbrev main_v549 : Ref sig .tc := ⟨.hbm, 658, rfl⟩
abbrev main_v550 : Ref sig .tc := ⟨.hbm, 659, rfl⟩
abbrev main_v551 : Ref sig .tc := ⟨.hbm, 660, rfl⟩
abbrev main_v552 : Ref sig .tc := ⟨.hbm, 661, rfl⟩
abbrev main_v553 : Ref sig .tc := ⟨.hbm, 662, rfl⟩
abbrev main_v554 : Ref sig .tc := ⟨.hbm, 663, rfl⟩
abbrev main_v555 : Ref sig .tc := ⟨.hbm, 664, rfl⟩
abbrev main_v556 : Ref sig .tc := ⟨.hbm, 665, rfl⟩
abbrev main_v557 : Ref sig .tc := ⟨.hbm, 666, rfl⟩
abbrev main_v558 : Ref sig .tc := ⟨.hbm, 667, rfl⟩
abbrev main_v559 : Ref sig .tc := ⟨.hbm, 668, rfl⟩
abbrev main_v560 : Ref sig .tc := ⟨.hbm, 669, rfl⟩
abbrev main_v561 : Ref sig .tc := ⟨.hbm, 670, rfl⟩
abbrev main_v562 : Ref sig .tc := ⟨.hbm, 671, rfl⟩
abbrev main_v563 : Ref sig .tc := ⟨.hbm, 672, rfl⟩
abbrev main_cst_58 : Ref sig .tc := ⟨.hbm, 673, rfl⟩
abbrev main_v564 : Ref sig .tc := ⟨.hbm, 674, rfl⟩
abbrev main_v565 : Ref sig .tc := ⟨.hbm, 675, rfl⟩
abbrev main_v566 : Ref sig .tc := ⟨.hbm, 676, rfl⟩
abbrev main_v567 : Ref sig .tc := ⟨.hbm, 677, rfl⟩
abbrev main_v568 : Ref sig .tc := ⟨.hbm, 678, rfl⟩
abbrev main_v569 : Ref sig .tc := ⟨.hbm, 679, rfl⟩
abbrev main_v570 : Ref sig .tc := ⟨.hbm, 680, rfl⟩
abbrev main_v571 : Ref sig .tc := ⟨.hbm, 681, rfl⟩
abbrev main_v572 : Ref sig .tc := ⟨.hbm, 682, rfl⟩
abbrev main_v573 : Ref sig .tc := ⟨.hbm, 683, rfl⟩
abbrev main_v574 : Ref sig .tc := ⟨.hbm, 684, rfl⟩
abbrev main_v575 : Ref sig .tc := ⟨.hbm, 685, rfl⟩
abbrev main_v576 : Ref sig .tc := ⟨.hbm, 686, rfl⟩
abbrev main_v577 : Ref sig .tc := ⟨.hbm, 687, rfl⟩
abbrev main_v578 : Ref sig .tc := ⟨.hbm, 688, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  slices_S5x3x8x128_S1x3x8x128_0_0_0_0 : S5x3x8x128.Slices ![0, 0, 0, 0] S1x3x8x128
  shapeCasts_S1x3x8x128_S3x8x128 : S1x3x8x128.ShapeCasts S3x8x128
  bcast_S_S3 : S_.BroadcastsInDim S3 (![] : Fin 0 → Fin S3.rank)
  bcast_S_S600000x3 : S_.BroadcastsInDim S600000x3 (![] : Fin 0 → Fin S600000x3.rank)
  bcast_S3_S600000x3_1 : S3.BroadcastsInDim S600000x3 (![1] : Fin 1 → Fin S600000x3.rank)
  bcast_S600000x3_S600000x3x1_0_1 : S600000x3.BroadcastsInDim S600000x3x1 (![0, 1] : Fin 2 → Fin S600000x3x1.rank)
  concatenates_S600000x3x1_S600000x3x1_S600000x3x2_d2 : Shape.Concatenates [S600000x3x1, S600000x3x1] S600000x3x2 2
  reducesTo_S600000x3x128_S600000x128_d1 : S600000x3x128.ReducesTo [1] S600000x128
  h_S_ : 0 < S_.numel
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S50000x128 : S_.BroadcastsInDim S50000x128 (![] : Fin 0 → Fin S50000x128.rank)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  slices_S5x3x8x128_S1x3x8x128_1_0_0_0 : S5x3x8x128.Slices ![1, 0, 0, 0] S1x3x8x128
  slices_S5x128x128_S1x128x128_1_0_0 : S5x128x128.Slices ![1, 0, 0] S1x128x128
  slices_S5x128_S1x128_1_0 : S5x128.Slices ![1, 0] S1x128
  slices_S5x3x8x128_S1x3x8x128_2_0_0_0 : S5x3x8x128.Slices ![2, 0, 0, 0] S1x3x8x128
  slices_S5x128x128_S1x128x128_2_0_0 : S5x128x128.Slices ![2, 0, 0] S1x128x128
  slices_S5x128_S1x128_2_0 : S5x128.Slices ![2, 0] S1x128
  slices_S5x3x8x128_S1x3x8x128_3_0_0_0 : S5x3x8x128.Slices ![3, 0, 0, 0] S1x3x8x128
  slices_S5x128x128_S1x128x128_3_0_0 : S5x128x128.Slices ![3, 0, 0] S1x128x128
  slices_S5x128_S1x128_3_0 : S5x128.Slices ![3, 0] S1x128
  slices_S5x3x8x128_S1x3x8x128_4_0_0_0 : S5x3x8x128.Slices ![4, 0, 0, 0] S1x3x8x128
  slices_S5x128x128_S1x128x128_4_0_0 : S5x128x128.Slices ![4, 0, 0] S1x128x128
  slices_S5x128_S1x128_4_0 : S5x128.Slices ![4, 0] S1x128
  bcast_S_S50000 : S_.BroadcastsInDim S50000 (![] : Fin 0 → Fin S50000.rank)
  bcast_S_S256 : S_.BroadcastsInDim S256 (![] : Fin 0 → Fin S256.rank)
  bcast_S50000_S50000x1_0 : S50000.BroadcastsInDim S50000x1 (![0] : Fin 1 → Fin S50000x1.rank)
  bcast_S_S256x10 : S_.BroadcastsInDim S256x10 (![] : Fin 0 → Fin S256x10.rank)
  bcast_S_S256x128 : S_.BroadcastsInDim S256x128 (![] : Fin 0 → Fin S256x128.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  slices_S6x128x10_S1x128x10_0_0_0 : S6x128x10.Slices ![0, 0, 0] S1x128x10
  shapeCasts_S1x128x10_S128x10 : S1x128x10.ShapeCasts S128x10
  slices_S6x10_S1x10_0_0 : S6x10.Slices ![0, 0] S1x10
  shapeCasts_S1x10_S10 : S1x10.ShapeCasts S10
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  slices_S6x128x10_S1x128x10_1_0_0 : S6x128x10.Slices ![1, 0, 0] S1x128x10
  slices_S6x10_S1x10_1_0 : S6x10.Slices ![1, 0] S1x10
  slices_S6x128x10_S1x128x10_2_0_0 : S6x128x10.Slices ![2, 0, 0] S1x128x10
  slices_S6x10_S1x10_2_0 : S6x10.Slices ![2, 0] S1x10
  slices_S6x128x10_S1x128x10_3_0_0 : S6x128x10.Slices ![3, 0, 0] S1x128x10
  slices_S6x10_S1x10_3_0 : S6x10.Slices ![3, 0] S1x10
  slices_S6x128x10_S1x128x10_4_0_0 : S6x128x10.Slices ![4, 0, 0] S1x128x10
  slices_S6x10_S1x10_4_0 : S6x10.Slices ![4, 0] S1x10
  slices_S6x128x10_S1x128x10_5_0_0 : S6x128x10.Slices ![5, 0, 0] S1x128x10
  slices_S6x10_S1x10_5_0 : S6x10.Slices ![5, 0] S1x10
  gather_S3x8x128_S600000x3x2_S600000x3x128_2_01_n_n_01_2_11128_wf : GatherDims.WF S3x8x128 S600000x3x2 S600000x3x128 [2] [0, 1] [] [0, 1] [] 2 ![1, 1, 128]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  scatter_S256_S50000x1_S50000_n_0_0_1_wf : ScatterDims.WF S256 S50000x1 S50000 [] [0] [0] 1
  scatter_S256x128_S50000x1_S50000x128_1_0_0_1_wf : ScatterDims.WF S256x128 S50000x1 S50000x128 [1] [0] [0] 1
  dot_S256x128_S128x10_S256x10_1_0_0_1_n_n_wf : DotDims.WF S256x128 S128x10 S256x10 [1] [0] [0] [1] [] []

variable [Facts₀]

def gather_S3x8x128_S600000x3x2_S600000x3x128_2_01_n_n_01_2_11128 : GatherDims S3x8x128 S600000x3x2 S600000x3x128 where
  offsetDims := [2]
  collapsedSliceDims := [0, 1]
  operandBatchingDims := []
  startIndicesBatchingDims := []
  startIndexMap := [0, 1]
  indexVectorDim := 2
  sliceSizes := ![1, 1, 128]
  wf := gather_S3x8x128_S600000x3x2_S600000x3x128_2_01_n_n_01_2_11128_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def dot_S256x128_S128x10_S256x10_1_0_0_1_n_n : DotDims S256x128 S128x10 S256x10 where
  lhsContracting := [1]
  rhsContracting := [0]
  lhsNonContracting := [0]
  rhsNonContracting := [1]
  lhsBatch := []
  rhsBatch := []
  wf := dot_S256x128_S128x10_S256x10_1_0_0_1_n_n_wf

class Facts : Prop extends Facts₀ where

variable [Facts]
-- ==== Proof.RunC.lean ====
import proofs.«180497_j12352325943908_1_alg».proof.Proof.Gen.ReferenceIdeal
import Idealize.ShloMosaic.Lib.StableHlo.Run
import Idealize.ShloMosaic.Lib.Pipeline.Frame

set_option maxRecDepth 8192

noncomputable section

namespace Cert.ReferenceIdeal.RunC

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 1 … 25 of @main, in order. -/
abbrev ch0 : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    nullary main_v4 (iotaInDim S3 32 0),
    unary main_arg4 main_v5 ((extractStridedSlice S1x3x8x128 ![0, 0, 0, 0] · slices_S5x3x8x128_S1x3x8x128_0_0_0_0) : (⟨S5x3x8x128, .f32⟩ : BufTy).Contents (Elt F) → (⟨S1x3x8x128, .f32⟩ : BufTy).Contents (Elt F)),
    reshape main_v5 main_v6 rfl shapeCasts_S1x3x8x128_S3x8x128,
    nullary main_c (constantI S_ 32 0#32),
    unary main_c main_v7 (broadcastInDim S3 ![] bcast_S_S3 : (⟨S_, .i32⟩ : BufTy).Contents (Elt F) → (⟨S3, .i32⟩ : BufTy).Contents (Elt F)),
    binary main_v4 main_v7 main_v8 (cmpi .slt : (⟨S3, .i32⟩ : BufTy).Contents (Elt F) → (⟨S3, .i32⟩ : BufTy).Contents (Elt F) → (⟨S3, .i1⟩ : BufTy).Contents (Elt F)),
    nullary main_c_0 (constantI S_ 32 3#32),
    unary main_c_0 main_v9 (broadcastInDim S3 ![] bcast_S_S3 : (⟨S_, .i32⟩ : BufTy).Contents (Elt F) → (⟨S3, .i32⟩ : BufTy).Contents (Elt F)),
    binary main_v4 main_v9 main_v10 (addi : (⟨S3, .i32⟩ : BufTy).Contents (Elt F) → (⟨S3, .i32⟩ : BufTy).Contents (Elt F) → (⟨S3, .i32⟩ : BufTy).Contents (Elt F)),
    ternary main_v8 main_v10 main_v4 main_v11 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    nullary main_c_1 (constantI S_ 32 0#32),
    unary main_c_1 main_v12 (broadcastInDim S600000x3 ![] bcast_S_S600000x3 : (⟨S_, .i32⟩ : BufTy).Contents (Elt F) → (⟨S600000x3, .i32⟩ : BufTy).Contents (Elt F)),
    binary main_arg2 main_v12 main_v13 (cmpi .slt : (⟨S600000x3, .i32⟩ : BufTy).Contents (Elt F) → (⟨S600000x3, .i32⟩ : BufTy).Contents (Elt F) → (⟨S600000x3, .i1⟩ : BufTy).Contents (Elt F)),
    nullary main_c_2 (constantI S_ 32 8#32),
    unary main_c_2 main_v14 (broadcastInDim S600000x3 ![] bcast_S_S600000x3 : (⟨S_, .i32⟩ : BufTy).Contents (Elt F) → (⟨S600000x3, .i32⟩ : BufTy).Contents (Elt F)),
    binary main_arg2 main_v14 main_v15 (addi : (⟨S600000x3, .i32⟩ : BufTy).Contents (Elt F) → (⟨S600000x3, .i32⟩ : BufTy).Contents (Elt F) → (⟨S600000x3, .i32⟩ : BufTy).Contents (Elt F)),
    ternary main_v13 main_v15 main_arg2 main_v16 (select : (⟨S600000x3, .i1⟩ : BufTy).Contents (Elt F) → (⟨S600000x3, .i32⟩ : BufTy).Contents (Elt F) → (⟨S600000x3, .i32⟩ : BufTy).Contents (Elt F) → (⟨S600000x3, .i32⟩ : BufTy).Contents (Elt F)),
    unary main_v11 main_v17 (broadcastInDim S600000x3 ![1] bcast_S3_S600000x3_1 : (⟨S3, .i32⟩ : BufTy).Contents (Elt F) → (⟨S600000x3, .i32⟩ : BufTy).Contents (Elt F)),
    unary main_v17 main_v18 (broadcastInDim S600000x3x1 ![0, 1] bcast_S600000x3_S600000x3x1_0_1 : (⟨S600000x3, .i32⟩ : BufTy).Contents (Elt F) → (⟨S600000x3x1, .i32⟩ : BufTy).Contents (Elt F)),
    unary main_v16 main_v19 (broadcastInDim S600000x3x1 ![0, 1] bcast_S600000x3_S600000x3x1_0_1 : (⟨S600000x3, .i32⟩ : BufTy).Contents (Elt F) → (⟨S600000x3x1, .i32⟩ : BufTy).Contents (Elt F)),
    binary main_v18 main_v19 main_v20 ((fun a b => concatenate S600000x3x2 2 [⟨S600000x3x1, a⟩, ⟨S600000x3x1, b⟩] concatenates_S600000x3x1_S600000x3x1_S600000x3x2_d2) : (⟨S600000x3x1, .i32⟩ : BufTy).Contents (Elt F) → (⟨S600000x3x1, .i32⟩ : BufTy).Contents (Elt F) → (⟨S600000x3x2, .i32⟩ : BufTy).Contents (Elt F)) ]
theorem ch0_sub : (ch0 : List (HloOp τ sig (Elt F))).Forall fun op => op.bufs ⊆ tcRefs τ sig :=
  ⟨unary_bufs_sub .., reshape_bufs_sub .., unary_bufs_sub .., reshape_bufs_sub .., nullary_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub ..⟩
set_option maxHeartbeats 4000000 in
theorem ch0_fresh : ∀ op ∈ (ch0 : List (HloOp τ sig (Elt F))), op.fresh = ∅ := by
  intro _ h; (repeat (cases h with | head => rfl | tail _ h => ?_)); exact nomatch h

set_option maxHeartbeats 4000000 in
/-- Operations 26 … 62 of @main, in order. -/
abbrev ch1 : List (HloOp τ sig (Elt F)) :=
  [ binary main_v6 main_v20 main_v21 ((fun x i => Host.gather gather_S3x8x128_S600000x3x2_S600000x3x128_2_01_n_n_01_2_11128 x i) : (⟨S3x8x128, .f32⟩ : BufTy).Contents (Elt F) → (⟨S600000x3x2, .i32⟩ : BufTy).Contents (Elt F) → (⟨S600000x3x128, .f32⟩ : BufTy).Contents (Elt F)),
    nullary main_cst (constant S_ .f32 0x00000000#32),
    binary main_v21 main_cst main_v22 ((fun x v => Host.reduceAdd x v reducesTo_S600000x3x128_S600000x128_d1 h_S_) : (⟨S600000x3x128, .f32⟩ : BufTy).Contents (Elt F) → (⟨S_, .f32⟩ : BufTy).Contents (Elt F) → (⟨S600000x128, .f32⟩ : BufTy).Contents (Elt F)),
    nullary main_c_3 (constantI S_ 32 0#32),
    unary main_c_3 main_v23 (broadcastInDim S600000 ![] bcast_S_S600000 : (⟨S_, .i32⟩ : BufTy).Contents (Elt F) → (⟨S600000, .i32⟩ : BufTy).Contents (Elt F)),
    binary main_v1 main_v23 main_v24 (cmpi .slt : (⟨S600000, .i32⟩ : BufTy).Contents (Elt F) → (⟨S600000, .i32⟩ : BufTy).Contents (Elt F) → (⟨S600000, .i1⟩ : BufTy).Contents (Elt F)),
    nullary main_c_4 (constantI S_ 32 50000#32),
    unary main_c_4 main_v25 (broadcastInDim S600000 ![] bcast_S_S600000 : (⟨S_, .i32⟩ : BufTy).Contents (Elt F) → (⟨S600000, .i32⟩ : BufTy).Contents (Elt F)),
    binary main_v1 main_v25 main_v26 (addi : (⟨S600000, .i32⟩ : BufTy).Contents (Elt F) → (⟨S600000, .i32⟩ : BufTy).Contents (Elt F) → (⟨S600000, .i32⟩ : BufTy).Contents (Elt F)),
    ternary main_v24 main_v26 main_v1 main_v27 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v27 main_v28 (broadcastInDim S600000x1 ![0] bcast_S600000_S600000x1_0 : (⟨S600000, .i32⟩ : BufTy).Contents (Elt F) → (⟨S600000x1, .i32⟩ : BufTy).Contents (Elt F)),
    binary main_arg0 main_v28 main_v29 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    binary main_v29 main_v22 main_v30 (addf : (⟨S600000x128, .f32⟩ : BufTy).Contents (Elt F) → (⟨S600000x128, .f32⟩ : BufTy).Contents (Elt F) → (⟨S600000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S600000x128, .f32⟩) main_call0_v0) (broadcastInDim S600000x128 ![] bcast_S_S600000x128),
    TRef.binary (TRef.of (T := ⟨S600000x128, .f32⟩) main_v30) (TRef.of (T := ⟨S600000x128, .f32⟩) main_call0_v0) (TRef.of (T := ⟨S600000x128, .f32⟩) main_v31) maximumf,
    nullary main_cst_5 (constant S_ .f32 0x00000000#32),
    unary main_cst_5 main_v32 (broadcastInDim S50000x128 ![] bcast_S_S50000x128 : (⟨S_, .f32⟩ : BufTy).Contents (Elt F) → (⟨S50000x128, .f32⟩ : BufTy).Contents (Elt F)),
    unary main_v3 main_v33 (broadcastInDim S600000x1 ![0] bcast_S600000_S600000x1_0 : (⟨S600000, .i32⟩ : BufTy).Contents (Elt F) → (⟨S600000x1, .i32⟩ : BufTy).Contents (Elt F)),
    ternary main_v32 main_v33 main_v31 main_v34 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_arg0 main_v34 main_v35 (addf : (⟨S50000x128, .f32⟩ : BufTy).Contents (Elt F) → (⟨S50000x128, .f32⟩ : BufTy).Contents (Elt F) → (⟨S50000x128, .f32⟩ : BufTy).Contents (Elt F)),
    unary main_arg5 main_v36 ((extractStridedSlice S1x128x128 ![0, 0, 0] · slices_S5x128x128_S1x128x128_0_0_0) : (⟨S5x128x128, .f32⟩ : BufTy).Contents (Elt F) → (⟨S1x128x128, .f32⟩ : BufTy).Contents (Elt F)),
    reshape main_v36 main_v37 rfl shapeCasts_S1x128x128_S128x128,
    binary main_v35 main_v37 main_v38 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v39 ((extractStridedSlice S1x128 ![0, 0] · slices_S5x128_S1x128_0_0) : (⟨S5x128, .f32⟩ : BufTy).Contents (Elt F) → (⟨S1x128, .f32⟩ : BufTy).Contents (Elt F)),
    reshape main_v39 main_v40 rfl shapeCasts_S1x128_S128,
    unary main_v40 main_v41 (broadcastInDim S1x128 ![1] bcast_S128_S1x128_1 : (⟨S128, .f32⟩ : BufTy).Contents (Elt F) → (⟨S1x128, .f32⟩ : BufTy).Contents (Elt F)),
    unary main_v41 main_v42 (broadcastInDim S50000x128 ![0, 1] bcast_S1x128_S50000x128_0_1 : (⟨S1x128, .f32⟩ : BufTy).Contents (Elt F) → (⟨S50000x128, .f32⟩ : BufTy).Contents (Elt F)),
    binary main_v38 main_v42 main_v43 (addf : (⟨S50000x128, .f32⟩ : BufTy).Contents (Elt F) → (⟨S50000x128, .f32⟩ : BufTy).Contents (Elt F) → (⟨S50000x128, .f32⟩ : BufTy).Contents (Elt F)),
    unary main_arg7 main_v44 ((extractStridedSlice S1x128 ![0, 0] · slices_S5x128_S1x128_0_0) : (⟨S5x128, .f32⟩ : BufTy).Contents (Elt F) → (⟨S1x128, .f32⟩ : BufTy).Contents (Elt F)),
    reshape main_v44 main_v45 rfl shapeCasts_S1x128_S128,
    unary main_arg8 main_v46 ((extractStridedSlice S1x128 ![0, 0] · slices_S5x128_S1x128_0_0) : (⟨S5x128, .f32⟩ : BufTy).Contents (Elt F) → (⟨S1x128, .f32⟩ : BufTy).Contents (Elt F)),
    reshape main_v46 main_v47 rfl shapeCasts_S1x128_S128,
    unary main_arg9 main_v48 ((extractStridedSlice S1x128 ![0, 0] · slices_S5x128_S1x128_0_0) : (⟨S5x128, .f32⟩ : BufTy).Contents (Elt F) → (⟨S1x128, .f32⟩ : BufTy).Contents (Elt F)),
    reshape main_v48 main_v49 rfl shapeCasts_S1x128_S128,
    unary main_arg10 main_v50 ((extractStridedSlice S1x128 ![0, 0] · slices_S5x128_S1x128_0_0) : (⟨S5x128, .f32⟩ : BufTy).Contents (Elt F) → (⟨S1x128, .f32⟩ : BufTy).Contents (Elt F)),
    reshape main_v50 main_v51 rfl shapeCasts_S1x128_S128 ]
theorem ch1_sub : (ch1 : List (HloOp τ sig (Elt F))).Forall fun op => op.bufs ⊆ tcRefs τ sig :=
  ⟨binary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub ..⟩
set_option maxHeartbeats 4000000 in
theorem ch1_fresh : ∀ op ∈ (ch1 : List (HloOp τ sig (Elt F))), op.fresh = ∅ := by
  intro _ h; (repeat (cases h with | head => rfl | tail _ h => ?_)); exact nomatch h

set_option maxHeartbeats 4000000 in
/-- Operations 63 … 116 of @main, in order. -/
abbrev ch2 : List (HloOp τ sig (Elt F)) :=
  [ unary main_v49 main_v52 (broadcastInDim S1x128 ![1] bcast_S128_S1x128_1 : (⟨S128, .f32⟩ : BufTy).Contents (Elt F) → (⟨S1x128, .f32⟩ : BufTy).Contents (Elt F)),
    unary main_v52 main_v53 (broadcastInDim S50000x128 ![0, 1] bcast_S1x128_S50000x128_0_1 : (⟨S1x128, .f32⟩ : BufTy).Contents (Elt F) → (⟨S50000x128, .f32⟩ : BufTy).Contents (Elt F)),
    binary main_v43 main_v53 main_v54 (subf : (⟨S50000x128, .f32⟩ : BufTy).Contents (Elt F) → (⟨S50000x128, .f32⟩ : BufTy).Contents (Elt F) → (⟨S50000x128, .f32⟩ : BufTy).Contents (Elt F)),
    nullary main_cst_6 (constant S_ .f32 0x3727C5AC#32),
    unary main_cst_6 main_v55 (broadcastInDim S128 ![] bcast_S_S128 : (⟨S_, .f32⟩ : BufTy).Contents (Elt F) → (⟨S128, .f32⟩ : BufTy).Contents (Elt F)),
    binary main_v51 main_v55 main_v56 (addf : (⟨S128, .f32⟩ : BufTy).Contents (Elt F) → (⟨S128, .f32⟩ : BufTy).Contents (Elt F) → (⟨S128, .f32⟩ : BufTy).Contents (Elt F)),
    unary main_v56 main_v57 (Host.rsqrt : (⟨S128, .f32⟩ : BufTy).Contents (Elt F) → (⟨S128, .f32⟩ : BufTy).Contents (Elt F)),
    unary main_v57 main_v58 (broadcastInDim S1x128 ![1] bcast_S128_S1x128_1 : (⟨S128, .f32⟩ : BufTy).Contents (Elt F) → (⟨S1x128, .f32⟩ : BufTy).Contents (Elt F)),
    unary main_v58 main_v59 (broadcastInDim S50000x128 ![0, 1] bcast_S1x128_S50000x128_0_1 : (⟨S1x128, .f32⟩ : BufTy).Contents (Elt F) → (⟨S50000x128, .f32⟩ : BufTy).Contents (Elt F)),
    binary main_v54 main_v59 main_v60 (mulf : (⟨S50000x128, .f32⟩ : BufTy).Contents (Elt F) → (⟨S50000x128, .f32⟩ : BufTy).Contents (Elt F) → (⟨S50000x128, .f32⟩ : BufTy).Contents (Elt F)),
    unary main_v45 main_v61 (broadcastInDim S1x128 ![1] bcast_S128_S1x128_1 : (⟨S128, .f32⟩ : BufTy).Contents (Elt F) → (⟨S1x128, .f32⟩ : BufTy).Contents (Elt F)),
    unary main_v61 main_v62 (broadcastInDim S50000x128 ![0, 1] bcast_S1x128_S50000x128_0_1 : (⟨S1x128, .f32⟩ : BufTy).Contents (Elt F) → (⟨S50000x128, .f32⟩ : BufTy).Contents (Elt F)),
    binary main_v60 main_v62 main_v63 (mulf : (⟨S50000x128, .f32⟩ : BufTy).Contents (Elt F) → (⟨S50000x128, .f32⟩ : BufTy).Contents (Elt F) → (⟨S50000x128, .f32⟩ : BufTy).Contents (Elt F)),
    unary main_v47 main_v64 (broadcastInDim S1x128 ![1] bcast_S128_S1x128_1 : (⟨S128, .f32⟩ : BufTy).Contents (Elt F) → (⟨S1x128, .f32⟩ : BufTy).Contents (Elt F)),
    unary main_v64 main_v65 (broadcastInDim S50000x128 ![0, 1] bcast_S1x128_S50000x128_0_1 : (⟨S1x128, .f32⟩ : BufTy).Contents (Elt F) → (⟨S50000x128, .f32⟩ : BufTy).Contents (Elt F)),
    binary main_v63 main_v65 main_v66 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v66) (TRef.of (T := ⟨S50000x128, .f32⟩) main_call1_v0) (TRef.of (T := ⟨S50000x128, .f32⟩) main_v67) maximumf,
    unary main_arg11 main_v68 ((extractStridedSlice S1x128x128 ![0, 0, 0] · slices_S5x128x128_S1x128x128_0_0_0) : (⟨S5x128x128, .f32⟩ : BufTy).Contents (Elt F) → (⟨S1x128x128, .f32⟩ : BufTy).Contents (Elt F)),
    reshape main_v68 main_v69 rfl shapeCasts_S1x128x128_S128x128,
    binary main_v67 main_v69 main_v70 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg12 main_v71 ((extractStridedSlice S1x128 ![0, 0] · slices_S5x128_S1x128_0_0) : (⟨S5x128, .f32⟩ : BufTy).Contents (Elt F) → (⟨S1x128, .f32⟩ : BufTy).Contents (Elt F)),
    reshape main_v71 main_v72 rfl shapeCasts_S1x128_S128,
    unary main_v72 main_v73 (broadcastInDim S1x128 ![1] bcast_S128_S1x128_1 : (⟨S128, .f32⟩ : BufTy).Contents (Elt F) → (⟨S1x128, .f32⟩ : BufTy).Contents (Elt F)),
    unary main_v73 main_v74 (broadcastInDim S50000x128 ![0, 1] bcast_S1x128_S50000x128_0_1 : (⟨S1x128, .f32⟩ : BufTy).Contents (Elt F) → (⟨S50000x128, .f32⟩ : BufTy).Contents (Elt F)),
    binary main_v70 main_v74 main_v75 (addf : (⟨S50000x128, .f32⟩ : BufTy).Contents (Elt F) → (⟨S50000x128, .f32⟩ : BufTy).Contents (Elt F) → (⟨S50000x128, .f32⟩ : BufTy).Contents (Elt F)),
    unary main_arg13 main_v76 ((extractStridedSlice S1x128 ![0, 0] · slices_S5x128_S1x128_0_0) : (⟨S5x128, .f32⟩ : BufTy).Contents (Elt F) → (⟨S1x128, .f32⟩ : BufTy).Contents (Elt F)),
    reshape main_v76 main_v77 rfl shapeCasts_S1x128_S128,
    unary main_arg14 main_v78 ((extractStridedSlice S1x128 ![0, 0] · slices_S5x128_S1x128_0_0) : (⟨S5x128, .f32⟩ : BufTy).Contents (Elt F) → (⟨S1x128, .f32⟩ : BufTy).Contents (Elt F)),
    reshape main_v78 main_v79 rfl shapeCasts_S1x128_S128,
    unary main_arg15 main_v80 ((extractStridedSlice S1x128 ![0, 0] · slices_S5x128_S1x128_0_0) : (⟨S5x128, .f32⟩ : BufTy).Contents (Elt F) → (⟨S1x128, .f32⟩ : BufTy).Contents (Elt F)),
    reshape main_v80 main_v81 rfl shapeCasts_S1x128_S128,
    unary main_arg16 main_v82 ((extractStridedSlice S1x128 ![0, 0] · slices_S5x128_S1x128_0_0) : (⟨S5x128, .f32⟩ : BufTy).Contents (Elt F) → (⟨S1x128, .f32⟩ : BufTy).Contents (Elt F)),
    reshape main_v82 main_v83 rfl shapeCasts_S1x128_S128,
    unary main_v81 main_v84 (broadcastInDim S1x128 ![1] bcast_S128_S1x128_1 : (⟨S128, .f32⟩ : BufTy).Contents (Elt F) → (⟨S1x128, .f32⟩ : BufTy).Contents (Elt F)),
    unary main_v84 main_v85 (broadcastInDim S50000x128 ![0, 1] bcast_S1x128_S50000x128_0_1 : (⟨S1x128, .f32⟩ : BufTy).Contents (Elt F) → (⟨S50000x128, .f32⟩ : BufTy).Contents (Elt F)),
    binary main_v75 main_v85 main_v86 (subf : (⟨S50000x128, .f32⟩ : BufTy).Contents (Elt F) → (⟨S50000x128, .f32⟩ : BufTy).Contents (Elt F) → (⟨S50000x128, .f32⟩ : BufTy).Contents (Elt F)),
    nullary main_cst_7 (constant S_ .f32 0x3727C5AC#32),
    unary main_cst_7 main_v87 (broadcastInDim S128 ![] bcast_S_S128 : (⟨S_, .f32⟩ : BufTy).Contents (Elt F) → (⟨S128, .f32⟩ : BufTy).Contents (Elt F)),
    binary main_v83 main_v87 main_v88 (addf : (⟨S128, .f32⟩ : BufTy).Contents (Elt F) → (⟨S128, .f32⟩ : BufTy).Contents (Elt F) → (⟨S128, .f32⟩ : BufTy).Contents (Elt F)),
    unary main_v88 main_v89 (Host.rsqrt : (⟨S128, .f32⟩ : BufTy).Contents (Elt F) → (⟨S128, .f32⟩ : BufTy).Contents (Elt F)),
    unary main_v89 main_v90 (broadcastInDim S1x128 ![1] bcast_S128_S1x128_1 : (⟨S128, .f32⟩ : BufTy).Contents (Elt F) → (⟨S1x128, .f32⟩ : BufTy).Contents (Elt F)),
    unary main_v90 main_v91 (broadcastInDim S50000x128 ![0, 1] bcast_S1x128_S50000x128_0_1 : (⟨S1x128, .f32⟩ : BufTy).Contents (Elt F) → (⟨S50000x128, .f32⟩ : BufTy).Contents (Elt F)),
    binary main_v86 main_v91 main_v92 (mulf : (⟨S50000x128, .f32⟩ : BufTy).Contents (Elt F) → (⟨S50000x128, .f32⟩ : BufTy).Contents (Elt F) → (⟨S50000x128, .f32⟩ : BufTy).Contents (Elt F)),
    unary main_v77 main_v93 (broadcastInDim S1x128 ![1] bcast_S128_S1x128_1 : (⟨S128, .f32⟩ : BufTy).Contents (Elt F) → (⟨S1x128, .f32⟩ : BufTy).Contents (Elt F)),
    unary main_v93 main_v94 (broadcastInDim S50000x128 ![0, 1] bcast_S1x128_S50000x128_0_1 : (⟨S1x128, .f32⟩ : BufTy).Contents (Elt F) → (⟨S50000x128, .f32⟩ : BufTy).Contents (Elt F)),
    binary main_v92 main_v94 main_v95 (mulf : (⟨S50000x128, .f32⟩ : BufTy).Contents (Elt F) → (⟨S50000x128, .f32⟩ : BufTy).Contents (Elt F) → (⟨S50000x128, .f32⟩ : BufTy).Contents (Elt F)),
    unary main_v79 main_v96 (broadcastInDim S1x128 ![1] bcast_S128_S1x128_1 : (⟨S128, .f32⟩ : BufTy).Contents (Elt F) → (⟨S1x128, .f32⟩ : BufTy).Contents (Elt F)),
    unary main_v96 main_v97 (broadcastInDim S50000x128 ![0, 1] bcast_S1x128_S50000x128_0_1 : (⟨S1x128, .f32⟩ : BufTy).Contents (Elt F) → (⟨S50000x128, .f32⟩ : BufTy).Contents (Elt F)),
    binary main_v95 main_v97 main_v98 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v98) (TRef.of (T := ⟨S50000x128, .f32⟩) main_call2_v0) (TRef.of (T := ⟨S50000x128, .f32⟩) main_v99) maximumf ]
theorem ch2_sub : (ch2 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
set_option maxHeartbeats 4000000 in
theorem ch2_fresh : ∀ op ∈ (ch2 : List (HloOp τ sig (Elt F))), op.fresh = ∅ := by
  intro _ h; (repeat (cases h with | head => rfl | tail _ h => ?_)); exact nomatch h

set_option maxHeartbeats 4000000 in
/-- Operations 117 … 126 of @main, in order. -/
abbrev ch3 : List (HloOp τ sig (Elt F)) :=
  [ unary main_arg4 main_v100 ((extractStridedSlice S1x3x8x128 ![1, 0, 0, 0] · slices_S5x3x8x128_S1x3x8x128_1_0_0_0) : (⟨S5x3x8x128, .f32⟩ : BufTy).Contents (Elt F) → (⟨S1x3x8x128, .f32⟩ : BufTy).Contents (Elt F)),
    reshape main_v100 main_v101 rfl shapeCasts_S1x3x8x128_S3x8x128,
    nullary main_c_8 (constantI S_ 32 0#32),
    unary main_c_8 main_v102 (broadcastInDim S3 ![] bcast_S_S3 : (⟨S_, .i32⟩ : BufTy).Contents (Elt F) → (⟨S3, .i32⟩ : BufTy).Contents (Elt F)),
    binary main_v4 main_v102 main_v103 (cmpi .slt : (⟨S3, .i32⟩ : BufTy).Contents (Elt F) → (⟨S3, .i32⟩ : BufTy).Contents (Elt F) → (⟨S3, .i1⟩ : BufTy).Contents (Elt F)),
    nullary main_c_9 (constantI S_ 32 3#32),
    unary main_c_9 main_v104 (broadcastInDim S3 ![] bcast_S_S3 : (⟨S_, .i32⟩ : BufTy).Contents (Elt F) → (⟨S3, .i32⟩ : BufTy).Contents (Elt F)),
    binary main_v4 main_v104 main_v105 (addi : (⟨S3, .i32⟩ : BufTy).Contents (Elt F) → (⟨S3, .i32⟩ : BufTy).Contents (Elt F) → (⟨S3, .i32⟩ : BufTy).Contents (Elt F)),
    ternary main_v103 main_v105 main_v4 main_v106 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    nullary main_c_10 (constantI S_ 32 0#32) ]
theorem ch3_sub : (ch3 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., nullary_bufs_sub ..⟩
set_option maxHeartbeats 4000000 in
theorem ch3_fresh : ∀ op ∈ (ch3 : List (HloOp τ sig (Elt F))), op.fresh = ∅ := by
  intro _ h; (repeat (cases h with | head => rfl | tail _ h => ?_)); exact nomatch h

set_option maxHeartbeats 4000000 in
/-- Operations 127 … 136 of @main, in order. -/
abbrev ch4 : List (HloOp τ sig (Elt F)) :=
  [ unary main_c_10 main_v107 (broadcastInDim S600000x3 ![] bcast_S_S600000x3 : (⟨S_, .i32⟩ : BufTy).Contents (Elt F) → (⟨S600000x3, .i32⟩ : BufTy).Contents (Elt F)),
    binary main_arg2 main_v107 main_v108 (cmpi .slt : (⟨S600000x3, .i32⟩ : BufTy).Contents (Elt F) → (⟨S600000x3, .i32⟩ : BufTy).Contents (Elt F) → (⟨S600000x3, .i1⟩ : BufTy).Contents (Elt F)),
    nullary main_c_11 (constantI S_ 32 8#32),
    unary main_c_11 main_v109 (broadcastInDim S600000x3 ![] bcast_S_S600000x3 : (⟨S_, .i32⟩ : BufTy).Contents (Elt F) → (⟨S600000x3, .i32⟩ : BufTy).Contents (Elt F)),
    binary main_arg2 main_v109 main_v110 (addi : (⟨S600000x3, .i32⟩ : BufTy).Contents (Elt F) → (⟨S600000x3, .i32⟩ : BufTy).Contents (Elt F) → (⟨S600000x3, .i32⟩ : BufTy).Contents (Elt F)),
    ternary main_v108 main_v110 main_arg2 main_v111 (select : (⟨S600000x3, .i1⟩ : BufTy).Contents (Elt F) → (⟨S600000x3, .i32⟩ : BufTy).Contents (Elt F) → (⟨S600000x3, .i32⟩ : BufTy).Contents (Elt F) → (⟨S600000x3, .i32⟩ : BufTy).Contents (Elt F)),
    unary main_v106 main_v112 (broadcastInDim S600000x3 ![1] bcast_S3_S600000x3_1 : (⟨S3, .i32⟩ : BufTy).Contents (Elt F) → (⟨S600000x3, .i32⟩ : BufTy).Contents (Elt F)),
    unary main_v112 main_v113 (broadcastInDim S600000x3x1 ![0, 1] bcast_S600000x3_S600000x3x1_0_1 : (⟨S600000x3, .i32⟩ : BufTy).Contents (Elt F) → (⟨S600000x3x1, .i32⟩ : BufTy).Contents (Elt F)),
    unary main_v111 main_v114 (broadcastInDim S600000x3x1 ![0, 1] bcast_S600000x3_S600000x3x1_0_1 : (⟨S600000x3, .i32⟩ : BufTy).Contents (Elt F) → (⟨S600000x3x1, .i32⟩ : BufTy).Contents (Elt F)),
    binary main_v113 main_v114 main_v115 ((fun a b => concatenate S600000x3x2 2 [⟨S600000x3x1, a⟩, ⟨S600000x3x1, b⟩] concatenates_S600000x3x1_S600000x3x1_S600000x3x2_d2) : (⟨S600000x3x1, .i32⟩ : BufTy).Contents (Elt F) → (⟨S600000x3x1, .i32⟩ : BufTy).Contents (Elt F) → (⟨S600000x3x2, .i32⟩ : BufTy).Contents (Elt F)) ]
theorem ch4_sub : (ch4 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., unary_bufs_sub .., unary_bufs_sub .., binary_bufs_sub ..⟩
set_option maxHeartbeats 4000000 in
theorem ch4_fresh : ∀ op ∈ (ch4 : List (HloOp τ sig (Elt F))), op.fresh = ∅ := by
  intro _ h; (repeat (cases h with | head => rfl | tail _ h => ?_)); exact nomatch h

set_option maxHeartbeats 4000000 in
/-- Operations 137 … 188 of @main, in order. -/
abbrev ch5 : List (HloOp τ sig (Elt F)) :=
  [ binary main_v101 main_v115 main_v116 ((fun x i => Host.gather gather_S3x8x128_S600000x3x2_S600000x3x128_2_01_n_n_01_2_11128 x i) : (⟨S3x8x128, .f32⟩ : BufTy).Contents (Elt F) → (⟨S600000x3x2, .i32⟩ : BufTy).Contents (Elt F) → (⟨S600000x3x128, .f32⟩ : BufTy).Contents (Elt F)),
    nullary main_cst_12 (constant S_ .f32 0x00000000#32),
    binary main_v116 main_cst_12 main_v117 ((fun x v => Host.reduceAdd x v reducesTo_S600000x3x128_S600000x128_d1 h_S_) : (⟨S600000x3x128, .f32⟩ : BufTy).Contents (Elt F) → (⟨S_, .f32⟩ : BufTy).Contents (Elt F) → (⟨S600000x128, .f32⟩ : BufTy).Contents (Elt F)),
    nullary main_c_13 (constantI S_ 32 0#32),
    unary main_c_13 main_v118 (broadcastInDim S600000 ![] bcast_S_S600000 : (⟨S_, .i32⟩ : BufTy).Contents (Elt F) → (⟨S600000, .i32⟩ : BufTy).Contents (Elt F)),
    binary main_v1 main_v118 main_v119 (cmpi .slt : (⟨S600000, .i32⟩ : BufTy).Contents (Elt F) → (⟨S600000, .i32⟩ : BufTy).Contents (Elt F) → (⟨S600000, .i1⟩ : BufTy).Contents (Elt F)),
    nullary main_c_14 (constantI S_ 32 50000#32),
    unary main_c_14 main_v120 (broadcastInDim S600000 ![] bcast_S_S600000 : (⟨S_, .i32⟩ : BufTy).Contents (Elt F) → (⟨S600000, .i32⟩ : BufTy).Contents (Elt F)),
    binary main_v1 main_v120 main_v121 (addi : (⟨S600000, .i32⟩ : BufTy).Contents (Elt F) → (⟨S600000, .i32⟩ : BufTy).Contents (Elt F) → (⟨S600000, .i32⟩ : BufTy).Contents (Elt F)),
    ternary main_v119 main_v121 main_v1 main_v122 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v122 main_v123 (broadcastInDim S600000x1 ![0] bcast_S600000_S600000x1_0 : (⟨S600000, .i32⟩ : BufTy).Contents (Elt F) → (⟨S600000x1, .i32⟩ : BufTy).Contents (Elt F)),
    binary main_v99 main_v123 main_v124 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    binary main_v124 main_v117 main_v125 (addf : (⟨S600000x128, .f32⟩ : BufTy).Contents (Elt F) → (⟨S600000x128, .f32⟩ : BufTy).Contents (Elt F) → (⟨S600000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S600000x128, .f32⟩) main_call3_v0) (broadcastInDim S600000x128 ![] bcast_S_S600000x128),
    TRef.binary (TRef.of (T := ⟨S600000x128, .f32⟩) main_v125) (TRef.of (T := ⟨S600000x128, .f32⟩) main_call3_v0) (TRef.of (T := ⟨S600000x128, .f32⟩) main_v126) maximumf,
    nullary main_cst_15 (constant S_ .f32 0x00000000#32),
    unary main_cst_15 main_v127 (broadcastInDim S50000x128 ![] bcast_S_S50000x128 : (⟨S_, .f32⟩ : BufTy).Contents (Elt F) → (⟨S50000x128, .f32⟩ : BufTy).Contents (Elt F)),
    unary main_v3 main_v128 (broadcastInDim S600000x1 ![0] bcast_S600000_S600000x1_0 : (⟨S600000, .i32⟩ : BufTy).Contents (Elt F) → (⟨S600000x1, .i32⟩ : BufTy).Contents (Elt F)),
    ternary main_v127 main_v128 main_v126 main_v129 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_v99 main_v129 main_v130 (addf : (⟨S50000x128, .f32⟩ : BufTy).Contents (Elt F) → (⟨S50000x128, .f32⟩ : BufTy).Contents (Elt F) → (⟨S50000x128, .f32⟩ : BufTy).Contents (Elt F)),
    unary main_arg5 main_v131 ((extractStridedSlice S1x128x128 ![1, 0, 0] · slices_S5x128x128_S1x128x128_1_0_0) : (⟨S5x128x128, .f32⟩ : BufTy).Contents (Elt F) → (⟨S1x128x128, .f32⟩ : BufTy).Contents (Elt F)),
    reshape main_v131 main_v132 rfl shapeCasts_S1x128x128_S128x128,
    binary main_v130 main_v132 main_v133 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v134 ((extractStridedSlice S1x128 ![1, 0] · slices_S5x128_S1x128_1_0) : (⟨S5x128, .f32⟩ : BufTy).Contents (Elt F) → (⟨S1x128, .f32⟩ : BufTy).Contents (Elt F)),
    reshape main_v134 main_v135 rfl shapeCasts_S1x128_S128,
    unary main_v135 main_v136 (broadcastInDim S1x128 ![1] bcast_S128_S1x128_1 : (⟨S128, .f32⟩ : BufTy).Contents (Elt F) → (⟨S1x128, .f32⟩ : BufTy).Contents (Elt F)),
    unary main_v136 main_v137 (broadcastInDim S50000x128 ![0, 1] bcast_S1x128_S50000x128_0_1 : (⟨S1x128, .f32⟩ : BufTy).Contents (Elt F) → (⟨S50000x128, .f32⟩ : BufTy).Contents (Elt F)),
    binary main_v133 main_v137 main_v138 (addf : (⟨S50000x128, .f32⟩ : BufTy).Contents (Elt F) → (⟨S50000x128, .f32⟩ : BufTy).Contents (Elt F) → (⟨S50000x128, .f32⟩ : BufTy).Contents (Elt F)),
    unary main_arg7 main_v139 ((extractStridedSlice S1x128 ![1, 0] · slices_S5x128_S1x128_1_0) : (⟨S5x128, .f32⟩ : BufTy).Contents (Elt F) → (⟨S1x128, .f32⟩ : BufTy).Contents (Elt F)),
    reshape main_v139 main_v140 rfl shapeCasts_S1x128_S128,
    unary main_arg8 main_v141 ((extractStridedSlice S1x128 ![1, 0] · slices_S5x128_S1x128_1_0) : (⟨S5x128, .f32⟩ : BufTy).Contents (Elt F) → (⟨S1x128, .f32⟩ : BufTy).Contents (Elt F)),
    reshape main_v141 main_v142 rfl shapeCasts_S1x128_S128,
    unary main_arg9 main_v143 ((extractStridedSlice S1x128 ![1, 0] · slices_S5x128_S1x128_1_0) : (⟨S5x128, .f32⟩ : BufTy).Contents (Elt F) → (⟨S1x128, .f32⟩ : BufTy).Contents (Elt F)),
    reshape main_v143 main_v144 rfl shapeCasts_S1x128_S128,
    unary main_arg10 main_v145 ((extractStridedSlice S1x128 ![1, 0] · slices_S5x128_S1x128_1_0) : (⟨S5x128, .f32⟩ : BufTy).Contents (Elt F) → (⟨S1x128, .f32⟩ : BufTy).Contents (Elt F)),
    reshape main_v145 main_v146 rfl shapeCasts_S1x128_S128,
    unary main_v144 main_v147 (broadcastInDim S1x128 ![1] bcast_S128_S1x128_1 : (⟨S128, .f32⟩ : BufTy).Contents (Elt F) → (⟨S1x128, .f32⟩ : BufTy).Contents (Elt F)),
    unary main_v147 main_v148 (broadcastInDim S50000x128 ![0, 1] bcast_S1x128_S50000x128_0_1 : (⟨S1x128, .f32⟩ : BufTy).Contents (Elt F) → (⟨S50000x128, .f32⟩ : BufTy).Contents (Elt F)),
    binary main_v138 main_v148 main_v149 (subf : (⟨S50000x128, .f32⟩ : BufTy).Contents (Elt F) → (⟨S50000x128, .f32⟩ : BufTy).Contents (Elt F) → (⟨S50000x128, .f32⟩ : BufTy).Contents (Elt F)),
    nullary main_cst_16 (constant S_ .f32 0x3727C5AC#32),
    unary main_cst_16 main_v150 (broadcastInDim S128 ![] bcast_S_S128 : (⟨S_, .f32⟩ : BufTy).Contents (Elt F) → (⟨S128, .f32⟩ : BufTy).Contents (Elt F)),
    binary main_v146 main_v150 main_v151 (addf : (⟨S128, .f32⟩ : BufTy).Contents (Elt F) → (⟨S128, .f32⟩ : BufTy).Contents (Elt F) → (⟨S128, .f32⟩ : BufTy).Contents (Elt F)),
    unary main_v151 main_v152 (Host.rsqrt : (⟨S128, .f32⟩ : BufTy).Contents (Elt F) → (⟨S128, .f32⟩ : BufTy).Contents (Elt F)),
    unary main_v152 main_v153 (broadcastInDim S1x128 ![1] bcast_S128_S1x128_1 : (⟨S128, .f32⟩ : BufTy).Contents (Elt F) → (⟨S1x128, .f32⟩ : BufTy).Contents (Elt F)),
    unary main_v153 main_v154 (broadcastInDim S50000x128 ![0, 1] bcast_S1x128_S50000x128_0_1 : (⟨S1x128, .f32⟩ : BufTy).Contents (Elt F) → (⟨S50000x128, .f32⟩ : BufTy).Contents (Elt F)),
    binary main_v149 main_v154 main_v155 (mulf : (⟨S50000x128, .f32⟩ : BufTy).Contents (Elt F) → (⟨S50000x128, .f32⟩ : BufTy).Contents (Elt F) → (⟨S50000x128, .f32⟩ : BufTy).Contents (Elt F)),
    unary main_v140 main_v156 (broadcastInDim S1x128 ![1] bcast_S128_S1x128_1 : (⟨S128, .f32⟩ : BufTy).Contents (Elt F) → (⟨S1x128, .f32⟩ : BufTy).Contents (Elt F)),
    unary main_v156 main_v157 (broadcastInDim S50000x128 ![0, 1] bcast_S1x128_S50000x128_0_1 : (⟨S1x128, .f32⟩ : BufTy).Contents (Elt F) → (⟨S50000x128, .f32⟩ : BufTy).Contents (Elt F)),
    binary main_v155 main_v157 main_v158 (mulf : (⟨S50000x128, .f32⟩ : BufTy).Contents (Elt F) → (⟨S50000x128, .f32⟩ : BufTy).Contents (Elt F) → (⟨S50000x128, .f32⟩ : BufTy).Contents (Elt F)),
    unary main_v142 main_v159 (broadcastInDim S1x128 ![1] bcast_S128_S1x128_1 : (⟨S128, .f32⟩ : BufTy).Contents (Elt F) → (⟨S1x128, .f32⟩ : BufTy).Contents (Elt F)),
    unary main_v159 main_v160 (broadcastInDim S50000x128 ![0, 1] bcast_S1x128_S50000x128_0_1 : (⟨S1x128, .f32⟩ : BufTy).Contents (Elt F) → (⟨S50000x128, .f32⟩ : BufTy).Contents (Elt F)) ]
theorem ch5_sub : (ch5 : List (HloOp τ sig (Elt F))).Forall fun op => op.bufs ⊆ tcRefs τ sig :=
  ⟨binary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub ..⟩
set_option maxHeartbeats 4000000 in
theorem ch5_fresh : ∀ op ∈ (ch5 : List (HloOp τ sig (Elt F))), op.fresh = ∅ := by
  intro _ h; (repeat (cases h with | head => rfl | tail _ h => ?_)); exact nomatch h

set_option maxHeartbeats 4000000 in
/-- Operations 189 … 227 of @main, in order. -/
abbrev ch6 : List (HloOp τ sig (Elt F)) :=
  [ binary main_v158 main_v160 main_v161 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x128, .f32⟩) main_call4_v0) (broadcastInDim S50000x128 ![] bcast_S_S50000x128),
    TRef.binary (TRef.of (T := ⟨S50000x128, .f32⟩) main_v161) (TRef.of (T := ⟨S50000x128, .f32⟩) main_call4_v0) (TRef.of (T := ⟨S50000x128, .f32⟩) main_v162) maximumf,
    unary main_arg11 main_v163 ((extractStridedSlice S1x128x128 ![1, 0, 0] · slices_S5x128x128_S1x128x128_1_0_0) : (⟨S5x128x128, .f32⟩ : BufTy).Contents (Elt F) → (⟨S1x128x128, .f32⟩ : BufTy).Contents (Elt F)),
    reshape main_v163 main_v164 rfl shapeCasts_S1x128x128_S128x128,
    binary main_v162 main_v164 main_v165 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg12 main_v166 ((extractStridedSlice S1x128 ![1, 0] · slices_S5x128_S1x128_1_0) : (⟨S5x128, .f32⟩ : BufTy).Contents (Elt F) → (⟨S1x128, .f32⟩ : BufTy).Contents (Elt F)),
    reshape main_v166 main_v167 rfl shapeCasts_S1x128_S128,
    unary main_v167 main_v168 (broadcastInDim S1x128 ![1] bcast_S128_S1x128_1 : (⟨S128, .f32⟩ : BufTy).Contents (Elt F) → (⟨S1x128, .f32⟩ : BufTy).Contents (Elt F)),
    unary main_v168 main_v169 (broadcastInDim S50000x128 ![0, 1] bcast_S1x128_S50000x128_0_1 : (⟨S1x128, .f32⟩ : BufTy).Contents (Elt F) → (⟨S50000x128, .f32⟩ : BufTy).Contents (Elt F)),
    binary main_v165 main_v169 main_v170 (addf : (⟨S50000x128, .f32⟩ : BufTy).Contents (Elt F) → (⟨S50000x128, .f32⟩ : BufTy).Contents (Elt F) → (⟨S50000x128, .f32⟩ : BufTy).Contents (Elt F)),
    unary main_arg13 main_v171 ((extractStridedSlice S1x128 ![1, 0] · slices_S5x128_S1x128_1_0) : (⟨S5x128, .f32⟩ : BufTy).Contents (Elt F) → (⟨S1x128, .f32⟩ : BufTy).Contents (Elt F)),
    reshape main_v171 main_v172 rfl shapeCasts_S1x128_S128,
    unary main_arg14 main_v173 ((extractStridedSlice S1x128 ![1, 0] · slices_S5x128_S1x128_1_0) : (⟨S5x128, .f32⟩ : BufTy).Contents (Elt F) → (⟨S1x128, .f32⟩ : BufTy).Contents (Elt F)),
    reshape main_v173 main_v174 rfl shapeCasts_S1x128_S128,
    unary main_arg15 main_v175 ((extractStridedSlice S1x128 ![1, 0] · slices_S5x128_S1x128_1_0) : (⟨S5x128, .f32⟩ : BufTy).Contents (Elt F) → (⟨S1x128, .f32⟩ : BufTy).Contents (Elt F)),
    reshape main_v175 main_v176 rfl shapeCasts_S1x128_S128,
    unary main_arg16 main_v177 ((extractStridedSlice S1x128 ![1, 0] · slices_S5x128_S1x128_1_0) : (⟨S5x128, .f32⟩ : BufTy).Contents (Elt F) → (⟨S1x128, .f32⟩ : BufTy).Contents (Elt F)),
    reshape main_v177 main_v178 rfl shapeCasts_S1x128_S128,
    unary main_v176 main_v179 (broadcastInDim S1x128 ![1] bcast_S128_S1x128_1 : (⟨S128, .f32⟩ : BufTy).Contents (Elt F) → (⟨S1x128, .f32⟩ : BufTy).Contents (Elt F)),
    unary main_v179 main_v180 (broadcastInDim S50000x128 ![0, 1] bcast_S1x128_S50000x128_0_1 : (⟨S1x128, .f32⟩ : BufTy).Contents (Elt F) → (⟨S50000x128, .f32⟩ : BufTy).Contents (Elt F)),
    binary main_v170 main_v180 main_v181 (subf : (⟨S50000x128, .f32⟩ : BufTy).Contents (Elt F) → (⟨S50000x128, .f32⟩ : BufTy).Contents (Elt F) → (⟨S50000x128, .f32⟩ : BufTy).Contents (Elt F)),
    nullary main_cst_17 (constant S_ .f32 0x3727C5AC#32),
    unary main_cst_17 main_v182 (broadcastInDim S128 ![] bcast_S_S128 : (⟨S_, .f32⟩ : BufTy).Contents (Elt F) → (⟨S128, .f32⟩ : BufTy).Contents (Elt F)),
    binary main_v178 main_v182 main_v183 (addf : (⟨S128, .f32⟩ : BufTy).Contents (Elt F) → (⟨S128, .f32⟩ : BufTy).Contents (Elt F) → (⟨S128, .f32⟩ : BufTy).Contents (Elt F)),
    unary main_v183 main_v184 (Host.rsqrt : (⟨S128, .f32⟩ : BufTy).Contents (Elt F) → (⟨S128, .f32⟩ : BufTy).Contents (Elt F)),
    unary main_v184 main_v185 (broadcastInDim S1x128 ![1] bcast_S128_S1x128_1 : (⟨S128, .f32⟩ : BufTy).Contents (Elt F) → (⟨S1x128, .f32⟩ : BufTy).Contents (Elt F)),
    unary main_v185 main_v186 (broadcastInDim S50000x128 ![0, 1] bcast_S1x128_S50000x128_0_1 : (⟨S1x128, .f32⟩ : BufTy).Contents (Elt F) → (⟨S50000x128, .f32⟩ : BufTy).Contents (Elt F)),
    binary main_v181 main_v186 main_v187 (mulf : (⟨S50000x128, .f32⟩ : BufTy).Contents (Elt F) → (⟨S50000x128, .f32⟩ : BufTy).Contents (Elt F) → (⟨S50000x128, .f32⟩ : BufTy).Contents (Elt F)),
    unary main_v172 main_v188 (broadcastInDim S1x128 ![1] bcast_S128_S1x128_1 : (⟨S128, .f32⟩ : BufTy).Contents (Elt F) → (⟨S1x128, .f32⟩ : BufTy).Contents (Elt F)),
    unary main_v188 main_v189 (broadcastInDim S50000x128 ![0, 1] bcast_S1x128_S50000x128_0_1 : (⟨S1x128, .f32⟩ : BufTy).Contents (Elt F) → (⟨S50000x128, .f32⟩ : BufTy).Contents (Elt F)),
    binary main_v187 main_v189 main_v190 (mulf : (⟨S50000x128, .f32⟩ : BufTy).Contents (Elt F) → (⟨S50000x128, .f32⟩ : BufTy).Contents (Elt F) → (⟨S50000x128, .f32⟩ : BufTy).Contents (Elt F)),
    unary main_v174 main_v191 (broadcastInDim S1x128 ![1] bcast_S128_S1x128_1 : (⟨S128, .f32⟩ : BufTy).Contents (Elt F) → (⟨S1x128, .f32⟩ : BufTy).Contents (Elt F)),
    unary main_v191 main_v192 (broadcastInDim S50000x128 ![0, 1] bcast_S1x128_S50000x128_0_1 : (⟨S1x128, .f32⟩ : BufTy).Contents (Elt F) → (⟨S50000x128, .f32⟩ : BufTy).Contents (Elt F)),
    binary main_v190 main_v192 main_v193 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x128, .f32⟩) main_call5_v0) (broadcastInDim S50000x128 ![] bcast_S_S50000x128),
    TRef.binary (TRef.of (T := ⟨S50000x128, .f32⟩) main_v193) (TRef.of (T := ⟨S50000x128, .f32⟩) main_call5_v0) (TRef.of (T := ⟨S50000x128, .f32⟩) main_v194) maximumf ]
theorem ch6_sub : (ch6 : List (HloOp τ sig (Elt F))).Forall fun op => op.bufs ⊆ tcRefs τ sig :=
  ⟨binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
set_option maxHeartbeats 4000000 in
theorem ch6_fresh : ∀ op ∈ (ch6 : List (HloOp τ sig (Elt F))), op.fresh = ∅ := by
  intro _ h; (repeat (cases h with | head => rfl | tail _ h => ?_)); exact nomatch h

set_option maxHeartbeats 4000000 in
/-- Operations 228 … 247 of @main, in order. -/
abbrev ch7 : List (HloOp τ sig (Elt F)) :=
  [ unary main_arg4 main_v195 ((extractStridedSlice S1x3x8x128 ![2, 0, 0, 0] · slices_S5x3x8x128_S1x3x8x128_2_0_0_0) : (⟨S5x3x8x128, .f32⟩ : BufTy).Contents (Elt F) → (⟨S1x3x8x128, .f32⟩ : BufTy).Contents (Elt F)),
    reshape main_v195 main_v196 rfl shapeCasts_S1x3x8x128_S3x8x128,
    nullary main_c_18 (constantI S_ 32 0#32),
    unary main_c_18 main_v197 (broadcastInDim S3 ![] bcast_S_S3 : (⟨S_, .i32⟩ : BufTy).Contents (Elt F) → (⟨S3, .i32⟩ : BufTy).Contents (Elt F)),
    binary main_v4 main_v197 main_v198 (cmpi .slt : (⟨S3, .i32⟩ : BufTy).Contents (Elt F) → (⟨S3, .i32⟩ : BufTy).Contents (Elt F) → (⟨S3, .i1⟩ : BufTy).Contents (Elt F)),
    nullary main_c_19 (constantI S_ 32 3#32),
    unary main_c_19 main_v199 (broadcastInDim S3 ![] bcast_S_S3 : (⟨S_, .i32⟩ : BufTy).Contents (Elt F) → (⟨S3, .i32⟩ : BufTy).Contents (Elt F)),
    binary main_v4 main_v199 main_v200 (addi : (⟨S3, .i32⟩ : BufTy).Contents (Elt F) → (⟨S3, .i32⟩ : BufTy).Contents (Elt F) → (⟨S3, .i32⟩ : BufTy).Contents (Elt F)),
    ternary main_v198 main_v200 main_v4 main_v201 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    nullary main_c_20 (constantI S_ 32 0#32),
    unary main_c_20 main_v202 (broadcastInDim S600000x3 ![] bcast_S_S600000x3 : (⟨S_, .i32⟩ : BufTy).Contents (Elt F) → (⟨S600000x3, .i32⟩ : BufTy).Contents (Elt F)),
    binary main_arg2 main_v202 main_v203 (cmpi .slt : (⟨S600000x3, .i32⟩ : BufTy).Contents (Elt F) → (⟨S600000x3, .i32⟩ : BufTy).Contents (Elt F) → (⟨S600000x3, .i1⟩ : BufTy).Contents (Elt F)),
    nullary main_c_21 (constantI S_ 32 8#32),
    unary main_c_21 main_v204 (broadcastInDim S600000x3 ![] bcast_S_S600000x3 : (⟨S_, .i32⟩ : BufTy).Contents (Elt F) → (⟨S600000x3, .i32⟩ : BufTy).Contents (Elt F)),
    binary main_arg2 main_v204 main_v205 (addi : (⟨S600000x3, .i32⟩ : BufTy).Contents (Elt F) → (⟨S600000x3, .i32⟩ : BufTy).Contents (Elt F) → (⟨S600000x3, .i32⟩ : BufTy).Contents (Elt F)),
    ternary main_v203 main_v205 main_arg2 main_v206 (select : (⟨S600000x3, .i1⟩ : BufTy).Contents (Elt F) → (⟨S600000x3, .i32⟩ : BufTy).Contents (Elt F) → (⟨S600000x3, .i32⟩ : BufTy).Contents (Elt F) → (⟨S600000x3, .i32⟩ : BufTy).Contents (Elt F)),
    unary main_v201 main_v207 (broadcastInDim S600000x3 ![1] bcast_S3_S600000x3_1 : (⟨S3, .i32⟩ : BufTy).Contents (Elt F) → (⟨S600000x3, .i32⟩ : BufTy).Contents (Elt F)),
    unary main_v207 main_v208 (broadcastInDim S600000x3x1 ![0, 1] bcast_S600000x3_S600000x3x1_0_1 : (⟨S600000x3, .i32⟩ : BufTy).Contents (Elt F) → (⟨S600000x3x1, .i32⟩ : BufTy).Contents (Elt F)),
    unary main_v206 main_v209 (broadcastInDim S600000x3x1 ![0, 1] bcast_S600000x3_S600000x3x1_0_1 : (⟨S600000x3, .i32⟩ : BufTy).Contents (Elt F) → (⟨S600000x3x1, .i32⟩ : BufTy).Contents (Elt F)),
    binary main_v208 main_v209 main_v210 ((fun a b => concatenate S600000x3x2 2 [⟨S600000x3x1, a⟩, ⟨S600000x3x1, b⟩] concatenates_S600000x3x1_S600000x3x1_S600000x3x2_d2) : (⟨S600000x3x1, .i32⟩ : BufTy).Contents (Elt F) → (⟨S600000x3x1, .i32⟩ : BufTy).Contents (Elt F) → (⟨S600000x3x2, .i32⟩ : BufTy).Contents (Elt F)) ]
theorem ch7_sub : (ch7 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub ..⟩
set_option maxHeartbeats 4000000 in
theorem ch7_fresh : ∀ op ∈ (ch7 : List (HloOp τ sig (Elt F))), op.fresh = ∅ := by
  intro _ h; (repeat (cases h with | head => rfl | tail _ h => ?_)); exact nomatch h

set_option maxHeartbeats 4000000 in
/-- Operations 248 … 252 of @main, in order. -/
abbrev ch8 : List (HloOp τ sig (Elt F)) :=
  [ binary main_v196 main_v210 main_v211 ((fun x i => Host.gather gather_S3x8x128_S600000x3x2_S600000x3x128_2_01_n_n_01_2_11128 x i) : (⟨S3x8x128, .f32⟩ : BufTy).Contents (Elt F) → (⟨S600000x3x2, .i32⟩ : BufTy).Contents (Elt F) → (⟨S600000x3x128, .f32⟩ : BufTy).Contents (Elt F)),
    nullary main_cst_22 (constant S_ .f32 0x00000000#32),
    binary main_v211 main_cst_22 main_v212 ((fun x v => Host.reduceAdd x v reducesTo_S600000x3x128_S600000x128_d1 h_S_) : (⟨S600000x3x128, .f32⟩ : BufTy).Contents (Elt F) → (⟨S_, .f32⟩ : BufTy).Contents (Elt F) → (⟨S600000x128, .f32⟩ : BufTy).Contents (Elt F)),
    nullary main_c_23 (constantI S_ 32 0#32),
    unary main_c_23 main_v213 (broadcastInDim S600000 ![] bcast_S_S600000 : (⟨S_, .i32⟩ : BufTy).Contents (Elt F) → (⟨S600000, .i32⟩ : BufTy).Contents (Elt F)) ]
theorem ch8_sub : (ch8 : List (HloOp τ sig (Elt F))).Forall fun op => op.bufs ⊆ tcRefs τ sig :=
  ⟨binary_bufs_sub .., nullary_bufs_sub .., binary_bufs_sub .., nullary_bufs_sub .., unary_bufs_sub ..⟩
set_option maxHeartbeats 4000000 in
theorem ch8_fresh : ∀ op ∈ (ch8 : List (HloOp τ sig (Elt F))), op.fresh = ∅ := by
  intro _ h; (repeat (cases h with | head => rfl | tail _ h => ?_)); exact nomatch h

set_option maxHeartbeats 4000000 in
/-- Operations 253 … 316 of @main, in order. -/
abbrev ch9 : List (HloOp τ sig (Elt F)) :=
  [ binary main_v1 main_v213 main_v214 (cmpi .slt : (⟨S600000, .i32⟩ : BufTy).Contents (Elt F) → (⟨S600000, .i32⟩ : BufTy).Contents (Elt F) → (⟨S600000, .i1⟩ : BufTy).Contents (Elt F)),
    nullary main_c_24 (constantI S_ 32 50000#32),
    unary main_c_24 main_v215 (broadcastInDim S600000 ![] bcast_S_S600000 : (⟨S_, .i32⟩ : BufTy).Contents (Elt F) → (⟨S600000, .i32⟩ : BufTy).Contents (Elt F)),
    binary main_v1 main_v215 main_v216 (addi : (⟨S600000, .i32⟩ : BufTy).Contents (Elt F) → (⟨S600000, .i32⟩ : BufTy).Contents (Elt F) → (⟨S600000, .i32⟩ : BufTy).Contents (Elt F)),
    ternary main_v214 main_v216 main_v1 main_v217 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v217 main_v218 (broadcastInDim S600000x1 ![0] bcast_S600000_S600000x1_0 : (⟨S600000, .i32⟩ : BufTy).Contents (Elt F) → (⟨S600000x1, .i32⟩ : BufTy).Contents (Elt F)),
    binary main_v194 main_v218 main_v219 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    binary main_v219 main_v212 main_v220 (addf : (⟨S600000x128, .f32⟩ : BufTy).Contents (Elt F) → (⟨S600000x128, .f32⟩ : BufTy).Contents (Elt F) → (⟨S600000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S600000x128, .f32⟩) main_call6_v0) (broadcastInDim S600000x128 ![] bcast_S_S600000x128),
    TRef.binary (TRef.of (T := ⟨S600000x128, .f32⟩) main_v220) (TRef.of (T := ⟨S600000x128, .f32⟩) main_call6_v0) (TRef.of (T := ⟨S600000x128, .f32⟩) main_v221) maximumf,
    nullary main_cst_25 (constant S_ .f32 0x00000000#32),
    unary main_cst_25 main_v222 (broadcastInDim S50000x128 ![] bcast_S_S50000x128 : (⟨S_, .f32⟩ : BufTy).Contents (Elt F) → (⟨S50000x128, .f32⟩ : BufTy).Contents (Elt F)),
    unary main_v3 main_v223 (broadcastInDim S600000x1 ![0] bcast_S600000_S600000x1_0 : (⟨S600000, .i32⟩ : BufTy).Contents (Elt F) → (⟨S600000x1, .i32⟩ : BufTy).Contents (Elt F)),
    ternary main_v222 main_v223 main_v221 main_v224 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_v194 main_v224 main_v225 (addf : (⟨S50000x128, .f32⟩ : BufTy).Contents (Elt F) → (⟨S50000x128, .f32⟩ : BufTy).Contents (Elt F) → (⟨S50000x128, .f32⟩ : BufTy).Contents (Elt F)),
    unary main_arg5 main_v226 ((extractStridedSlice S1x128x128 ![2, 0, 0] · slices_S5x128x128_S1x128x128_2_0_0) : (⟨S5x128x128, .f32⟩ : BufTy).Contents (Elt F) → (⟨S1x128x128, .f32⟩ : BufTy).Contents (Elt F)),
    reshape main_v226 main_v227 rfl shapeCasts_S1x128x128_S128x128,
    binary main_v225 main_v227 main_v228 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v229 ((extractStridedSlice S1x128 ![2, 0] · slices_S5x128_S1x128_2_0) : (⟨S5x128, .f32⟩ : BufTy).Contents (Elt F) → (⟨S1x128, .f32⟩ : BufTy).Contents (Elt F)),
    reshape main_v229 main_v230 rfl shapeCasts_S1x128_S128,
    unary main_v230 main_v231 (broadcastInDim S1x128 ![1] bcast_S128_S1x128_1 : (⟨S128, .f32⟩ : BufTy).Contents (Elt F) → (⟨S1x128, .f32⟩ : BufTy).Contents (Elt F)),
    unary main_v231 main_v232 (broadcastInDim S50000x128 ![0, 1] bcast_S1x128_S50000x128_0_1 : (⟨S1x128, .f32⟩ : BufTy).Contents (Elt F) → (⟨S50000x128, .f32⟩ : BufTy).Contents (Elt F)),
    binary main_v228 main_v232 main_v233 (addf : (⟨S50000x128, .f32⟩ : BufTy).Contents (Elt F) → (⟨S50000x128, .f32⟩ : BufTy).Contents (Elt F) → (⟨S50000x128, .f32⟩ : BufTy).Contents (Elt F)),
    unary main_arg7 main_v234 ((extractStridedSlice S1x128 ![2, 0] · slices_S5x128_S1x128_2_0) : (⟨S5x128, .f32⟩ : BufTy).Contents (Elt F) → (⟨S1x128, .f32⟩ : BufTy).Contents (Elt F)),
    reshape main_v234 main_v235 rfl shapeCasts_S1x128_S128,
    unary main_arg8 main_v236 ((extractStridedSlice S1x128 ![2, 0] · slices_S5x128_S1x128_2_0) : (⟨S5x128, .f32⟩ : BufTy).Contents (Elt F) → (⟨S1x128, .f32⟩ : BufTy).Contents (Elt F)),
    reshape main_v236 main_v237 rfl shapeCasts_S1x128_S128,
    unary main_arg9 main_v238 ((extractStridedSlice S1x128 ![2, 0] · slices_S5x128_S1x128_2_0) : (⟨S5x128, .f32⟩ : BufTy).Contents (Elt F) → (⟨S1x128, .f32⟩ : BufTy).Contents (Elt F)),
    reshape main_v238 main_v239 rfl shapeCasts_S1x128_S128,
    unary main_arg10 main_v240 ((extractStridedSlice S1x128 ![2, 0] · slices_S5x128_S1x128_2_0) : (⟨S5x128, .f32⟩ : BufTy).Contents (Elt F) → (⟨S1x128, .f32⟩ : BufTy).Contents (Elt F)),
    reshape main_v240 main_v241 rfl shapeCasts_S1x128_S128,
    unary main_v239 main_v242 (broadcastInDim S1x128 ![1] bcast_S128_S1x128_1 : (⟨S128, .f32⟩ : BufTy).Contents (Elt F) → (⟨S1x128, .f32⟩ : BufTy).Contents (Elt F)),
    unary main_v242 main_v243 (broadcastInDim S50000x128 ![0, 1] bcast_S1x128_S50000x128_0_1 : (⟨S1x128, .f32⟩ : BufTy).Contents (Elt F) → (⟨S50000x128, .f32⟩ : BufTy).Contents (Elt F)),
    binary main_v233 main_v243 main_v244 (subf : (⟨S50000x128, .f32⟩ : BufTy).Contents (Elt F) → (⟨S50000x128, .f32⟩ : BufTy).Contents (Elt F) → (⟨S50000x128, .f32⟩ : BufTy).Contents (Elt F)),
    nullary main_cst_26 (constant S_ .f32 0x3727C5AC#32),
    unary main_cst_26 main_v245 (broadcastInDim S128 ![] bcast_S_S128 : (⟨S_, .f32⟩ : BufTy).Contents (Elt F) → (⟨S128, .f32⟩ : BufTy).Contents (Elt F)),
    binary main_v241 main_v245 main_v246 (addf : (⟨S128, .f32⟩ : BufTy).Contents (Elt F) → (⟨S128, .f32⟩ : BufTy).Contents (Elt F) → (⟨S128, .f32⟩ : BufTy).Contents (Elt F)),
    unary main_v246 main_v247 (Host.rsqrt : (⟨S128, .f32⟩ : BufTy).Contents (Elt F) → (⟨S128, .f32⟩ : BufTy).Contents (Elt F)),
    unary main_v247 main_v248 (broadcastInDim S1x128 ![1] bcast_S128_S1x128_1 : (⟨S128, .f32⟩ : BufTy).Contents (Elt F) → (⟨S1x128, .f32⟩ : BufTy).Contents (Elt F)),
    unary main_v248 main_v249 (broadcastInDim S50000x128 ![0, 1] bcast_S1x128_S50000x128_0_1 : (⟨S1x128, .f32⟩ : BufTy).Contents (Elt F) → (⟨S50000x128, .f32⟩ : BufTy).Contents (Elt F)),
    binary main_v244 main_v249 main_v250 (mulf : (⟨S50000x128, .f32⟩ : BufTy).Contents (Elt F) → (⟨S50000x128, .f32⟩ : BufTy).Contents (Elt F) → (⟨S50000x128, .f32⟩ : BufTy).Contents (Elt F)),
    unary main_v235 main_v251 (broadcastInDim S1x128 ![1] bcast_S128_S1x128_1 : (⟨S128, .f32⟩ : BufTy).Contents (Elt F) → (⟨S1x128, .f32⟩ : BufTy).Contents (Elt F)),
    unary main_v251 main_v252 (broadcastInDim S50000x128 ![0, 1] bcast_S1x128_S50000x128_0_1 : (⟨S1x128, .f32⟩ : BufTy).Contents (Elt F) → (⟨S50000x128, .f32⟩ : BufTy).Contents (Elt F)),
    binary main_v250 main_v252 main_v253 (mulf : (⟨S50000x128, .f32⟩ : BufTy).Contents (Elt F) → (⟨S50000x128, .f32⟩ : BufTy).Contents (Elt F) → (⟨S50000x128, .f32⟩ : BufTy).Contents (Elt F)),
    unary main_v237 main_v254 (broadcastInDim S1x128 ![1] bcast_S128_S1x128_1 : (⟨S128, .f32⟩ : BufTy).Contents (Elt F) → (⟨S1x128, .f32⟩ : BufTy).Contents (Elt F)),
    unary main_v254 main_v255 (broadcastInDim S50000x128 ![0, 1] bcast_S1x128_S50000x128_0_1 : (⟨S1x128, .f32⟩ : BufTy).Contents (Elt F) → (⟨S50000x128, .f32⟩ : BufTy).Contents (Elt F)),
    binary main_v253 main_v255 main_v256 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S50000x128, .f32⟩) main_call7_v0) (broadcastInDim S50000x128 ![] bcast_S_S50000x128),
    TRef.binary (TRef.of (T := ⟨S50000x128, .f32⟩) main_v256) (TRef.of (T := ⟨S50000x128, .f32⟩) main_call7_v0) (TRef.of (T := ⟨S50000x128, .f32⟩) main_v257) maximumf,
    unary main_arg11 main_v258 ((extractStridedSlice S1x128x128 ![2, 0, 0] · slices_S5x128x128_S1x128x128_2_0_0) : (⟨S5x128x128, .f32⟩ : BufTy).Contents (Elt F) → (⟨S1x128x128, .f32⟩ : BufTy).Contents (Elt F)),
    reshape main_v258 main_v259 rfl shapeCasts_S1x128x128_S128x128,
    binary main_v257 main_v259 main_v260 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg12 main_v261 ((extractStridedSlice S1x128 ![2, 0] · slices_S5x128_S1x128_2_0) : (⟨S5x128, .f32⟩ : BufTy).Contents (Elt F) → (⟨S1x128, .f32⟩ : BufTy).Contents (Elt F)),
    reshape main_v261 main_v262 rfl shapeCasts_S1x128_S128,
    unary main_v262 main_v263 (broadcastInDim S1x128 ![1] bcast_S128_S1x128_1 : (⟨S128, .f32⟩ : BufTy).Contents (Elt F) → (⟨S1x128, .f32⟩ : BufTy).Contents (Elt F)),
    unary main_v263 main_v264 (broadcastInDim S50000x128 ![0, 1] bcast_S1x128_S50000x128_0_1 : (⟨S1x128, .f32⟩ : BufTy).Contents (Elt F) → (⟨S50000x128, .f32⟩ : BufTy).Contents (Elt F)),
    binary main_v260 main_v264 main_v265 (addf : (⟨S50000x128, .f32⟩ : BufTy).Contents (Elt F) → (⟨S50000x128, .f32⟩ : BufTy).Contents (Elt F) → (⟨S50000x128, .f32⟩ : BufTy).Contents (Elt F)),
    unary main_arg13 main_v266 ((extractStridedSlice S1x128 ![2, 0] · slices_S5x128_S1x128_2_0) : (⟨S5x128, .f32⟩ : BufTy).Contents (Elt F) → (⟨S1x128, .f32⟩ : BufTy).Contents (Elt F)),
    reshape main_v266 main_v267 rfl shapeCasts_S1x128_S128,
    unary main_arg14 main_v268 ((extractStridedSlice S1x128 ![2, 0] · slices_S5x128_S1x128_2_0) : (⟨S5x128, .f32⟩ : BufTy).Contents (Elt F) → (⟨S1x128, .f32⟩ : BufTy).Contents (Elt F)),
    reshape main_v268 main_v269 rfl shapeCasts_S1x128_S128,
    unary main_arg15 main_v270 ((extractStridedSlice S1x128 ![2, 0] · slices_S5x128_S1x128_2_0) : (⟨S5x128, .f32⟩ : BufTy).Contents (Elt F) → (⟨S1x128, .f32⟩ : BufTy).Contents (Elt F)) ]
theorem ch9_sub : (ch9 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub ..⟩
set_option maxHeartbeats 4000000 in
theorem ch9_fresh : ∀ op ∈ (ch9 : List (HloOp τ sig (Elt F))), op.fresh = ∅ := by
  intro _ h; (repeat (cases h with | head => rfl | tail _ h => ?_)); exact nomatch h

set_option maxHeartbeats 4000000 in
/-- Operations 317 … 338 of @main, in order. -/
abbrev ch10 : List (HloOp τ sig (Elt F)) :=
  [ reshape main_v270 main_v271 rfl shapeCasts_S1x128_S128,
    unary main_arg16 main_v272 ((extractStridedSlice S1x128 ![2, 0] · slices_S5x128_S1x128_2_0) : (⟨S5x128, .f32⟩ : BufTy).Contents (Elt F) → (⟨S1x128, .f32⟩ : BufTy).Contents (Elt F)),
    reshape main_v272 main_v273 rfl shapeCasts_S1x128_S128,
    unary main_v271 main_v274 (broadcastInDim S1x128 ![1] bcast_S128_S1x128_1 : (⟨S128, .f32⟩ : BufTy).Contents (Elt F) → (⟨S1x128, .f32⟩ : BufTy).Contents (Elt F)),
    unary main_v274 main_v275 (broadcastInDim S50000x128 ![0, 1] bcast_S1x128_S50000x128_0_1 : (⟨S1x128, .f32⟩ : BufTy).Contents (Elt F) → (⟨S50000x128, .f32⟩ : BufTy).Contents (Elt F)),
    binary main_v265 main_v275 main_v276 (subf : (⟨S50000x128, .f32⟩ : BufTy).Contents (Elt F) → (⟨S50000x128, .f32⟩ : BufTy).Contents (Elt F) → (⟨S50000x128, .f32⟩ : BufTy).Contents (Elt F)),
    nullary main_cst_27 (constant S_ .f32 0x3727C5AC#32),
    unary main_cst_27 main_v277 (broadcastInDim S128 ![] bcast_S_S128 : (⟨S_, .f32⟩ : BufTy).Contents (Elt F) → (⟨S128, .f32⟩ : BufTy).Contents (Elt F)),
    binary main_v273 main_v277 main_v278 (addf : (⟨S128, .f32⟩ : BufTy).Contents (Elt F) → (⟨S128, .f32⟩ : BufTy).Contents (Elt F) → (⟨S128, .f32⟩ : BufTy).Contents (Elt F)),
    unary main_v278 main_v279 (Host.rsqrt : (⟨S128, .f32⟩ : BufTy).Contents (Elt F) → (⟨S128, .f32⟩ : BufTy).Contents (Elt F)),
    unary main_v279 main_v280 (broadcastInDim S1x128 ![1] bcast_S128_S1x128_1 : (⟨S128, .f32⟩ : BufTy).Contents (Elt F) → (⟨S1x128, .f32⟩ : BufTy).Contents (Elt F)),
    unary main_v280 main_v281 (broadcastInDim S50000x128 ![0, 1] bcast_S1x128_S50000x128_0_1 : (⟨S1x128, .f32⟩ : BufTy).Contents (Elt F) → (⟨S50000x128, .f32⟩ : BufTy).Contents (Elt F)),
    binary main_v276 main_v281 main_v282 (mulf : (⟨S50000x128, .f32⟩ : BufTy).Contents (Elt F) → (⟨S50000x128, .f32⟩ : BufTy).Contents (Elt F) → (⟨S50000x128, .f32⟩ : BufTy).Contents (Elt F)),
    unary main_v267 main_v283 (broadcastInDim S1x128 ![1] bcast_S128_S1x128_1 : (⟨S128, .f32⟩ : BufTy).Contents (Elt F) → (⟨S1x128, .f32⟩ : BufTy).Contents (Elt F)),
    unary main_v283 main_v284 (broadcastInDim S50000x128 ![0, 1] bcast_S1x128_S50000x128_0_1 : (⟨S1x128, .f32⟩ : BufTy).Contents (Elt F) → (⟨S50000x128, .f32⟩ : BufTy).Contents (Elt F)),
    binary main_v282 main_v284 main_v285 (mulf : (⟨S50000x128, .f32⟩ : BufTy).Contents (Elt F) → (⟨S50000x128, .f32⟩ : BufTy).Contents (Elt F) → (⟨S50000x128, .f32⟩ : BufTy).Contents (Elt F)),
    unary main_v269 main_v286 (broadcastInDim S1x128 ![1] bcast_S128_S1x128_1 : (⟨S128, .f32⟩ : BufTy).Contents (Elt F) → (⟨S1x128, .f32⟩ : BufTy).Contents (Elt F)),
    unary main_v286 main_v287 (broadcastInDim S50000x128 ![0, 1] bcast_S1x128_S50000x128_0_1 : (⟨S1x128, .f32⟩ : BufTy).Contents (Elt F) → (⟨S50000x128, .f32⟩ : BufTy).Contents (Elt F)),
    binary main_v285 main_v287 main_v288 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S50000x128, .f32⟩) main_call8_v0) (broadcastInDim S50000x128 ![] bcast_S_S50000x128),
    TRef.binary (TRef.of (T := ⟨S50000x128, .f32⟩) main_v288) (TRef.of (T := ⟨S50000x128, .f32⟩) main_call8_v0) (TRef.of (T := ⟨S50000x128, .f32⟩) main_v289) maximumf ]
theorem ch10_sub : (ch10 : List (HloOp τ sig (Elt F))).Forall fun op => op.bufs ⊆ tcRefs τ sig :=
  ⟨reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
set_option maxHeartbeats 4000000 in
theorem ch10_fresh : ∀ op ∈ (ch10 : List (HloOp τ sig (Elt F))), op.fresh = ∅ := by
  intro _ h; (repeat (cases h with | head => rfl | tail _ h => ?_)); exact nomatch h

set_option maxHeartbeats 4000000 in
/-- Operations 339 … 358 of @main, in order. -/
abbrev ch11 : List (HloOp τ sig (Elt F)) :=
  [ unary main_arg4 main_v290 ((extractStridedSlice S1x3x8x128 ![3, 0, 0, 0] · slices_S5x3x8x128_S1x3x8x128_3_0_0_0) : (⟨S5x3x8x128, .f32⟩ : BufTy).Contents (Elt F) → (⟨S1x3x8x128, .f32⟩ : BufTy).Contents (Elt F)),
    reshape main_v290 main_v291 rfl shapeCasts_S1x3x8x128_S3x8x128,
    nullary main_c_28 (constantI S_ 32 0#32),
    unary main_c_28 main_v292 (broadcastInDim S3 ![] bcast_S_S3 : (⟨S_, .i32⟩ : BufTy).Contents (Elt F) → (⟨S3, .i32⟩ : BufTy).Contents (Elt F)),
    binary main_v4 main_v292 main_v293 (cmpi .slt : (⟨S3, .i32⟩ : BufTy).Contents (Elt F) → (⟨S3, .i32⟩ : BufTy).Contents (Elt F) → (⟨S3, .i1⟩ : BufTy).Contents (Elt F)),
    nullary main_c_29 (constantI S_ 32 3#32),
    unary main_c_29 main_v294 (broadcastInDim S3 ![] bcast_S_S3 : (⟨S_, .i32⟩ : BufTy).Contents (Elt F) → (⟨S3, .i32⟩ : BufTy).Contents (Elt F)),
    binary main_v4 main_v294 main_v295 (addi : (⟨S3, .i32⟩ : BufTy).Contents (Elt F) → (⟨S3, .i32⟩ : BufTy).Contents (Elt F) → (⟨S3, .i32⟩ : BufTy).Contents (Elt F)),
    ternary main_v293 main_v295 main_v4 main_v296 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    nullary main_c_30 (constantI S_ 32 0#32),
    unary main_c_30 main_v297 (broadcastInDim S600000x3 ![] bcast_S_S600000x3 : (⟨S_, .i32⟩ : BufTy).Contents (Elt F) → (⟨S600000x3, .i32⟩ : BufTy).Contents (Elt F)),
    binary main_arg2 main_v297 main_v298 (cmpi .slt : (⟨S600000x3, .i32⟩ : BufTy).Contents (Elt F) → (⟨S600000x3, .i32⟩ : BufTy).Contents (Elt F) → (⟨S600000x3, .i1⟩ : BufTy).Contents (Elt F)),
    nullary main_c_31 (constantI S_ 32 8#32),
    unary main_c_31 main_v299 (broadcastInDim S600000x3 ![] bcast_S_S600000x3 : (⟨S_, .i32⟩ : BufTy).Contents (Elt F) → (⟨S600000x3, .i32⟩ : BufTy).Contents (Elt F)),
    binary main_arg2 main_v299 main_v300 (addi : (⟨S600000x3, .i32⟩ : BufTy).Contents (Elt F) → (⟨S600000x3, .i32⟩ : BufTy).Contents (Elt F) → (⟨S600000x3, .i32⟩ : BufTy).Contents (Elt F)),
    ternary main_v298 main_v300 main_arg2 main_v301 (select : (⟨S600000x3, .i1⟩ : BufTy).Contents (Elt F) → (⟨S600000x3, .i32⟩ : BufTy).Contents (Elt F) → (⟨S600000x3, .i32⟩ : BufTy).Contents (Elt F) → (⟨S600000x3, .i32⟩ : BufTy).Contents (Elt F)),
    unary main_v296 main_v302 (broadcastInDim S600000x3 ![1] bcast_S3_S600000x3_1 : (⟨S3, .i32⟩ : BufTy).Contents (Elt F) → (⟨S600000x3, .i32⟩ : BufTy).Contents (Elt F)),
    unary main_v302 main_v303 (broadcastInDim S600000x3x1 ![0, 1] bcast_S600000x3_S600000x3x1_0_1 : (⟨S600000x3, .i32⟩ : BufTy).Contents (Elt F) → (⟨S600000x3x1, .i32⟩ : BufTy).Contents (Elt F)),
    unary main_v301 main_v304 (broadcastInDim S600000x3x1 ![0, 1] bcast_S600000x3_S600000x3x1_0_1 : (⟨S600000x3, .i32⟩ : BufTy).Contents (Elt F) → (⟨S600000x3x1, .i32⟩ : BufTy).Contents (Elt F)),
    binary main_v303 main_v304 main_v305 ((fun a b => concatenate S600000x3x2 2 [⟨S600000x3x1, a⟩, ⟨S600000x3x1, b⟩] concatenates_S600000x3x1_S600000x3x1_S600000x3x2_d2) : (⟨S600000x3x1, .i32⟩ : BufTy).Contents (Elt F) → (⟨S600000x3x1, .i32⟩ : BufTy).Contents (Elt F) → (⟨S600000x3x2, .i32⟩ : BufTy).Contents (Elt F)) ]
theorem ch11_sub : (ch11 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub ..⟩
set_option maxHeartbeats 4000000 in
theorem ch11_fresh : ∀ op ∈ (ch11 : List (HloOp τ sig (Elt F))), op.fresh = ∅ := by
  intro _ h; (repeat (cases h with | head => rfl | tail _ h => ?_)); exact nomatch h

set_option maxHeartbeats 4000000 in
/-- Operations 359 … 380 of @main, in order. -/
abbrev ch12 : List (HloOp τ sig (Elt F)) :=
  [ binary main_v291 main_v305 main_v306 ((fun x i => Host.gather gather_S3x8x128_S600000x3x2_S600000x3x128_2_01_n_n_01_2_11128 x i) : (⟨S3x8x128, .f32⟩ : BufTy).Contents (Elt F) → (⟨S600000x3x2, .i32⟩ : BufTy).Contents (Elt F) → (⟨S600000x3x128, .f32⟩ : BufTy).Contents (Elt F)),
    nullary main_cst_32 (constant S_ .f32 0x00000000#32),
    binary main_v306 main_cst_32 main_v307 ((fun x v => Host.reduceAdd x v reducesTo_S600000x3x128_S600000x128_d1 h_S_) : (⟨S600000x3x128, .f32⟩ : BufTy).Contents (Elt F) → (⟨S_, .f32⟩ : BufTy).Contents (Elt F) → (⟨S600000x128, .f32⟩ : BufTy).Contents (Elt F)),
    nullary main_c_33 (constantI S_ 32 0#32),
    unary main_c_33 main_v308 (broadcastInDim S600000 ![] bcast_S_S600000 : (⟨S_, .i32⟩ : BufTy).Contents (Elt F) → (⟨S600000, .i32⟩ : BufTy).Contents (Elt F)),
    binary main_v1 main_v308 main_v309 (cmpi .slt : (⟨S600000, .i32⟩ : BufTy).Contents (Elt F) → (⟨S600000, .i32⟩ : BufTy).Contents (Elt F) → (⟨S600000, .i1⟩ : BufTy).Contents (Elt F)),
    nullary main_c_34 (constantI S_ 32 50000#32),
    unary main_c_34 main_v310 (broadcastInDim S600000 ![] bcast_S_S600000 : (⟨S_, .i32⟩ : BufTy).Contents (Elt F) → (⟨S600000, .i32⟩ : BufTy).Contents (Elt F)),
    binary main_v1 main_v310 main_v311 (addi : (⟨S600000, .i32⟩ : BufTy).Contents (Elt F) → (⟨S600000, .i32⟩ : BufTy).Contents (Elt F) → (⟨S600000, .i32⟩ : BufTy).Contents (Elt F)),
    ternary main_v309 main_v311 main_v1 main_v312 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v312 main_v313 (broadcastInDim S600000x1 ![0] bcast_S600000_S600000x1_0 : (⟨S600000, .i32⟩ : BufTy).Contents (Elt F) → (⟨S600000x1, .i32⟩ : BufTy).Contents (Elt F)),
    binary main_v289 main_v313 main_v314 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    binary main_v314 main_v307 main_v315 (addf : (⟨S600000x128, .f32⟩ : BufTy).Contents (Elt F) → (⟨S600000x128, .f32⟩ : BufTy).Contents (Elt F) → (⟨S600000x128, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S600000x128, .f32⟩) main_call9_v0) (broadcastInDim S600000x128 ![] bcast_S_S600000x128),
    TRef.binary (TRef.of (T := ⟨S600000x128, .f32⟩) main_v315) (TRef.of (T := ⟨S600000x128, .f32⟩) main_call9_v0) (TRef.of (T := ⟨S600000x128, .f32⟩) main_v316) maximumf,
    nullary main_cst_35 (constant S_ .f32 0x00000000#32),
    unary main_cst_35 main_v317 (broadcastInDim S50000x128 ![] bcast_S_S50000x128 : (⟨S_, .f32⟩ : BufTy).Contents (Elt F) → (⟨S50000x128, .f32⟩ : BufTy).Contents (Elt F)),
    unary main_v3 main_v318 (broadcastInDim S600000x1 ![0] bcast_S600000_S600000x1_0 : (⟨S600000, .i32⟩ : BufTy).Contents (Elt F) → (⟨S600000x1, .i32⟩ : BufTy).Contents (Elt F)),
    ternary main_v317 main_v318 main_v316 main_v319 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_v289 main_v319 main_v320 (addf : (⟨S50000x128, .f32⟩ : BufTy).Contents (Elt F) → (⟨S50000x128, .f32⟩ : BufTy).Contents (Elt F) → (⟨S50000x128, .f32⟩ : BufTy).Contents (Elt F)),
    unary main_arg5 main_v321 ((extractStridedSlice S1x128x128 ![3, 0, 0] · slices_S5x128x128_S1x128x128_3_0_0) : (⟨S5x128x128, .f32⟩ : BufTy).Contents (Elt F) → (⟨S1x128x128, .f32⟩ : BufTy).Contents (Elt F)) ]
theorem ch12_sub : (ch12 : List (HloOp τ sig (Elt F))).Forall fun op => op.bufs ⊆ tcRefs τ sig :=
  ⟨binary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub .., unary_bufs_sub ..⟩
set_option maxHeartbeats 4000000 in
theorem ch12_fresh : ∀ op ∈ (ch12 : List (HloOp τ sig (Elt F))), op.fresh = ∅ := by
  intro _ h; (repeat (cases h with | head => rfl | tail _ h => ?_)); exact nomatch h

set_option maxHeartbeats 4000000 in
/-- Operations 381 … 442 of @main, in order. -/
abbrev ch13 : List (HloOp τ sig (Elt F)) :=
  [ reshape main_v321 main_v322 rfl shapeCasts_S1x128x128_S128x128,
    binary main_v320 main_v322 main_v323 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v324 ((extractStridedSlice S1x128 ![3, 0] · slices_S5x128_S1x128_3_0) : (⟨S5x128, .f32⟩ : BufTy).Contents (Elt F) → (⟨S1x128, .f32⟩ : BufTy).Contents (Elt F)),
    reshape main_v324 main_v325 rfl shapeCasts_S1x128_S128,
    unary main_v325 main_v326 (broadcastInDim S1x128 ![1] bcast_S128_S1x128_1 : (⟨S128, .f32⟩ : BufTy).Contents (Elt F) → (⟨S1x128, .f32⟩ : BufTy).Contents (Elt F)),
    unary main_v326 main_v327 (broadcastInDim S50000x128 ![0, 1] bcast_S1x128_S50000x128_0_1 : (⟨S1x128, .f32⟩ : BufTy).Contents (Elt F) → (⟨S50000x128, .f32⟩ : BufTy).Contents (Elt F)),
    binary main_v323 main_v327 main_v328 (addf : (⟨S50000x128, .f32⟩ : BufTy).Contents (Elt F) → (⟨S50000x128, .f32⟩ : BufTy).Contents (Elt F) → (⟨S50000x128, .f32⟩ : BufTy).Contents (Elt F)),
    unary main_arg7 main_v329 ((extractStridedSlice S1x128 ![3, 0] · slices_S5x128_S1x128_3_0) : (⟨S5x128, .f32⟩ : BufTy).Contents (Elt F) → (⟨S1x128, .f32⟩ : BufTy).Contents (Elt F)),
    reshape main_v329 main_v330 rfl shapeCasts_S1x128_S128,
    unary main_arg8 main_v331 ((extractStridedSlice S1x128 ![3, 0] · slices_S5x128_S1x128_3_0) : (⟨S5x128, .f32⟩ : BufTy).Contents (Elt F) → (⟨S1x128, .f32⟩ : BufTy).Contents (Elt F)),
    reshape main_v331 main_v332 rfl shapeCasts_S1x128_S128,
    unary main_arg9 main_v333 ((extractStridedSlice S1x128 ![3, 0] · slices_S5x128_S1x128_3_0) : (⟨S5x128, .f32⟩ : BufTy).Contents (Elt F) → (⟨S1x128, .f32⟩ : BufTy).Contents (Elt F)),
    reshape main_v333 main_v334 rfl shapeCasts_S1x128_S128,
    unary main_arg10 main_v335 ((extractStridedSlice S1x128 ![3, 0] · slices_S5x128_S1x128_3_0) : (⟨S5x128, .f32⟩ : BufTy).Contents (Elt F) → (⟨S1x128, .f32⟩ : BufTy).Contents (Elt F)),
    reshape main_v335 main_v336 rfl shapeCasts_S1x128_S128,
    unary main_v334 main_v337 (broadcastInDim S1x128 ![1] bcast_S128_S1x128_1 : (⟨S128, .f32⟩ : BufTy).Contents (Elt F) → (⟨S1x128, .f32⟩ : BufTy).Contents (Elt F)),
    unary main_v337 main_v338 (broadcastInDim S50000x128 ![0, 1] bcast_S1x128_S50000x128_0_1 : (⟨S1x128, .f32⟩ : BufTy).Contents (Elt F) → (⟨S50000x128, .f32⟩ : BufTy).Contents (Elt F)),
    binary main_v328 main_v338 main_v339 (subf : (⟨S50000x128, .f32⟩ : BufTy).Contents (Elt F) → (⟨S50000x128, .f32⟩ : BufTy).Contents (Elt F) → (⟨S50000x128, .f32⟩ : BufTy).Contents (Elt F)),
    nullary main_cst_36 (constant S_ .f32 0x3727C5AC#32),
    unary main_cst_36 main_v340 (broadcastInDim S128 ![] bcast_S_S128 : (⟨S_, .f32⟩ : BufTy).Contents (Elt F) → (⟨S128, .f32⟩ : BufTy).Contents (Elt F)),
    binary main_v336 main_v340 main_v341 (addf : (⟨S128, .f32⟩ : BufTy).Contents (Elt F) → (⟨S128, .f32⟩ : BufTy).Contents (Elt F) → (⟨S128, .f32⟩ : BufTy).Contents (Elt F)),
    unary main_v341 main_v342 (Host.rsqrt : (⟨S128, .f32⟩ : BufTy).Contents (Elt F) → (⟨S128, .f32⟩ : BufTy).Contents (Elt F)),
    unary main_v342 main_v343 (broadcastInDim S1x128 ![1] bcast_S128_S1x128_1 : (⟨S128, .f32⟩ : BufTy).Contents (Elt F) → (⟨S1x128, .f32⟩ : BufTy).Contents (Elt F)),
    unary main_v343 main_v344 (broadcastInDim S50000x128 ![0, 1] bcast_S1x128_S50000x128_0_1 : (⟨S1x128, .f32⟩ : BufTy).Contents (Elt F) → (⟨S50000x128, .f32⟩ : BufTy).Contents (Elt F)),
    binary main_v339 main_v344 main_v345 (mulf : (⟨S50000x128, .f32⟩ : BufTy).Contents (Elt F) → (⟨S50000x128, .f32⟩ : BufTy).Contents (Elt F) → (⟨S50000x128, .f32⟩ : BufTy).Contents (Elt F)),
    unary main_v330 main_v346 (broadcastInDim S1x128 ![1] bcast_S128_S1x128_1 : (⟨S128, .f32⟩ : BufTy).Contents (Elt F) → (⟨S1x128, .f32⟩ : BufTy).Contents (Elt F)),
    unary main_v346 main_v347 (broadcastInDim S50000x128 ![0, 1] bcast_S1x128_S50000x128_0_1 : (⟨S1x128, .f32⟩ : BufTy).Contents (Elt F) → (⟨S50000x128, .f32⟩ : BufTy).Contents (Elt F)),
    binary main_v345 main_v347 main_v348 (mulf : (⟨S50000x128, .f32⟩ : BufTy).Contents (Elt F) → (⟨S50000x128, .f32⟩ : BufTy).Contents (Elt F) → (⟨S50000x128, .f32⟩ : BufTy).Contents (Elt F)),
    unary main_v332 main_v349 (broadcastInDim S1x128 ![1] bcast_S128_S1x128_1 : (⟨S128, .f32⟩ : BufTy).Contents (Elt F) → (⟨S1x128, .f32⟩ : BufTy).Contents (Elt F)),
    unary main_v349 main_v350 (broadcastInDim S50000x128 ![0, 1] bcast_S1x128_S50000x128_0_1 : (⟨S1x128, .f32⟩ : BufTy).Contents (Elt F) → (⟨S50000x128, .f32⟩ : BufTy).Contents (Elt F)),
    binary main_v348 main_v350 main_v351 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S50000x128, .f32⟩) main_call10_v0) (broadcastInDim S50000x128 ![] bcast_S_S50000x128),
    TRef.binary (TRef.of (T := ⟨S50000x128, .f32⟩) main_v351) (TRef.of (T := ⟨S50000x128, .f32⟩) main_call10_v0) (TRef.of (T := ⟨S50000x128, .f32⟩) main_v352) maximumf,
    unary main_arg11 main_v353 ((extractStridedSlice S1x128x128 ![3, 0, 0] · slices_S5x128x128_S1x128x128_3_0_0) : (⟨S5x128x128, .f32⟩ : BufTy).Contents (Elt F) → (⟨S1x128x128, .f32⟩ : BufTy).Contents (Elt F)),
    reshape main_v353 main_v354 rfl shapeCasts_S1x128x128_S128x128,
    binary main_v352 main_v354 main_v355 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg12 main_v356 ((extractStridedSlice S1x128 ![3, 0] · slices_S5x128_S1x128_3_0) : (⟨S5x128, .f32⟩ : BufTy).Contents (Elt F) → (⟨S1x128, .f32⟩ : BufTy).Contents (Elt F)),
    reshape main_v356 main_v357 rfl shapeCasts_S1x128_S128,
    unary main_v357 main_v358 (broadcastInDim S1x128 ![1] bcast_S128_S1x128_1 : (⟨S128, .f32⟩ : BufTy).Contents (Elt F) → (⟨S1x128, .f32⟩ : BufTy).Contents (Elt F)),
    unary main_v358 main_v359 (broadcastInDim S50000x128 ![0, 1] bcast_S1x128_S50000x128_0_1 : (⟨S1x128, .f32⟩ : BufTy).Contents (Elt F) → (⟨S50000x128, .f32⟩ : BufTy).Contents (Elt F)),
    binary main_v355 main_v359 main_v360 (addf : (⟨S50000x128, .f32⟩ : BufTy).Contents (Elt F) → (⟨S50000x128, .f32⟩ : BufTy).Contents (Elt F) → (⟨S50000x128, .f32⟩ : BufTy).Contents (Elt F)),
    unary main_arg13 main_v361 ((extractStridedSlice S1x128 ![3, 0] · slices_S5x128_S1x128_3_0) : (⟨S5x128, .f32⟩ : BufTy).Contents (Elt F) → (⟨S1x128, .f32⟩ : BufTy).Contents (Elt F)),
    reshape main_v361 main_v362 rfl shapeCasts_S1x128_S128,
    unary main_arg14 main_v363 ((extractStridedSlice S1x128 ![3, 0] · slices_S5x128_S1x128_3_0) : (⟨S5x128, .f32⟩ : BufTy).Contents (Elt F) → (⟨S1x128, .f32⟩ : BufTy).Contents (Elt F)),
    reshape main_v363 main_v364 rfl shapeCasts_S1x128_S128,
    unary main_arg15 main_v365 ((extractStridedSlice S1x128 ![3, 0] · slices_S5x128_S1x128_3_0) : (⟨S5x128, .f32⟩ : BufTy).Contents (Elt F) → (⟨S1x128, .f32⟩ : BufTy).Contents (Elt F)),
    reshape main_v365 main_v366 rfl shapeCasts_S1x128_S128,
    unary main_arg16 main_v367 ((extractStridedSlice S1x128 ![3, 0] · slices_S5x128_S1x128_3_0) : (⟨S5x128, .f32⟩ : BufTy).Contents (Elt F) → (⟨S1x128, .f32⟩ : BufTy).Contents (Elt F)),
    reshape main_v367 main_v368 rfl shapeCasts_S1x128_S128,
    unary main_v366 main_v369 (broadcastInDim S1x128 ![1] bcast_S128_S1x128_1 : (⟨S128, .f32⟩ : BufTy).Contents (Elt F) → (⟨S1x128, .f32⟩ : BufTy).Contents (Elt F)),
    unary main_v369 main_v370 (broadcastInDim S50000x128 ![0, 1] bcast_S1x128_S50000x128_0_1 : (⟨S1x128, .f32⟩ : BufTy).Contents (Elt F) → (⟨S50000x128, .f32⟩ : BufTy).Contents (Elt F)),
    binary main_v360 main_v370 main_v371 (subf : (⟨S50000x128, .f32⟩ : BufTy).Contents (Elt F) → (⟨S50000x128, .f32⟩ : BufTy).Contents (Elt F) → (⟨S50000x128, .f32⟩ : BufTy).Contents (Elt F)),
    nullary main_cst_37 (constant S_ .f32 0x3727C5AC#32),
    unary main_cst_37 main_v372 (broadcastInDim S128 ![] bcast_S_S128 : (⟨S_, .f32⟩ : BufTy).Contents (Elt F) → (⟨S128, .f32⟩ : BufTy).Contents (Elt F)),
    binary main_v368 main_v372 main_v373 (addf : (⟨S128, .f32⟩ : BufTy).Contents (Elt F) → (⟨S128, .f32⟩ : BufTy).Contents (Elt F) → (⟨S128, .f32⟩ : BufTy).Contents (Elt F)),
    unary main_v373 main_v374 (Host.rsqrt : (⟨S128, .f32⟩ : BufTy).Contents (Elt F) → (⟨S128, .f32⟩ : BufTy).Contents (Elt F)),
    unary main_v374 main_v375 (broadcastInDim S1x128 ![1] bcast_S128_S1x128_1 : (⟨S128, .f32⟩ : BufTy).Contents (Elt F) → (⟨S1x128, .f32⟩ : BufTy).Contents (Elt F)),
    unary main_v375 main_v376 (broadcastInDim S50000x128 ![0, 1] bcast_S1x128_S50000x128_0_1 : (⟨S1x128, .f32⟩ : BufTy).Contents (Elt F) → (⟨S50000x128, .f32⟩ : BufTy).Contents (Elt F)),
    binary main_v371 main_v376 main_v377 (mulf : (⟨S50000x128, .f32⟩ : BufTy).Contents (Elt F) → (⟨S50000x128, .f32⟩ : BufTy).Contents (Elt F) → (⟨S50000x128, .f32⟩ : BufTy).Contents (Elt F)),
    unary main_v362 main_v378 (broadcastInDim S1x128 ![1] bcast_S128_S1x128_1 : (⟨S128, .f32⟩ : BufTy).Contents (Elt F) → (⟨S1x128, .f32⟩ : BufTy).Contents (Elt F)),
    unary main_v378 main_v379 (broadcastInDim S50000x128 ![0, 1] bcast_S1x128_S50000x128_0_1 : (⟨S1x128, .f32⟩ : BufTy).Contents (Elt F) → (⟨S50000x128, .f32⟩ : BufTy).Contents (Elt F)) ]
theorem ch13_sub : (ch13 : List (HloOp τ sig (Elt F))).Forall fun op => op.bufs ⊆ tcRefs τ sig :=
  ⟨reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub ..⟩
set_option maxHeartbeats 4000000 in
theorem ch13_fresh : ∀ op ∈ (ch13 : List (HloOp τ sig (Elt F))), op.fresh = ∅ := by
  intro _ h; (repeat (cases h with | head => rfl | tail _ h => ?_)); exact nomatch h

set_option maxHeartbeats 4000000 in
/-- Operations 443 … 449 of @main, in order. -/
abbrev ch14 : List (HloOp τ sig (Elt F)) :=
  [ binary main_v377 main_v379 main_v380 (mulf : (⟨S50000x128, .f32⟩ : BufTy).Contents (Elt F) → (⟨S50000x128, .f32⟩ : BufTy).Contents (Elt F) → (⟨S50000x128, .f32⟩ : BufTy).Contents (Elt F)),
    unary main_v364 main_v381 (broadcastInDim S1x128 ![1] bcast_S128_S1x128_1 : (⟨S128, .f32⟩ : BufTy).Contents (Elt F) → (⟨S1x128, .f32⟩ : BufTy).Contents (Elt F)),
    unary main_v381 main_v382 (broadcastInDim S50000x128 ![0, 1] bcast_S1x128_S50000x128_0_1 : (⟨S1x128, .f32⟩ : BufTy).Contents (Elt F) → (⟨S50000x128, .f32⟩ : BufTy).Contents (Elt F)),
    binary main_v380 main_v382 main_v383 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S50000x128, .f32⟩) main_call11_v0) (broadcastInDim S50000x128 ![] bcast_S_S50000x128),
    TRef.binary (TRef.of (T := ⟨S50000x128, .f32⟩) main_v383) (TRef.of (T := ⟨S50000x128, .f32⟩) main_call11_v0) (TRef.of (T := ⟨S50000x128, .f32⟩) main_v384) maximumf ]
theorem ch14_sub : (ch14 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub ..⟩
set_option maxHeartbeats 4000000 in
theorem ch14_fresh : ∀ op ∈ (ch14 : List (HloOp τ sig (Elt F))), op.fresh = ∅ := by
  intro _ h; (repeat (cases h with | head => rfl | tail _ h => ?_)); exact nomatch h

set_option maxHeartbeats 4000000 in
/-- Operations 450 … 469 of @main, in order. -/
abbrev ch15 : List (HloOp τ sig (Elt F)) :=
  [ unary main_arg4 main_v385 ((extractStridedSlice S1x3x8x128 ![4, 0, 0, 0] · slices_S5x3x8x128_S1x3x8x128_4_0_0_0) : (⟨S5x3x8x128, .f32⟩ : BufTy).Contents (Elt F) → (⟨S1x3x8x128, .f32⟩ : BufTy).Contents (Elt F)),
    reshape main_v385 main_v386 rfl shapeCasts_S1x3x8x128_S3x8x128,
    nullary main_c_38 (constantI S_ 32 0#32),
    unary main_c_38 main_v387 (broadcastInDim S3 ![] bcast_S_S3 : (⟨S_, .i32⟩ : BufTy).Contents (Elt F) → (⟨S3, .i32⟩ : BufTy).Contents (Elt F)),
    binary main_v4 main_v387 main_v388 (cmpi .slt : (⟨S3, .i32⟩ : BufTy).Contents (Elt F) → (⟨S3, .i32⟩ : BufTy).Contents (Elt F) → (⟨S3, .i1⟩ : BufTy).Contents (Elt F)),
    nullary main_c_39 (constantI S_ 32 3#32),
    unary main_c_39 main_v389 (broadcastInDim S3 ![] bcast_S_S3 : (⟨S_, .i32⟩ : BufTy).Contents (Elt F) → (⟨S3, .i32⟩ : BufTy).Contents (Elt F)),
    binary main_v4 main_v389 main_v390 (addi : (⟨S3, .i32⟩ : BufTy).Contents (Elt F) → (⟨S3, .i32⟩ : BufTy).Contents (Elt F) → (⟨S3, .i32⟩ : BufTy).Contents (Elt F)),
    ternary main_v388 main_v390 main_v4 main_v391 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    nullary main_c_40 (constantI S_ 32 0#32),
    unary main_c_40 main_v392 (broadcastInDim S600000x3 ![] bcast_S_S600000x3 : (⟨S_, .i32⟩ : BufTy).Contents (Elt F) → (⟨S600000x3, .i32⟩ : BufTy).Contents (Elt F)),
    binary main_arg2 main_v392 main_v393 (cmpi .slt : (⟨S600000x3, .i32⟩ : BufTy).Contents (Elt F) → (⟨S600000x3, .i32⟩ : BufTy).Contents (Elt F) → (⟨S600000x3, .i1⟩ : BufTy).Contents (Elt F)),
    nullary main_c_41 (constantI S_ 32 8#32),
    unary main_c_41 main_v394 (broadcastInDim S600000x3 ![] bcast_S_S600000x3 : (⟨S_, .i32⟩ : BufTy).Contents (Elt F) → (⟨S600000x3, .i32⟩ : BufTy).Contents (Elt F)),
    binary main_arg2 main_v394 main_v395 (addi : (⟨S600000x3, .i32⟩ : BufTy).Contents (Elt F) → (⟨S600000x3, .i32⟩ : BufTy).Contents (Elt F) → (⟨S600000x3, .i32⟩ : BufTy).Contents (Elt F)),
    ternary main_v393 main_v395 main_arg2 main_v396 (select : (⟨S600000x3, .i1⟩ : BufTy).Contents (Elt F) → (⟨S600000x3, .i32⟩ : BufTy).Contents (Elt F) → (⟨S600000x3, .i32⟩ : BufTy).Contents (Elt F) → (⟨S600000x3, .i32⟩ : BufTy).Contents (Elt F)),
    unary main_v391 main_v397 (broadcastInDim S600000x3 ![1] bcast_S3_S600000x3_1 : (⟨S3, .i32⟩ : BufTy).Contents (Elt F) → (⟨S600000x3, .i32⟩ : BufTy).Contents (Elt F)),
    unary main_v397 main_v398 (broadcastInDim S600000x3x1 ![0, 1] bcast_S600000x3_S600000x3x1_0_1 : (⟨S600000x3, .i32⟩ : BufTy).Contents (Elt F) → (⟨S600000x3x1, .i32⟩ : BufTy).Contents (Elt F)),
    unary main_v396 main_v399 (broadcastInDim S600000x3x1 ![0, 1] bcast_S600000x3_S600000x3x1_0_1 : (⟨S600000x3, .i32⟩ : BufTy).Contents (Elt F) → (⟨S600000x3x1, .i32⟩ : BufTy).Contents (Elt F)),
    binary main_v398 main_v399 main_v400 ((fun a b => concatenate S600000x3x2 2 [⟨S600000x3x1, a⟩, ⟨S600000x3x1, b⟩] concatenates_S600000x3x1_S600000x3x1_S600000x3x2_d2) : (⟨S600000x3x1, .i32⟩ : BufTy).Contents (Elt F) → (⟨S600000x3x1, .i32⟩ : BufTy).Contents (Elt F) → (⟨S600000x3x2, .i32⟩ : BufTy).Contents (Elt F)) ]
theorem ch15_sub : (ch15 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub ..⟩
set_option maxHeartbeats 4000000 in
theorem ch15_fresh : ∀ op ∈ (ch15 : List (HloOp τ sig (Elt F))), op.fresh = ∅ := by
  intro _ h; (repeat (cases h with | head => rfl | tail _ h => ?_)); exact nomatch h

set_option maxHeartbeats 4000000 in
/-- Operations 470 … 506 of @main, in order. -/
abbrev ch16 : List (HloOp τ sig (Elt F)) :=
  [ binary main_v386 main_v400 main_v401 ((fun x i => Host.gather gather_S3x8x128_S600000x3x2_S600000x3x128_2_01_n_n_01_2_11128 x i) : (⟨S3x8x128, .f32⟩ : BufTy).Contents (Elt F) → (⟨S600000x3x2, .i32⟩ : BufTy).Contents (Elt F) → (⟨S600000x3x128, .f32⟩ : BufTy).Contents (Elt F)),
    nullary main_cst_42 (constant S_ .f32 0x00000000#32),
    binary main_v401 main_cst_42 main_v402 ((fun x v => Host.reduceAdd x v reducesTo_S600000x3x128_S600000x128_d1 h_S_) : (⟨S600000x3x128, .f32⟩ : BufTy).Contents (Elt F) → (⟨S_, .f32⟩ : BufTy).Contents (Elt F) → (⟨S600000x128, .f32⟩ : BufTy).Contents (Elt F)),
    nullary main_c_43 (constantI S_ 32 0#32),
    unary main_c_43 main_v403 (broadcastInDim S600000 ![] bcast_S_S600000 : (⟨S_, .i32⟩ : BufTy).Contents (Elt F) → (⟨S600000, .i32⟩ : BufTy).Contents (Elt F)),
    binary main_v1 main_v403 main_v404 (cmpi .slt : (⟨S600000, .i32⟩ : BufTy).Contents (Elt F) → (⟨S600000, .i32⟩ : BufTy).Contents (Elt F) → (⟨S600000, .i1⟩ : BufTy).Contents (Elt F)),
    nullary main_c_44 (constantI S_ 32 50000#32),
    unary main_c_44 main_v405 (broadcastInDim S600000 ![] bcast_S_S600000 : (⟨S_, .i32⟩ : BufTy).Contents (Elt F) → (⟨S600000, .i32⟩ : BufTy).Contents (Elt F)),
    binary main_v1 main_v405 main_v406 (addi : (⟨S600000, .i32⟩ : BufTy).Contents (Elt F) → (⟨S600000, .i32⟩ : BufTy).Contents (Elt F) → (⟨S600000, .i32⟩ : BufTy).Contents (Elt F)),
    ternary main_v404 main_v406 main_v1 main_v407 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v407 main_v408 (broadcastInDim S600000x1 ![0] bcast_S600000_S600000x1_0 : (⟨S600000, .i32⟩ : BufTy).Contents (Elt F) → (⟨S600000x1, .i32⟩ : BufTy).Contents (Elt F)),
    binary main_v384 main_v408 main_v409 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    binary main_v409 main_v402 main_v410 (addf : (⟨S600000x128, .f32⟩ : BufTy).Contents (Elt F) → (⟨S600000x128, .f32⟩ : BufTy).Contents (Elt F) → (⟨S600000x128, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S600000x128, .f32⟩) main_call12_v0) (broadcastInDim S600000x128 ![] bcast_S_S600000x128),
    TRef.binary (TRef.of (T := ⟨S600000x128, .f32⟩) main_v410) (TRef.of (T := ⟨S600000x128, .f32⟩) main_call12_v0) (TRef.of (T := ⟨S600000x128, .f32⟩) main_v411) maximumf,
    nullary main_cst_45 (constant S_ .f32 0x00000000#32),
    unary main_cst_45 main_v412 (broadcastInDim S50000x128 ![] bcast_S_S50000x128 : (⟨S_, .f32⟩ : BufTy).Contents (Elt F) → (⟨S50000x128, .f32⟩ : BufTy).Contents (Elt F)),
    unary main_v3 main_v413 (broadcastInDim S600000x1 ![0] bcast_S600000_S600000x1_0 : (⟨S600000, .i32⟩ : BufTy).Contents (Elt F) → (⟨S600000x1, .i32⟩ : BufTy).Contents (Elt F)),
    ternary main_v412 main_v413 main_v411 main_v414 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_v384 main_v414 main_v415 (addf : (⟨S50000x128, .f32⟩ : BufTy).Contents (Elt F) → (⟨S50000x128, .f32⟩ : BufTy).Contents (Elt F) → (⟨S50000x128, .f32⟩ : BufTy).Contents (Elt F)),
    unary main_arg5 main_v416 ((extractStridedSlice S1x128x128 ![4, 0, 0] · slices_S5x128x128_S1x128x128_4_0_0) : (⟨S5x128x128, .f32⟩ : BufTy).Contents (Elt F) → (⟨S1x128x128, .f32⟩ : BufTy).Contents (Elt F)),
    reshape main_v416 main_v417 rfl shapeCasts_S1x128x128_S128x128,
    binary main_v415 main_v417 main_v418 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v419 ((extractStridedSlice S1x128 ![4, 0] · slices_S5x128_S1x128_4_0) : (⟨S5x128, .f32⟩ : BufTy).Contents (Elt F) → (⟨S1x128, .f32⟩ : BufTy).Contents (Elt F)),
    reshape main_v419 main_v420 rfl shapeCasts_S1x128_S128,
    unary main_v420 main_v421 (broadcastInDim S1x128 ![1] bcast_S128_S1x128_1 : (⟨S128, .f32⟩ : BufTy).Contents (Elt F) → (⟨S1x128, .f32⟩ : BufTy).Contents (Elt F)),
    unary main_v421 main_v422 (broadcastInDim S50000x128 ![0, 1] bcast_S1x128_S50000x128_0_1 : (⟨S1x128, .f32⟩ : BufTy).Contents (Elt F) → (⟨S50000x128, .f32⟩ : BufTy).Contents (Elt F)),
    binary main_v418 main_v422 main_v423 (addf : (⟨S50000x128, .f32⟩ : BufTy).Contents (Elt F) → (⟨S50000x128, .f32⟩ : BufTy).Contents (Elt F) → (⟨S50000x128, .f32⟩ : BufTy).Contents (Elt F)),
    unary main_arg7 main_v424 ((extractStridedSlice S1x128 ![4, 0] · slices_S5x128_S1x128_4_0) : (⟨S5x128, .f32⟩ : BufTy).Contents (Elt F) → (⟨S1x128, .f32⟩ : BufTy).Contents (Elt F)),
    reshape main_v424 main_v425 rfl shapeCasts_S1x128_S128,
    unary main_arg8 main_v426 ((extractStridedSlice S1x128 ![4, 0] · slices_S5x128_S1x128_4_0) : (⟨S5x128, .f32⟩ : BufTy).Contents (Elt F) → (⟨S1x128, .f32⟩ : BufTy).Contents (Elt F)),
    reshape main_v426 main_v427 rfl shapeCasts_S1x128_S128,
    unary main_arg9 main_v428 ((extractStridedSlice S1x128 ![4, 0] · slices_S5x128_S1x128_4_0) : (⟨S5x128, .f32⟩ : BufTy).Contents (Elt F) → (⟨S1x128, .f32⟩ : BufTy).Contents (Elt F)),
    reshape main_v428 main_v429 rfl shapeCasts_S1x128_S128,
    unary main_arg10 main_v430 ((extractStridedSlice S1x128 ![4, 0] · slices_S5x128_S1x128_4_0) : (⟨S5x128, .f32⟩ : BufTy).Contents (Elt F) → (⟨S1x128, .f32⟩ : BufTy).Contents (Elt F)),
    reshape main_v430 main_v431 rfl shapeCasts_S1x128_S128 ]
theorem ch16_sub : (ch16 : List (HloOp τ sig (Elt F))).Forall fun op => op.bufs ⊆ tcRefs τ sig :=
  ⟨binary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub ..⟩
set_option maxHeartbeats 4000000 in
theorem ch16_fresh : ∀ op ∈ (ch16 : List (HloOp τ sig (Elt F))), op.fresh = ∅ := by
  intro _ h; (repeat (cases h with | head => rfl | tail _ h => ?_)); exact nomatch h

set_option maxHeartbeats 4000000 in
/-- Operations 507 … 560 of @main, in order. -/
abbrev ch17 : List (HloOp τ sig (Elt F)) :=
  [ unary main_v429 main_v432 (broadcastInDim S1x128 ![1] bcast_S128_S1x128_1 : (⟨S128, .f32⟩ : BufTy).Contents (Elt F) → (⟨S1x128, .f32⟩ : BufTy).Contents (Elt F)),
    unary main_v432 main_v433 (broadcastInDim S50000x128 ![0, 1] bcast_S1x128_S50000x128_0_1 : (⟨S1x128, .f32⟩ : BufTy).Contents (Elt F) → (⟨S50000x128, .f32⟩ : BufTy).Contents (Elt F)),
    binary main_v423 main_v433 main_v434 (subf : (⟨S50000x128, .f32⟩ : BufTy).Contents (Elt F) → (⟨S50000x128, .f32⟩ : BufTy).Contents (Elt F) → (⟨S50000x128, .f32⟩ : BufTy).Contents (Elt F)),
    nullary main_cst_46 (constant S_ .f32 0x3727C5AC#32),
    unary main_cst_46 main_v435 (broadcastInDim S128 ![] bcast_S_S128 : (⟨S_, .f32⟩ : BufTy).Contents (Elt F) → (⟨S128, .f32⟩ : BufTy).Contents (Elt F)),
    binary main_v431 main_v435 main_v436 (addf : (⟨S128, .f32⟩ : BufTy).Contents (Elt F) → (⟨S128, .f32⟩ : BufTy).Contents (Elt F) → (⟨S128, .f32⟩ : BufTy).Contents (Elt F)),
    unary main_v436 main_v437 (Host.rsqrt : (⟨S128, .f32⟩ : BufTy).Contents (Elt F) → (⟨S128, .f32⟩ : BufTy).Contents (Elt F)),
    unary main_v437 main_v438 (broadcastInDim S1x128 ![1] bcast_S128_S1x128_1 : (⟨S128, .f32⟩ : BufTy).Contents (Elt F) → (⟨S1x128, .f32⟩ : BufTy).Contents (Elt F)),
    unary main_v438 main_v439 (broadcastInDim S50000x128 ![0, 1] bcast_S1x128_S50000x128_0_1 : (⟨S1x128, .f32⟩ : BufTy).Contents (Elt F) → (⟨S50000x128, .f32⟩ : BufTy).Contents (Elt F)),
    binary main_v434 main_v439 main_v440 (mulf : (⟨S50000x128, .f32⟩ : BufTy).Contents (Elt F) → (⟨S50000x128, .f32⟩ : BufTy).Contents (Elt F) → (⟨S50000x128, .f32⟩ : BufTy).Contents (Elt F)),
    unary main_v425 main_v441 (broadcastInDim S1x128 ![1] bcast_S128_S1x128_1 : (⟨S128, .f32⟩ : BufTy).Contents (Elt F) → (⟨S1x128, .f32⟩ : BufTy).Contents (Elt F)),
    unary main_v441 main_v442 (broadcastInDim S50000x128 ![0, 1] bcast_S1x128_S50000x128_0_1 : (⟨S1x128, .f32⟩ : BufTy).Contents (Elt F) → (⟨S50000x128, .f32⟩ : BufTy).Contents (Elt F)),
    binary main_v440 main_v442 main_v443 (mulf : (⟨S50000x128, .f32⟩ : BufTy).Contents (Elt F) → (⟨S50000x128, .f32⟩ : BufTy).Contents (Elt F) → (⟨S50000x128, .f32⟩ : BufTy).Contents (Elt F)),
    unary main_v427 main_v444 (broadcastInDim S1x128 ![1] bcast_S128_S1x128_1 : (⟨S128, .f32⟩ : BufTy).Contents (Elt F) → (⟨S1x128, .f32⟩ : BufTy).Contents (Elt F)),
    unary main_v444 main_v445 (broadcastInDim S50000x128 ![0, 1] bcast_S1x128_S50000x128_0_1 : (⟨S1x128, .f32⟩ : BufTy).Contents (Elt F) → (⟨S50000x128, .f32⟩ : BufTy).Contents (Elt F)),
    binary main_v443 main_v445 main_v446 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S50000x128, .f32⟩) main_call13_v0) (broadcastInDim S50000x128 ![] bcast_S_S50000x128),
    TRef.binary (TRef.of (T := ⟨S50000x128, .f32⟩) main_v446) (TRef.of (T := ⟨S50000x128, .f32⟩) main_call13_v0) (TRef.of (T := ⟨S50000x128, .f32⟩) main_v447) maximumf,
    unary main_arg11 main_v448 ((extractStridedSlice S1x128x128 ![4, 0, 0] · slices_S5x128x128_S1x128x128_4_0_0) : (⟨S5x128x128, .f32⟩ : BufTy).Contents (Elt F) → (⟨S1x128x128, .f32⟩ : BufTy).Contents (Elt F)),
    reshape main_v448 main_v449 rfl shapeCasts_S1x128x128_S128x128,
    binary main_v447 main_v449 main_v450 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg12 main_v451 ((extractStridedSlice S1x128 ![4, 0] · slices_S5x128_S1x128_4_0) : (⟨S5x128, .f32⟩ : BufTy).Contents (Elt F) → (⟨S1x128, .f32⟩ : BufTy).Contents (Elt F)),
    reshape main_v451 main_v452 rfl shapeCasts_S1x128_S128,
    unary main_v452 main_v453 (broadcastInDim S1x128 ![1] bcast_S128_S1x128_1 : (⟨S128, .f32⟩ : BufTy).Contents (Elt F) → (⟨S1x128, .f32⟩ : BufTy).Contents (Elt F)),
    unary main_v453 main_v454 (broadcastInDim S50000x128 ![0, 1] bcast_S1x128_S50000x128_0_1 : (⟨S1x128, .f32⟩ : BufTy).Contents (Elt F) → (⟨S50000x128, .f32⟩ : BufTy).Contents (Elt F)),
    binary main_v450 main_v454 main_v455 (addf : (⟨S50000x128, .f32⟩ : BufTy).Contents (Elt F) → (⟨S50000x128, .f32⟩ : BufTy).Contents (Elt F) → (⟨S50000x128, .f32⟩ : BufTy).Contents (Elt F)),
    unary main_arg13 main_v456 ((extractStridedSlice S1x128 ![4, 0] · slices_S5x128_S1x128_4_0) : (⟨S5x128, .f32⟩ : BufTy).Contents (Elt F) → (⟨S1x128, .f32⟩ : BufTy).Contents (Elt F)),
    reshape main_v456 main_v457 rfl shapeCasts_S1x128_S128,
    unary main_arg14 main_v458 ((extractStridedSlice S1x128 ![4, 0] · slices_S5x128_S1x128_4_0) : (⟨S5x128, .f32⟩ : BufTy).Contents (Elt F) → (⟨S1x128, .f32⟩ : BufTy).Contents (Elt F)),
    reshape main_v458 main_v459 rfl shapeCasts_S1x128_S128,
    unary main_arg15 main_v460 ((extractStridedSlice S1x128 ![4, 0] · slices_S5x128_S1x128_4_0) : (⟨S5x128, .f32⟩ : BufTy).Contents (Elt F) → (⟨S1x128, .f32⟩ : BufTy).Contents (Elt F)),
    reshape main_v460 main_v461 rfl shapeCasts_S1x128_S128,
    unary main_arg16 main_v462 ((extractStridedSlice S1x128 ![4, 0] · slices_S5x128_S1x128_4_0) : (⟨S5x128, .f32⟩ : BufTy).Contents (Elt F) → (⟨S1x128, .f32⟩ : BufTy).Contents (Elt F)),
    reshape main_v462 main_v463 rfl shapeCasts_S1x128_S128,
    unary main_v461 main_v464 (broadcastInDim S1x128 ![1] bcast_S128_S1x128_1 : (⟨S128, .f32⟩ : BufTy).Contents (Elt F) → (⟨S1x128, .f32⟩ : BufTy).Contents (Elt F)),
    unary main_v464 main_v465 (broadcastInDim S50000x128 ![0, 1] bcast_S1x128_S50000x128_0_1 : (⟨S1x128, .f32⟩ : BufTy).Contents (Elt F) → (⟨S50000x128, .f32⟩ : BufTy).Contents (Elt F)),
    binary main_v455 main_v465 main_v466 (subf : (⟨S50000x128, .f32⟩ : BufTy).Contents (Elt F) → (⟨S50000x128, .f32⟩ : BufTy).Contents (Elt F) → (⟨S50000x128, .f32⟩ : BufTy).Contents (Elt F)),
    nullary main_cst_47 (constant S_ .f32 0x3727C5AC#32),
    unary main_cst_47 main_v467 (broadcastInDim S128 ![] bcast_S_S128 : (⟨S_, .f32⟩ : BufTy).Contents (Elt F) → (⟨S128, .f32⟩ : BufTy).Contents (Elt F)),
    binary main_v463 main_v467 main_v468 (addf : (⟨S128, .f32⟩ : BufTy).Contents (Elt F) → (⟨S128, .f32⟩ : BufTy).Contents (Elt F) → (⟨S128, .f32⟩ : BufTy).Contents (Elt F)),
    unary main_v468 main_v469 (Host.rsqrt : (⟨S128, .f32⟩ : BufTy).Contents (Elt F) → (⟨S128, .f32⟩ : BufTy).Contents (Elt F)),
    unary main_v469 main_v470 (broadcastInDim S1x128 ![1] bcast_S128_S1x128_1 : (⟨S128, .f32⟩ : BufTy).Contents (Elt F) → (⟨S1x128, .f32⟩ : BufTy).Contents (Elt F)),
    unary main_v470 main_v471 (broadcastInDim S50000x128 ![0, 1] bcast_S1x128_S50000x128_0_1 : (⟨S1x128, .f32⟩ : BufTy).Contents (Elt F) → (⟨S50000x128, .f32⟩ : BufTy).Contents (Elt F)),
    binary main_v466 main_v471 main_v472 (mulf : (⟨S50000x128, .f32⟩ : BufTy).Contents (Elt F) → (⟨S50000x128, .f32⟩ : BufTy).Contents (Elt F) → (⟨S50000x128, .f32⟩ : BufTy).Contents (Elt F)),
    unary main_v457 main_v473 (broadcastInDim S1x128 ![1] bcast_S128_S1x128_1 : (⟨S128, .f32⟩ : BufTy).Contents (Elt F) → (⟨S1x128, .f32⟩ : BufTy).Contents (Elt F)),
    unary main_v473 main_v474 (broadcastInDim S50000x128 ![0, 1] bcast_S1x128_S50000x128_0_1 : (⟨S1x128, .f32⟩ : BufTy).Contents (Elt F) → (⟨S50000x128, .f32⟩ : BufTy).Contents (Elt F)),
    binary main_v472 main_v474 main_v475 (mulf : (⟨S50000x128, .f32⟩ : BufTy).Contents (Elt F) → (⟨S50000x128, .f32⟩ : BufTy).Contents (Elt F) → (⟨S50000x128, .f32⟩ : BufTy).Contents (Elt F)),
    unary main_v459 main_v476 (broadcastInDim S1x128 ![1] bcast_S128_S1x128_1 : (⟨S128, .f32⟩ : BufTy).Contents (Elt F) → (⟨S1x128, .f32⟩ : BufTy).Contents (Elt F)),
    unary main_v476 main_v477 (broadcastInDim S50000x128 ![0, 1] bcast_S1x128_S50000x128_0_1 : (⟨S1x128, .f32⟩ : BufTy).Contents (Elt F) → (⟨S50000x128, .f32⟩ : BufTy).Contents (Elt F)),
    binary main_v475 main_v477 main_v478 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S50000x128, .f32⟩) main_call14_v0) (broadcastInDim S50000x128 ![] bcast_S_S50000x128),
    TRef.binary (TRef.of (T := ⟨S50000x128, .f32⟩) main_v478) (TRef.of (T := ⟨S50000x128, .f32⟩) main_call14_v0) (TRef.of (T := ⟨S50000x128, .f32⟩) main_v479) maximumf ]
theorem ch17_sub : (ch17 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
set_option maxHeartbeats 4000000 in
theorem ch17_fresh : ∀ op ∈ (ch17 : List (HloOp τ sig (Elt F))), op.fresh = ∅ := by
  intro _ h; (repeat (cases h with | head => rfl | tail _ h => ?_)); exact nomatch h

set_option maxHeartbeats 4000000 in
/-- Operations 561 … 570 of @main, in order. -/
abbrev ch18 : List (HloOp τ sig (Elt F)) :=
  [ nullary main_cst_48 (constant S_ .f32 0x3F800000#32),
    unary main_cst_48 main_v480 (broadcastInDim S50000 ![] bcast_S_S50000 : (⟨S_, .f32⟩ : BufTy).Contents (Elt F) → (⟨S50000, .f32⟩ : BufTy).Contents (Elt F)),
    nullary main_cst_49 (constant S_ .f32 0x00000000#32),
    unary main_cst_49 main_v481 (broadcastInDim S256 ![] bcast_S_S256 : (⟨S_, .f32⟩ : BufTy).Contents (Elt F) → (⟨S256, .f32⟩ : BufTy).Contents (Elt F)),
    unary main_arg3 main_v482 (broadcastInDim S50000x1 ![0] bcast_S50000_S50000x1_0 : (⟨S50000, .i32⟩ : BufTy).Contents (Elt F) → (⟨S50000x1, .i32⟩ : BufTy).Contents (Elt F)),
    ternary main_v481 main_v482 main_v480 main_v483 ((fun x i u => Host.scatterAdd scatter_S256_S50000x1_S50000_n_0_0_1 x i u) : (⟨S256, .f32⟩ : BufTy).Contents (Elt F) → (⟨S50000x1, .i32⟩ : BufTy).Contents (Elt F) → (⟨S50000, .f32⟩ : BufTy).Contents (Elt F) → (⟨S256, .f32⟩ : BufTy).Contents (Elt F)),
    nullary main_cst_50 (constant S_ .f32 0x3F800000#32),
    unary main_cst_50 main_v484 (broadcastInDim S256 ![] bcast_S_S256 : (⟨S_, .f32⟩ : BufTy).Contents (Elt F) → (⟨S256, .f32⟩ : BufTy).Contents (Elt F)),
    binary main_v483 main_v484 main_v485 (maximumf : (⟨S256, .f32⟩ : BufTy).Contents (Elt F) → (⟨S256, .f32⟩ : BufTy).Contents (Elt F) → (⟨S256, .f32⟩ : BufTy).Contents (Elt F)),
    nullary main_cst_51 (constant S_ .f32 0x3F800000#32) ]
theorem ch18_sub : (ch18 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub ..⟩
set_option maxHeartbeats 4000000 in
theorem ch18_fresh : ∀ op ∈ (ch18 : List (HloOp τ sig (Elt F))), op.fresh = ∅ := by
  intro _ h; (repeat (cases h with | head => rfl | tail _ h => ?_)); exact nomatch h

set_option maxHeartbeats 4000000 in
/-- Operations 571 … 630 of @main, in order. -/
abbrev ch19 : List (HloOp τ sig (Elt F)) :=
  [ unary main_cst_51 main_v486 (broadcastInDim S256 ![] bcast_S_S256 : (⟨S_, .f32⟩ : BufTy).Contents (Elt F) → (⟨S256, .f32⟩ : BufTy).Contents (Elt F)),
    binary main_v486 main_v485 main_v487 (Host.divf : (⟨S256, .f32⟩ : BufTy).Contents (Elt F) → (⟨S256, .f32⟩ : BufTy).Contents (Elt F) → (⟨S256, .f32⟩ : BufTy).Contents (Elt F)),
    nullary main_cst_52 (constant S_ .f32 0x00000000#32),
    unary main_cst_52 main_v488 (broadcastInDim S256x10 ![] bcast_S_S256x10 : (⟨S_, .f32⟩ : BufTy).Contents (Elt F) → (⟨S256x10, .f32⟩ : BufTy).Contents (Elt F)),
    nullary main_cst_53 (constant S_ .f32 0x00000000#32),
    unary main_cst_53 main_v489 (broadcastInDim S256x128 ![] bcast_S_S256x128 : (⟨S_, .f32⟩ : BufTy).Contents (Elt F) → (⟨S256x128, .f32⟩ : BufTy).Contents (Elt F)),
    unary main_arg3 main_v490 (broadcastInDim S50000x1 ![0] bcast_S50000_S50000x1_0 : (⟨S50000, .i32⟩ : BufTy).Contents (Elt F) → (⟨S50000x1, .i32⟩ : BufTy).Contents (Elt F)),
    ternary main_v489 main_v490 main_arg0 main_v491 ((fun x i u => Host.scatterAdd scatter_S256x128_S50000x1_S50000x128_1_0_0_1 x i u) : (⟨S256x128, .f32⟩ : BufTy).Contents (Elt F) → (⟨S50000x1, .i32⟩ : BufTy).Contents (Elt F) → (⟨S50000x128, .f32⟩ : BufTy).Contents (Elt F) → (⟨S256x128, .f32⟩ : BufTy).Contents (Elt F)),
    unary main_v487 main_v492 (broadcastInDim S256x1 ![0] bcast_S256_S256x1_0 : (⟨S256, .f32⟩ : BufTy).Contents (Elt F) → (⟨S256x1, .f32⟩ : BufTy).Contents (Elt F)),
    unary main_v492 main_v493 (broadcastInDim S256x128 ![0, 1] bcast_S256x1_S256x128_0_1 : (⟨S256x1, .f32⟩ : BufTy).Contents (Elt F) → (⟨S256x128, .f32⟩ : BufTy).Contents (Elt F)),
    binary main_v491 main_v493 main_v494 (mulf : (⟨S256x128, .f32⟩ : BufTy).Contents (Elt F) → (⟨S256x128, .f32⟩ : BufTy).Contents (Elt F) → (⟨S256x128, .f32⟩ : BufTy).Contents (Elt F)),
    unary main_arg17 main_v495 ((extractStridedSlice S1x128x10 ![0, 0, 0] · slices_S6x128x10_S1x128x10_0_0_0) : (⟨S6x128x10, .f32⟩ : BufTy).Contents (Elt F) → (⟨S1x128x10, .f32⟩ : BufTy).Contents (Elt F)),
    reshape main_v495 main_v496 rfl shapeCasts_S1x128x10_S128x10,
    binary main_v494 main_v496 main_v497 ((fun l r => Host.dotGeneral dot_S256x128_S128x10_S256x10_1_0_0_1_n_n none l r) : (⟨S256x128, .f32⟩ : BufTy).Contents (Elt F) → (⟨S128x10, .f32⟩ : BufTy).Contents (Elt F) → (⟨S256x10, .f32⟩ : BufTy).Contents (Elt F)),
    binary main_v488 main_v497 main_v498 (addf : (⟨S256x10, .f32⟩ : BufTy).Contents (Elt F) → (⟨S256x10, .f32⟩ : BufTy).Contents (Elt F) → (⟨S256x10, .f32⟩ : BufTy).Contents (Elt F)),
    unary main_arg18 main_v499 ((extractStridedSlice S1x10 ![0, 0] · slices_S6x10_S1x10_0_0) : (⟨S6x10, .f32⟩ : BufTy).Contents (Elt F) → (⟨S1x10, .f32⟩ : BufTy).Contents (Elt F)),
    reshape main_v499 main_v500 rfl shapeCasts_S1x10_S10,
    unary main_v500 main_v501 (broadcastInDim S1x10 ![1] bcast_S10_S1x10_1 : (⟨S10, .f32⟩ : BufTy).Contents (Elt F) → (⟨S1x10, .f32⟩ : BufTy).Contents (Elt F)),
    unary main_v501 main_v502 (broadcastInDim S256x10 ![0, 1] bcast_S1x10_S256x10_0_1 : (⟨S1x10, .f32⟩ : BufTy).Contents (Elt F) → (⟨S256x10, .f32⟩ : BufTy).Contents (Elt F)),
    binary main_v498 main_v502 main_v503 (addf : (⟨S256x10, .f32⟩ : BufTy).Contents (Elt F) → (⟨S256x10, .f32⟩ : BufTy).Contents (Elt F) → (⟨S256x10, .f32⟩ : BufTy).Contents (Elt F)),
    nullary main_cst_54 (constant S_ .f32 0x00000000#32),
    unary main_cst_54 main_v504 (broadcastInDim S256x128 ![] bcast_S_S256x128 : (⟨S_, .f32⟩ : BufTy).Contents (Elt F) → (⟨S256x128, .f32⟩ : BufTy).Contents (Elt F)),
    unary main_arg3 main_v505 (broadcastInDim S50000x1 ![0] bcast_S50000_S50000x1_0 : (⟨S50000, .i32⟩ : BufTy).Contents (Elt F) → (⟨S50000x1, .i32⟩ : BufTy).Contents (Elt F)),
    ternary main_v504 main_v505 main_v99 main_v506 ((fun x i u => Host.scatterAdd scatter_S256x128_S50000x1_S50000x128_1_0_0_1 x i u) : (⟨S256x128, .f32⟩ : BufTy).Contents (Elt F) → (⟨S50000x1, .i32⟩ : BufTy).Contents (Elt F) → (⟨S50000x128, .f32⟩ : BufTy).Contents (Elt F) → (⟨S256x128, .f32⟩ : BufTy).Contents (Elt F)),
    unary main_v487 main_v507 (broadcastInDim S256x1 ![0] bcast_S256_S256x1_0 : (⟨S256, .f32⟩ : BufTy).Contents (Elt F) → (⟨S256x1, .f32⟩ : BufTy).Contents (Elt F)),
    unary main_v507 main_v508 (broadcastInDim S256x128 ![0, 1] bcast_S256x1_S256x128_0_1 : (⟨S256x1, .f32⟩ : BufTy).Contents (Elt F) → (⟨S256x128, .f32⟩ : BufTy).Contents (Elt F)),
    binary main_v506 main_v508 main_v509 (mulf : (⟨S256x128, .f32⟩ : BufTy).Contents (Elt F) → (⟨S256x128, .f32⟩ : BufTy).Contents (Elt F) → (⟨S256x128, .f32⟩ : BufTy).Contents (Elt F)),
    unary main_arg17 main_v510 ((extractStridedSlice S1x128x10 ![1, 0, 0] · slices_S6x128x10_S1x128x10_1_0_0) : (⟨S6x128x10, .f32⟩ : BufTy).Contents (Elt F) → (⟨S1x128x10, .f32⟩ : BufTy).Contents (Elt F)),
    reshape main_v510 main_v511 rfl shapeCasts_S1x128x10_S128x10,
    binary main_v509 main_v511 main_v512 ((fun l r => Host.dotGeneral dot_S256x128_S128x10_S256x10_1_0_0_1_n_n none l r) : (⟨S256x128, .f32⟩ : BufTy).Contents (Elt F) → (⟨S128x10, .f32⟩ : BufTy).Contents (Elt F) → (⟨S256x10, .f32⟩ : BufTy).Contents (Elt F)),
    binary main_v503 main_v512 main_v513 (addf : (⟨S256x10, .f32⟩ : BufTy).Contents (Elt F) → (⟨S256x10, .f32⟩ : BufTy).Contents (Elt F) → (⟨S256x10, .f32⟩ : BufTy).Contents (Elt F)),
    unary main_arg18 main_v514 ((extractStridedSlice S1x10 ![1, 0] · slices_S6x10_S1x10_1_0) : (⟨S6x10, .f32⟩ : BufTy).Contents (Elt F) → (⟨S1x10, .f32⟩ : BufTy).Contents (Elt F)),
    reshape main_v514 main_v515 rfl shapeCasts_S1x10_S10,
    unary main_v515 main_v516 (broadcastInDim S1x10 ![1] bcast_S10_S1x10_1 : (⟨S10, .f32⟩ : BufTy).Contents (Elt F) → (⟨S1x10, .f32⟩ : BufTy).Contents (Elt F)),
    unary main_v516 main_v517 (broadcastInDim S256x10 ![0, 1] bcast_S1x10_S256x10_0_1 : (⟨S1x10, .f32⟩ : BufTy).Contents (Elt F) → (⟨S256x10, .f32⟩ : BufTy).Contents (Elt F)),
    binary main_v513 main_v517 main_v518 (addf : (⟨S256x10, .f32⟩ : BufTy).Contents (Elt F) → (⟨S256x10, .f32⟩ : BufTy).Contents (Elt F) → (⟨S256x10, .f32⟩ : BufTy).Contents (Elt F)),
    nullary main_cst_55 (constant S_ .f32 0x00000000#32),
    unary main_cst_55 main_v519 (broadcastInDim S256x128 ![] bcast_S_S256x128 : (⟨S_, .f32⟩ : BufTy).Contents (Elt F) → (⟨S256x128, .f32⟩ : BufTy).Contents (Elt F)),
    unary main_arg3 main_v520 (broadcastInDim S50000x1 ![0] bcast_S50000_S50000x1_0 : (⟨S50000, .i32⟩ : BufTy).Contents (Elt F) → (⟨S50000x1, .i32⟩ : BufTy).Contents (Elt F)),
    ternary main_v519 main_v520 main_v194 main_v521 ((fun x i u => Host.scatterAdd scatter_S256x128_S50000x1_S50000x128_1_0_0_1 x i u) : (⟨S256x128, .f32⟩ : BufTy).Contents (Elt F) → (⟨S50000x1, .i32⟩ : BufTy).Contents (Elt F) → (⟨S50000x128, .f32⟩ : BufTy).Contents (Elt F) → (⟨S256x128, .f32⟩ : BufTy).Contents (Elt F)),
    unary main_v487 main_v522 (broadcastInDim S256x1 ![0] bcast_S256_S256x1_0 : (⟨S256, .f32⟩ : BufTy).Contents (Elt F) → (⟨S256x1, .f32⟩ : BufTy).Contents (Elt F)),
    unary main_v522 main_v523 (broadcastInDim S256x128 ![0, 1] bcast_S256x1_S256x128_0_1 : (⟨S256x1, .f32⟩ : BufTy).Contents (Elt F) → (⟨S256x128, .f32⟩ : BufTy).Contents (Elt F)),
    binary main_v521 main_v523 main_v524 (mulf : (⟨S256x128, .f32⟩ : BufTy).Contents (Elt F) → (⟨S256x128, .f32⟩ : BufTy).Contents (Elt F) → (⟨S256x128, .f32⟩ : BufTy).Contents (Elt F)),
    unary main_arg17 main_v525 ((extractStridedSlice S1x128x10 ![2, 0, 0] · slices_S6x128x10_S1x128x10_2_0_0) : (⟨S6x128x10, .f32⟩ : BufTy).Contents (Elt F) → (⟨S1x128x10, .f32⟩ : BufTy).Contents (Elt F)),
    reshape main_v525 main_v526 rfl shapeCasts_S1x128x10_S128x10,
    binary main_v524 main_v526 main_v527 ((fun l r => Host.dotGeneral dot_S256x128_S128x10_S256x10_1_0_0_1_n_n none l r) : (⟨S256x128, .f32⟩ : BufTy).Contents (Elt F) → (⟨S128x10, .f32⟩ : BufTy).Contents (Elt F) → (⟨S256x10, .f32⟩ : BufTy).Contents (Elt F)),
    binary main_v518 main_v527 main_v528 (addf : (⟨S256x10, .f32⟩ : BufTy).Contents (Elt F) → (⟨S256x10, .f32⟩ : BufTy).Contents (Elt F) → (⟨S256x10, .f32⟩ : BufTy).Contents (Elt F)),
    unary main_arg18 main_v529 ((extractStridedSlice S1x10 ![2, 0] · slices_S6x10_S1x10_2_0) : (⟨S6x10, .f32⟩ : BufTy).Contents (Elt F) → (⟨S1x10, .f32⟩ : BufTy).Contents (Elt F)),
    reshape main_v529 main_v530 rfl shapeCasts_S1x10_S10,
    unary main_v530 main_v531 (broadcastInDim S1x10 ![1] bcast_S10_S1x10_1 : (⟨S10, .f32⟩ : BufTy).Contents (Elt F) → (⟨S1x10, .f32⟩ : BufTy).Contents (Elt F)),
    unary main_v531 main_v532 (broadcastInDim S256x10 ![0, 1] bcast_S1x10_S256x10_0_1 : (⟨S1x10, .f32⟩ : BufTy).Contents (Elt F) → (⟨S256x10, .f32⟩ : BufTy).Contents (Elt F)),
    binary main_v528 main_v532 main_v533 (addf : (⟨S256x10, .f32⟩ : BufTy).Contents (Elt F) → (⟨S256x10, .f32⟩ : BufTy).Contents (Elt F) → (⟨S256x10, .f32⟩ : BufTy).Contents (Elt F)),
    nullary main_cst_56 (constant S_ .f32 0x00000000#32),
    unary main_cst_56 main_v534 (broadcastInDim S256x128 ![] bcast_S_S256x128 : (⟨S_, .f32⟩ : BufTy).Contents (Elt F) → (⟨S256x128, .f32⟩ : BufTy).Contents (Elt F)),
    unary main_arg3 main_v535 (broadcastInDim S50000x1 ![0] bcast_S50000_S50000x1_0 : (⟨S50000, .i32⟩ : BufTy).Contents (Elt F) → (⟨S50000x1, .i32⟩ : BufTy).Contents (Elt F)),
    ternary main_v534 main_v535 main_v289 main_v536 ((fun x i u => Host.scatterAdd scatter_S256x128_S50000x1_S50000x128_1_0_0_1 x i u) : (⟨S256x128, .f32⟩ : BufTy).Contents (Elt F) → (⟨S50000x1, .i32⟩ : BufTy).Contents (Elt F) → (⟨S50000x128, .f32⟩ : BufTy).Contents (Elt F) → (⟨S256x128, .f32⟩ : BufTy).Contents (Elt F)),
    unary main_v487 main_v537 (broadcastInDim S256x1 ![0] bcast_S256_S256x1_0 : (⟨S256, .f32⟩ : BufTy).Contents (Elt F) → (⟨S256x1, .f32⟩ : BufTy).Contents (Elt F)),
    unary main_v537 main_v538 (broadcastInDim S256x128 ![0, 1] bcast_S256x1_S256x128_0_1 : (⟨S256x1, .f32⟩ : BufTy).Contents (Elt F) → (⟨S256x128, .f32⟩ : BufTy).Contents (Elt F)),
    binary main_v536 main_v538 main_v539 (mulf : (⟨S256x128, .f32⟩ : BufTy).Contents (Elt F) → (⟨S256x128, .f32⟩ : BufTy).Contents (Elt F) → (⟨S256x128, .f32⟩ : BufTy).Contents (Elt F)),
    unary main_arg17 main_v540 ((extractStridedSlice S1x128x10 ![3, 0, 0] · slices_S6x128x10_S1x128x10_3_0_0) : (⟨S6x128x10, .f32⟩ : BufTy).Contents (Elt F) → (⟨S1x128x10, .f32⟩ : BufTy).Contents (Elt F)) ]
theorem ch19_sub : (ch19 : List (HloOp τ sig (Elt F))).Forall fun op => op.bufs ⊆ tcRefs τ sig :=
  ⟨unary_bufs_sub .., binary_bufs_sub .., nullary_bufs_sub .., unary_bufs_sub .., nullary_bufs_sub .., unary_bufs_sub .., unary_bufs_sub .., ternary_bufs_sub .., unary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub ..⟩
set_option maxHeartbeats 4000000 in
theorem ch19_fresh : ∀ op ∈ (ch19 : List (HloOp τ sig (Elt F))), op.fresh = ∅ := by
  intro _ h; (repeat (cases h with | head => rfl | tail _ h => ?_)); exact nomatch h

set_option maxHeartbeats 4000000 in
/-- Operations 631 … 670 of @main, in order. -/
abbrev ch20 : List (HloOp τ sig (Elt F)) :=
  [ reshape main_v540 main_v541 rfl shapeCasts_S1x128x10_S128x10,
    binary main_v539 main_v541 main_v542 ((fun l r => Host.dotGeneral dot_S256x128_S128x10_S256x10_1_0_0_1_n_n none l r) : (⟨S256x128, .f32⟩ : BufTy).Contents (Elt F) → (⟨S128x10, .f32⟩ : BufTy).Contents (Elt F) → (⟨S256x10, .f32⟩ : BufTy).Contents (Elt F)),
    binary main_v533 main_v542 main_v543 (addf : (⟨S256x10, .f32⟩ : BufTy).Contents (Elt F) → (⟨S256x10, .f32⟩ : BufTy).Contents (Elt F) → (⟨S256x10, .f32⟩ : BufTy).Contents (Elt F)),
    unary main_arg18 main_v544 ((extractStridedSlice S1x10 ![3, 0] · slices_S6x10_S1x10_3_0) : (⟨S6x10, .f32⟩ : BufTy).Contents (Elt F) → (⟨S1x10, .f32⟩ : BufTy).Contents (Elt F)),
    reshape main_v544 main_v545 rfl shapeCasts_S1x10_S10,
    unary main_v545 main_v546 (broadcastInDim S1x10 ![1] bcast_S10_S1x10_1 : (⟨S10, .f32⟩ : BufTy).Contents (Elt F) → (⟨S1x10, .f32⟩ : BufTy).Contents (Elt F)),
    unary main_v546 main_v547 (broadcastInDim S256x10 ![0, 1] bcast_S1x10_S256x10_0_1 : (⟨S1x10, .f32⟩ : BufTy).Contents (Elt F) → (⟨S256x10, .f32⟩ : BufTy).Contents (Elt F)),
    binary main_v543 main_v547 main_v548 (addf : (⟨S256x10, .f32⟩ : BufTy).Contents (Elt F) → (⟨S256x10, .f32⟩ : BufTy).Contents (Elt F) → (⟨S256x10, .f32⟩ : BufTy).Contents (Elt F)),
    nullary main_cst_57 (constant S_ .f32 0x00000000#32),
    unary main_cst_57 main_v549 (broadcastInDim S256x128 ![] bcast_S_S256x128 : (⟨S_, .f32⟩ : BufTy).Contents (Elt F) → (⟨S256x128, .f32⟩ : BufTy).Contents (Elt F)),
    unary main_arg3 main_v550 (broadcastInDim S50000x1 ![0] bcast_S50000_S50000x1_0 : (⟨S50000, .i32⟩ : BufTy).Contents (Elt F) → (⟨S50000x1, .i32⟩ : BufTy).Contents (Elt F)),
    ternary main_v549 main_v550 main_v384 main_v551 ((fun x i u => Host.scatterAdd scatter_S256x128_S50000x1_S50000x128_1_0_0_1 x i u) : (⟨S256x128, .f32⟩ : BufTy).Contents (Elt F) → (⟨S50000x1, .i32⟩ : BufTy).Contents (Elt F) → (⟨S50000x128, .f32⟩ : BufTy).Contents (Elt F) → (⟨S256x128, .f32⟩ : BufTy).Contents (Elt F)),
    unary main_v487 main_v552 (broadcastInDim S256x1 ![0] bcast_S256_S256x1_0 : (⟨S256, .f32⟩ : BufTy).Contents (Elt F) → (⟨S256x1, .f32⟩ : BufTy).Contents (Elt F)),
    unary main_v552 main_v553 (broadcastInDim S256x128 ![0, 1] bcast_S256x1_S256x128_0_1 : (⟨S256x1, .f32⟩ : BufTy).Contents (Elt F) → (⟨S256x128, .f32⟩ : BufTy).Contents (Elt F)),
    binary main_v551 main_v553 main_v554 (mulf : (⟨S256x128, .f32⟩ : BufTy).Contents (Elt F) → (⟨S256x128, .f32⟩ : BufTy).Contents (Elt F) → (⟨S256x128, .f32⟩ : BufTy).Contents (Elt F)),
    unary main_arg17 main_v555 ((extractStridedSlice S1x128x10 ![4, 0, 0] · slices_S6x128x10_S1x128x10_4_0_0) : (⟨S6x128x10, .f32⟩ : BufTy).Contents (Elt F) → (⟨S1x128x10, .f32⟩ : BufTy).Contents (Elt F)),
    reshape main_v555 main_v556 rfl shapeCasts_S1x128x10_S128x10,
    binary main_v554 main_v556 main_v557 ((fun l r => Host.dotGeneral dot_S256x128_S128x10_S256x10_1_0_0_1_n_n none l r) : (⟨S256x128, .f32⟩ : BufTy).Contents (Elt F) → (⟨S128x10, .f32⟩ : BufTy).Contents (Elt F) → (⟨S256x10, .f32⟩ : BufTy).Contents (Elt F)),
    binary main_v548 main_v557 main_v558 (addf : (⟨S256x10, .f32⟩ : BufTy).Contents (Elt F) → (⟨S256x10, .f32⟩ : BufTy).Contents (Elt F) → (⟨S256x10, .f32⟩ : BufTy).Contents (Elt F)),
    unary main_arg18 main_v559 ((extractStridedSlice S1x10 ![4, 0] · slices_S6x10_S1x10_4_0) : (⟨S6x10, .f32⟩ : BufTy).Contents (Elt F) → (⟨S1x10, .f32⟩ : BufTy).Contents (Elt F)),
    reshape main_v559 main_v560 rfl shapeCasts_S1x10_S10,
    unary main_v560 main_v561 (broadcastInDim S1x10 ![1] bcast_S10_S1x10_1 : (⟨S10, .f32⟩ : BufTy).Contents (Elt F) → (⟨S1x10, .f32⟩ : BufTy).Contents (Elt F)),
    unary main_v561 main_v562 (broadcastInDim S256x10 ![0, 1] bcast_S1x10_S256x10_0_1 : (⟨S1x10, .f32⟩ : BufTy).Contents (Elt F) → (⟨S256x10, .f32⟩ : BufTy).Contents (Elt F)),
    binary main_v558 main_v562 main_v563 (addf : (⟨S256x10, .f32⟩ : BufTy).Contents (Elt F) → (⟨S256x10, .f32⟩ : BufTy).Contents (Elt F) → (⟨S256x10, .f32⟩ : BufTy).Contents (Elt F)),
    nullary main_cst_58 (constant S_ .f32 0x00000000#32),
    unary main_cst_58 main_v564 (broadcastInDim S256x128 ![] bcast_S_S256x128 : (⟨S_, .f32⟩ : BufTy).Contents (Elt F) → (⟨S256x128, .f32⟩ : BufTy).Contents (Elt F)),
    unary main_arg3 main_v565 (broadcastInDim S50000x1 ![0] bcast_S50000_S50000x1_0 : (⟨S50000, .i32⟩ : BufTy).Contents (Elt F) → (⟨S50000x1, .i32⟩ : BufTy).Contents (Elt F)),
    ternary main_v564 main_v565 main_v479 main_v566 ((fun x i u => Host.scatterAdd scatter_S256x128_S50000x1_S50000x128_1_0_0_1 x i u) : (⟨S256x128, .f32⟩ : BufTy).Contents (Elt F) → (⟨S50000x1, .i32⟩ : BufTy).Contents (Elt F) → (⟨S50000x128, .f32⟩ : BufTy).Contents (Elt F) → (⟨S256x128, .f32⟩ : BufTy).Contents (Elt F)),
    unary main_v487 main_v567 (broadcastInDim S256x1 ![0] bcast_S256_S256x1_0 : (⟨S256, .f32⟩ : BufTy).Contents (Elt F) → (⟨S256x1, .f32⟩ : BufTy).Contents (Elt F)),
    unary main_v567 main_v568 (broadcastInDim S256x128 ![0, 1] bcast_S256x1_S256x128_0_1 : (⟨S256x1, .f32⟩ : BufTy).Contents (Elt F) → (⟨S256x128, .f32⟩ : BufTy).Contents (Elt F)),
    binary main_v566 main_v568 main_v569 (mulf : (⟨S256x128, .f32⟩ : BufTy).Contents (Elt F) → (⟨S256x128, .f32⟩ : BufTy).Contents (Elt F) → (⟨S256x128, .f32⟩ : BufTy).Contents (Elt F)),
    unary main_arg17 main_v570 ((extractStridedSlice S1x128x10 ![5, 0, 0] · slices_S6x128x10_S1x128x10_5_0_0) : (⟨S6x128x10, .f32⟩ : BufTy).Contents (Elt F) → (⟨S1x128x10, .f32⟩ : BufTy).Contents (Elt F)),
    reshape main_v570 main_v571 rfl shapeCasts_S1x128x10_S128x10,
    binary main_v569 main_v571 main_v572 ((fun l r => Host.dotGeneral dot_S256x128_S128x10_S256x10_1_0_0_1_n_n none l r) : (⟨S256x128, .f32⟩ : BufTy).Contents (Elt F) → (⟨S128x10, .f32⟩ : BufTy).Contents (Elt F) → (⟨S256x10, .f32⟩ : BufTy).Contents (Elt F)),
    binary main_v563 main_v572 main_v573 (addf : (⟨S256x10, .f32⟩ : BufTy).Contents (Elt F) → (⟨S256x10, .f32⟩ : BufTy).Contents (Elt F) → (⟨S256x10, .f32⟩ : BufTy).Contents (Elt F)),
    unary main_arg18 main_v574 ((extractStridedSlice S1x10 ![5, 0] · slices_S6x10_S1x10_5_0) : (⟨S6x10, .f32⟩ : BufTy).Contents (Elt F) → (⟨S1x10, .f32⟩ : BufTy).Contents (Elt F)),
    reshape main_v574 main_v575 rfl shapeCasts_S1x10_S10,
    unary main_v575 main_v576 (broadcastInDim S1x10 ![1] bcast_S10_S1x10_1 : (⟨S10, .f32⟩ : BufTy).Contents (Elt F) → (⟨S1x10, .f32⟩ : BufTy).Contents (Elt F)),
    unary main_v576 main_v577 (broadcastInDim S256x10 ![0, 1] bcast_S1x10_S256x10_0_1 : (⟨S1x10, .f32⟩ : BufTy).Contents (Elt F) → (⟨S256x10, .f32⟩ : BufTy).Contents (Elt F)),
    binary main_v573 main_v577 main_v578 (addf : (⟨S256x10, .f32⟩ : BufTy).Contents (Elt F) → (⟨S256x10, .f32⟩ : BufTy).Contents (Elt F) → (⟨S256x10, .f32⟩ : BufTy).Contents (Elt F)) ]
theorem ch20_sub : (ch20 : List (HloOp τ sig (Elt F))).Forall fun op => op.bufs ⊆ tcRefs τ sig :=
  ⟨reshape_bufs_sub .., binary_bufs_sub .., binary_bufs_sub .., unary_bufs_sub .., reshape_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub ..⟩
set_option maxHeartbeats 4000000 in
theorem ch20_fresh : ∀ op ∈ (ch20 : List (HloOp τ sig (Elt F))), op.fresh = ∅ := by
  intro _ h; (repeat (cases h with | head => rfl | tail _ h => ?_)); exact nomatch h

set_option maxHeartbeats 4000000 in
/-- Window 0 of @main is the straight-line run of its operations. -/
theorem main_part0_eq (c : Dev nD) : main_part0 (F := F) c = seq (ch0 ++ (ch1)) := rfl
set_option maxHeartbeats 4000000 in
/-- Window 1 of @main is the straight-line run of its operations. -/
theorem main_part1_eq (c : Dev nD) : main_part1 (F := F) c = seq (ch2 ++ (ch3)) := rfl
set_option maxHeartbeats 4000000 in
/-- Window 2 of @main is the straight-line run of its operations. -/
theorem main_part2_eq (c : Dev nD) : main_part2 (F := F) c = seq (ch4 ++ (ch5)) := rfl
set_option maxHeartbeats 4000000 in
/-- Window 3 of @main is the straight-line run of its operations. -/
theorem main_part3_eq (c : Dev nD) : main_part3 (F := F) c = seq (ch6 ++ (ch7 ++ (ch8))) := rfl
set_option maxHeartbeats 4000000 in
/-- Window 4 of @main is the straight-line run of its operations. -/
theorem main_part4_eq (c : Dev nD) : main_part4 (F := F) c = seq (ch9) := rfl
set_option maxHeartbeats 4000000 in
/-- Window 5 of @main is the straight-line run of its operations. -/
theorem main_part5_eq (c : Dev nD) : main_part5 (F := F) c = seq (ch10 ++ (ch11 ++ (ch12))) := rfl
set_option maxHeartbeats 4000000 in
/-- Window 6 of @main is the straight-line run of its operations. -/
theorem main_part6_eq (c : Dev nD) : main_part6 (F := F) c = seq (ch13) := rfl
set_option maxHeartbeats 4000000 in
/-- Window 7 of @main is the straight-line run of its operations. -/
theorem main_part7_eq (c : Dev nD) : main_part7 (F := F) c = seq (ch14 ++ (ch15 ++ (ch16))) := rfl
set_option maxHeartbeats 4000000 in
/-- Window 8 of @main is the straight-line run of its operations. -/
theorem main_part8_eq (c : Dev nD) : main_part8 (F := F) c = seq (ch17 ++ (ch18)) := rfl
set_option maxHeartbeats 4000000 in
/-- Window 9 of @main is the straight-line run of its operations. -/
theorem main_part9_eq (c : Dev nD) : main_part9 (F := F) c = seq (ch19) := rfl
set_option maxHeartbeats 4000000 in
/-- Window 10 of @main is the straight-line run of its operations. -/
theorem main_part10_eq (c : Dev nD) : main_part10 (F := F) c = seq (ch20) := rfl

/-- @main's operations, in order: the chunks one after the other. -/
abbrev ops : List (HloOp τ sig (Elt F)) := ch0 ++ (ch1 ++ (ch2 ++ (ch3 ++ (ch4 ++ (ch5 ++ (ch6 ++ (ch7 ++ (ch8 ++ (ch9 ++ (ch10 ++ (ch11 ++ (ch12 ++ (ch13 ++ (ch14 ++ (ch15 ++ (ch16 ++ (ch17 ++ (ch18 ++ (ch19 ++ (ch20))))))))))))))))))))

set_option maxHeartbeats 4000000 in
theorem main_eq (c : Dev nD) : main (F := F) c = seq ops := by
  simp only [main, main_part0_eq, main_part1_eq, main_part2_eq, main_part3_eq, main_part4_eq, main_part5_eq, main_part6_eq, main_part7_eq, main_part8_eq, main_part9_eq, main_part10_eq, ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  refine List.forall_iff_forall_mem.mpr fun op h => ?_
  simp only [ops, List.mem_append] at h
  rcases h with h | h | h | h | h | h | h | h | h | h | h | h | h | h | h | h | h | h | h | h | h
  · exact List.forall_iff_forall_mem.mp ch0_sub op h
  · exact List.forall_iff_forall_mem.mp ch1_sub op h
  · exact List.forall_iff_forall_mem.mp ch2_sub op h
  · exact List.forall_iff_forall_mem.mp ch3_sub op h
  · exact List.forall_iff_forall_mem.mp ch4_sub op h
  · exact List.forall_iff_forall_mem.mp ch5_sub op h
  · exact List.forall_iff_forall_mem.mp ch6_sub op h
  · exact List.forall_iff_forall_mem.mp ch7_sub op h
  · exact List.forall_iff_forall_mem.mp ch8_sub op h
  · exact List.forall_iff_forall_mem.mp ch9_sub op h
  · exact List.forall_iff_forall_mem.mp ch10_sub op h
  · exact List.forall_iff_forall_mem.mp ch11_sub op h
  · exact List.forall_iff_forall_mem.mp ch12_sub op h
  · exact List.forall_iff_forall_mem.mp ch13_sub op h
  · exact List.forall_iff_forall_mem.mp ch14_sub op h
  · exact List.forall_iff_forall_mem.mp ch15_sub op h
  · exact List.forall_iff_forall_mem.mp ch16_sub op h
  · exact List.forall_iff_forall_mem.mp ch17_sub op h
  · exact List.forall_iff_forall_mem.mp ch18_sub op h
  · exact List.forall_iff_forall_mem.mp ch19_sub op h
  · exact List.forall_iff_forall_mem.mp ch20_sub op h

theorem ops_fresh : ∀ op ∈ (ops : List (HloOp τ sig (Elt F))), op.fresh = ∅ := by
  intro op h
  simp only [ops, List.mem_append] at h
  rcases h with h | h | h | h | h | h | h | h | h | h | h | h | h | h | h | h | h | h | h | h | h
  · exact ch0_fresh op h
  · exact ch1_fresh op h
  · exact ch2_fresh op h
  · exact ch3_fresh op h
  · exact ch4_fresh op h
  · exact ch5_fresh op h
  · exact ch6_fresh op h
  · exact ch7_fresh op h
  · exact ch8_fresh op h
  · exact ch9_fresh op h
  · exact ch10_fresh op h
  · exact ch11_fresh op h
  · exact ch12_fresh op h
  · exact ch13_fresh op h
  · exact ch14_fresh op h
  · exact ch15_fresh op h
  · exact ch16_fresh op h
  · exact ch17_fresh op h
  · exact ch18_fresh op h
  · exact ch19_fresh op h
  · exact ch20_fresh op h

set_option maxHeartbeats 40000000 in
/-- No operation writes this argument of @main: through the whole fold its buffer keeps its launch contents. -/
theorem kept_main_arg0 (m : (ℓ : Loc nD τ sig) → Buf (Elt F) ℓ) (c : Dev nD) :
    after ops (launchContents m c) (Proc.devRef .tc main_arg0) = m ((c.tc : Thread nD τ).loc main_arg0) := by
  simp only [ops, StableHlo.after_append]
  after_results_simp <;> rfl
set_option maxHeartbeats 40000000 in
/-- No operation writes this argument of @main: through the whole fold its buffer keeps its launch contents. -/
theorem kept_main_arg1 (m : (ℓ : Loc nD τ sig) → Buf (Elt F) ℓ) (c : Dev nD) :
    after ops (launchContents m c) (Proc.devRef .tc main_arg1) = m ((c.tc : Thread nD τ).loc main_arg1) := by
  simp only [ops, StableHlo.after_append]
  after_results_simp <;> rfl
set_option maxHeartbeats 40000000 in
/-- No operation writes this argument of @main: through the whole fold its buffer keeps its launch contents. -/
theorem kept_main_arg2 (m : (ℓ : Loc nD τ sig) → Buf (Elt F) ℓ) (c : Dev nD) :
    after ops (launchContents m c) (Proc.devRef .tc main_arg2) = m ((c.tc : Thread nD τ).loc main_arg2) := by
  simp only [ops, StableHlo.after_append]
  after_results_simp <;> rfl
set_option maxHeartbeats 40000000 in
/-- No operation writes this argument of @main: through the whole fold its buffer keeps its launch contents. -/
theorem kept_main_arg3 (m : (ℓ : Loc nD τ sig) → Buf (Elt F) ℓ) (c : Dev nD) :
    after ops (launchContents m c) (Proc.devRef .tc main_arg3) = m ((c.tc : Thread nD τ).loc main_arg3) := by
  simp only [ops, StableHlo.after_append]
  after_results_simp <;> rfl
set_option maxHeartbeats 40000000 in
/-- No operation writes this argument of @main: through the whole fold its buffer keeps its launch contents. -/
theorem kept_main_arg4 (m : (ℓ : Loc nD τ sig) → Buf (Elt F) ℓ) (c : Dev nD) :
    after ops (launchContents m c) (Proc.devRef .tc main_arg4) = m ((c.tc : Thread nD τ).loc main_arg4) := by
  simp only [ops, StableHlo.after_append]
  after_results_simp <;> rfl
set_option maxHeartbeats 40000000 in
/-- No operation writes this argument of @main: through the whole fold its buffer keeps its launch contents. -/
theorem kept_main_arg5 (m : (ℓ : Loc nD τ sig) → Buf (Elt F) ℓ) (c : Dev nD) :
    after ops (launchContents m c) (Proc.devRef .tc main_arg5) = m ((c.tc : Thread nD τ).loc main_arg5) := by
  simp only [ops, StableHlo.after_append]
  after_results_simp <;> rfl
set_option maxHeartbeats 40000000 in
/-- No operation writes this argument of @main: through the whole fold its buffer keeps its launch contents. -/
theorem kept_main_arg6 (m : (ℓ : Loc nD τ sig) → Buf (Elt F) ℓ) (c : Dev nD) :
    after ops (launchContents m c) (Proc.devRef .tc main_arg6) = m ((c.tc : Thread nD τ).loc main_arg6) := by
  simp only [ops, StableHlo.after_append]
  after_results_simp <;> rfl
set_option maxHeartbeats 40000000 in
/-- No operation writes this argument of @main: through the whole fold its buffer keeps its launch contents. -/
theorem kept_main_arg7 (m : (ℓ : Loc nD τ sig) → Buf (Elt F) ℓ) (c : Dev nD) :
    after ops (launchContents m c) (Proc.devRef .tc main_arg7) = m ((c.tc : Thread nD τ).loc main_arg7) := by
  simp only [ops, StableHlo.after_append]
  after_results_simp <;> rfl
set_option maxHeartbeats 40000000 in
/-- No operation writes this argument of @main: through the whole fold its buffer keeps its launch contents. -/
theorem kept_main_arg8 (m : (ℓ : Loc nD τ sig) → Buf (Elt F) ℓ) (c : Dev nD) :
    after ops (launchContents m c) (Proc.devRef .tc main_arg8) = m ((c.tc : Thread nD τ).loc main_arg8) := by
  simp only [ops, StableHlo.after_append]
  after_results_simp <;> rfl
set_option maxHeartbeats 40000000 in
/-- No operation writes this argument of @main: through the whole fold its buffer keeps its launch contents. -/
theorem kept_main_arg9 (m : (ℓ : Loc nD τ sig) → Buf (Elt F) ℓ) (c : Dev nD) :
    after ops (launchContents m c) (Proc.devRef .tc main_arg9) = m ((c.tc : Thread nD τ).loc main_arg9) := by
  simp only [ops, StableHlo.after_append]
  after_results_simp <;> rfl
set_option maxHeartbeats 40000000 in
/-- No operation writes this argument of @main: through the whole fold its buffer keeps its launch contents. -/
theorem kept_main_arg10 (m : (ℓ : Loc nD τ sig) → Buf (Elt F) ℓ) (c : Dev nD) :
    after ops (launchContents m c) (Proc.devRef .tc main_arg10) = m ((c.tc : Thread nD τ).loc main_arg10) := by
  simp only [ops, StableHlo.after_append]
  after_results_simp <;> rfl
set_option maxHeartbeats 40000000 in
/-- No operation writes this argument of @main: through the whole fold its buffer keeps its launch contents. -/
theorem kept_main_arg11 (m : (ℓ : Loc nD τ sig) → Buf (Elt F) ℓ) (c : Dev nD) :
    after ops (launchContents m c) (Proc.devRef .tc main_arg11) = m ((c.tc : Thread nD τ).loc main_arg11) := by
  simp only [ops, StableHlo.after_append]
  after_results_simp <;> rfl
set_option maxHeartbeats 40000000 in
/-- No operation writes this argument of @main: through the whole fold its buffer keeps its launch contents. -/
theorem kept_main_arg12 (m : (ℓ : Loc nD τ sig) → Buf (Elt F) ℓ) (c : Dev nD) :
    after ops (launchContents m c) (Proc.devRef .tc main_arg12) = m ((c.tc : Thread nD τ).loc main_arg12) := by
  simp only [ops, StableHlo.after_append]
  after_results_simp <;> rfl
set_option maxHeartbeats 40000000 in
/-- No operation writes this argument of @main: through the whole fold its buffer keeps its launch contents. -/
theorem kept_main_arg13 (m : (ℓ : Loc nD τ sig) → Buf (Elt F) ℓ) (c : Dev nD) :
    after ops (launchContents m c) (Proc.devRef .tc main_arg13) = m ((c.tc : Thread nD τ).loc main_arg13) := by
  simp only [ops, StableHlo.after_append]
  after_results_simp <;> rfl
set_option maxHeartbeats 40000000 in
/-- No operation writes this argument of @main: through the whole fold its buffer keeps its launch contents. -/
theorem kept_main_arg14 (m : (ℓ : Loc nD τ sig) → Buf (Elt F) ℓ) (c : Dev nD) :
    after ops (launchContents m c) (Proc.devRef .tc main_arg14) = m ((c.tc : Thread nD τ).loc main_arg14) := by
  simp only [ops, StableHlo.after_append]
  after_results_simp <;> rfl
set_option maxHeartbeats 40000000 in
/-- No operation writes this argument of @main: through the whole fold its buffer keeps its launch contents. -/
theorem kept_main_arg15 (m : (ℓ : Loc nD τ sig) → Buf (Elt F) ℓ) (c : Dev nD) :
    after ops (launchContents m c) (Proc.devRef .tc main_arg15) = m ((c.tc : Thread nD τ).loc main_arg15) := by
  simp only [ops, StableHlo.after_append]
  after_results_simp <;> rfl
set_option maxHeartbeats 40000000 in
/-- No operation writes this argument of @main: through the whole fold its buffer keeps its launch contents. -/
theorem kept_main_arg16 (m : (ℓ : Loc nD τ sig) → Buf (Elt F) ℓ) (c : Dev nD) :
    after ops (launchContents m c) (Proc.devRef .tc main_arg16) = m ((c.tc : Thread nD τ).loc main_arg16) := by
  simp only [ops, StableHlo.after_append]
  after_results_simp <;> rfl
set_option maxHeartbeats 40000000 in
/-- No operation writes this argument of @main: through the whole fold its buffer keeps its launch contents. -/
theorem kept_main_arg17 (m : (ℓ : Loc nD τ sig) → Buf (Elt F) ℓ) (c : Dev nD) :
    after ops (launchContents m c) (Proc.devRef .tc main_arg17) = m ((c.tc : Thread nD τ).loc main_arg17) := by
  simp only [ops, StableHlo.after_append]
  after_results_simp <;> rfl
set_option maxHeartbeats 40000000 in
/-- No operation writes this argument of @main: through the whole fold its buffer keeps its launch contents. -/
theorem kept_main_arg18 (m : (ℓ : Loc nD τ sig) → Buf (Elt F) ℓ) (c : Dev nD) :
    after ops (launchContents m c) (Proc.devRef .tc main_arg18) = m ((c.tc : Thread nD τ).loc main_arg18) := by
  simp only [ops, StableHlo.after_append]
  after_results_simp <;> rfl

/-- On every device, for any float values, from any memory with zero counters: every weakly fair execution of
    @main terminates with the result buffer at the fold of the operations over the launch contents and the arguments
    unchanged. -/
theorem run_after (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v578) = after ops (launchContents m c) (Proc.devRef .tc main_v578)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨h c main_v578,
      (h c main_arg0).trans (kept_main_arg0 m c),
      (h c main_arg1).trans (kept_main_arg1 m c),
      (h c main_arg2).trans (kept_main_arg2 m c),
      (h c main_arg3).trans (kept_main_arg3 m c),
      (h c main_arg4).trans (kept_main_arg4 m c),
      (h c main_arg5).trans (kept_main_arg5 m c),
      (h c main_arg6).trans (kept_main_arg6 m c),
      (h c main_arg7).trans (kept_main_arg7 m c),
      (h c main_arg8).trans (kept_main_arg8 m c),
      (h c main_arg9).trans (kept_main_arg9 m c),
      (h c main_arg10).trans (kept_main_arg10 m c),
      (h c main_arg11).trans (kept_main_arg11 m c),
      (h c main_arg12).trans (kept_main_arg12 m c),
      (h c main_arg13).trans (kept_main_arg13 m c),
      (h c main_arg14).trans (kept_main_arg14 m c),
      (h c main_arg15).trans (kept_main_arg15 m c),
      (h c main_arg16).trans (kept_main_arg16 m c),
      (h c main_arg17).trans (kept_main_arg17 m c),
      (h c main_arg18).trans (kept_main_arg18 m c)⟩)
    (run_seq scopedRefs_eq scopedSems_eq defs main (fun _ => ops) main_eq (fun _ => ops_sub) m ρ (fun _ => ops_fresh))

end Cert.ReferenceIdeal.RunC

end
-- ==== Proof.Carried.lean ====
/-
  The vocabulary of the chain that reads the kernel program's result back: the argument arrays by short names, and
  the facts carried from one segment boundary of @main to the next — the buffers every later stretch of host operations
  reads and no region writes: the per-graph reciprocal node count, the edges' source and target indices, the bond
  feature ids, and the arguments themselves. Each is stated against the reference's stage of the same arguments.
-/
import proofs.«180497_j12352325943908_1_alg».proof.Proof.FrameKI
import proofs.«180497_j12352325943908_1_alg».proof.Proof.ReadP

set_option maxRecDepth 16384

noncomputable section

namespace Cert.KernelIdeal.Chain

open Cert.KernelIdeal Cert.KernelIdeal.Gen Cert.KernelIdeal.GenP
open Idealize.ShloMosaic Idealize.ShloMosaic.TcCoe Idealize.SL.Sem

variable (m : (ℓ : Loc nD τ sig) → Buf (Elt Ideal) ℓ) (c : Dev nD)

/-- Argument 0 of @main on core `c`, as launched. -/
abbrev a0 := m ((c : Thread nD τ).loc main_arg0)
/-- Argument 1 of @main on core `c`, as launched. -/
abbrev a1 := m ((c : Thread nD τ).loc main_arg1)
/-- Argument 2 of @main on core `c`, as launched. -/
abbrev a2 := m ((c : Thread nD τ).loc main_arg2)
/-- Argument 3 of @main on core `c`, as launched. -/
abbrev a3 := m ((c : Thread nD τ).loc main_arg3)
/-- Argument 4 of @main on core `c`, as launched. -/
abbrev a4 := m ((c : Thread nD τ).loc main_arg4)
/-- Argument 5 of @main on core `c`, as launched. -/
abbrev a5 := m ((c : Thread nD τ).loc main_arg5)
/-- Argument 6 of @main on core `c`, as launched. -/
abbrev a6 := m ((c : Thread nD τ).loc main_arg6)
/-- Argument 7 of @main on core `c`, as launched. -/
abbrev a7 := m ((c : Thread nD τ).loc main_arg7)
/-- Argument 8 of @main on core `c`, as launched. -/
abbrev a8 := m ((c : Thread nD τ).loc main_arg8)
/-- Argument 9 of @main on core `c`, as launched. -/
abbrev a9 := m ((c : Thread nD τ).loc main_arg9)
/-- Argument 10 of @main on core `c`, as launched. -/
abbrev a10 := m ((c : Thread nD τ).loc main_arg10)
/-- Argument 11 of @main on core `c`, as launched. -/
abbrev a11 := m ((c : Thread nD τ).loc main_arg11)
/-- Argument 12 of @main on core `c`, as launched. -/
abbrev a12 := m ((c : Thread nD τ).loc main_arg12)
/-- Argument 13 of @main on core `c`, as launched. -/
abbrev a13 := m ((c : Thread nD τ).loc main_arg13)
/-- Argument 14 of @main on core `c`, as launched. -/
abbrev a14 := m ((c : Thread nD τ).loc main_arg14)
/-- Argument 15 of @main on core `c`, as launched. -/
abbrev a15 := m ((c : Thread nD τ).loc main_arg15)
/-- Argument 16 of @main on core `c`, as launched. -/
abbrev a16 := m ((c : Thread nD τ).loc main_arg16)
/-- Argument 17 of @main on core `c`, as launched. -/
abbrev a17 := m ((c : Thread nD τ).loc main_arg17)
/-- Argument 18 of @main on core `c`, as launched. -/
abbrev a18 := m ((c : Thread nD τ).loc main_arg18)

/-- What a boundary's contents `X` carry for every later stretch: the reciprocal node counts, the edge endpoints, the
    feature ids — each the reference's stage of the arguments — and the arguments as launched. -/
structure Carried (X : Valuation τ sig (Elt Ideal)) : Prop where
  inv : X (Proc.devRef .tc main_v12) = (Cert.ReferenceIdeal.ReadP.val_main_v487 (F := Ideal) (a3 m c))
  src : X (Proc.devRef .tc main_v1) = (Cert.ReferenceIdeal.ReadP.val_main_v1 (F := Ideal) (a1 m c))
  dst : X (Proc.devRef .tc main_v3) = (Cert.ReferenceIdeal.ReadP.val_main_v3 (F := Ideal) (a1 m c))
  iota : X (Proc.devRef .tc main_v4) = (Cert.ReferenceIdeal.ReadP.val_main_v4 (F := Ideal))
  h2 : X (Proc.devRef .tc main_arg2) = a2 m c
  h3 : X (Proc.devRef .tc main_arg3) = a3 m c
  h4 : X (Proc.devRef .tc main_arg4) = a4 m c
  h5 : X (Proc.devRef .tc main_arg5) = a5 m c
  h6 : X (Proc.devRef .tc main_arg6) = a6 m c
  h7 : X (Proc.devRef .tc main_arg7) = a7 m c
  h8 : X (Proc.devRef .tc main_arg8) = a8 m c
  h9 : X (Proc.devRef .tc main_arg9) = a9 m c
  h10 : X (Proc.devRef .tc main_arg10) = a10 m c
  h11 : X (Proc.devRef .tc main_arg11) = a11 m c
  h12 : X (Proc.devRef .tc main_arg12) = a12 m c
  h13 : X (Proc.devRef .tc main_arg13) = a13 m c
  h14 : X (Proc.devRef .tc main_arg14) = a14 m c
  h15 : X (Proc.devRef .tc main_arg15) = a15 m c
  h16 : X (Proc.devRef .tc main_arg16) = a16 m c
  h17 : X (Proc.devRef .tc main_arg17) = a17 m c
  h18 : X (Proc.devRef .tc main_arg18) = a18 m c

end Cert.KernelIdeal.Chain

end
-- ==== Proof.Spec.lean ====
/-
  The node-wise dense transform of one message-passing layer, as a function of array ENTRIES.

  For a node with input features `xr` and aggregated messages `ar` (two rows of 128 entries), the layer computes
      h   = xr + ar
      h₁  = relu (((h · W₁ + b₁) - μ₁) · rsqrt (σ₁² + ε) · γ₁ + β₁)
      out = relu (((h₁ · W₂ + b₂) - μ₂) · rsqrt (σ₂² + ε) · γ₂ + β₂)
  over the extended reals, every operation the exact one, `relu z = max z 0`, ε the one 32-bit word both programs
  carry. Arrays enter only through their entries (curried accessors), so the same function describes a block of
  5000 rows of the kernel and the whole 50000-row array of the reference, whatever layout the parameters arrive in.
-/
import Idealize.ShloMosaic.PureOps.Ideal
import Idealize.ShloMosaic.Lib.ValueIdx

noncomputable section

namespace Cert.Net

open Idealize.ShloMosaic

/-- The variance's additive guard ε, as the word both programs print. -/
abbrev eps : EReal := Ideal.ofBits .f32 0x3727C5AC#32

/-- The rectifier's floor, as the word both programs print (the real number zero). -/
abbrev floor0 : EReal := Ideal.ofBits .f32 0x00000000#32

/-- One dense unit at output column `j` from a row `h` of 128 inputs: the affine map `h · W + b`, centred by the
    running mean `mn`, scaled by `rsqrt (vr + ε)` and by `g`, shifted by `be`, rectified. The association is the one
    both programs compute: `((((Σₖ h k · W k j) + b j) - mn j) · rsqrt (vr j + ε)) · g j + be j`. -/
def unit (h : Fin 128 → EReal) (W : Fin 128 → Fin 128 → EReal) (b mn vr g be : Fin 128 → EReal) (j : Fin 128) : EReal :=
  max ((((((∑ k : Fin 128, h k * W k j) + b j) - mn j) * Ideal.rsqrt (vr j + eps)) * g j) + be j) floor0

/-- The layer at one node, output column `j`, from that node's row of features `xr` and of aggregated messages `ar`:
    two dense units over `h = xr + ar`. -/
def layer (xr ar : Fin 128 → EReal)
    (W1 : Fin 128 → Fin 128 → EReal) (b1 g1 be1 m1 v1 : Fin 128 → EReal)
    (W2 : Fin 128 → Fin 128 → EReal) (b2 g2 be2 m2 v2 : Fin 128 → EReal) (j : Fin 128) : EReal :=
  unit (fun k => unit (fun l => xr l + ar l) W1 b1 m1 v1 g1 be1 k) W2 b2 m2 v2 g2 be2 j

end Cert.Net

end
-- ==== Proof.KUnit.lean ====
/-
  The kernel body's arithmetic, read at one entry of a block.

  Every region of the kernel runs the same body on a block of 5000 nodes: with `h = x + aggr` (rows of the block),
  two dense units — matrix product into a zero accumulator, bias, centring, `rsqrt (σ² + ε)`, scale, shift, rectifier.
  At the ideal instance the narrowing to 16-bit floats before each product is the identity, the product at (p, q) is
  the plain sum `Σₖ h (p, k) · W (k, q)`, and a 1×128 parameter broadcast down the rows is read at its column.
  So the body's payload at (p, q) is `Net.layer` of row p of the two input blocks.
-/
import proofs.«180497_j12352325943908_1_alg».proof.Proof.Gen.KernelIdeal.Skeleton
import proofs.«180497_j12352325943908_1_alg».proof.Proof.Spec
import Idealize.ShloMosaic.PureOps.Ideal.Laws
import Idealize.ShloMosaic.Lib.ValueIdx
import Idealize.ShloMosaic.Lib.Pipeline.Value

noncomputable section

namespace Cert.KernelIdeal.KUnit

open Cert.KernelIdeal Cert.KernelIdeal.Gen Idealize.ShloMosaic Idealize.ShloMosaic.ValueIdx Idealize.ShloMosaic.Pipeline

/-! ## The block's matrix product as a sum over the 128 contracted columns -/

theorem lhs_blk_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_blk_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_blk_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_blk_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a 5000×128 block with a 128×128 matrix into the zero accumulator, at (p, q): the sum over the
    contracted index k of `h (p, k) · w (k, q)`. -/
theorem matmul_blk {φ₁ φ₂ : FTy} (h : FVec Ideal S5000x128 φ₁) (w : FVec Ideal S128x128 φ₂) (p : Fin 5000) (q : Fin 128) :
    matmul dot_S5000x128_S128x128_S5000x128_1_0_0_1_n_n none h w (constant S5000x128 .f32 0x00000000#32) (ix2 p q)
      = ∑ k : Fin 128, h (ix2 p k) * w (ix2 k q) := by
  refine (Ideal.matmul_constant_zero_apply dot_S5000x128_S128x128_S5000x128_1_0_0_1_n_n none h w (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_blk_0 _ _
    | ⟨1, _⟩ => exact (lhs_blk_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_blk_0 _ _).trans hk
    | ⟨1, _⟩ => exact rhs_blk_1 _ _)
  rw [el, er]

/-! ## A 1×128 parameter broadcast down the block's rows -/

/-- A 1×128 vector broadcast to 5000×128, at (p, q): its entry in column q. -/
theorem bcast_row (v : FVec Ideal S1x128 .f32) (p : Fin 5000) (q : Fin 128) :
    broadcastTo S5000x128 v broadcasts_S1x128_S5000x128 (ix2 p q) = v (ix2 0 q) :=
  broadcastTo_apply v broadcasts_S1x128_S5000x128 (ix2 p q) (ix2 0 q) (fun a => match a with
    | ⟨0, _⟩ => by show (0 : Nat) = if (1 : Nat) = 1 then 0 else _; rw [if_pos rfl]
    | ⟨1, _⟩ => by show q.val = if (128 : Nat) = 1 then 0 else _; rw [if_neg (by decide)]; rfl)

theorem rsqrt_apply {s : Shape} {φ : FTy} (v : FVec Ideal s φ) (i : s.Idx) : rsqrt v i = Ideal.rsqrt (v i) := rfl

/-! ## One dense unit of the body at (p, q) -/

/-- The body's dense unit — product into zero, bias, centring, `rsqrt (σ² + ε)`, scale, shift, rectifier, each
    parameter a 1×128 vector broadcast down the rows — read at (p, q) is `Net.unit` of row p. -/
theorem unit_blk {φ₁ φ₂ : FTy} (h : FVec Ideal S5000x128 φ₁) (w : FVec Ideal S128x128 φ₂) (b mn vr g be : FVec Ideal S1x128 .f32)
    (p : Fin 5000) (q : Fin 128) :
    maximumf
      (addf
        (mulf
          (mulf
            (subf
              (addf (matmul dot_S5000x128_S128x128_S5000x128_1_0_0_1_n_n none h w (constant S5000x128 .f32 0x00000000#32))
                (broadcastTo S5000x128 (shapeCast S1x128 b shapeCasts_S1x128_S1x128) broadcasts_S1x128_S5000x128))
              (broadcastTo S5000x128 (shapeCast S1x128 mn shapeCasts_S1x128_S1x128) broadcasts_S1x128_S5000x128))
            (broadcastTo S5000x128
              (rsqrt (addf (shapeCast S1x128 vr shapeCasts_S1x128_S1x128) (broadcast S1x128 (Scalar.ofBits .f32 0x3727C5AC#32))))
              broadcasts_S1x128_S5000x128))
          (broadcastTo S5000x128 (shapeCast S1x128 g shapeCasts_S1x128_S1x128) broadcasts_S1x128_S5000x128))
        (broadcastTo S5000x128 (shapeCast S1x128 be shapeCasts_S1x128_S1x128) broadcasts_S1x128_S5000x128))
      (broadcast S5000x128 (Scalar.ofBits .f32 0x00000000#32)) (ix2 p q)
    = Net.unit (fun k => h (ix2 p k)) (fun k j => w (ix2 k j)) (fun j => b (ix2 0 j)) (fun j => mn (ix2 0 j))
        (fun j => vr (ix2 0 j)) (fun j => g (ix2 0 j)) (fun j => be (ix2 0 j)) q := by
  simp only [maximumf_apply, addf_apply, mulf_apply, subf_apply, broadcast_apply, bcast_row, rsqrt_apply, shapeCast_self,
    matmul_blk]
  rfl

/-! ## The whole body of region 0 at (p, q) -/

/-- Region 0's first half (up to the narrowing of `h₁`), at (p, k): the first dense unit of row p of `x + aggr`. -/
theorem half0 (x0 x1 : Vec Ideal S5000x128 .f32) (w1 : Vec Ideal S128x128 .f32) (b1 m1 v1 g1 be1 : Vec Ideal S1x128 .f32)
    (p : Fin 5000) (k : Fin 128) :
    k0_pay2 (F := Ideal) x0 x1 w1 b1 m1 v1 g1 be1 (ix2 p k)
      = Net.unit (fun l => x0 (ix2 p l) + x1 (ix2 p l)) (fun l j => w1 (ix2 l j)) (fun j => b1 (ix2 0 j)) (fun j => m1 (ix2 0 j))
          (fun j => v1 (ix2 0 j)) (fun j => g1 (ix2 0 j)) (fun j => be1 (ix2 0 j)) k := by
  unfold k0_pay2
  rw [truncf_apply]
  refine (unit_blk _ _ b1 m1 v1 g1 be1 p k).trans ?_
  simp only [truncf_apply, addf_apply, shapeCast_self]

/-- Region 0's body at (p, q): `Net.layer` of row p of the two input blocks. -/
theorem pay0 (x0 x1 : Vec Ideal S5000x128 .f32) (w1 : Vec Ideal S128x128 .f32) (b1 m1 v1 g1 be1 : Vec Ideal S1x128 .f32)
    (w2 : Vec Ideal S128x128 .f32) (b2 m2 v2 g2 be2 : Vec Ideal S1x128 .f32) (p : Fin 5000) (q : Fin 128) :
    k0_pay1 (F := Ideal) (k0_pay2 x0 x1 w1 b1 m1 v1 g1 be1) (k0_pay3 w2) b2 m2 v2 g2 be2 (ix2 p q)
      = Net.layer (fun l => x0 (ix2 p l)) (fun l => x1 (ix2 p l))
          (fun l j => w1 (ix2 l j)) (fun j => b1 (ix2 0 j)) (fun j => g1 (ix2 0 j)) (fun j => be1 (ix2 0 j)) (fun j => m1 (ix2 0 j)) (fun j => v1 (ix2 0 j))
          (fun l j => w2 (ix2 l j)) (fun j => b2 (ix2 0 j)) (fun j => g2 (ix2 0 j)) (fun j => be2 (ix2 0 j)) (fun j => m2 (ix2 0 j)) (fun j => v2 (ix2 0 j)) q := by
  unfold k0_pay1
  refine (unit_blk _ _ b2 m2 v2 g2 be2 p q).trans ?_
  unfold Net.layer
  simp only [half0]
  unfold k0_pay3
  simp only [truncf_apply, shapeCast_self]

/-! ## The whole body of region 1 at (p, q) -/

/-- Region 1's first half (up to the narrowing of `h₁`), at (p, k): the first dense unit of row p of `x + aggr`. -/
theorem half1 (x0 x1 : Vec Ideal S5000x128 .f32) (w1 : Vec Ideal S128x128 .f32) (b1 m1 v1 g1 be1 : Vec Ideal S1x128 .f32)
    (p : Fin 5000) (k : Fin 128) :
    k1_pay2 (F := Ideal) x0 x1 w1 b1 m1 v1 g1 be1 (ix2 p k)
      = Net.unit (fun l => x0 (ix2 p l) + x1 (ix2 p l)) (fun l j => w1 (ix2 l j)) (fun j => b1 (ix2 0 j)) (fun j => m1 (ix2 0 j))
          (fun j => v1 (ix2 0 j)) (fun j => g1 (ix2 0 j)) (fun j => be1 (ix2 0 j)) k := by
  unfold k1_pay2
  rw [truncf_apply]
  refine (unit_blk _ _ b1 m1 v1 g1 be1 p k).trans ?_
  simp only [truncf_apply, addf_apply, shapeCast_self]

/-- Region 1's body at (p, q): `Net.layer` of row p of the two input blocks. -/
theorem pay1 (x0 x1 : Vec Ideal S5000x128 .f32) (w1 : Vec Ideal S128x128 .f32) (b1 m1 v1 g1 be1 : Vec Ideal S1x128 .f32)
    (w2 : Vec Ideal S128x128 .f32) (b2 m2 v2 g2 be2 : Vec Ideal S1x128 .f32) (p : Fin 5000) (q : Fin 128) :
    k1_pay1 (F := Ideal) (k1_pay2 x0 x1 w1 b1 m1 v1 g1 be1) (k1_pay3 w2) b2 m2 v2 g2 be2 (ix2 p q)
      = Net.layer (fun l => x0 (ix2 p l)) (fun l => x1 (ix2 p l))
          (fun l j => w1 (ix2 l j)) (fun j => b1 (ix2 0 j)) (fun j => g1 (ix2 0 j)) (fun j => be1 (ix2 0 j)) (fun j => m1 (ix2 0 j)) (fun j => v1 (ix2 0 j))
          (fun l j => w2 (ix2 l j)) (fun j => b2 (ix2 0 j)) (fun j => g2 (ix2 0 j)) (fun j => be2 (ix2 0 j)) (fun j => m2 (ix2 0 j)) (fun j => v2 (ix2 0 j)) q := by
  unfold k1_pay1
  refine (unit_blk _ _ b2 m2 v2 g2 be2 p q).trans ?_
  unfold Net.layer
  simp only [half1]
  unfold k1_pay3
  simp only [truncf_apply, shapeCast_self]

/-! ## The whole body of region 2 at (p, q) -/

/-- Region 2's first half (up to the narrowing of `h₁`), at (p, k): the first dense unit of row p of `x + aggr`. -/
theorem half2 (x0 x1 : Vec Ideal S5000x128 .f32) (w1 : Vec Ideal S128x128 .f32) (b1 m1 v1 g1 be1 : Vec Ideal S1x128 .f32)
    (p : Fin 5000) (k : Fin 128) :
    k2_pay2 (F := Ideal) x0 x1 w1 b1 m1 v1 g1 be1 (ix2 p k)
      = Net.unit (fun l => x0 (ix2 p l) + x1 (ix2 p l)) (fun l j => w1 (ix2 l j)) (fun j => b1 (ix2 0 j)) (fun j => m1 (ix2 0 j))
          (fun j => v1 (ix2 0 j)) (fun j => g1 (ix2 0 j)) (fun j => be1 (ix2 0 j)) k := by
  unfold k2_pay2
  rw [truncf_apply]
  refine (unit_blk _ _ b1 m1 v1 g1 be1 p k).trans ?_
  simp only [truncf_apply, addf_apply, shapeCast_self]

/-- Region 2's body at (p, q): `Net.layer` of row p of the two input blocks. -/
theorem pay2 (x0 x1 : Vec Ideal S5000x128 .f32) (w1 : Vec Ideal S128x128 .f32) (b1 m1 v1 g1 be1 : Vec Ideal S1x128 .f32)
    (w2 : Vec Ideal S128x128 .f32) (b2 m2 v2 g2 be2 : Vec Ideal S1x128 .f32) (p : Fin 5000) (q : Fin 128) :
    k2_pay1 (F := Ideal) (k2_pay2 x0 x1 w1 b1 m1 v1 g1 be1) (k2_pay3 w2) b2 m2 v2 g2 be2 (ix2 p q)
      = Net.layer (fun l => x0 (ix2 p l)) (fun l => x1 (ix2 p l))
          (fun l j => w1 (ix2 l j)) (fun j => b1 (ix2 0 j)) (fun j => g1 (ix2 0 j)) (fun j => be1 (ix2 0 j)) (fun j => m1 (ix2 0 j)) (fun j => v1 (ix2 0 j))
          (fun l j => w2 (ix2 l j)) (fun j => b2 (ix2 0 j)) (fun j => g2 (ix2 0 j)) (fun j => be2 (ix2 0 j)) (fun j => m2 (ix2 0 j)) (fun j => v2 (ix2 0 j)) q := by
  unfold k2_pay1
  refine (unit_blk _ _ b2 m2 v2 g2 be2 p q).trans ?_
  unfold Net.layer
  simp only [half2]
  unfold k2_pay3
  simp only [truncf_apply, shapeCast_self]

/-! ## The whole body of region 3 at (p, q) -/

/-- Region 3's first half (up to the narrowing of `h₁`), at (p, k): the first dense unit of row p of `x + aggr`. -/
theorem half3 (x0 x1 : Vec Ideal S5000x128 .f32) (w1 : Vec Ideal S128x128 .f32) (b1 m1 v1 g1 be1 : Vec Ideal S1x128 .f32)
    (p : Fin 5000) (k : Fin 128) :
    k3_pay2 (F := Ideal) x0 x1 w1 b1 m1 v1 g1 be1 (ix2 p k)
      = Net.unit (fun l => x0 (ix2 p l) + x1 (ix2 p l)) (fun l j => w1 (ix2 l j)) (fun j => b1 (ix2 0 j)) (fun j => m1 (ix2 0 j))
          (fun j => v1 (ix2 0 j)) (fun j => g1 (ix2 0 j)) (fun j => be1 (ix2 0 j)) k := by
  unfold k3_pay2
  rw [truncf_apply]
  refine (unit_blk _ _ b1 m1 v1 g1 be1 p k).trans ?_
  simp only [truncf_apply, addf_apply, shapeCast_self]

/-- Region 3's body at (p, q): `Net.layer` of row p of the two input blocks. -/
theorem pay3 (x0 x1 : Vec Ideal S5000x128 .f32) (w1 : Vec Ideal S128x128 .f32) (b1 m1 v1 g1 be1 : Vec Ideal S1x128 .f32)
    (w2 : Vec Ideal S128x128 .f32) (b2 m2 v2 g2 be2 : Vec Ideal S1x128 .f32) (p : Fin 5000) (q : Fin 128) :
    k3_pay1 (F := Ideal) (k3_pay2 x0 x1 w1 b1 m1 v1 g1 be1) (k3_pay3 w2) b2 m2 v2 g2 be2 (ix2 p q)
      = Net.layer (fun l => x0 (ix2 p l)) (fun l => x1 (ix2 p l))
          (fun l j => w1 (ix2 l j)) (fun j => b1 (ix2 0 j)) (fun j => g1 (ix2 0 j)) (fun j => be1 (ix2 0 j)) (fun j => m1 (ix2 0 j)) (fun j => v1 (ix2 0 j))
          (fun l j => w2 (ix2 l j)) (fun j => b2 (ix2 0 j)) (fun j => g2 (ix2 0 j)) (fun j => be2 (ix2 0 j)) (fun j => m2 (ix2 0 j)) (fun j => v2 (ix2 0 j)) q := by
  unfold k3_pay1
  refine (unit_blk _ _ b2 m2 v2 g2 be2 p q).trans ?_
  unfold Net.layer
  simp only [half3]
  unfold k3_pay3
  simp only [truncf_apply, shapeCast_self]

/-! ## The whole body of region 4 at (p, q) -/

/-- Region 4's first half (up to the narrowing of `h₁`), at (p, k): the first dense unit of row p of `x + aggr`. -/
theorem half4 (x0 x1 : Vec Ideal S5000x128 .f32) (w1 : Vec Ideal S128x128 .f32) (b1 m1 v1 g1 be1 : Vec Ideal S1x128 .f32)
    (p : Fin 5000) (k : Fin 128) :
    k4_pay2 (F := Ideal) x0 x1 w1 b1 m1 v1 g1 be1 (ix2 p k)
      = Net.unit (fun l => x0 (ix2 p l) + x1 (ix2 p l)) (fun l j => w1 (ix2 l j)) (fun j => b1 (ix2 0 j)) (fun j => m1 (ix2 0 j))
          (fun j => v1 (ix2 0 j)) (fun j => g1 (ix2 0 j)) (fun j => be1 (ix2 0 j)) k := by
  unfold k4_pay2
  rw [truncf_apply]
  refine (unit_blk _ _ b1 m1 v1 g1 be1 p k).trans ?_
  simp only [truncf_apply, addf_apply, shapeCast_self]

/-- Region 4's body at (p, q): `Net.layer` of row p of the two input blocks. -/
theorem pay4 (x0 x1 : Vec Ideal S5000x128 .f32) (w1 : Vec Ideal S128x128 .f32) (b1 m1 v1 g1 be1 : Vec Ideal S1x128 .f32)
    (w2 : Vec Ideal S128x128 .f32) (b2 m2 v2 g2 be2 : Vec Ideal S1x128 .f32) (p : Fin 5000) (q : Fin 128) :
    k4_pay1 (F := Ideal) (k4_pay2 x0 x1 w1 b1 m1 v1 g1 be1) (k4_pay3 w2) b2 m2 v2 g2 be2 (ix2 p q)
      = Net.layer (fun l => x0 (ix2 p l)) (fun l => x1 (ix2 p l))
          (fun l j => w1 (ix2 l j)) (fun j => b1 (ix2 0 j)) (fun j => g1 (ix2 0 j)) (fun j => be1 (ix2 0 j)) (fun j => m1 (ix2 0 j)) (fun j => v1 (ix2 0 j))
          (fun l j => w2 (ix2 l j)) (fun j => b2 (ix2 0 j)) (fun j => g2 (ix2 0 j)) (fun j => be2 (ix2 0 j)) (fun j => m2 (ix2 0 j)) (fun j => v2 (ix2 0 j)) q := by
  unfold k4_pay1
  refine (unit_blk _ _ b2 m2 v2 g2 be2 p q).trans ?_
  unfold Net.layer
  simp only [half4]
  unfold k4_pay3
  simp only [truncf_apply, shapeCast_self]

end Cert.KernelIdeal.KUnit

end
-- ==== Proof.Idx.lean ====
/-
  An entry of a 50000×128 node-feature array: its node (row) and its column, as numbers below the literal extents.
-/
import Idealize.ShloMosaic.Lib.ValueIdx

namespace Cert.Net

open Idealize.ShloMosaic Idealize.ShloMosaic.ValueIdx

/-- The node (row) of an entry. -/
abbrev node (i : (⟨2, ![50000, 128]⟩ : Shape).Idx) : Fin 50000 := ⟨(i 0).val, (i 0).isLt⟩
/-- The column of an entry. -/
abbrev col (i : (⟨2, ![50000, 128]⟩ : Shape).Idx) : Fin 128 := ⟨(i 1).val, (i 1).isLt⟩

theorem eq_node_col (i : (⟨2, ![50000, 128]⟩ : Shape).Idx) : i = ix2 (node i) (col i) := eq_ix2 i

end Cert.Net
-- ==== Proof.Layout.lean ====
/-
  A vector of 128 entries reshaped to a 1×128 row: the row's entry (0, j) is the vector's entry j. The kernel is handed
  each normalisation parameter as such a row; the reference keeps the vector.
-/
import Idealize.ShloMosaic.Lib.ValueIdx
import Idealize.ShloMosaic.Lib.Pipeline.Value

namespace Cert.Net

open Idealize.ShloMosaic Idealize.ShloMosaic.ValueIdx Idealize.ShloMosaic.Pipeline

theorem row_of_vec {α : Type} (y : (⟨1, ![128]⟩ : Shape).Idx → α)
    (h : (⟨1, ![128]⟩ : Shape).ShapeCasts (⟨2, ![1, 128]⟩ : Shape)) (j : Fin 128) :
    shapeCast (⟨2, ![1, 128]⟩ : Shape) y h (ix2 (0 : Fin 1) j) = y (ix1 j) :=
  shapeCast_apply y h (ix2 (0 : Fin 1) j) (ix1 j) (by
    rewrite [Shape.rowMajor_val_one, Shape.rowMajor_val_two]
    show j.val = 0 * 128 + j.val
    omega)

end Cert.Net
-- ==== Proof.LayerArr.lean ====
/-
  The layer as a function of whole arrays.

  `layerArr` is what one region of the kernel leaves in its output array: at entry (node r, column j) the layer of row r
  of the two node-major arrays, the two weight matrices read at (l, j) and the ten normalisation parameters, which the
  kernel receives as 1×128 rows, read at (0, j). When such a row is a 128-vector reshaped (as the program around the
  kernel makes it), the row's entry (0, j) is the vector's entry j: `layerArr_rows`.
-/
import proofs.«180497_j12352325943908_1_alg».proof.Proof.Spec
import proofs.«180497_j12352325943908_1_alg».proof.Proof.Idx
import proofs.«180497_j12352325943908_1_alg».proof.Proof.Layout

noncomputable section

namespace Cert.Net

open Idealize.ShloMosaic Idealize.ShloMosaic.ValueIdx

abbrev SNode : Shape := ⟨2, ![50000, 128]⟩
abbrev SMat : Shape := ⟨2, ![128, 128]⟩
abbrev SRow : Shape := ⟨2, ![1, 128]⟩
abbrev SVec : Shape := ⟨1, ![128]⟩

/-- The layer's output array from the arrays a region reads. -/
def layerArr (X A : SNode.Idx → EReal) (W1 : SMat.Idx → EReal) (b1 g1 be1 m1 v1 : SRow.Idx → EReal)
    (W2 : SMat.Idx → EReal) (b2 g2 be2 m2 v2 : SRow.Idx → EReal) : SNode.Idx → EReal := fun i =>
  layer (fun l => X (ix2 (node i) l)) (fun l => A (ix2 (node i) l))
    (fun l j => W1 (ix2 l j)) (fun j => b1 (ix2 (0 : Fin 1) j)) (fun j => g1 (ix2 (0 : Fin 1) j)) (fun j => be1 (ix2 (0 : Fin 1) j))
    (fun j => m1 (ix2 (0 : Fin 1) j)) (fun j => v1 (ix2 (0 : Fin 1) j))
    (fun l j => W2 (ix2 l j)) (fun j => b2 (ix2 (0 : Fin 1) j)) (fun j => g2 (ix2 (0 : Fin 1) j)) (fun j => be2 (ix2 (0 : Fin 1) j))
    (fun j => m2 (ix2 (0 : Fin 1) j)) (fun j => v2 (ix2 (0 : Fin 1) j)) (col i)

/-- With every row-parameter a reshaped vector, the rows are read as the vectors. -/
theorem layerArr_rows (X A : SNode.Idx → EReal) (W1 W2 : SMat.Idx → EReal)
    (b1 g1 be1 m1 v1 b2 g2 be2 m2 v2 : SVec.Idx → EReal) (h : SVec.ShapeCasts SRow) (i : SNode.Idx) :
    layerArr X A W1 (shapeCast SRow b1 h) (shapeCast SRow g1 h) (shapeCast SRow be1 h) (shapeCast SRow m1 h) (shapeCast SRow v1 h)
        W2 (shapeCast SRow b2 h) (shapeCast SRow g2 h) (shapeCast SRow be2 h) (shapeCast SRow m2 h) (shapeCast SRow v2 h) i
      = layer (fun l => X (ix2 (node i) l)) (fun l => A (ix2 (node i) l))
          (fun l j => W1 (ix2 l j)) (fun j => b1 (ix1 j)) (fun j => g1 (ix1 j)) (fun j => be1 (ix1 j)) (fun j => m1 (ix1 j)) (fun j => v1 (ix1 j))
          (fun l j => W2 (ix2 l j)) (fun j => b2 (ix1 j)) (fun j => g2 (ix1 j)) (fun j => be2 (ix1 j)) (fun j => m2 (ix1 j)) (fun j => v2 (ix1 j)) (col i) := by
  unfold layerArr
  simp only [row_of_vec]

end Cert.Net

end
-- ==== Proof.Final0.lean ====
/-
  Region 0's output array, whole: the ten blocks of 5000 nodes the grid writes back tile the 50000×128 array, and
  block t holds, at row p, the layer of node 5000·t + p. So after the region the output array is, entry by entry,
  `Net.layer` of that node's row of the two node-major input arrays and of the twelve parameter arrays (each read
  whole at every grid point: their block index is constantly 0): `Net.layerArr` of the fourteen arrays the region finds.
-/
import proofs.«180497_j12352325943908_1_alg».proof.Proof.FrameKI
import proofs.«180497_j12352325943908_1_alg».proof.Proof.KUnit
import proofs.«180497_j12352325943908_1_alg».proof.Proof.LayerArr

set_option maxRecDepth 16384

noncomputable section

namespace Cert.KernelIdeal.Final0

open Cert.KernelIdeal Cert.KernelIdeal.Gen Cert.KernelIdeal.GenP Cert.KernelIdeal.KUnit Cert.Net
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the node-major windows (0, 1 and the output 14) sit at block
    (t, 0); every parameter window at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_14.index t (0 : Fin 2) = t.val ∧ win0_14.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0 :=
  (by decide +kernel : ∀ t : Fin grid0.N, _)

theorem t_lt (t : Fin cfg0.N) : t.val < 10 := by have := t.isLt; have h : cfg0.N = 10 := N_0; omega

/-- The node of row p of block t. -/
abbrev nodeAt (t : Fin cfg0.N) (p : Fin 5000) : Fin 50000 := ⟨t.val * 5000 + p.val, by have := t_lt t; have := p.isLt; omega⟩

/-! ## The blocks a grid point reads -/

/-- Row p of point t's block of window 0 is node 5000·t + p of its array. -/
theorem blk_x (c : Dev nD) (t : Fin cfg0.N) (p : Fin 5000) (l : Fin 128) :
    iblk0 V c 0 t (ix2 p l) = V c main_arg0 (ix2 (nodeAt t p) l) := by
  obtain ⟨e0, e1, -⟩ := idx_facts t
  show V c main_arg0 (((cfg0.win 0).blk t).view.emb (ix2 p l)) = V c main_arg0 (ix2 (nodeAt t p) l)
  refine congrArg (V c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * l.val = l.val; omega

/-- Row p of point t's block of window 1 is node 5000·t + p of its array. -/
theorem blk_a (c : Dev nD) (t : Fin cfg0.N) (p : Fin 5000) (l : Fin 128) :
    iblk0 V c 1 t (ix2 p l) = V c main_v58 (ix2 (nodeAt t p) l) := by
  obtain ⟨-, -, e0, e1, -⟩ := idx_facts t
  show V c main_v58 (((cfg0.win 1).blk t).view.emb (ix2 p l)) = V c main_v58 (ix2 (nodeAt t p) l)
  refine congrArg (V c main_v58) (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * l.val = l.val; omega

/-- Window 2 (a 128×128 weight matrix) is read whole at every point. -/
theorem blk_w1 (c : Dev nD) (t : Fin cfg0.N) (l j : Fin 128) :
    iblk0 V c 2 t (ix2 l j) = V c main_v60 (ix2 l j) := by
  obtain ⟨-, -, -, -, -, -, e0, e1, -⟩ := idx_facts t
  show V c main_v60 (((cfg0.win 2).blk t).view.emb (ix2 l j)) = V c main_v60 (ix2 l j)
  refine congrArg (V c main_v60) (funext fun a => Fin.ext ?_)
  match a with
  | ⟨0, _⟩ => show win0_2.index t (0 : Fin 2) * 128 + 1 * l.val = l.val; omega
  | ⟨1, _⟩ => show win0_2.index t (1 : Fin 2) * 128 + 1 * j.val = j.val; omega

/-- Window 3 (a 1×128 parameter row) is read whole at every point. -/
theorem blk_b1 (c : Dev nD) (t : Fin cfg0.N) (j : Fin 128) :
    iblk0 V c 3 t (ix2 (0 : Fin 1) j) = V c main_v63 (ix2 (0 : Fin 1) j) := by
  obtain ⟨-, -, -, -, -, -, -, -, e0, e1, -⟩ := idx_facts t
  show V c main_v63 (((cfg0.win 3).blk t).view.emb (ix2 (0 : Fin 1) j)) = V c main_v63 (ix2 (0 : Fin 1) j)
  refine congrArg (V c main_v63) (funext fun a => Fin.ext ?_)
  match a with
  | ⟨0, _⟩ => show win0_3.index t (0 : Fin 2) * 1 + 1 * 0 = 0; omega
  | ⟨1, _⟩ => show win0_3.index t (1 : Fin 2) * 128 + 1 * j.val = j.val; omega

/-- Window 4 (a 1×128 parameter row) is read whole at every point. -/
theorem blk_g1 (c : Dev nD) (t : Fin cfg0.N) (j : Fin 128) :
    iblk0 V c 4 t (ix2 (0 : Fin 1) j) = V c main_v66 (ix2 (0 : Fin 1) j) := by
  obtain ⟨-, -, -, -, -, -, -, -, -, -, e0, e1, -⟩ := idx_facts t
  show V c main_v66 (((cfg0.win 4).blk t).view.emb (ix2 (0 : Fin 1) j)) = V c main_v66 (ix2 (0 : Fin 1) j)
  refine congrArg (V c main_v66) (funext fun a => Fin.ext ?_)
  match a with
  | ⟨0, _⟩ => show win0_4.index t (0 : Fin 2) * 1 + 1 * 0 = 0; omega
  | ⟨1, _⟩ => show win0_4.index t (1 : Fin 2) * 128 + 1 * j.val = j.val; omega

/-- Window 5 (a 1×128 parameter row) is read whole at every point. -/
theorem blk_be1 (c : Dev nD) (t : Fin cfg0.N) (j : Fin 128) :
    iblk0 V c 5 t (ix2 (0 : Fin 1) j) = V c main_v69 (ix2 (0 : Fin 1) j) := by
  obtain ⟨-, -, -, -, -, -, -, -, -, -, -, -, e0, e1, -⟩ := idx_facts t
  show V c main_v69 (((cfg0.win 5).blk t).view.emb (ix2 (0 : Fin 1) j)) = V c main_v69 (ix2 (0 : Fin 1) j)
  refine congrArg (V c main_v69) (funext fun a => Fin.ext ?_)
  match a with
  | ⟨0, _⟩ => show win0_5.index t (0 : Fin 2) * 1 + 1 * 0 = 0; omega
  | ⟨1, _⟩ => show win0_5.index t (1 : Fin 2) * 128 + 1 * j.val = j.val; omega

/-- Window 6 (a 1×128 parameter row) is read whole at every point. -/
theorem blk_m1 (c : Dev nD) (t : Fin cfg0.N) (j : Fin 128) :
    iblk0 V c 6 t (ix2 (0 : Fin 1) j) = V c main_v72 (ix2 (0 : Fin 1) j) := by
  obtain ⟨-, -, -, -, -, -, -, -, -, -, -, -, -, -, e0, e1, -⟩ := idx_facts t
  show V c main_v72 (((cfg0.win 6).blk t).view.emb (ix2 (0 : Fin 1) j)) = V c main_v72 (ix2 (0 : Fin 1) j)
  refine congrArg (V c main_v72) (funext fun a => Fin.ext ?_)
  match a with
  | ⟨0, _⟩ => show win0_6.index t (0 : Fin 2) * 1 + 1 * 0 = 0; omega
  | ⟨1, _⟩ => show win0_6.index t (1 : Fin 2) * 128 + 1 * j.val = j.val; omega

/-- Window 7 (a 1×128 parameter row) is read whole at every point. -/
theorem blk_v1 (c : Dev nD) (t : Fin cfg0.N) (j : Fin 128) :
    iblk0 V c 7 t (ix2 (0 : Fin 1) j) = V c main_v75 (ix2 (0 : Fin 1) j) := by
  obtain ⟨-, -, -, -, -, -, -, -, -, -, -, -, -, -, -, -, e0, e1, -⟩ := idx_facts t
  show V c main_v75 (((cfg0.win 7).blk t).view.emb (ix2 (0 : Fin 1) j)) = V c main_v75 (ix2 (0 : Fin 1) j)
  refine congrArg (V c main_v75) (funext fun a => Fin.ext ?_)
  match a with
  | ⟨0, _⟩ => show win0_7.index t (0 : Fin 2) * 1 + 1 * 0 = 0; omega
  | ⟨1, _⟩ => show win0_7.index t (1 : Fin 2) * 128 + 1 * j.val = j.val; omega

/-- Window 8 (a 128×128 weight matrix) is read whole at every point. -/
theorem blk_w2 (c : Dev nD) (t : Fin cfg0.N) (l j : Fin 128) :
    iblk0 V c 8 t (ix2 l j) = V c main_v77 (ix2 l j) := by
  obtain ⟨-, -, -, -, -, -, -, -, -, -, -, -, -, -, -, -, -, -, e0, e1, -⟩ := idx_facts t
  show V c main_v77 (((cfg0.win 8).blk t).view.emb (ix2 l j)) = V c main_v77 (ix2 l j)
  refine congrArg (V c main_v77) (funext fun a => Fin.ext ?_)
  match a with
  | ⟨0, _⟩ => show win0_8.index t (0 : Fin 2) * 128 + 1 * l.val = l.val; omega
  | ⟨1, _⟩ => show win0_8.index t (1 : Fin 2) * 128 + 1 * j.val = j.val; omega

/-- Window 9 (a 1×128 parameter row) is read whole at every point. -/
theorem blk_b2 (c : Dev nD) (t : Fin cfg0.N) (j : Fin 128) :
    iblk0 V c 9 t (ix2 (0 : Fin 1) j) = V c main_v80 (ix2 (0 : Fin 1) j) := by
  obtain ⟨-, -, -, -, -, -, -, -, -, -, -, -, -, -, -, -, -, -, -, -, e0, e1, -⟩ := idx_facts t
  show V c main_v80 (((cfg0.win 9).blk t).view.emb (ix2 (0 : Fin 1) j)) = V c main_v80 (ix2 (0 : Fin 1) j)
  refine congrArg (V c main_v80) (funext fun a => Fin.ext ?_)
  match a with
  | ⟨0, _⟩ => show win0_9.index t (0 : Fin 2) * 1 + 1 * 0 = 0; omega
  | ⟨1, _⟩ => show win0_9.index t (1 : Fin 2) * 128 + 1 * j.val = j.val; omega

/-- Window 10 (a 1×128 parameter row) is read whole at every point. -/
theorem blk_g2 (c : Dev nD) (t : Fin cfg0.N) (j : Fin 128) :
    iblk0 V c 10 t (ix2 (0 : Fin 1) j) = V c main_v83 (ix2 (0 : Fin 1) j) := by
  obtain ⟨-, -, -, -, -, -, -, -, -, -, -, -, -, -, -, -, -, -, -, -, -, -, e0, e1, -⟩ := idx_facts t
  show V c main_v83 (((cfg0.win 10).blk t).view.emb (ix2 (0 : Fin 1) j)) = V c main_v83 (ix2 (0 : Fin 1) j)
  refine congrArg (V c main_v83) (funext fun a => Fin.ext ?_)
  match a with
  | ⟨0, _⟩ => show win0_10.index t (0 : Fin 2) * 1 + 1 * 0 = 0; omega
  | ⟨1, _⟩ => show win0_10.index t (1 : Fin 2) * 128 + 1 * j.val = j.val; omega

/-- Window 11 (a 1×128 parameter row) is read whole at every point. -/
theorem blk_be2 (c : Dev nD) (t : Fin cfg0.N) (j : Fin 128) :
    iblk0 V c 11 t (ix2 (0 : Fin 1) j) = V c main_v86 (ix2 (0 : Fin 1) j) := by
  obtain ⟨-, -, -, -, -, -, -, -, -, -, -, -, -, -, -, -, -, -, -, -, -, -, -, -, e0, e1, -⟩ := idx_facts t
  show V c main_v86 (((cfg0.win 11).blk t).view.emb (ix2 (0 : Fin 1) j)) = V c main_v86 (ix2 (0 : Fin 1) j)
  refine congrArg (V c main_v86) (funext fun a => Fin.ext ?_)
  match a with
  | ⟨0, _⟩ => show win0_11.index t (0 : Fin 2) * 1 + 1 * 0 = 0; omega
  | ⟨1, _⟩ => show win0_11.index t (1 : Fin 2) * 128 + 1 * j.val = j.val; omega

/-- Window 12 (a 1×128 parameter row) is read whole at every point. -/
theorem blk_m2 (c : Dev nD) (t : Fin cfg0.N) (j : Fin 128) :
    iblk0 V c 12 t (ix2 (0 : Fin 1) j) = V c main_v89 (ix2 (0 : Fin 1) j) := by
  obtain ⟨-, -, -, -, -, -, -, -, -, -, -, -, -, -, -, -, -, -, -, -, -, -, -, -, -, -, e0, e1, -⟩ := idx_facts t
  show V c main_v89 (((cfg0.win 12).blk t).view.emb (ix2 (0 : Fin 1) j)) = V c main_v89 (ix2 (0 : Fin 1) j)
  refine congrArg (V c main_v89) (funext fun a => Fin.ext ?_)
  match a with
  | ⟨0, _⟩ => show win0_12.index t (0 : Fin 2) * 1 + 1 * 0 = 0; omega
  | ⟨1, _⟩ => show win0_12.index t (1 : Fin 2) * 128 + 1 * j.val = j.val; omega

/-- Window 13 (a 1×128 parameter row) is read whole at every point. -/
theorem blk_v2 (c : Dev nD) (t : Fin cfg0.N) (j : Fin 128) :
    iblk0 V c 13 t (ix2 (0 : Fin 1) j) = V c main_v92 (ix2 (0 : Fin 1) j) := by
  obtain ⟨-, -, -, -, -, -, -, -, -, -, -, -, -, -, -, -, -, -, -, -, -, -, -, -, -, -, -, -, e0, e1⟩ := idx_facts t
  show V c main_v92 (((cfg0.win 13).blk t).view.emb (ix2 (0 : Fin 1) j)) = V c main_v92 (ix2 (0 : Fin 1) j)
  refine congrArg (V c main_v92) (funext fun a => Fin.ext ?_)
  match a with
  | ⟨0, _⟩ => show win0_13.index t (0 : Fin 2) * 1 + 1 * 0 = 0; omega
  | ⟨1, _⟩ => show win0_13.index t (1 : Fin 2) * 128 + 1 * j.val = j.val; omega

/-! ## What a grid point writes back, and the array -/

/-- The output array as a function of the arrays the region finds. -/
abbrev G (c : Dev nD) : S50000x128.Idx → EReal := Net.layerArr (V c main_arg0) (V c main_v58) (V c main_v60) (V c main_v63) (V c main_v66) (V c main_v69) (V c main_v72) (V c main_v75) (V c main_v77) (V c main_v80) (V c main_v83) (V c main_v86) (V c main_v89) (V c main_v92)

/-- WHAT POINT t WRITES BACK is block t of `G`. -/
theorem flushed (c : Dev nD) (t : Fin cfg0.N) :
    (dat0 V c).flushed 14 t = ((cfg0.win 14).blk t).view.read (Elt Ideal) (G V c) := by
  show (cfg0.win 14).cut (grid0.coords t) ((dat0 V c).after 14 t) = _
  rw [after0_14]
  unfold out0_14
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  refine (pay0 (iblk0 V c 0 t) (iblk0 V c 1 t) (iblk0 V c 2 t) (iblk0 V c 3 t) (iblk0 V c 6 t) (iblk0 V c 7 t) (iblk0 V c 4 t) (iblk0 V c 5 t) (iblk0 V c 8 t) (iblk0 V c 9 t) (iblk0 V c 12 t) (iblk0 V c 13 t) (iblk0 V c 10 t) (iblk0 V c 11 t) p q).trans ?_
  obtain ⟨-, -, -, -, e0, e1, -⟩ := idx_facts t
  have hn : node (((cfg0.win 14).blk t).view.emb (ix2 p q)) = nodeAt t p :=
    Fin.ext (by show win0_14.index t (0 : Fin 2) * 5000 + 1 * p.val = t.val * 5000 + p.val; omega)
  have hc : col (((cfg0.win 14).blk t).view.emb (ix2 p q)) = q :=
    Fin.ext (by show win0_14.index t (1 : Fin 2) * 128 + 1 * q.val = q.val; omega)
  show _ = Net.layerArr (V c main_arg0) (V c main_v58) (V c main_v60) (V c main_v63) (V c main_v66) (V c main_v69) (V c main_v72) (V c main_v75) (V c main_v77) (V c main_v80) (V c main_v83) (V c main_v86) (V c main_v89) (V c main_v92) (((cfg0.win 14).blk t).view.emb (ix2 p q))
  unfold Net.layerArr
  rw [hn, hc]
  simp only [blk_x, blk_a, blk_w1, blk_b1, blk_g1, blk_be1, blk_m1, blk_v1, blk_w2, blk_b2, blk_g2, blk_be2, blk_m2, blk_v2]

/-- Every entry of the output array is in some point's block: node r is in block r / 5000. -/
theorem cover (c : Dev nD) (i : S50000x128.Idx) :
    ∃ t : Fin cfg0.N, (cfg0.win 14).flush t = true ∧ i ∈ ((cfg0.win 14).blk t).view.set := by
  have hi0 : (i 0).val < 50000 := (i 0).isLt
  have hi1 : (i 1).val < 128 := (i 1).isLt
  let t : Fin cfg0.N := ⟨(i 0).val / 5000, by rw [show cfg0.N = 10 from N_0]; omega⟩
  obtain ⟨-, -, -, -, e0, e1, -⟩ := idx_facts t
  refine ⟨t, flush0_14 t, ?_⟩
  show i ∈ ((View.whole main_v93).slice (win0_14.rect t)).set
  rw [View.set_slice_whole, Rect.mem_set_unit]
  intro a
  match a with
  | ⟨0, _⟩ => show win0_14.index t (0 : Fin 2) * 5000 ≤ (i 0).val ∧ (i 0).val < win0_14.index t (0 : Fin 2) * 5000 + 5000; rw [e0]; show (i 0).val / 5000 * 5000 ≤ (i 0).val ∧ (i 0).val < (i 0).val / 5000 * 5000 + 5000; omega
  | ⟨1, _⟩ => show win0_14.index t (1 : Fin 2) * 128 ≤ (i 1).val ∧ (i 1).val < win0_14.index t (1 : Fin 2) * 128 + 128; omega

/-- THE ARRAY after the region: `Net.layerArr` of the fourteen arrays the region finds. -/
theorem final (c : Dev nD) : (dat0 V c).arrAt 14 cfg0.N = G V c :=
  (dat0 V c).arrAt_eq_of_cover 14 (G V c) (fun t _ => flushed V c t) (cover c)

end Cert.KernelIdeal.Final0

end
-- ==== Proof.RefLayer0.lean ====
/-
  Layer 0 of the reference, read at an entry.

  The reference computes the layer's dense transform with whole-array host operations: `h = x + aggr`, a
  `dot_general` with the layer's weight slice, the bias and the normalisation parameters each sliced out of its
  5×128 table, reshaped to a vector and broadcast over the 50000 nodes, `rsqrt`, and the rectifier. Read at the
  entry (node r, column j) through the stage lemmas, each dense unit is `Net.unit` of row r of its input, so the
  layer's output stage is `Net.layer` of row r of the layer's input features and aggregated messages.
-/
import proofs.«180497_j12352325943908_1_alg».proof.Proof.ReadP
import proofs.«180497_j12352325943908_1_alg».proof.Proof.Spec
import proofs.«180497_j12352325943908_1_alg».proof.Proof.Idx

set_option maxRecDepth 16384

noncomputable section

namespace Cert.ReferenceIdeal.Layer0

open Cert.ReferenceIdeal Cert.ReferenceIdeal.ReadP Cert.Net Idealize.ShloMosaic Idealize.ShloMosaic.ValueIdx

/-- The first dense unit's output stage at (r, j): `Net.unit` of row r of `h = x + aggr`. -/
theorem unit1 (x0 : (⟨S50000x128, .f32⟩ : BufTy).Contents (Elt Ideal)) (x1 : (⟨S2x600000, .i32⟩ : BufTy).Contents (Elt Ideal)) (x2 : (⟨S600000x3, .i32⟩ : BufTy).Contents (Elt Ideal)) (x4 : (⟨S5x3x8x128, .f32⟩ : BufTy).Contents (Elt Ideal)) (x5 : (⟨S5x128x128, .f32⟩ : BufTy).Contents (Elt Ideal)) (x6 x7 x8 x9 x10 : (⟨S5x128, .f32⟩ : BufTy).Contents (Elt Ideal)) (x11 : (⟨S5x128x128, .f32⟩ : BufTy).Contents (Elt Ideal)) (x12 x13 x14 x15 x16 : (⟨S5x128, .f32⟩ : BufTy).Contents (Elt Ideal)) (i : S50000x128.Idx) :
    (val_main_v67 (F := Ideal) x0 x1 x2 x4 x5 x6 x7 x8 x9 x10) i
      = Net.unit (fun k => (val_main_v35 (F := Ideal) x0 x1 x2 x4) (ix2 (node i) k)) (fun k j => (val_main_v37 (F := Ideal) x5) (ix2 k j))
          (fun j => (val_main_v40 (F := Ideal) x6) (ix1 j)) (fun j => (val_main_v49 (F := Ideal) x9) (ix1 j)) (fun j => (val_main_v51 (F := Ideal) x10) (ix1 j))
          (fun j => (val_main_v45 (F := Ideal) x7) (ix1 j)) (fun j => (val_main_v47 (F := Ideal) x8) (ix1 j)) (col i) := by
  have hl : ∀ k, lidx_main_v38 i k = ix2 (node i) k := fun k => funext fun a => by
    match a with
    | ⟨0, _⟩ => rfl
    | ⟨1, _⟩ => rfl
  have hr : ∀ k, ridx_main_v38 i k = ix2 k (col i) := fun k => funext fun a => by
    match a with
    | ⟨0, _⟩ => rfl
    | ⟨1, _⟩ => rfl
  have hb : idx_main_v41 (idx_main_v42 i) = ix1 (col i) := funext fun a => by
    match a with
    | ⟨0, _⟩ => rfl
  have hm : idx_main_v52 (idx_main_v53 i) = ix1 (col i) := funext fun a => by
    match a with
    | ⟨0, _⟩ => rfl
  have hv : idx_main_v58 (idx_main_v59 i) = ix1 (col i) := funext fun a => by
    match a with
    | ⟨0, _⟩ => rfl
  have hg : idx_main_v61 (idx_main_v62 i) = ix1 (col i) := funext fun a => by
    match a with
    | ⟨0, _⟩ => rfl
  have he : idx_main_v64 (idx_main_v65 i) = ix1 (col i) := funext fun a => by
    match a with
    | ⟨0, _⟩ => rfl
  simp only [val_main_v67_apply, val_main_v66_apply, val_main_v63_apply, val_main_v60_apply, val_main_v54_apply, val_main_v43_apply, val_main_v38_apply, val_main_v42_apply, val_main_v41_apply, val_main_v53_apply, val_main_v52_apply, val_main_v59_apply, val_main_v58_apply, val_main_v57_apply, val_main_v56_apply, val_main_v55_apply, val_main_v62_apply, val_main_v61_apply, val_main_v65_apply, val_main_v64_apply, val_main_call1_v0_apply]
  simp only [hl, hr, hb, hm, hv, hg, he]
  rfl

/-- The second dense unit's output stage (the layer's output) at (r, j): `Net.unit` of row r of the first unit's output. -/
theorem unit2 (x0 : (⟨S50000x128, .f32⟩ : BufTy).Contents (Elt Ideal)) (x1 : (⟨S2x600000, .i32⟩ : BufTy).Contents (Elt Ideal)) (x2 : (⟨S600000x3, .i32⟩ : BufTy).Contents (Elt Ideal)) (x4 : (⟨S5x3x8x128, .f32⟩ : BufTy).Contents (Elt Ideal)) (x5 : (⟨S5x128x128, .f32⟩ : BufTy).Contents (Elt Ideal)) (x6 x7 x8 x9 x10 : (⟨S5x128, .f32⟩ : BufTy).Contents (Elt Ideal)) (x11 : (⟨S5x128x128, .f32⟩ : BufTy).Contents (Elt Ideal)) (x12 x13 x14 x15 x16 : (⟨S5x128, .f32⟩ : BufTy).Contents (Elt Ideal)) (i : S50000x128.Idx) :
    (val_main_v99 (F := Ideal) x0 x1 x2 x4 x5 x6 x7 x8 x9 x10 x11 x12 x13 x14 x15 x16) i
      = Net.unit (fun k => (val_main_v67 (F := Ideal) x0 x1 x2 x4 x5 x6 x7 x8 x9 x10) (ix2 (node i) k)) (fun k j => (val_main_v69 (F := Ideal) x11) (ix2 k j))
          (fun j => (val_main_v72 (F := Ideal) x12) (ix1 j)) (fun j => (val_main_v81 (F := Ideal) x15) (ix1 j)) (fun j => (val_main_v83 (F := Ideal) x16) (ix1 j))
          (fun j => (val_main_v77 (F := Ideal) x13) (ix1 j)) (fun j => (val_main_v79 (F := Ideal) x14) (ix1 j)) (col i) := by
  have hl : ∀ k, lidx_main_v70 i k = ix2 (node i) k := fun k => funext fun a => by
    match a with
    | ⟨0, _⟩ => rfl
    | ⟨1, _⟩ => rfl
  have hr : ∀ k, ridx_main_v70 i k = ix2 k (col i) := fun k => funext fun a => by
    match a with
    | ⟨0, _⟩ => rfl
    | ⟨1, _⟩ => rfl
  have hb : idx_main_v73 (idx_main_v74 i) = ix1 (col i) := funext fun a => by
    match a with
    | ⟨0, _⟩ => rfl
  have hm : idx_main_v84 (idx_main_v85 i) = ix1 (col i) := funext fun a => by
    match a with
    | ⟨0, _⟩ => rfl
  have hv : idx_main_v90 (idx_main_v91 i) = ix1 (col i) := funext fun a => by
    match a with
    | ⟨0, _⟩ => rfl
  have hg : idx_main_v93 (idx_main_v94 i) = ix1 (col i) := funext fun a => by
    match a with
    | ⟨0, _⟩ => rfl
  have he : idx_main_v96 (idx_main_v97 i) = ix1 (col i) := funext fun a => by
    match a with
    | ⟨0, _⟩ => rfl
  simp only [val_main_v99_apply, val_main_v98_apply, val_main_v95_apply, val_main_v92_apply, val_main_v86_apply, val_main_v75_apply, val_main_v70_apply, val_main_v74_apply, val_main_v73_apply, val_main_v85_apply, val_main_v84_apply, val_main_v91_apply, val_main_v90_apply, val_main_v89_apply, val_main_v88_apply, val_main_v87_apply, val_main_v94_apply, val_main_v93_apply, val_main_v97_apply, val_main_v96_apply, val_main_call2_v0_apply]
  simp only [hl, hr, hb, hm, hv, hg, he]
  rfl

/-- The layer's output stage at an entry `y`: `Net.layer` of node `y`'s row of the layer's input features and of its
    aggregated messages, the parameters read where the reference keeps them (weights as 128×128 slices, the rest as vectors). -/
theorem layer (x0 : (⟨S50000x128, .f32⟩ : BufTy).Contents (Elt Ideal)) (x1 : (⟨S2x600000, .i32⟩ : BufTy).Contents (Elt Ideal)) (x2 : (⟨S600000x3, .i32⟩ : BufTy).Contents (Elt Ideal)) (x4 : (⟨S5x3x8x128, .f32⟩ : BufTy).Contents (Elt Ideal)) (x5 : (⟨S5x128x128, .f32⟩ : BufTy).Contents (Elt Ideal)) (x6 x7 x8 x9 x10 : (⟨S5x128, .f32⟩ : BufTy).Contents (Elt Ideal)) (x11 : (⟨S5x128x128, .f32⟩ : BufTy).Contents (Elt Ideal)) (x12 x13 x14 x15 x16 : (⟨S5x128, .f32⟩ : BufTy).Contents (Elt Ideal)) (y : S50000x128.Idx) :
    (val_main_v99 (F := Ideal) x0 x1 x2 x4 x5 x6 x7 x8 x9 x10 x11 x12 x13 x14 x15 x16) y
      = Net.layer (fun l => x0 (ix2 (node y) l)) (fun l => (val_main_v34 (F := Ideal) x0 x1 x2 x4) (ix2 (node y) l))
          (fun l j => (val_main_v37 (F := Ideal) x5) (ix2 l j)) (fun j => (val_main_v40 (F := Ideal) x6) (ix1 j)) (fun j => (val_main_v45 (F := Ideal) x7) (ix1 j)) (fun j => (val_main_v47 (F := Ideal) x8) (ix1 j))
          (fun j => (val_main_v49 (F := Ideal) x9) (ix1 j)) (fun j => (val_main_v51 (F := Ideal) x10) (ix1 j))
          (fun l j => (val_main_v69 (F := Ideal) x11) (ix2 l j)) (fun j => (val_main_v72 (F := Ideal) x12) (ix1 j)) (fun j => (val_main_v77 (F := Ideal) x13) (ix1 j)) (fun j => (val_main_v79 (F := Ideal) x14) (ix1 j))
          (fun j => (val_main_v81 (F := Ideal) x15) (ix1 j)) (fun j => (val_main_v83 (F := Ideal) x16) (ix1 j)) (col y) := by
  rw [unit2]
  unfold Net.layer
  simp only [unit1 x0 x1 x2 x4 x5 x6 x7 x8 x9 x10 x11 x12 x13 x14 x15 x16]
  rfl

end Cert.ReferenceIdeal.Layer0

end
-- ==== Proof.Step0.lean ====
/-
  Layer 0 of the kernel program, read back: from the launch memory through the first stretch of host operations —
  the per-graph node counts and their reciprocals, the pooled read-out of the input features, the edge endpoints, the
  bond embeddings, the gathered and rectified messages and their scatter-add, the layer's parameter slices — and
  through region 0 to the contents at its exit (`W4`). Every buffer that matters is the reference's stage of the same
  arguments: the host operations are the same operations on both sides, and the region's output array is the layer of
  its inputs (Final0), which is the reference's layer (RefLayer0).
-/
import proofs.«180497_j12352325943908_1_alg».proof.Proof.Carried
import proofs.«180497_j12352325943908_1_alg».proof.Proof.Final0
import proofs.«180497_j12352325943908_1_alg».proof.Proof.RefLayer0
import proofs.«180497_j12352325943908_1_alg».proof.Proof.LayerArr

set_option maxRecDepth 16384
set_option maxHeartbeats 4000000

noncomputable section

namespace Cert.KernelIdeal.Step0

open Cert.KernelIdeal Cert.KernelIdeal.Gen Cert.KernelIdeal.GenP Cert.KernelIdeal.Chain Cert.Net
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- What the one-pass reading leaves inside a concatenate's operand list, finished by rewriting: each operation's result at
    its own buffer is its function's value, at any other buffer what was there. -/
macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-! ## The fourteen arrays region 0 reads -/

/-- Window `x` of region 0 as the region finds it. -/
theorem rd_x : V3 m ρ c main_arg0 = a0 m c := by
  show StableHlo.after hostOps0_2 (StableHlo.after hostOps0_1 (StableHlo.after hostOps0 (W0 m ρ c))) (Proc.devRef .tc main_arg0) = _
  after_results_simp <;> rfl

/-- Window `aggr` of region 0 as the region finds it. -/
theorem rd_aggr : V3 m ρ c main_v58 = (Cert.ReferenceIdeal.ReadP.val_main_v34 (F := Ideal) (a0 m c) (a1 m c) (a2 m c) (a4 m c)) := by
  show StableHlo.after hostOps0_2 (StableHlo.after hostOps0_1 (StableHlo.after hostOps0 (W0 m ρ c))) (Proc.devRef .tc main_v58) = _
  after_results_simp
  results_rw
  try simp only [TRef.ofBuf, TRef.toBuf, cast_eq]
  rfl

/-- Window `w1` of region 0 as the region finds it. -/
theorem rd_w1 : V3 m ρ c main_v60 = (Cert.ReferenceIdeal.ReadP.val_main_v37 (F := Ideal) (a5 m c)) := by
  show StableHlo.after hostOps0_2 (StableHlo.after hostOps0_1 (StableHlo.after hostOps0 (W0 m ρ c))) (Proc.devRef .tc main_v60) = _
  after_results_simp
  try simp only [TRef.ofBuf, TRef.toBuf, cast_eq]
  rfl

/-- Window `b1` of region 0 as the region finds it. -/
theorem rd_b1 : V3 m ρ c main_v63 = shapeCast Net.SRow (Cert.ReferenceIdeal.ReadP.val_main_v40 (F := Ideal) (a6 m c)) shapeCasts_S128_S1x128 := by
  show StableHlo.after hostOps0_2 (StableHlo.after hostOps0_1 (StableHlo.after hostOps0 (W0 m ρ c))) (Proc.devRef .tc main_v63) = _
  after_results_simp
  try simp only [TRef.ofBuf, TRef.toBuf, cast_eq]
  rfl

/-- Window `g1` of region 0 as the region finds it. -/
theorem rd_g1 : V3 m ρ c main_v66 = shapeCast Net.SRow (Cert.ReferenceIdeal.ReadP.val_main_v45 (F := Ideal) (a7 m c)) shapeCasts_S128_S1x128 := by
  show StableHlo.after hostOps0_2 (StableHlo.after hostOps0_1 (StableHlo.after hostOps0 (W0 m ρ c))) (Proc.devRef .tc main_v66) = _
  after_results_simp
  try simp only [TRef.ofBuf, TRef.toBuf, cast_eq]
  rfl

/-- Window `be1` of region 0 as the region finds it. -/
theorem rd_be1 : V3 m ρ c main_v69 = shapeCast Net.SRow (Cert.ReferenceIdeal.ReadP.val_main_v47 (F := Ideal) (a8 m c)) shapeCasts_S128_S1x128 := by
  show StableHlo.after hostOps0_2 (StableHlo.after hostOps0_1 (StableHlo.after hostOps0 (W0 m ρ c))) (Proc.devRef .tc main_v69) = _
  after_results_simp
  try simp only [TRef.ofBuf, TRef.toBuf, cast_eq]
  rfl

/-- Window `m1` of region 0 as the region finds it. -/
theorem rd_m1 : V3 m ρ c main_v72 = shapeCast Net.SRow (Cert.ReferenceIdeal.ReadP.val_main_v49 (F := Ideal) (a9 m c)) shapeCasts_S128_S1x128 := by
  show StableHlo.after hostOps0_2 (StableHlo.after hostOps0_1 (StableHlo.after hostOps0 (W0 m ρ c))) (Proc.devRef .tc main_v72) = _
  after_results_simp
  try simp only [TRef.ofBuf, TRef.toBuf, cast_eq]
  rfl

/-- Window `v1` of region 0 as the region finds it. -/
theorem rd_v1 : V3 m ρ c main_v75 = shapeCast Net.SRow (Cert.ReferenceIdeal.ReadP.val_main_v51 (F := Ideal) (a10 m c)) shapeCasts_S128_S1x128 := by
  show StableHlo.after hostOps0_2 (StableHlo.after hostOps0_1 (StableHlo.after hostOps0 (W0 m ρ c))) (Proc.devRef .tc main_v75) = _
  after_results_simp
  try simp only [TRef.ofBuf, TRef.toBuf, cast_eq]
  rfl

/-- Window `w2` of region 0 as the region finds it. -/
theorem rd_w2 : V3 m ρ c main_v77 = (Cert.ReferenceIdeal.ReadP.val_main_v69 (F := Ideal) (a11 m c)) := by
  show StableHlo.after hostOps0_2 (StableHlo.after hostOps0_1 (StableHlo.after hostOps0 (W0 m ρ c))) (Proc.devRef .tc main_v77) = _
  after_results_simp
  try simp only [TRef.ofBuf, TRef.toBuf, cast_eq]
  rfl

/-- Window `b2` of region 0 as the region finds it. -/
theorem rd_b2 : V3 m ρ c main_v80 = shapeCast Net.SRow (Cert.ReferenceIdeal.ReadP.val_main_v72 (F := Ideal) (a12 m c)) shapeCasts_S128_S1x128 := by
  show StableHlo.after hostOps0_2 (StableHlo.after hostOps0_1 (StableHlo.after hostOps0 (W0 m ρ c))) (Proc.devRef .tc main_v80) = _
  after_results_simp
  try simp only [TRef.ofBuf, TRef.toBuf, cast_eq]
  rfl

/-- Window `g2` of region 0 as the region finds it. -/
theorem rd_g2 : V3 m ρ c main_v83 = shapeCast Net.SRow (Cert.ReferenceIdeal.ReadP.val_main_v77 (F := Ideal) (a13 m c)) shapeCasts_S128_S1x128 := by
  show StableHlo.after hostOps0_2 (StableHlo.after hostOps0_1 (StableHlo.after hostOps0 (W0 m ρ c))) (Proc.devRef .tc main_v83) = _
  after_results_simp
  try simp only [TRef.ofBuf, TRef.toBuf, cast_eq]
  rfl

/-- Window `be2` of region 0 as the region finds it. -/
theorem rd_be2 : V3 m ρ c main_v86 = shapeCast Net.SRow (Cert.ReferenceIdeal.ReadP.val_main_v79 (F := Ideal) (a14 m c)) shapeCasts_S128_S1x128 := by
  show StableHlo.after hostOps0_2 (StableHlo.after hostOps0_1 (StableHlo.after hostOps0 (W0 m ρ c))) (Proc.devRef .tc main_v86) = _
  after_results_simp
  try simp only [TRef.ofBuf, TRef.toBuf, cast_eq]
  rfl

/-- Window `m2` of region 0 as the region finds it. -/
theorem rd_m2 : V3 m ρ c main_v89 = shapeCast Net.SRow (Cert.ReferenceIdeal.ReadP.val_main_v81 (F := Ideal) (a15 m c)) shapeCasts_S128_S1x128 := by
  show StableHlo.after hostOps0_2 (StableHlo.after hostOps0_1 (StableHlo.after hostOps0 (W0 m ρ c))) (Proc.devRef .tc main_v89) = _
  after_results_simp
  try simp only [TRef.ofBuf, TRef.toBuf, cast_eq]
  rfl

/-- Window `v2` of region 0 as the region finds it. -/
theorem rd_v2 : V3 m ρ c main_v92 = shapeCast Net.SRow (Cert.ReferenceIdeal.ReadP.val_main_v83 (F := Ideal) (a16 m c)) shapeCasts_S128_S1x128 := by
  show StableHlo.after hostOps0_2 (StableHlo.after hostOps0_1 (StableHlo.after hostOps0 (W0 m ρ c))) (Proc.devRef .tc main_v92) = _
  after_results_simp
  try simp only [TRef.ofBuf, TRef.toBuf, cast_eq]
  rfl

/-! ## What the first stretch computes for every later one, and the first read-out -/

theorem rd_inv : W3 m ρ c (Proc.devRef .tc main_v12) = (Cert.ReferenceIdeal.ReadP.val_main_v487 (F := Ideal) (a3 m c)) := by
  show StableHlo.after hostOps0_2 (StableHlo.after hostOps0_1 (StableHlo.after hostOps0 (W0 m ρ c))) (Proc.devRef .tc main_v12) = _
  after_results_simp
  try simp only [TRef.ofBuf, TRef.toBuf, cast_eq]
  rfl

theorem rd_src : W3 m ρ c (Proc.devRef .tc main_v1) = (Cert.ReferenceIdeal.ReadP.val_main_v1 (F := Ideal) (a1 m c)) := by
  show StableHlo.after hostOps0_2 (StableHlo.after hostOps0_1 (StableHlo.after hostOps0 (W0 m ρ c))) (Proc.devRef .tc main_v1) = _
  after_results_simp
  try simp only [TRef.ofBuf, TRef.toBuf, cast_eq]
  rfl

theorem rd_dst : W3 m ρ c (Proc.devRef .tc main_v3) = (Cert.ReferenceIdeal.ReadP.val_main_v3 (F := Ideal) (a1 m c)) := by
  show StableHlo.after hostOps0_2 (StableHlo.after hostOps0_1 (StableHlo.after hostOps0 (W0 m ρ c))) (Proc.devRef .tc main_v3) = _
  after_results_simp
  try simp only [TRef.ofBuf, TRef.toBuf, cast_eq]
  rfl

theorem rd_iota : W3 m ρ c (Proc.devRef .tc main_v4) = (Cert.ReferenceIdeal.ReadP.val_main_v4 (F := Ideal)) := by
  show StableHlo.after hostOps0_2 (StableHlo.after hostOps0_1 (StableHlo.after hostOps0 (W0 m ρ c))) (Proc.devRef .tc main_v4) = _
  after_results_simp
  try simp only [TRef.ofBuf, TRef.toBuf, cast_eq]
  rfl

theorem rd_out : W3 m ρ c (Proc.devRef .tc main_v28) = (Cert.ReferenceIdeal.ReadP.val_main_v503 (F := Ideal) (a0 m c) (a3 m c) (a17 m c) (a18 m c)) := by
  show StableHlo.after hostOps0_2 (StableHlo.after hostOps0_1 (StableHlo.after hostOps0 (W0 m ρ c))) (Proc.devRef .tc main_v28) = _
  after_results_simp
  try simp only [TRef.ofBuf, TRef.toBuf, cast_eq]
  rfl

/-! ## Through the region -/

/-- The carried facts at region 0's exit. -/
theorem carried : Carried m c (W4 m ρ c) where
    inv := (W4_of_ne m ρ c main_v12 (by decide)).trans (rd_inv m ρ c)
    src := (W4_of_ne m ρ c main_v1 (by decide)).trans (rd_src m ρ c)
    dst := (W4_of_ne m ρ c main_v3 (by decide)).trans (rd_dst m ρ c)
    iota := (W4_of_ne m ρ c main_v4 (by decide)).trans (rd_iota m ρ c)
    h2 := (W4_of_ne m ρ c main_arg2 (by decide)).trans (by show StableHlo.after hostOps0_2 (StableHlo.after hostOps0_1 (StableHlo.after hostOps0 (W0 m ρ c))) (Proc.devRef .tc main_arg2) = _; after_results_simp <;> rfl)
    h3 := (W4_of_ne m ρ c main_arg3 (by decide)).trans (by show StableHlo.after hostOps0_2 (StableHlo.after hostOps0_1 (StableHlo.after hostOps0 (W0 m ρ c))) (Proc.devRef .tc main_arg3) = _; after_results_simp <;> rfl)
    h4 := (W4_of_ne m ρ c main_arg4 (by decide)).trans (by show StableHlo.after hostOps0_2 (StableHlo.after hostOps0_1 (StableHlo.after hostOps0 (W0 m ρ c))) (Proc.devRef .tc main_arg4) = _; after_results_simp <;> rfl)
    h5 := (W4_of_ne m ρ c main_arg5 (by decide)).trans (by show StableHlo.after hostOps0_2 (StableHlo.after hostOps0_1 (StableHlo.after hostOps0 (W0 m ρ c))) (Proc.devRef .tc main_arg5) = _; after_results_simp <;> rfl)
    h6 := (W4_of_ne m ρ c main_arg6 (by decide)).trans (by show StableHlo.after hostOps0_2 (StableHlo.after hostOps0_1 (StableHlo.after hostOps0 (W0 m ρ c))) (Proc.devRef .tc main_arg6) = _; after_results_simp <;> rfl)
    h7 := (W4_of_ne m ρ c main_arg7 (by decide)).trans (by show StableHlo.after hostOps0_2 (StableHlo.after hostOps0_1 (StableHlo.after hostOps0 (W0 m ρ c))) (Proc.devRef .tc main_arg7) = _; after_results_simp <;> rfl)
    h8 := (W4_of_ne m ρ c main_arg8 (by decide)).trans (by show StableHlo.after hostOps0_2 (StableHlo.after hostOps0_1 (StableHlo.after hostOps0 (W0 m ρ c))) (Proc.devRef .tc main_arg8) = _; after_results_simp <;> rfl)
    h9 := (W4_of_ne m ρ c main_arg9 (by decide)).trans (by show StableHlo.after hostOps0_2 (StableHlo.after hostOps0_1 (StableHlo.after hostOps0 (W0 m ρ c))) (Proc.devRef .tc main_arg9) = _; after_results_simp <;> rfl)
    h10 := (W4_of_ne m ρ c main_arg10 (by decide)).trans (by show StableHlo.after hostOps0_2 (StableHlo.after hostOps0_1 (StableHlo.after hostOps0 (W0 m ρ c))) (Proc.devRef .tc main_arg10) = _; after_results_simp <;> rfl)
    h11 := (W4_of_ne m ρ c main_arg11 (by decide)).trans (by show StableHlo.after hostOps0_2 (StableHlo.after hostOps0_1 (StableHlo.after hostOps0 (W0 m ρ c))) (Proc.devRef .tc main_arg11) = _; after_results_simp <;> rfl)
    h12 := (W4_of_ne m ρ c main_arg12 (by decide)).trans (by show StableHlo.after hostOps0_2 (StableHlo.after hostOps0_1 (StableHlo.after hostOps0 (W0 m ρ c))) (Proc.devRef .tc main_arg12) = _; after_results_simp <;> rfl)
    h13 := (W4_of_ne m ρ c main_arg13 (by decide)).trans (by show StableHlo.after hostOps0_2 (StableHlo.after hostOps0_1 (StableHlo.after hostOps0 (W0 m ρ c))) (Proc.devRef .tc main_arg13) = _; after_results_simp <;> rfl)
    h14 := (W4_of_ne m ρ c main_arg14 (by decide)).trans (by show StableHlo.after hostOps0_2 (StableHlo.after hostOps0_1 (StableHlo.after hostOps0 (W0 m ρ c))) (Proc.devRef .tc main_arg14) = _; after_results_simp <;> rfl)
    h15 := (W4_of_ne m ρ c main_arg15 (by decide)).trans (by show StableHlo.after hostOps0_2 (StableHlo.after hostOps0_1 (StableHlo.after hostOps0 (W0 m ρ c))) (Proc.devRef .tc main_arg15) = _; after_results_simp <;> rfl)
    h16 := (W4_of_ne m ρ c main_arg16 (by decide)).trans (by show StableHlo.after hostOps0_2 (StableHlo.after hostOps0_1 (StableHlo.after hostOps0 (W0 m ρ c))) (Proc.devRef .tc main_arg16) = _; after_results_simp <;> rfl)
    h17 := (W4_of_ne m ρ c main_arg17 (by decide)).trans (by show StableHlo.after hostOps0_2 (StableHlo.after hostOps0_1 (StableHlo.after hostOps0 (W0 m ρ c))) (Proc.devRef .tc main_arg17) = _; after_results_simp <;> rfl)
    h18 := (W4_of_ne m ρ c main_arg18 (by decide)).trans (by show StableHlo.after hostOps0_2 (StableHlo.after hostOps0_1 (StableHlo.after hostOps0 (W0 m ρ c))) (Proc.devRef .tc main_arg18) = _; after_results_simp <;> rfl)

/-- The running output `out_0` is not touched by the region. -/
theorem out' : W4 m ρ c (Proc.devRef .tc main_v28) = (Cert.ReferenceIdeal.ReadP.val_main_v503 (F := Ideal) (a0 m c) (a3 m c) (a17 m c) (a18 m c)) :=
  (W4_of_ne m ρ c main_v28 (by decide)).trans (rd_out m ρ c)

/-- THE LAYER: region 0's output array is the reference's stage of the layer's output. -/
theorem x' : W4 m ρ c (Proc.devRef .tc main_v93) = (Cert.ReferenceIdeal.ReadP.val_main_v99 (F := Ideal) (a0 m c) (a1 m c) (a2 m c) (a4 m c) (a5 m c) (a6 m c) (a7 m c) (a8 m c) (a9 m c) (a10 m c) (a11 m c) (a12 m c) (a13 m c) (a14 m c) (a15 m c) (a16 m c)) := by
  refine (W4_arr m ρ c 14).trans ?_
  rw [Final0.final (V3 m ρ) c]
  show Net.layerArr (V3 m ρ c main_arg0) (V3 m ρ c main_v58) (V3 m ρ c main_v60) (V3 m ρ c main_v63) (V3 m ρ c main_v66) (V3 m ρ c main_v69) (V3 m ρ c main_v72) (V3 m ρ c main_v75) (V3 m ρ c main_v77) (V3 m ρ c main_v80) (V3 m ρ c main_v83) (V3 m ρ c main_v86) (V3 m ρ c main_v89) (V3 m ρ c main_v92) = _
  rw [rd_x m ρ c, rd_aggr m ρ c, rd_w1 m ρ c, rd_b1 m ρ c, rd_g1 m ρ c, rd_be1 m ρ c, rd_m1 m ρ c, rd_v1 m ρ c, rd_w2 m ρ c, rd_b2 m ρ c, rd_g2 m ρ c, rd_be2 m ρ c, rd_m2 m ρ c, rd_v2 m ρ c]
  funext y
  rw [Net.layerArr_rows]
  exact (Cert.ReferenceIdeal.Layer0.layer (a0 m c) (a1 m c) (a2 m c) (a4 m c) (a5 m c) (a6 m c) (a7 m c) (a8 m c) (a9 m c) (a10 m c) (a11 m c) (a12 m c) (a13 m c) (a14 m c) (a15 m c) (a16 m c) y).symm

end Cert.KernelIdeal.Step0

end
-- ==== Proof.Final1.lean ====
/-
  Region 1's output array, whole: the ten blocks of 5000 nodes the grid writes back tile the 50000×128 array, and
  block t holds, at row p, the layer of node 5000·t + p. So after the region the output array is, entry by entry,
  `Net.layer` of that node's row of the two node-major input arrays and of the twelve parameter arrays (each read
  whole at every grid point: their block index is constantly 0): `Net.layerArr` of the fourteen arrays the region finds.
-/
import proofs.«180497_j12352325943908_1_alg».proof.Proof.FrameKI
import proofs.«180497_j12352325943908_1_alg».proof.Proof.KUnit
import proofs.«180497_j12352325943908_1_alg».proof.Proof.LayerArr

set_option maxRecDepth 16384

noncomputable section

namespace Cert.KernelIdeal.Final1

open Cert.KernelIdeal Cert.KernelIdeal.Gen Cert.KernelIdeal.GenP Cert.KernelIdeal.KUnit Cert.Net
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the node-major windows (0, 1 and the output 14) sit at block
    (t, 0); every parameter window at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_14.index t (0 : Fin 2) = t.val ∧ win1_14.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = 0 ∧ win1_11.index t (1 : Fin 2) = 0
    ∧ win1_12.index t (0 : Fin 2) = 0 ∧ win1_12.index t (1 : Fin 2) = 0
    ∧ win1_13.index t (0 : Fin 2) = 0 ∧ win1_13.index t (1 : Fin 2) = 0 :=
  (by decide +kernel : ∀ t : Fin grid1.N, _)

theorem t_lt (t : Fin cfg1.N) : t.val < 10 := by have := t.isLt; have h : cfg1.N = 10 := N_1; omega

/-- The node of row p of block t. -/
abbrev nodeAt (t : Fin cfg1.N) (p : Fin 5000) : Fin 50000 := ⟨t.val * 5000 + p.val, by have := t_lt t; have := p.isLt; omega⟩

/-! ## The blocks a grid point reads -/

/-- Row p of point t's block of window 0 is node 5000·t + p of its array. -/
theorem blk_x (c : Dev nD) (t : Fin cfg1.N) (p : Fin 5000) (l : Fin 128) :
    iblk1 V c 0 t (ix2 p l) = V c main_v93 (ix2 (nodeAt t p) l) := by
  obtain ⟨e0, e1, -⟩ := idx_facts t
  show V c main_v93 (((cfg1.win 0).blk t).view.emb (ix2 p l)) = V c main_v93 (ix2 (nodeAt t p) l)
  refine congrArg (V c main_v93) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * l.val = l.val; omega

/-- Row p of point t's block of window 1 is node 5000·t + p of its array. -/
theorem blk_a (c : Dev nD) (t : Fin cfg1.N) (p : Fin 5000) (l : Fin 128) :
    iblk1 V c 1 t (ix2 p l) = V c main_v138 (ix2 (nodeAt t p) l) := by
  obtain ⟨-, -, e0, e1, -⟩ := idx_facts t
  show V c main_v138 (((cfg1.win 1).blk t).view.emb (ix2 p l)) = V c main_v138 (ix2 (nodeAt t p) l)
  refine congrArg (V c main_v138) (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * l.val = l.val; omega

/-- Window 2 (a 128×128 weight matrix) is read whole at every point. -/
theorem blk_w1 (c : Dev nD) (t : Fin cfg1.N) (l j : Fin 128) :
    iblk1 V c 2 t (ix2 l j) = V c main_v140 (ix2 l j) := by
  obtain ⟨-, -, -, -, -, -, e0, e1, -⟩ := idx_facts t
  show V c main_v140 (((cfg1.win 2).blk t).view.emb (ix2 l j)) = V c main_v140 (ix2 l j)
  refine congrArg (V c main_v140) (funext fun a => Fin.ext ?_)
  match a with
  | ⟨0, _⟩ => show win1_2.index t (0 : Fin 2) * 128 + 1 * l.val = l.val; omega
  | ⟨1, _⟩ => show win1_2.index t (1 : Fin 2) * 128 + 1 * j.val = j.val; omega

/-- Window 3 (a 1×128 parameter row) is read whole at every point. -/
theorem blk_b1 (c : Dev nD) (t : Fin cfg1.N) (j : Fin 128) :
    iblk1 V c 3 t (ix2 (0 : Fin 1) j) = V c main_v143 (ix2 (0 : Fin 1) j) := by
  obtain ⟨-, -, -, -, -, -, -, -, e0, e1, -⟩ := idx_facts t
  show V c main_v143 (((cfg1.win 3).blk t).view.emb (ix2 (0 : Fin 1) j)) = V c main_v143 (ix2 (0 : Fin 1) j)
  refine congrArg (V c main_v143) (funext fun a => Fin.ext ?_)
  match a with
  | ⟨0, _⟩ => show win1_3.index t (0 : Fin 2) * 1 + 1 * 0 = 0; omega
  | ⟨1, _⟩ => show win1_3.index t (1 : Fin 2) * 128 + 1 * j.val = j.val; omega

/-- Window 4 (a 1×128 parameter row) is read whole at every point. -/
theorem blk_g1 (c : Dev nD) (t : Fin cfg1.N) (j : Fin 128) :
    iblk1 V c 4 t (ix2 (0 : Fin 1) j) = V c main_v146 (ix2 (0 : Fin 1) j) := by
  obtain ⟨-, -, -, -, -, -, -, -, -, -, e0, e1, -⟩ := idx_facts t
  show V c main_v146 (((cfg1.win 4).blk t).view.emb (ix2 (0 : Fin 1) j)) = V c main_v146 (ix2 (0 : Fin 1) j)
  refine congrArg (V c main_v146) (funext fun a => Fin.ext ?_)
  match a with
  | ⟨0, _⟩ => show win1_4.index t (0 : Fin 2) * 1 + 1 * 0 = 0; omega
  | ⟨1, _⟩ => show win1_4.index t (1 : Fin 2) * 128 + 1 * j.val = j.val; omega

/-- Window 5 (a 1×128 parameter row) is read whole at every point. -/
theorem blk_be1 (c : Dev nD) (t : Fin cfg1.N) (j : Fin 128) :
    iblk1 V c 5 t (ix2 (0 : Fin 1) j) = V c main_v149 (ix2 (0 : Fin 1) j) := by
  obtain ⟨-, -, -, -, -, -, -, -, -, -, -, -, e0, e1, -⟩ := idx_facts t
  show V c main_v149 (((cfg1.win 5).blk t).view.emb (ix2 (0 : Fin 1) j)) = V c main_v149 (ix2 (0 : Fin 1) j)
  refine congrArg (V c main_v149) (funext fun a => Fin.ext ?_)
  match a with
  | ⟨0, _⟩ => show win1_5.index t (0 : Fin 2) * 1 + 1 * 0 = 0; omega
  | ⟨1, _⟩ => show win1_5.index t (1 : Fin 2) * 128 + 1 * j.val = j.val; omega

/-- Window 6 (a 1×128 parameter row) is read whole at every point. -/
theorem blk_m1 (c : Dev nD) (t : Fin cfg1.N) (j : Fin 128) :
    iblk1 V c 6 t (ix2 (0 : Fin 1) j) = V c main_v152 (ix2 (0 : Fin 1) j) := by
  obtain ⟨-, -, -, -, -, -, -, -, -, -, -, -, -, -, e0, e1, -⟩ := idx_facts t
  show V c main_v152 (((cfg1.win 6).blk t).view.emb (ix2 (0 : Fin 1) j)) = V c main_v152 (ix2 (0 : Fin 1) j)
  refine congrArg (V c main_v152) (funext fun a => Fin.ext ?_)
  match a with
  | ⟨0, _⟩ => show win1_6.index t (0 : Fin 2) * 1 + 1 * 0 = 0; omega
  | ⟨1, _⟩ => show win1_6.index t (1 : Fin 2) * 128 + 1 * j.val = j.val; omega

/-- Window 7 (a 1×128 parameter row) is read whole at every point. -/
theorem blk_v1 (c : Dev nD) (t : Fin cfg1.N) (j : Fin 128) :
    iblk1 V c 7 t (ix2 (0 : Fin 1) j) = V c main_v155 (ix2 (0 : Fin 1) j) := by
  obtain ⟨-, -, -, -, -, -, -, -, -, -, -, -, -, -, -, -, e0, e1, -⟩ := idx_facts t
  show V c main_v155 (((cfg1.win 7).blk t).view.emb (ix2 (0 : Fin 1) j)) = V c main_v155 (ix2 (0 : Fin 1) j)
  refine congrArg (V c main_v155) (funext fun a => Fin.ext ?_)
  match a with
  | ⟨0, _⟩ => show win1_7.index t (0 : Fin 2) * 1 + 1 * 0 = 0; omega
  | ⟨1, _⟩ => show win1_7.index t (1 : Fin 2) * 128 + 1 * j.val = j.val; omega

/-- Window 8 (a 128×128 weight matrix) is read whole at every point. -/
theorem blk_w2 (c : Dev nD) (t : Fin cfg1.N) (l j : Fin 128) :
    iblk1 V c 8 t (ix2 l j) = V c main_v157 (ix2 l j) := by
  obtain ⟨-, -, -, -, -, -, -, -, -, -, -, -, -, -, -, -, -, -, e0, e1, -⟩ := idx_facts t
  show V c main_v157 (((cfg1.win 8).blk t).view.emb (ix2 l j)) = V c main_v157 (ix2 l j)
  refine congrArg (V c main_v157) (funext fun a => Fin.ext ?_)
  match a with
  | ⟨0, _⟩ => show win1_8.index t (0 : Fin 2) * 128 + 1 * l.val = l.val; omega
  | ⟨1, _⟩ => show win1_8.index t (1 : Fin 2) * 128 + 1 * j.val = j.val; omega

/-- Window 9 (a 1×128 parameter row) is read whole at every point. -/
theorem blk_b2 (c : Dev nD) (t : Fin cfg1.N) (j : Fin 128) :
    iblk1 V c 9 t (ix2 (0 : Fin 1) j) = V c main_v160 (ix2 (0 : Fin 1) j) := by
  obtain ⟨-, -, -, -, -, -, -, -, -, -, -, -, -, -, -, -, -, -, -, -, e0, e1, -⟩ := idx_facts t
  show V c main_v160 (((cfg1.win 9).blk t).view.emb (ix2 (0 : Fin 1) j)) = V c main_v160 (ix2 (0 : Fin 1) j)
  refine congrArg (V c main_v160) (funext fun a => Fin.ext ?_)
  match a with
  | ⟨0, _⟩ => show win1_9.index t (0 : Fin 2) * 1 + 1 * 0 = 0; omega
  | ⟨1, _⟩ => show win1_9.index t (1 : Fin 2) * 128 + 1 * j.val = j.val; omega

/-- Window 10 (a 1×128 parameter row) is read whole at every point. -/
theorem blk_g2 (c : Dev nD) (t : Fin cfg1.N) (j : Fin 128) :
    iblk1 V c 10 t (ix2 (0 : Fin 1) j) = V c main_v163 (ix2 (0 : Fin 1) j) := by
  obtain ⟨-, -, -, -, -, -, -, -, -, -, -, -, -, -, -, -, -, -, -, -, -, -, e0, e1, -⟩ := idx_facts t
  show V c main_v163 (((cfg1.win 10).blk t).view.emb (ix2 (0 : Fin 1) j)) = V c main_v163 (ix2 (0 : Fin 1) j)
  refine congrArg (V c main_v163) (funext fun a => Fin.ext ?_)
  match a with
  | ⟨0, _⟩ => show win1_10.index t (0 : Fin 2) * 1 + 1 * 0 = 0; omega
  | ⟨1, _⟩ => show win1_10.index t (1 : Fin 2) * 128 + 1 * j.val = j.val; omega

/-- Window 11 (a 1×128 parameter row) is read whole at every point. -/
theorem blk_be2 (c : Dev nD) (t : Fin cfg1.N) (j : Fin 128) :
    iblk1 V c 11 t (ix2 (0 : Fin 1) j) = V c main_v166 (ix2 (0 : Fin 1) j) := by
  obtain ⟨-, -, -, -, -, -, -, -, -, -, -, -, -, -, -, -, -, -, -, -, -, -, -, -, e0, e1, -⟩ := idx_facts t
  show V c main_v166 (((cfg1.win 11).blk t).view.emb (ix2 (0 : Fin 1) j)) = V c main_v166 (ix2 (0 : Fin 1) j)
  refine congrArg (V c main_v166) (funext fun a => Fin.ext ?_)
  match a with
  | ⟨0, _⟩ => show win1_11.index t (0 : Fin 2) * 1 + 1 * 0 = 0; omega
  | ⟨1, _⟩ => show win1_11.index t (1 : Fin 2) * 128 + 1 * j.val = j.val; omega

/-- Window 12 (a 1×128 parameter row) is read whole at every point. -/
theorem blk_m2 (c : Dev nD) (t : Fin cfg1.N) (j : Fin 128) :
    iblk1 V c 12 t (ix2 (0 : Fin 1) j) = V c main_v169 (ix2 (0 : Fin 1) j) := by
  obtain ⟨-, -, -, -, -, -, -, -, -, -, -, -, -, -, -, -, -, -, -, -, -, -, -, -, -, -, e0, e1, -⟩ := idx_facts t
  show V c main_v169 (((cfg1.win 12).blk t).view.emb (ix2 (0 : Fin 1) j)) = V c main_v169 (ix2 (0 : Fin 1) j)
  refine congrArg (V c main_v169) (funext fun a => Fin.ext ?_)
  match a with
  | ⟨0, _⟩ => show win1_12.index t (0 : Fin 2) * 1 + 1 * 0 = 0; omega
  | ⟨1, _⟩ => show win1_12.index t (1 : Fin 2) * 128 + 1 * j.val = j.val; omega

/-- Window 13 (a 1×128 parameter row) is read whole at every point. -/
theorem blk_v2 (c : Dev nD) (t : Fin cfg1.N) (j : Fin 128) :
    iblk1 V c 13 t (ix2 (0 : Fin 1) j) = V c main_v172 (ix2 (0 : Fin 1) j) := by
  obtain ⟨-, -, -, -, -, -, -, -, -, -, -, -, -, -, -, -, -, -, -, -, -, -, -, -, -, -, -, -, e0, e1⟩ := idx_facts t
  show V c main_v172 (((cfg1.win 13).blk t).view.emb (ix2 (0 : Fin 1) j)) = V c main_v172 (ix2 (0 : Fin 1) j)
  refine congrArg (V c main_v172) (funext fun a => Fin.ext ?_)
  match a with
  | ⟨0, _⟩ => show win1_13.index t (0 : Fin 2) * 1 + 1 * 0 = 0; omega
  | ⟨1, _⟩ => show win1_13.index t (1 : Fin 2) * 128 + 1 * j.val = j.val; omega

/-! ## What a grid point writes back, and the array -/

/-- The output array as a function of the arrays the region finds. -/
abbrev G (c : Dev nD) : S50000x128.Idx → EReal := Net.layerArr (V c main_v93) (V c main_v138) (V c main_v140) (V c main_v143) (V c main_v146) (V c main_v149) (V c main_v152) (V c main_v155) (V c main_v157) (V c main_v160) (V c main_v163) (V c main_v166) (V c main_v169) (V c main_v172)

/-- WHAT POINT t WRITES BACK is block t of `G`. -/
theorem flushed (c : Dev nD) (t : Fin cfg1.N) :
    (dat1 V c).flushed 14 t = ((cfg1.win 14).blk t).view.read (Elt Ideal) (G V c) := by
  show (cfg1.win 14).cut (grid1.coords t) ((dat1 V c).after 14 t) = _
  rw [after1_14]
  unfold out1_14
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  refine (pay1 (iblk1 V c 0 t) (iblk1 V c 1 t) (iblk1 V c 2 t) (iblk1 V c 3 t) (iblk1 V c 6 t) (iblk1 V c 7 t) (iblk1 V c 4 t) (iblk1 V c 5 t) (iblk1 V c 8 t) (iblk1 V c 9 t) (iblk1 V c 12 t) (iblk1 V c 13 t) (iblk1 V c 10 t) (iblk1 V c 11 t) p q).trans ?_
  obtain ⟨-, -, -, -, e0, e1, -⟩ := idx_facts t
  have hn : node (((cfg1.win 14).blk t).view.emb (ix2 p q)) = nodeAt t p :=
    Fin.ext (by show win1_14.index t (0 : Fin 2) * 5000 + 1 * p.val = t.val * 5000 + p.val; omega)
  have hc : col (((cfg1.win 14).blk t).view.emb (ix2 p q)) = q :=
    Fin.ext (by show win1_14.index t (1 : Fin 2) * 128 + 1 * q.val = q.val; omega)
  show _ = Net.layerArr (V c main_v93) (V c main_v138) (V c main_v140) (V c main_v143) (V c main_v146) (V c main_v149) (V c main_v152) (V c main_v155) (V c main_v157) (V c main_v160) (V c main_v163) (V c main_v166) (V c main_v169) (V c main_v172) (((cfg1.win 14).blk t).view.emb (ix2 p q))
  unfold Net.layerArr
  rw [hn, hc]
  simp only [blk_x, blk_a, blk_w1, blk_b1, blk_g1, blk_be1, blk_m1, blk_v1, blk_w2, blk_b2, blk_g2, blk_be2, blk_m2, blk_v2]

/-- Every entry of the output array is in some point's block: node r is in block r / 5000. -/
theorem cover (c : Dev nD) (i : S50000x128.Idx) :
    ∃ t : Fin cfg1.N, (cfg1.win 14).flush t = true ∧ i ∈ ((cfg1.win 14).blk t).view.set := by
  have hi0 : (i 0).val < 50000 := (i 0).isLt
  have hi1 : (i 1).val < 128 := (i 1).isLt
  let t : Fin cfg1.N := ⟨(i 0).val / 5000, by rw [show cfg1.N = 10 from N_1]; omega⟩
  obtain ⟨-, -, -, -, e0, e1, -⟩ := idx_facts t
  refine ⟨t, flush1_14 t, ?_⟩
  show i ∈ ((View.whole main_v173).slice (win1_14.rect t)).set
  rw [View.set_slice_whole, Rect.mem_set_unit]
  intro a
  match a with
  | ⟨0, _⟩ => show win1_14.index t (0 : Fin 2) * 5000 ≤ (i 0).val ∧ (i 0).val < win1_14.index t (0 : Fin 2) * 5000 + 5000; rw [e0]; show (i 0).val / 5000 * 5000 ≤ (i 0).val ∧ (i 0).val < (i 0).val / 5000 * 5000 + 5000; omega
  | ⟨1, _⟩ => show win1_14.index t (1 : Fin 2) * 128 ≤ (i 1).val ∧ (i 1).val < win1_14.index t (1 : Fin 2) * 128 + 128; omega

/-- THE ARRAY after the region: `Net.layerArr` of the fourteen arrays the region finds. -/
theorem final (c : Dev nD) : (dat1 V c).arrAt 14 cfg1.N = G V c :=
  (dat1 V c).arrAt_eq_of_cover 14 (G V c) (fun t _ => flushed V c t) (cover c)

end Cert.KernelIdeal.Final1

end
-- ==== Proof.RefLayer1.lean ====
/-
  Layer 1 of the reference, read at an entry.

  The reference computes the layer's dense transform with whole-array host operations: `h = x + aggr`, a
  `dot_general` with the layer's weight slice, the bias and the normalisation parameters each sliced out of its
  5×128 table, reshaped to a vector and broadcast over the 50000 nodes, `rsqrt`, and the rectifier. Read at the
  entry (node r, column j) through the stage lemmas, each dense unit is `Net.unit` of row r of its input, so the
  layer's output stage is `Net.layer` of row r of the layer's input features and aggregated messages.
-/
import proofs.«180497_j12352325943908_1_alg».proof.Proof.ReadP
import proofs.«180497_j12352325943908_1_alg».proof.Proof.Spec
import proofs.«180497_j12352325943908_1_alg».proof.Proof.Idx

set_option maxRecDepth 16384

noncomputable section

namespace Cert.ReferenceIdeal.Layer1

open Cert.ReferenceIdeal Cert.ReferenceIdeal.ReadP Cert.Net Idealize.ShloMosaic Idealize.ShloMosaic.ValueIdx

/-- The first dense unit's output stage at (r, j): `Net.unit` of row r of `h = x + aggr`. -/
theorem unit1 (x0 : (⟨S50000x128, .f32⟩ : BufTy).Contents (Elt Ideal)) (x1 : (⟨S2x600000, .i32⟩ : BufTy).Contents (Elt Ideal)) (x2 : (⟨S600000x3, .i32⟩ : BufTy).Contents (Elt Ideal)) (x4 : (⟨S5x3x8x128, .f32⟩ : BufTy).Contents (Elt Ideal)) (x5 : (⟨S5x128x128, .f32⟩ : BufTy).Contents (Elt Ideal)) (x6 x7 x8 x9 x10 : (⟨S5x128, .f32⟩ : BufTy).Contents (Elt Ideal)) (x11 : (⟨S5x128x128, .f32⟩ : BufTy).Contents (Elt Ideal)) (x12 x13 x14 x15 x16 : (⟨S5x128, .f32⟩ : BufTy).Contents (Elt Ideal)) (i : S50000x128.Idx) :
    (val_main_v162 (F := Ideal) x0 x1 x2 x4 x5 x6 x7 x8 x9 x10 x11 x12 x13 x14 x15 x16) i
      = Net.unit (fun k => (val_main_v130 (F := Ideal) x0 x1 x2 x4 x5 x6 x7 x8 x9 x10 x11 x12 x13 x14 x15 x16) (ix2 (node i) k)) (fun k j => (val_main_v132 (F := Ideal) x5) (ix2 k j))
          (fun j => (val_main_v135 (F := Ideal) x6) (ix1 j)) (fun j => (val_main_v144 (F := Ideal) x9) (ix1 j)) (fun j => (val_main_v146 (F := Ideal) x10) (ix1 j))
          (fun j => (val_main_v140 (F := Ideal) x7) (ix1 j)) (fun j => (val_main_v142 (F := Ideal) x8) (ix1 j)) (col i) := by
  have hl : ∀ k, lidx_main_v133 i k = ix2 (node i) k := fun k => funext fun a => by
    match a with
    | ⟨0, _⟩ => rfl
    | ⟨1, _⟩ => rfl
  have hr : ∀ k, ridx_main_v133 i k = ix2 k (col i) := fun k => funext fun a => by
    match a with
    | ⟨0, _⟩ => rfl
    | ⟨1, _⟩ => rfl
  have hb : idx_main_v136 (idx_main_v137 i) = ix1 (col i) := funext fun a => by
    match a with
    | ⟨0, _⟩ => rfl
  have hm : idx_main_v147 (idx_main_v148 i) = ix1 (col i) := funext fun a => by
    match a with
    | ⟨0, _⟩ => rfl
  have hv : idx_main_v153 (idx_main_v154 i) = ix1 (col i) := funext fun a => by
    match a with
    | ⟨0, _⟩ => rfl
  have hg : idx_main_v156 (idx_main_v157 i) = ix1 (col i) := funext fun a => by
    match a with
    | ⟨0, _⟩ => rfl
  have he : idx_main_v159 (idx_main_v160 i) = ix1 (col i) := funext fun a => by
    match a with
    | ⟨0, _⟩ => rfl
  simp only [val_main_v162_apply, val_main_v161_apply, val_main_v158_apply, val_main_v155_apply, val_main_v149_apply, val_main_v138_apply, val_main_v133_apply, val_main_v137_apply, val_main_v136_apply, val_main_v148_apply, val_main_v147_apply, val_main_v154_apply, val_main_v153_apply, val_main_v152_apply, val_main_v151_apply, val_main_v150_apply, val_main_v157_apply, val_main_v156_apply, val_main_v160_apply, val_main_v159_apply, val_main_call4_v0_apply]
  simp only [hl, hr, hb, hm, hv, hg, he]
  rfl

/-- The second dense unit's output stage (the layer's output) at (r, j): `Net.unit` of row r of the first unit's output. -/
theorem unit2 (x0 : (⟨S50000x128, .f32⟩ : BufTy).Contents (Elt Ideal)) (x1 : (⟨S2x600000, .i32⟩ : BufTy).Contents (Elt Ideal)) (x2 : (⟨S600000x3, .i32⟩ : BufTy).Contents (Elt Ideal)) (x4 : (⟨S5x3x8x128, .f32⟩ : BufTy).Contents (Elt Ideal)) (x5 : (⟨S5x128x128, .f32⟩ : BufTy).Contents (Elt Ideal)) (x6 x7 x8 x9 x10 : (⟨S5x128, .f32⟩ : BufTy).Contents (Elt Ideal)) (x11 : (⟨S5x128x128, .f32⟩ : BufTy).Contents (Elt Ideal)) (x12 x13 x14 x15 x16 : (⟨S5x128, .f32⟩ : BufTy).Contents (Elt Ideal)) (i : S50000x128.Idx) :
    (val_main_v194 (F := Ideal) x0 x1 x2 x4 x5 x6 x7 x8 x9 x10 x11 x12 x13 x14 x15 x16) i
      = Net.unit (fun k => (val_main_v162 (F := Ideal) x0 x1 x2 x4 x5 x6 x7 x8 x9 x10 x11 x12 x13 x14 x15 x16) (ix2 (node i) k)) (fun k j => (val_main_v164 (F := Ideal) x11) (ix2 k j))
          (fun j => (val_main_v167 (F := Ideal) x12) (ix1 j)) (fun j => (val_main_v176 (F := Ideal) x15) (ix1 j)) (fun j => (val_main_v178 (F := Ideal) x16) (ix1 j))
          (fun j => (val_main_v172 (F := Ideal) x13) (ix1 j)) (fun j => (val_main_v174 (F := Ideal) x14) (ix1 j)) (col i) := by
  have hl : ∀ k, lidx_main_v165 i k = ix2 (node i) k := fun k => funext fun a => by
    match a with
    | ⟨0, _⟩ => rfl
    | ⟨1, _⟩ => rfl
  have hr : ∀ k, ridx_main_v165 i k = ix2 k (col i) := fun k => funext fun a => by
    match a with
    | ⟨0, _⟩ => rfl
    | ⟨1, _⟩ => rfl
  have hb : idx_main_v168 (idx_main_v169 i) = ix1 (col i) := funext fun a => by
    match a with
    | ⟨0, _⟩ => rfl
  have hm : idx_main_v179 (idx_main_v180 i) = ix1 (col i) := funext fun a => by
    match a with
    | ⟨0, _⟩ => rfl
  have hv : idx_main_v185 (idx_main_v186 i) = ix1 (col i) := funext fun a => by
    match a with
    | ⟨0, _⟩ => rfl
  have hg : idx_main_v188 (idx_main_v189 i) = ix1 (col i) := funext fun a => by
    match a with
    | ⟨0, _⟩ => rfl
  have he : idx_main_v191 (idx_main_v192 i) = ix1 (col i) := funext fun a => by
    match a with
    | ⟨0, _⟩ => rfl
  simp only [val_main_v194_apply, val_main_v193_apply, val_main_v190_apply, val_main_v187_apply, val_main_v181_apply, val_main_v170_apply, val_main_v165_apply, val_main_v169_apply, val_main_v168_apply, val_main_v180_apply, val_main_v179_apply, val_main_v186_apply, val_main_v185_apply, val_main_v184_apply, val_main_v183_apply, val_main_v182_apply, val_main_v189_apply, val_main_v188_apply, val_main_v192_apply, val_main_v191_apply, val_main_call5_v0_apply]
  simp only [hl, hr, hb, hm, hv, hg, he]
  rfl

/-- The layer's output stage at an entry `y`: `Net.layer` of node `y`'s row of the layer's input features and of its
    aggregated messages, the parameters read where the reference keeps them (weights as 128×128 slices, the rest as vectors). -/
theorem layer (x0 : (⟨S50000x128, .f32⟩ : BufTy).Contents (Elt Ideal)) (x1 : (⟨S2x600000, .i32⟩ : BufTy).Contents (Elt Ideal)) (x2 : (⟨S600000x3, .i32⟩ : BufTy).Contents (Elt Ideal)) (x4 : (⟨S5x3x8x128, .f32⟩ : BufTy).Contents (Elt Ideal)) (x5 : (⟨S5x128x128, .f32⟩ : BufTy).Contents (Elt Ideal)) (x6 x7 x8 x9 x10 : (⟨S5x128, .f32⟩ : BufTy).Contents (Elt Ideal)) (x11 : (⟨S5x128x128, .f32⟩ : BufTy).Contents (Elt Ideal)) (x12 x13 x14 x15 x16 : (⟨S5x128, .f32⟩ : BufTy).Contents (Elt Ideal)) (y : S50000x128.Idx) :
    (val_main_v194 (F := Ideal) x0 x1 x2 x4 x5 x6 x7 x8 x9 x10 x11 x12 x13 x14 x15 x16) y
      = Net.layer (fun l => (val_main_v99 (F := Ideal) x0 x1 x2 x4 x5 x6 x7 x8 x9 x10 x11 x12 x13 x14 x15 x16) (ix2 (node y) l)) (fun l => (val_main_v129 (F := Ideal) x0 x1 x2 x4 x5 x6 x7 x8 x9 x10 x11 x12 x13 x14 x15 x16) (ix2 (node y) l))
          (fun l j => (val_main_v132 (F := Ideal) x5) (ix2 l j)) (fun j => (val_main_v135 (F := Ideal) x6) (ix1 j)) (fun j => (val_main_v140 (F := Ideal) x7) (ix1 j)) (fun j => (val_main_v142 (F := Ideal) x8) (ix1 j))
          (fun j => (val_main_v144 (F := Ideal) x9) (ix1 j)) (fun j => (val_main_v146 (F := Ideal) x10) (ix1 j))
          (fun l j => (val_main_v164 (F := Ideal) x11) (ix2 l j)) (fun j => (val_main_v167 (F := Ideal) x12) (ix1 j)) (fun j => (val_main_v172 (F := Ideal) x13) (ix1 j)) (fun j => (val_main_v174 (F := Ideal) x14) (ix1 j))
          (fun j => (val_main_v176 (F := Ideal) x15) (ix1 j)) (fun j => (val_main_v178 (F := Ideal) x16) (ix1 j)) (col y) := by
  rw [unit2]
  unfold Net.layer
  simp only [unit1 x0 x1 x2 x4 x5 x6 x7 x8 x9 x10 x11 x12 x13 x14 x15 x16]
  rfl

end Cert.ReferenceIdeal.Layer1

end
-- ==== Proof.Step1.lean ====
/-
  Layer 1 of the kernel program, read back: from the contents at the exit of region 0 (`W4`) through the
  stretch of host operations before region 1 — the pooled read-out of the layer's input features added to the
  running output, the bond embeddings, the gathered and rectified messages and their scatter-add, the layer's
  parameter slices — and through region 1 itself to the contents at its exit (`W8`). Every buffer that matters
  is the reference's stage of the same arguments: the host operations are the same operations on both sides, and the
  region's output array is the layer of its inputs (Final1), which is the reference's layer (RefLayer1).
-/
import proofs.«180497_j12352325943908_1_alg».proof.Proof.Carried
import proofs.«180497_j12352325943908_1_alg».proof.Proof.Final1
import proofs.«180497_j12352325943908_1_alg».proof.Proof.RefLayer1
import proofs.«180497_j12352325943908_1_alg».proof.Proof.LayerArr

set_option maxRecDepth 16384
set_option maxHeartbeats 4000000

noncomputable section

namespace Cert.KernelIdeal.Step1

open Cert.KernelIdeal Cert.KernelIdeal.Gen Cert.KernelIdeal.GenP Cert.KernelIdeal.Chain Cert.Net
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- What the one-pass reading leaves inside a concatenate's operand list, finished by rewriting: each operation's result at
    its own buffer is its function's value, at any other buffer what was there. -/
macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-! ## The fourteen arrays region 1 reads -/

/-- Window `x` of region 1 as the region finds it. -/
theorem rd_x (hx : W4 m ρ c (Proc.devRef .tc main_v93) = (Cert.ReferenceIdeal.ReadP.val_main_v99 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W4 m ρ c (Proc.devRef .tc main_v28) = (Cert.ReferenceIdeal.ReadP.val_main_v503 (F := Ideal) (a0 m c) (a3 m c) (a17 m c) (a18 m c)))
    (hc : Carried m c (W4 m ρ c)) :
    V7 m ρ c main_v93 = (Cert.ReferenceIdeal.ReadP.val_main_v99 (F := Ideal) (a0 m c) (a1 m c) (a2 m c) (a4 m c) (a5 m c) (a6 m c) (a7 m c) (a8 m c) (a9 m c) (a10 m c) (a11 m c) (a12 m c) (a13 m c) (a14 m c) (a15 m c) (a16 m c)) := by
  show StableHlo.after hostOps1_2 (StableHlo.after hostOps1_1 (StableHlo.after hostOps1 (W4 m ρ c))) (Proc.devRef .tc main_v93) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]

/-- Window `aggr` of region 1 as the region finds it. -/
theorem rd_aggr (hx : W4 m ρ c (Proc.devRef .tc main_v93) = (Cert.ReferenceIdeal.ReadP.val_main_v99 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W4 m ρ c (Proc.devRef .tc main_v28) = (Cert.ReferenceIdeal.ReadP.val_main_v503 (F := Ideal) (a0 m c) (a3 m c) (a17 m c) (a18 m c)))
    (hc : Carried m c (W4 m ρ c)) :
    V7 m ρ c main_v138 = (Cert.ReferenceIdeal.ReadP.val_main_v129 (F := Ideal) (a0 m c) (a1 m c) (a2 m c) (a4 m c) (a5 m c) (a6 m c) (a7 m c) (a8 m c) (a9 m c) (a10 m c) (a11 m c) (a12 m c) (a13 m c) (a14 m c) (a15 m c) (a16 m c)) := by
  show StableHlo.after hostOps1_2 (StableHlo.after hostOps1_1 (StableHlo.after hostOps1 (W4 m ρ c))) (Proc.devRef .tc main_v138) = _
  after_results_simp
  results_rw
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `w1` of region 1 as the region finds it. -/
theorem rd_w1 (hx : W4 m ρ c (Proc.devRef .tc main_v93) = (Cert.ReferenceIdeal.ReadP.val_main_v99 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W4 m ρ c (Proc.devRef .tc main_v28) = (Cert.ReferenceIdeal.ReadP.val_main_v503 (F := Ideal) (a0 m c) (a3 m c) (a17 m c) (a18 m c)))
    (hc : Carried m c (W4 m ρ c)) :
    V7 m ρ c main_v140 = (Cert.ReferenceIdeal.ReadP.val_main_v132 (F := Ideal) (a5 m c)) := by
  show StableHlo.after hostOps1_2 (StableHlo.after hostOps1_1 (StableHlo.after hostOps1 (W4 m ρ c))) (Proc.devRef .tc main_v140) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `b1` of region 1 as the region finds it. -/
theorem rd_b1 (hx : W4 m ρ c (Proc.devRef .tc main_v93) = (Cert.ReferenceIdeal.ReadP.val_main_v99 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W4 m ρ c (Proc.devRef .tc main_v28) = (Cert.ReferenceIdeal.ReadP.val_main_v503 (F := Ideal) (a0 m c) (a3 m c) (a17 m c) (a18 m c)))
    (hc : Carried m c (W4 m ρ c)) :
    V7 m ρ c main_v143 = shapeCast Net.SRow (Cert.ReferenceIdeal.ReadP.val_main_v135 (F := Ideal) (a6 m c)) shapeCasts_S128_S1x128 := by
  show StableHlo.after hostOps1_2 (StableHlo.after hostOps1_1 (StableHlo.after hostOps1 (W4 m ρ c))) (Proc.devRef .tc main_v143) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `g1` of region 1 as the region finds it. -/
theorem rd_g1 (hx : W4 m ρ c (Proc.devRef .tc main_v93) = (Cert.ReferenceIdeal.ReadP.val_main_v99 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W4 m ρ c (Proc.devRef .tc main_v28) = (Cert.ReferenceIdeal.ReadP.val_main_v503 (F := Ideal) (a0 m c) (a3 m c) (a17 m c) (a18 m c)))
    (hc : Carried m c (W4 m ρ c)) :
    V7 m ρ c main_v146 = shapeCast Net.SRow (Cert.ReferenceIdeal.ReadP.val_main_v140 (F := Ideal) (a7 m c)) shapeCasts_S128_S1x128 := by
  show StableHlo.after hostOps1_2 (StableHlo.after hostOps1_1 (StableHlo.after hostOps1 (W4 m ρ c))) (Proc.devRef .tc main_v146) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `be1` of region 1 as the region finds it. -/
theorem rd_be1 (hx : W4 m ρ c (Proc.devRef .tc main_v93) = (Cert.ReferenceIdeal.ReadP.val_main_v99 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W4 m ρ c (Proc.devRef .tc main_v28) = (Cert.ReferenceIdeal.ReadP.val_main_v503 (F := Ideal) (a0 m c) (a3 m c) (a17 m c) (a18 m c)))
    (hc : Carried m c (W4 m ρ c)) :
    V7 m ρ c main_v149 = shapeCast Net.SRow (Cert.ReferenceIdeal.ReadP.val_main_v142 (F := Ideal) (a8 m c)) shapeCasts_S128_S1x128 := by
  show StableHlo.after hostOps1_2 (StableHlo.after hostOps1_1 (StableHlo.after hostOps1 (W4 m ρ c))) (Proc.devRef .tc main_v149) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `m1` of region 1 as the region finds it. -/
theorem rd_m1 (hx : W4 m ρ c (Proc.devRef .tc main_v93) = (Cert.ReferenceIdeal.ReadP.val_main_v99 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W4 m ρ c (Proc.devRef .tc main_v28) = (Cert.ReferenceIdeal.ReadP.val_main_v503 (F := Ideal) (a0 m c) (a3 m c) (a17 m c) (a18 m c)))
    (hc : Carried m c (W4 m ρ c)) :
    V7 m ρ c main_v152 = shapeCast Net.SRow (Cert.ReferenceIdeal.ReadP.val_main_v144 (F := Ideal) (a9 m c)) shapeCasts_S128_S1x128 := by
  show StableHlo.after hostOps1_2 (StableHlo.after hostOps1_1 (StableHlo.after hostOps1 (W4 m ρ c))) (Proc.devRef .tc main_v152) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `v1` of region 1 as the region finds it. -/
theorem rd_v1 (hx : W4 m ρ c (Proc.devRef .tc main_v93) = (Cert.ReferenceIdeal.ReadP.val_main_v99 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W4 m ρ c (Proc.devRef .tc main_v28) = (Cert.ReferenceIdeal.ReadP.val_main_v503 (F := Ideal) (a0 m c) (a3 m c) (a17 m c) (a18 m c)))
    (hc : Carried m c (W4 m ρ c)) :
    V7 m ρ c main_v155 = shapeCast Net.SRow (Cert.ReferenceIdeal.ReadP.val_main_v146 (F := Ideal) (a10 m c)) shapeCasts_S128_S1x128 := by
  show StableHlo.after hostOps1_2 (StableHlo.after hostOps1_1 (StableHlo.after hostOps1 (W4 m ρ c))) (Proc.devRef .tc main_v155) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `w2` of region 1 as the region finds it. -/
theorem rd_w2 (hx : W4 m ρ c (Proc.devRef .tc main_v93) = (Cert.ReferenceIdeal.ReadP.val_main_v99 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W4 m ρ c (Proc.devRef .tc main_v28) = (Cert.ReferenceIdeal.ReadP.val_main_v503 (F := Ideal) (a0 m c) (a3 m c) (a17 m c) (a18 m c)))
    (hc : Carried m c (W4 m ρ c)) :
    V7 m ρ c main_v157 = (Cert.ReferenceIdeal.ReadP.val_main_v164 (F := Ideal) (a11 m c)) := by
  show StableHlo.after hostOps1_2 (StableHlo.after hostOps1_1 (StableHlo.after hostOps1 (W4 m ρ c))) (Proc.devRef .tc main_v157) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `b2` of region 1 as the region finds it. -/
theorem rd_b2 (hx : W4 m ρ c (Proc.devRef .tc main_v93) = (Cert.ReferenceIdeal.ReadP.val_main_v99 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W4 m ρ c (Proc.devRef .tc main_v28) = (Cert.ReferenceIdeal.ReadP.val_main_v503 (F := Ideal) (a0 m c) (a3 m c) (a17 m c) (a18 m c)))
    (hc : Carried m c (W4 m ρ c)) :
    V7 m ρ c main_v160 = shapeCast Net.SRow (Cert.ReferenceIdeal.ReadP.val_main_v167 (F := Ideal) (a12 m c)) shapeCasts_S128_S1x128 := by
  show StableHlo.after hostOps1_2 (StableHlo.after hostOps1_1 (StableHlo.after hostOps1 (W4 m ρ c))) (Proc.devRef .tc main_v160) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `g2` of region 1 as the region finds it. -/
theorem rd_g2 (hx : W4 m ρ c (Proc.devRef .tc main_v93) = (Cert.ReferenceIdeal.ReadP.val_main_v99 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W4 m ρ c (Proc.devRef .tc main_v28) = (Cert.ReferenceIdeal.ReadP.val_main_v503 (F := Ideal) (a0 m c) (a3 m c) (a17 m c) (a18 m c)))
    (hc : Carried m c (W4 m ρ c)) :
    V7 m ρ c main_v163 = shapeCast Net.SRow (Cert.ReferenceIdeal.ReadP.val_main_v172 (F := Ideal) (a13 m c)) shapeCasts_S128_S1x128 := by
  show StableHlo.after hostOps1_2 (StableHlo.after hostOps1_1 (StableHlo.after hostOps1 (W4 m ρ c))) (Proc.devRef .tc main_v163) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `be2` of region 1 as the region finds it. -/
theorem rd_be2 (hx : W4 m ρ c (Proc.devRef .tc main_v93) = (Cert.ReferenceIdeal.ReadP.val_main_v99 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W4 m ρ c (Proc.devRef .tc main_v28) = (Cert.ReferenceIdeal.ReadP.val_main_v503 (F := Ideal) (a0 m c) (a3 m c) (a17 m c) (a18 m c)))
    (hc : Carried m c (W4 m ρ c)) :
    V7 m ρ c main_v166 = shapeCast Net.SRow (Cert.ReferenceIdeal.ReadP.val_main_v174 (F := Ideal) (a14 m c)) shapeCasts_S128_S1x128 := by
  show StableHlo.after hostOps1_2 (StableHlo.after hostOps1_1 (StableHlo.after hostOps1 (W4 m ρ c))) (Proc.devRef .tc main_v166) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `m2` of region 1 as the region finds it. -/
theorem rd_m2 (hx : W4 m ρ c (Proc.devRef .tc main_v93) = (Cert.ReferenceIdeal.ReadP.val_main_v99 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W4 m ρ c (Proc.devRef .tc main_v28) = (Cert.ReferenceIdeal.ReadP.val_main_v503 (F := Ideal) (a0 m c) (a3 m c) (a17 m c) (a18 m c)))
    (hc : Carried m c (W4 m ρ c)) :
    V7 m ρ c main_v169 = shapeCast Net.SRow (Cert.ReferenceIdeal.ReadP.val_main_v176 (F := Ideal) (a15 m c)) shapeCasts_S128_S1x128 := by
  show StableHlo.after hostOps1_2 (StableHlo.after hostOps1_1 (StableHlo.after hostOps1 (W4 m ρ c))) (Proc.devRef .tc main_v169) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `v2` of region 1 as the region finds it. -/
theorem rd_v2 (hx : W4 m ρ c (Proc.devRef .tc main_v93) = (Cert.ReferenceIdeal.ReadP.val_main_v99 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W4 m ρ c (Proc.devRef .tc main_v28) = (Cert.ReferenceIdeal.ReadP.val_main_v503 (F := Ideal) (a0 m c) (a3 m c) (a17 m c) (a18 m c)))
    (hc : Carried m c (W4 m ρ c)) :
    V7 m ρ c main_v172 = shapeCast Net.SRow (Cert.ReferenceIdeal.ReadP.val_main_v178 (F := Ideal) (a16 m c)) shapeCasts_S128_S1x128 := by
  show StableHlo.after hostOps1_2 (StableHlo.after hostOps1_1 (StableHlo.after hostOps1 (W4 m ρ c))) (Proc.devRef .tc main_v172) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-! ## The running output after this layer's read-out -/

/-- The running output `out_1` (pooled features of this layer's input, projected, added to `out_0`) at the
    region's entry. -/
theorem rd_out (hx : W4 m ρ c (Proc.devRef .tc main_v93) = (Cert.ReferenceIdeal.ReadP.val_main_v99 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W4 m ρ c (Proc.devRef .tc main_v28) = (Cert.ReferenceIdeal.ReadP.val_main_v503 (F := Ideal) (a0 m c) (a3 m c) (a17 m c) (a18 m c)))
    (hc : Carried m c (W4 m ρ c)) :
    W7 m ρ c (Proc.devRef .tc main_v108) = (Cert.ReferenceIdeal.ReadP.val_main_v518 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)) := by
  show StableHlo.after hostOps1_2 (StableHlo.after hostOps1_1 (StableHlo.after hostOps1 (W4 m ρ c))) (Proc.devRef .tc main_v108) = _
  after_results_simp
  simp only [hx, hout, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-! ## Through the region -/

/-- A buffer that is no array of region 1 and that no operation of the stretch writes is kept from `W4` to `W8`. -/
theorem keep (b : Ref sig .tc) (hreg : ∀ w, Pipeline.arrRef spec1 w ≠ b)
    (h : StableHlo.after hostOps1_2 (StableHlo.after hostOps1_1 (StableHlo.after hostOps1 (W4 m ρ c))) (Proc.devRef .tc b) = W4 m ρ c (Proc.devRef .tc b)) :
    W8 m ρ c (Proc.devRef .tc b) = W4 m ρ c (Proc.devRef .tc b) :=
  (W8_of_ne m ρ c b hreg).trans h

/-- The carried facts at the region's exit. -/
theorem carried (hc : Carried m c (W4 m ρ c)) : Carried m c (W8 m ρ c) where
    inv := (keep m ρ c main_v12 (by decide) (by show StableHlo.after hostOps1_2 (StableHlo.after hostOps1_1 (StableHlo.after hostOps1 (W4 m ρ c))) (Proc.devRef .tc main_v12) = _; after_results_simp)).trans hc.inv
    src := (keep m ρ c main_v1 (by decide) (by show StableHlo.after hostOps1_2 (StableHlo.after hostOps1_1 (StableHlo.after hostOps1 (W4 m ρ c))) (Proc.devRef .tc main_v1) = _; after_results_simp)).trans hc.src
    dst := (keep m ρ c main_v3 (by decide) (by show StableHlo.after hostOps1_2 (StableHlo.after hostOps1_1 (StableHlo.after hostOps1 (W4 m ρ c))) (Proc.devRef .tc main_v3) = _; after_results_simp)).trans hc.dst
    iota := (keep m ρ c main_v4 (by decide) (by show StableHlo.after hostOps1_2 (StableHlo.after hostOps1_1 (StableHlo.after hostOps1 (W4 m ρ c))) (Proc.devRef .tc main_v4) = _; after_results_simp)).trans hc.iota
    h2 := (keep m ρ c main_arg2 (by decide) (by show StableHlo.after hostOps1_2 (StableHlo.after hostOps1_1 (StableHlo.after hostOps1 (W4 m ρ c))) (Proc.devRef .tc main_arg2) = _; after_results_simp)).trans hc.h2
    h3 := (keep m ρ c main_arg3 (by decide) (by show StableHlo.after hostOps1_2 (StableHlo.after hostOps1_1 (StableHlo.after hostOps1 (W4 m ρ c))) (Proc.devRef .tc main_arg3) = _; after_results_simp)).trans hc.h3
    h4 := (keep m ρ c main_arg4 (by decide) (by show StableHlo.after hostOps1_2 (StableHlo.after hostOps1_1 (StableHlo.after hostOps1 (W4 m ρ c))) (Proc.devRef .tc main_arg4) = _; after_results_simp)).trans hc.h4
    h5 := (keep m ρ c main_arg5 (by decide) (by show StableHlo.after hostOps1_2 (StableHlo.after hostOps1_1 (StableHlo.after hostOps1 (W4 m ρ c))) (Proc.devRef .tc main_arg5) = _; after_results_simp)).trans hc.h5
    h6 := (keep m ρ c main_arg6 (by decide) (by show StableHlo.after hostOps1_2 (StableHlo.after hostOps1_1 (StableHlo.after hostOps1 (W4 m ρ c))) (Proc.devRef .tc main_arg6) = _; after_results_simp)).trans hc.h6
    h7 := (keep m ρ c main_arg7 (by decide) (by show StableHlo.after hostOps1_2 (StableHlo.after hostOps1_1 (StableHlo.after hostOps1 (W4 m ρ c))) (Proc.devRef .tc main_arg7) = _; after_results_simp)).trans hc.h7
    h8 := (keep m ρ c main_arg8 (by decide) (by show StableHlo.after hostOps1_2 (StableHlo.after hostOps1_1 (StableHlo.after hostOps1 (W4 m ρ c))) (Proc.devRef .tc main_arg8) = _; after_results_simp)).trans hc.h8
    h9 := (keep m ρ c main_arg9 (by decide) (by show StableHlo.after hostOps1_2 (StableHlo.after hostOps1_1 (StableHlo.after hostOps1 (W4 m ρ c))) (Proc.devRef .tc main_arg9) = _; after_results_simp)).trans hc.h9
    h10 := (keep m ρ c main_arg10 (by decide) (by show StableHlo.after hostOps1_2 (StableHlo.after hostOps1_1 (StableHlo.after hostOps1 (W4 m ρ c))) (Proc.devRef .tc main_arg10) = _; after_results_simp)).trans hc.h10
    h11 := (keep m ρ c main_arg11 (by decide) (by show StableHlo.after hostOps1_2 (StableHlo.after hostOps1_1 (StableHlo.after hostOps1 (W4 m ρ c))) (Proc.devRef .tc main_arg11) = _; after_results_simp)).trans hc.h11
    h12 := (keep m ρ c main_arg12 (by decide) (by show StableHlo.after hostOps1_2 (StableHlo.after hostOps1_1 (StableHlo.after hostOps1 (W4 m ρ c))) (Proc.devRef .tc main_arg12) = _; after_results_simp)).trans hc.h12
    h13 := (keep m ρ c main_arg13 (by decide) (by show StableHlo.after hostOps1_2 (StableHlo.after hostOps1_1 (StableHlo.after hostOps1 (W4 m ρ c))) (Proc.devRef .tc main_arg13) = _; after_results_simp)).trans hc.h13
    h14 := (keep m ρ c main_arg14 (by decide) (by show StableHlo.after hostOps1_2 (StableHlo.after hostOps1_1 (StableHlo.after hostOps1 (W4 m ρ c))) (Proc.devRef .tc main_arg14) = _; after_results_simp)).trans hc.h14
    h15 := (keep m ρ c main_arg15 (by decide) (by show StableHlo.after hostOps1_2 (StableHlo.after hostOps1_1 (StableHlo.after hostOps1 (W4 m ρ c))) (Proc.devRef .tc main_arg15) = _; after_results_simp)).trans hc.h15
    h16 := (keep m ρ c main_arg16 (by decide) (by show StableHlo.after hostOps1_2 (StableHlo.after hostOps1_1 (StableHlo.after hostOps1 (W4 m ρ c))) (Proc.devRef .tc main_arg16) = _; after_results_simp)).trans hc.h16
    h17 := (keep m ρ c main_arg17 (by decide) (by show StableHlo.after hostOps1_2 (StableHlo.after hostOps1_1 (StableHlo.after hostOps1 (W4 m ρ c))) (Proc.devRef .tc main_arg17) = _; after_results_simp)).trans hc.h17
    h18 := (keep m ρ c main_arg18 (by decide) (by show StableHlo.after hostOps1_2 (StableHlo.after hostOps1_1 (StableHlo.after hostOps1 (W4 m ρ c))) (Proc.devRef .tc main_arg18) = _; after_results_simp)).trans hc.h18

/-- The running output is not touched by the region. -/
theorem out' (hx : W4 m ρ c (Proc.devRef .tc main_v93) = (Cert.ReferenceIdeal.ReadP.val_main_v99 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W4 m ρ c (Proc.devRef .tc main_v28) = (Cert.ReferenceIdeal.ReadP.val_main_v503 (F := Ideal) (a0 m c) (a3 m c) (a17 m c) (a18 m c)))
    (hc : Carried m c (W4 m ρ c)) :
    W8 m ρ c (Proc.devRef .tc main_v108) = (Cert.ReferenceIdeal.ReadP.val_main_v518 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)) :=
  (W8_of_ne m ρ c main_v108 (by decide)).trans (rd_out m ρ c hx hout hc)

/-- THE LAYER: region 1's output array is the reference's stage of the layer's output. -/
theorem x' (hx : W4 m ρ c (Proc.devRef .tc main_v93) = (Cert.ReferenceIdeal.ReadP.val_main_v99 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W4 m ρ c (Proc.devRef .tc main_v28) = (Cert.ReferenceIdeal.ReadP.val_main_v503 (F := Ideal) (a0 m c) (a3 m c) (a17 m c) (a18 m c)))
    (hc : Carried m c (W4 m ρ c)) :
    W8 m ρ c (Proc.devRef .tc main_v173) = (Cert.ReferenceIdeal.ReadP.val_main_v194 (F := Ideal) (a0 m c) (a1 m c) (a2 m c) (a4 m c) (a5 m c) (a6 m c) (a7 m c) (a8 m c) (a9 m c) (a10 m c) (a11 m c) (a12 m c) (a13 m c) (a14 m c) (a15 m c) (a16 m c)) := by
  refine (W8_arr m ρ c 14).trans ?_
  rw [Final1.final (V7 m ρ) c]
  show Net.layerArr (V7 m ρ c main_v93) (V7 m ρ c main_v138) (V7 m ρ c main_v140) (V7 m ρ c main_v143) (V7 m ρ c main_v146) (V7 m ρ c main_v149) (V7 m ρ c main_v152) (V7 m ρ c main_v155) (V7 m ρ c main_v157) (V7 m ρ c main_v160) (V7 m ρ c main_v163) (V7 m ρ c main_v166) (V7 m ρ c main_v169) (V7 m ρ c main_v172) = _
  rw [rd_x m ρ c hx hout hc, rd_aggr m ρ c hx hout hc, rd_w1 m ρ c hx hout hc, rd_b1 m ρ c hx hout hc, rd_g1 m ρ c hx hout hc, rd_be1 m ρ c hx hout hc, rd_m1 m ρ c hx hout hc, rd_v1 m ρ c hx hout hc, rd_w2 m ρ c hx hout hc, rd_b2 m ρ c hx hout hc, rd_g2 m ρ c hx hout hc, rd_be2 m ρ c hx hout hc, rd_m2 m ρ c hx hout hc, rd_v2 m ρ c hx hout hc]
  funext y
  rw [Net.layerArr_rows]
  exact (Cert.ReferenceIdeal.Layer1.layer (a0 m c) (a1 m c) (a2 m c) (a4 m c) (a5 m c) (a6 m c) (a7 m c) (a8 m c) (a9 m c) (a10 m c) (a11 m c) (a12 m c) (a13 m c) (a14 m c) (a15 m c) (a16 m c) y).symm

end Cert.KernelIdeal.Step1

end
-- ==== Proof.Final2.lean ====
/-
  Region 2's output array, whole: the ten blocks of 5000 nodes the grid writes back tile the 50000×128 array, and
  block t holds, at row p, the layer of node 5000·t + p. So after the region the output array is, entry by entry,
  `Net.layer` of that node's row of the two node-major input arrays and of the twelve parameter arrays (each read
  whole at every grid point: their block index is constantly 0): `Net.layerArr` of the fourteen arrays the region finds.
-/
import proofs.«180497_j12352325943908_1_alg».proof.Proof.FrameKI
import proofs.«180497_j12352325943908_1_alg».proof.Proof.KUnit
import proofs.«180497_j12352325943908_1_alg».proof.Proof.LayerArr

set_option maxRecDepth 16384

noncomputable section

namespace Cert.KernelIdeal.Final2

open Cert.KernelIdeal Cert.KernelIdeal.Gen Cert.KernelIdeal.GenP Cert.KernelIdeal.KUnit Cert.Net
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the node-major windows (0, 1 and the output 14) sit at block
    (t, 0); every parameter window at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_14.index t (0 : Fin 2) = t.val ∧ win2_14.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0
    ∧ win2_11.index t (0 : Fin 2) = 0 ∧ win2_11.index t (1 : Fin 2) = 0
    ∧ win2_12.index t (0 : Fin 2) = 0 ∧ win2_12.index t (1 : Fin 2) = 0
    ∧ win2_13.index t (0 : Fin 2) = 0 ∧ win2_13.index t (1 : Fin 2) = 0 :=
  (by decide +kernel : ∀ t : Fin grid2.N, _)

theorem t_lt (t : Fin cfg2.N) : t.val < 10 := by have := t.isLt; have h : cfg2.N = 10 := N_2; omega

/-- The node of row p of block t. -/
abbrev nodeAt (t : Fin cfg2.N) (p : Fin 5000) : Fin 50000 := ⟨t.val * 5000 + p.val, by have := t_lt t; have := p.isLt; omega⟩

/-! ## The blocks a grid point reads -/

/-- Row p of point t's block of window 0 is node 5000·t + p of its array. -/
theorem blk_x (c : Dev nD) (t : Fin cfg2.N) (p : Fin 5000) (l : Fin 128) :
    iblk2 V c 0 t (ix2 p l) = V c main_v173 (ix2 (nodeAt t p) l) := by
  obtain ⟨e0, e1, -⟩ := idx_facts t
  show V c main_v173 (((cfg2.win 0).blk t).view.emb (ix2 p l)) = V c main_v173 (ix2 (nodeAt t p) l)
  refine congrArg (V c main_v173) (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * l.val = l.val; omega

/-- Row p of point t's block of window 1 is node 5000·t + p of its array. -/
theorem blk_a (c : Dev nD) (t : Fin cfg2.N) (p : Fin 5000) (l : Fin 128) :
    iblk2 V c 1 t (ix2 p l) = V c main_v218 (ix2 (nodeAt t p) l) := by
  obtain ⟨-, -, e0, e1, -⟩ := idx_facts t
  show V c main_v218 (((cfg2.win 1).blk t).view.emb (ix2 p l)) = V c main_v218 (ix2 (nodeAt t p) l)
  refine congrArg (V c main_v218) (funext fun a => Fin.ext ?_)
  match a with
  | ⟨0, _⟩ => show win2_1.index t (0 : Fin 2) * 5000 + 1 * p.val = t.val * 5000 + p.val; omega
  | ⟨1, _⟩ => show win2_1.index t (1 : Fin 2) * 128 + 1 * l.val = l.val; omega

/-- Window 2 (a 128×128 weight matrix) is read whole at every point. -/
theorem blk_w1 (c : Dev nD) (t : Fin cfg2.N) (l j : Fin 128) :
    iblk2 V c 2 t (ix2 l j) = V c main_v220 (ix2 l j) := by
  obtain ⟨-, -, -, -, -, -, e0, e1, -⟩ := idx_facts t
  show V c main_v220 (((cfg2.win 2).blk t).view.emb (ix2 l j)) = V c main_v220 (ix2 l j)
  refine congrArg (V c main_v220) (funext fun a => Fin.ext ?_)
  match a with
  | ⟨0, _⟩ => show win2_2.index t (0 : Fin 2) * 128 + 1 * l.val = l.val; omega
  | ⟨1, _⟩ => show win2_2.index t (1 : Fin 2) * 128 + 1 * j.val = j.val; omega

/-- Window 3 (a 1×128 parameter row) is read whole at every point. -/
theorem blk_b1 (c : Dev nD) (t : Fin cfg2.N) (j : Fin 128) :
    iblk2 V c 3 t (ix2 (0 : Fin 1) j) = V c main_v223 (ix2 (0 : Fin 1) j) := by
  obtain ⟨-, -, -, -, -, -, -, -, e0, e1, -⟩ := idx_facts t
  show V c main_v223 (((cfg2.win 3).blk t).view.emb (ix2 (0 : Fin 1) j)) = V c main_v223 (ix2 (0 : Fin 1) j)
  refine congrArg (V c main_v223) (funext fun a => Fin.ext ?_)
  match a with
  | ⟨0, _⟩ => show win2_3.index t (0 : Fin 2) * 1 + 1 * 0 = 0; omega
  | ⟨1, _⟩ => show win2_3.index t (1 : Fin 2) * 128 + 1 * j.val = j.val; omega

/-- Window 4 (a 1×128 parameter row) is read whole at every point. -/
theorem blk_g1 (c : Dev nD) (t : Fin cfg2.N) (j : Fin 128) :
    iblk2 V c 4 t (ix2 (0 : Fin 1) j) = V c main_v226 (ix2 (0 : Fin 1) j) := by
  obtain ⟨-, -, -, -, -, -, -, -, -, -, e0, e1, -⟩ := idx_facts t
  show V c main_v226 (((cfg2.win 4).blk t).view.emb (ix2 (0 : Fin 1) j)) = V c main_v226 (ix2 (0 : Fin 1) j)
  refine congrArg (V c main_v226) (funext fun a => Fin.ext ?_)
  match a with
  | ⟨0, _⟩ => show win2_4.index t (0 : Fin 2) * 1 + 1 * 0 = 0; omega
  | ⟨1, _⟩ => show win2_4.index t (1 : Fin 2) * 128 + 1 * j.val = j.val; omega

/-- Window 5 (a 1×128 parameter row) is read whole at every point. -/
theorem blk_be1 (c : Dev nD) (t : Fin cfg2.N) (j : Fin 128) :
    iblk2 V c 5 t (ix2 (0 : Fin 1) j) = V c main_v229 (ix2 (0 : Fin 1) j) := by
  obtain ⟨-, -, -, -, -, -, -, -, -, -, -, -, e0, e1, -⟩ := idx_facts t
  show V c main_v229 (((cfg2.win 5).blk t).view.emb (ix2 (0 : Fin 1) j)) = V c main_v229 (ix2 (0 : Fin 1) j)
  refine congrArg (V c main_v229) (funext fun a => Fin.ext ?_)
  match a with
  | ⟨0, _⟩ => show win2_5.index t (0 : Fin 2) * 1 + 1 * 0 = 0; omega
  | ⟨1, _⟩ => show win2_5.index t (1 : Fin 2) * 128 + 1 * j.val = j.val; omega

/-- Window 6 (a 1×128 parameter row) is read whole at every point. -/
theorem blk_m1 (c : Dev nD) (t : Fin cfg2.N) (j : Fin 128) :
    iblk2 V c 6 t (ix2 (0 : Fin 1) j) = V c main_v232 (ix2 (0 : Fin 1) j) := by
  obtain ⟨-, -, -, -, -, -, -, -, -, -, -, -, -, -, e0, e1, -⟩ := idx_facts t
  show V c main_v232 (((cfg2.win 6).blk t).view.emb (ix2 (0 : Fin 1) j)) = V c main_v232 (ix2 (0 : Fin 1) j)
  refine congrArg (V c main_v232) (funext fun a => Fin.ext ?_)
  match a with
  | ⟨0, _⟩ => show win2_6.index t (0 : Fin 2) * 1 + 1 * 0 = 0; omega
  | ⟨1, _⟩ => show win2_6.index t (1 : Fin 2) * 128 + 1 * j.val = j.val; omega

/-- Window 7 (a 1×128 parameter row) is read whole at every point. -/
theorem blk_v1 (c : Dev nD) (t : Fin cfg2.N) (j : Fin 128) :
    iblk2 V c 7 t (ix2 (0 : Fin 1) j) = V c main_v235 (ix2 (0 : Fin 1) j) := by
  obtain ⟨-, -, -, -, -, -, -, -, -, -, -, -, -, -, -, -, e0, e1, -⟩ := idx_facts t
  show V c main_v235 (((cfg2.win 7).blk t).view.emb (ix2 (0 : Fin 1) j)) = V c main_v235 (ix2 (0 : Fin 1) j)
  refine congrArg (V c main_v235) (funext fun a => Fin.ext ?_)
  match a with
  | ⟨0, _⟩ => show win2_7.index t (0 : Fin 2) * 1 + 1 * 0 = 0; omega
  | ⟨1, _⟩ => show win2_7.index t (1 : Fin 2) * 128 + 1 * j.val = j.val; omega

/-- Window 8 (a 128×128 weight matrix) is read whole at every point. -/
theorem blk_w2 (c : Dev nD) (t : Fin cfg2.N) (l j : Fin 128) :
    iblk2 V c 8 t (ix2 l j) = V c main_v237 (ix2 l j) := by
  obtain ⟨-, -, -, -, -, -, -, -, -, -, -, -, -, -, -, -, -, -, e0, e1, -⟩ := idx_facts t
  show V c main_v237 (((cfg2.win 8).blk t).view.emb (ix2 l j)) = V c main_v237 (ix2 l j)
  refine congrArg (V c main_v237) (funext fun a => Fin.ext ?_)
  match a with
  | ⟨0, _⟩ => show win2_8.index t (0 : Fin 2) * 128 + 1 * l.val = l.val; omega
  | ⟨1, _⟩ => show win2_8.index t (1 : Fin 2) * 128 + 1 * j.val = j.val; omega

/-- Window 9 (a 1×128 parameter row) is read whole at every point. -/
theorem blk_b2 (c : Dev nD) (t : Fin cfg2.N) (j : Fin 128) :
    iblk2 V c 9 t (ix2 (0 : Fin 1) j) = V c main_v240 (ix2 (0 : Fin 1) j) := by
  obtain ⟨-, -, -, -, -, -, -, -, -, -, -, -, -, -, -, -, -, -, -, -, e0, e1, -⟩ := idx_facts t
  show V c main_v240 (((cfg2.win 9).blk t).view.emb (ix2 (0 : Fin 1) j)) = V c main_v240 (ix2 (0 : Fin 1) j)
  refine congrArg (V c main_v240) (funext fun a => Fin.ext ?_)
  match a with
  | ⟨0, _⟩ => show win2_9.index t (0 : Fin 2) * 1 + 1 * 0 = 0; omega
  | ⟨1, _⟩ => show win2_9.index t (1 : Fin 2) * 128 + 1 * j.val = j.val; omega

/-- Window 10 (a 1×128 parameter row) is read whole at every point. -/
theorem blk_g2 (c : Dev nD) (t : Fin cfg2.N) (j : Fin 128) :
    iblk2 V c 10 t (ix2 (0 : Fin 1) j) = V c main_v243 (ix2 (0 : Fin 1) j) := by
  obtain ⟨-, -, -, -, -, -, -, -, -, -, -, -, -, -, -, -, -, -, -, -, -, -, e0, e1, -⟩ := idx_facts t
  show V c main_v243 (((cfg2.win 10).blk t).view.emb (ix2 (0 : Fin 1) j)) = V c main_v243 (ix2 (0 : Fin 1) j)
  refine congrArg (V c main_v243) (funext fun a => Fin.ext ?_)
  match a with
  | ⟨0, _⟩ => show win2_10.index t (0 : Fin 2) * 1 + 1 * 0 = 0; omega
  | ⟨1, _⟩ => show win2_10.index t (1 : Fin 2) * 128 + 1 * j.val = j.val; omega

/-- Window 11 (a 1×128 parameter row) is read whole at every point. -/
theorem blk_be2 (c : Dev nD) (t : Fin cfg2.N) (j : Fin 128) :
    iblk2 V c 11 t (ix2 (0 : Fin 1) j) = V c main_v246 (ix2 (0 : Fin 1) j) := by
  obtain ⟨-, -, -, -, -, -, -, -, -, -, -, -, -, -, -, -, -, -, -, -, -, -, -, -, e0, e1, -⟩ := idx_facts t
  show V c main_v246 (((cfg2.win 11).blk t).view.emb (ix2 (0 : Fin 1) j)) = V c main_v246 (ix2 (0 : Fin 1) j)
  refine congrArg (V c main_v246) (funext fun a => Fin.ext ?_)
  match a with
  | ⟨0, _⟩ => show win2_11.index t (0 : Fin 2) * 1 + 1 * 0 = 0; omega
  | ⟨1, _⟩ => show win2_11.index t (1 : Fin 2) * 128 + 1 * j.val = j.val; omega

/-- Window 12 (a 1×128 parameter row) is read whole at every point. -/
theorem blk_m2 (c : Dev nD) (t : Fin cfg2.N) (j : Fin 128) :
    iblk2 V c 12 t (ix2 (0 : Fin 1) j) = V c main_v249 (ix2 (0 : Fin 1) j) := by
  obtain ⟨-, -, -, -, -, -, -, -, -, -, -, -, -, -, -, -, -, -, -, -, -, -, -, -, -, -, e0, e1, -⟩ := idx_facts t
  show V c main_v249 (((cfg2.win 12).blk t).view.emb (ix2 (0 : Fin 1) j)) = V c main_v249 (ix2 (0 : Fin 1) j)
  refine congrArg (V c main_v249) (funext fun a => Fin.ext ?_)
  match a with
  | ⟨0, _⟩ => show win2_12.index t (0 : Fin 2) * 1 + 1 * 0 = 0; omega
  | ⟨1, _⟩ => show win2_12.index t (1 : Fin 2) * 128 + 1 * j.val = j.val; omega

/-- Window 13 (a 1×128 parameter row) is read whole at every point. -/
theorem blk_v2 (c : Dev nD) (t : Fin cfg2.N) (j : Fin 128) :
    iblk2 V c 13 t (ix2 (0 : Fin 1) j) = V c main_v252 (ix2 (0 : Fin 1) j) := by
  obtain ⟨-, -, -, -, -, -, -, -, -, -, -, -, -, -, -, -, -, -, -, -, -, -, -, -, -, -, -, -, e0, e1⟩ := idx_facts t
  show V c main_v252 (((cfg2.win 13).blk t).view.emb (ix2 (0 : Fin 1) j)) = V c main_v252 (ix2 (0 : Fin 1) j)
  refine congrArg (V c main_v252) (funext fun a => Fin.ext ?_)
  match a with
  | ⟨0, _⟩ => show win2_13.index t (0 : Fin 2) * 1 + 1 * 0 = 0; omega
  | ⟨1, _⟩ => show win2_13.index t (1 : Fin 2) * 128 + 1 * j.val = j.val; omega

/-! ## What a grid point writes back, and the array -/

/-- The output array as a function of the arrays the region finds. -/
abbrev G (c : Dev nD) : S50000x128.Idx → EReal := Net.layerArr (V c main_v173) (V c main_v218) (V c main_v220) (V c main_v223) (V c main_v226) (V c main_v229) (V c main_v232) (V c main_v235) (V c main_v237) (V c main_v240) (V c main_v243) (V c main_v246) (V c main_v249) (V c main_v252)

/-- WHAT POINT t WRITES BACK is block t of `G`. -/
theorem flushed (c : Dev nD) (t : Fin cfg2.N) :
    (dat2 V c).flushed 14 t = ((cfg2.win 14).blk t).view.read (Elt Ideal) (G V c) := by
  show (cfg2.win 14).cut (grid2.coords t) ((dat2 V c).after 14 t) = _
  rw [after2_14]
  unfold out2_14
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  refine (pay2 (iblk2 V c 0 t) (iblk2 V c 1 t) (iblk2 V c 2 t) (iblk2 V c 3 t) (iblk2 V c 6 t) (iblk2 V c 7 t) (iblk2 V c 4 t) (iblk2 V c 5 t) (iblk2 V c 8 t) (iblk2 V c 9 t) (iblk2 V c 12 t) (iblk2 V c 13 t) (iblk2 V c 10 t) (iblk2 V c 11 t) p q).trans ?_
  obtain ⟨-, -, -, -, e0, e1, -⟩ := idx_facts t
  have hn : node (((cfg2.win 14).blk t).view.emb (ix2 p q)) = nodeAt t p :=
    Fin.ext (by show win2_14.index t (0 : Fin 2) * 5000 + 1 * p.val = t.val * 5000 + p.val; omega)
  have hc : col (((cfg2.win 14).blk t).view.emb (ix2 p q)) = q :=
    Fin.ext (by show win2_14.index t (1 : Fin 2) * 128 + 1 * q.val = q.val; omega)
  show _ = Net.layerArr (V c main_v173) (V c main_v218) (V c main_v220) (V c main_v223) (V c main_v226) (V c main_v229) (V c main_v232) (V c main_v235) (V c main_v237) (V c main_v240) (V c main_v243) (V c main_v246) (V c main_v249) (V c main_v252) (((cfg2.win 14).blk t).view.emb (ix2 p q))
  unfold Net.layerArr
  rw [hn, hc]
  simp only [blk_x, blk_a, blk_w1, blk_b1, blk_g1, blk_be1, blk_m1, blk_v1, blk_w2, blk_b2, blk_g2, blk_be2, blk_m2, blk_v2]

/-- Every entry of the output array is in some point's block: node r is in block r / 5000. -/
theorem cover (c : Dev nD) (i : S50000x128.Idx) :
    ∃ t : Fin cfg2.N, (cfg2.win 14).flush t = true ∧ i ∈ ((cfg2.win 14).blk t).view.set := by
  have hi0 : (i 0).val < 50000 := (i 0).isLt
  have hi1 : (i 1).val < 128 := (i 1).isLt
  let t : Fin cfg2.N := ⟨(i 0).val / 5000, by rw [show cfg2.N = 10 from N_2]; omega⟩
  obtain ⟨-, -, -, -, e0, e1, -⟩ := idx_facts t
  refine ⟨t, flush2_14 t, ?_⟩
  show i ∈ ((View.whole main_v253).slice (win2_14.rect t)).set
  rw [View.set_slice_whole, Rect.mem_set_unit]
  intro a
  match a with
  | ⟨0, _⟩ => show win2_14.index t (0 : Fin 2) * 5000 ≤ (i 0).val ∧ (i 0).val < win2_14.index t (0 : Fin 2) * 5000 + 5000; rw [e0]; show (i 0).val / 5000 * 5000 ≤ (i 0).val ∧ (i 0).val < (i 0).val / 5000 * 5000 + 5000; omega
  | ⟨1, _⟩ => show win2_14.index t (1 : Fin 2) * 128 ≤ (i 1).val ∧ (i 1).val < win2_14.index t (1 : Fin 2) * 128 + 128; omega

/-- THE ARRAY after the region: `Net.layerArr` of the fourteen arrays the region finds. -/
theorem final (c : Dev nD) : (dat2 V c).arrAt 14 cfg2.N = G V c :=
  (dat2 V c).arrAt_eq_of_cover 14 (G V c) (fun t _ => flushed V c t) (cover c)

end Cert.KernelIdeal.Final2

end
-- ==== Proof.RefLayer2.lean ====
/-
  Layer 2 of the reference, read at an entry.

  The reference computes the layer's dense transform with whole-array host operations: `h = x + aggr`, a
  `dot_general` with the layer's weight slice, the bias and the normalisation parameters each sliced out of its
  5×128 table, reshaped to a vector and broadcast over the 50000 nodes, `rsqrt`, and the rectifier. Read at the
  entry (node r, column j) through the stage lemmas, each dense unit is `Net.unit` of row r of its input, so the
  layer's output stage is `Net.layer` of row r of the layer's input features and aggregated messages.
-/
import proofs.«180497_j12352325943908_1_alg».proof.Proof.ReadP
import proofs.«180497_j12352325943908_1_alg».proof.Proof.Spec
import proofs.«180497_j12352325943908_1_alg».proof.Proof.Idx

set_option maxRecDepth 16384

noncomputable section

namespace Cert.ReferenceIdeal.Layer2

open Cert.ReferenceIdeal Cert.ReferenceIdeal.ReadP Cert.Net Idealize.ShloMosaic Idealize.ShloMosaic.ValueIdx

/-- The first dense unit's output stage at (r, j): `Net.unit` of row r of `h = x + aggr`. -/
theorem unit1 (x0 : (⟨S50000x128, .f32⟩ : BufTy).Contents (Elt Ideal)) (x1 : (⟨S2x600000, .i32⟩ : BufTy).Contents (Elt Ideal)) (x2 : (⟨S600000x3, .i32⟩ : BufTy).Contents (Elt Ideal)) (x4 : (⟨S5x3x8x128, .f32⟩ : BufTy).Contents (Elt Ideal)) (x5 : (⟨S5x128x128, .f32⟩ : BufTy).Contents (Elt Ideal)) (x6 x7 x8 x9 x10 : (⟨S5x128, .f32⟩ : BufTy).Contents (Elt Ideal)) (x11 : (⟨S5x128x128, .f32⟩ : BufTy).Contents (Elt Ideal)) (x12 x13 x14 x15 x16 : (⟨S5x128, .f32⟩ : BufTy).Contents (Elt Ideal)) (i : S50000x128.Idx) :
    (val_main_v257 (F := Ideal) x0 x1 x2 x4 x5 x6 x7 x8 x9 x10 x11 x12 x13 x14 x15 x16) i
      = Net.unit (fun k => (val_main_v225 (F := Ideal) x0 x1 x2 x4 x5 x6 x7 x8 x9 x10 x11 x12 x13 x14 x15 x16) (ix2 (node i) k)) (fun k j => (val_main_v227 (F := Ideal) x5) (ix2 k j))
          (fun j => (val_main_v230 (F := Ideal) x6) (ix1 j)) (fun j => (val_main_v239 (F := Ideal) x9) (ix1 j)) (fun j => (val_main_v241 (F := Ideal) x10) (ix1 j))
          (fun j => (val_main_v235 (F := Ideal) x7) (ix1 j)) (fun j => (val_main_v237 (F := Ideal) x8) (ix1 j)) (col i) := by
  have hl : ∀ k, lidx_main_v228 i k = ix2 (node i) k := fun k => funext fun a => by
    match a with
    | ⟨0, _⟩ => rfl
    | ⟨1, _⟩ => rfl
  have hr : ∀ k, ridx_main_v228 i k = ix2 k (col i) := fun k => funext fun a => by
    match a with
    | ⟨0, _⟩ => rfl
    | ⟨1, _⟩ => rfl
  have hb : idx_main_v231 (idx_main_v232 i) = ix1 (col i) := funext fun a => by
    match a with
    | ⟨0, _⟩ => rfl
  have hm : idx_main_v242 (idx_main_v243 i) = ix1 (col i) := funext fun a => by
    match a with
    | ⟨0, _⟩ => rfl
  have hv : idx_main_v248 (idx_main_v249 i) = ix1 (col i) := funext fun a => by
    match a with
    | ⟨0, _⟩ => rfl
  have hg : idx_main_v251 (idx_main_v252 i) = ix1 (col i) := funext fun a => by
    match a with
    | ⟨0, _⟩ => rfl
  have he : idx_main_v254 (idx_main_v255 i) = ix1 (col i) := funext fun a => by
    match a with
    | ⟨0, _⟩ => rfl
  simp only [val_main_v257_apply, val_main_v256_apply, val_main_v253_apply, val_main_v250_apply, val_main_v244_apply, val_main_v233_apply, val_main_v228_apply, val_main_v232_apply, val_main_v231_apply, val_main_v243_apply, val_main_v242_apply, val_main_v249_apply, val_main_v248_apply, val_main_v247_apply, val_main_v246_apply, val_main_v245_apply, val_main_v252_apply, val_main_v251_apply, val_main_v255_apply, val_main_v254_apply, val_main_call7_v0_apply]
  simp only [hl, hr, hb, hm, hv, hg, he]
  rfl

/-- The second dense unit's output stage (the layer's output) at (r, j): `Net.unit` of row r of the first unit's output. -/
theorem unit2 (x0 : (⟨S50000x128, .f32⟩ : BufTy).Contents (Elt Ideal)) (x1 : (⟨S2x600000, .i32⟩ : BufTy).Contents (Elt Ideal)) (x2 : (⟨S600000x3, .i32⟩ : BufTy).Contents (Elt Ideal)) (x4 : (⟨S5x3x8x128, .f32⟩ : BufTy).Contents (Elt Ideal)) (x5 : (⟨S5x128x128, .f32⟩ : BufTy).Contents (Elt Ideal)) (x6 x7 x8 x9 x10 : (⟨S5x128, .f32⟩ : BufTy).Contents (Elt Ideal)) (x11 : (⟨S5x128x128, .f32⟩ : BufTy).Contents (Elt Ideal)) (x12 x13 x14 x15 x16 : (⟨S5x128, .f32⟩ : BufTy).Contents (Elt Ideal)) (i : S50000x128.Idx) :
    (val_main_v289 (F := Ideal) x0 x1 x2 x4 x5 x6 x7 x8 x9 x10 x11 x12 x13 x14 x15 x16) i
      = Net.unit (fun k => (val_main_v257 (F := Ideal) x0 x1 x2 x4 x5 x6 x7 x8 x9 x10 x11 x12 x13 x14 x15 x16) (ix2 (node i) k)) (fun k j => (val_main_v259 (F := Ideal) x11) (ix2 k j))
          (fun j => (val_main_v262 (F := Ideal) x12) (ix1 j)) (fun j => (val_main_v271 (F := Ideal) x15) (ix1 j)) (fun j => (val_main_v273 (F := Ideal) x16) (ix1 j))
          (fun j => (val_main_v267 (F := Ideal) x13) (ix1 j)) (fun j => (val_main_v269 (F := Ideal) x14) (ix1 j)) (col i) := by
  have hl : ∀ k, lidx_main_v260 i k = ix2 (node i) k := fun k => funext fun a => by
    match a with
    | ⟨0, _⟩ => rfl
    | ⟨1, _⟩ => rfl
  have hr : ∀ k, ridx_main_v260 i k = ix2 k (col i) := fun k => funext fun a => by
    match a with
    | ⟨0, _⟩ => rfl
    | ⟨1, _⟩ => rfl
  have hb : idx_main_v263 (idx_main_v264 i) = ix1 (col i) := funext fun a => by
    match a with
    | ⟨0, _⟩ => rfl
  have hm : idx_main_v274 (idx_main_v275 i) = ix1 (col i) := funext fun a => by
    match a with
    | ⟨0, _⟩ => rfl
  have hv : idx_main_v280 (idx_main_v281 i) = ix1 (col i) := funext fun a => by
    match a with
    | ⟨0, _⟩ => rfl
  have hg : idx_main_v283 (idx_main_v284 i) = ix1 (col i) := funext fun a => by
    match a with
    | ⟨0, _⟩ => rfl
  have he : idx_main_v286 (idx_main_v287 i) = ix1 (col i) := funext fun a => by
    match a with
    | ⟨0, _⟩ => rfl
  simp only [val_main_v289_apply, val_main_v288_apply, val_main_v285_apply, val_main_v282_apply, val_main_v276_apply, val_main_v265_apply, val_main_v260_apply, val_main_v264_apply, val_main_v263_apply, val_main_v275_apply, val_main_v274_apply, val_main_v281_apply, val_main_v280_apply, val_main_v279_apply, val_main_v278_apply, val_main_v277_apply, val_main_v284_apply, val_main_v283_apply, val_main_v287_apply, val_main_v286_apply, val_main_call8_v0_apply]
  simp only [hl, hr, hb, hm, hv, hg, he]
  rfl

/-- The layer's output stage at an entry `y`: `Net.layer` of node `y`'s row of the layer's input features and of its
    aggregated messages, the parameters read where the reference keeps them (weights as 128×128 slices, the rest as vectors). -/
theorem layer (x0 : (⟨S50000x128, .f32⟩ : BufTy).Contents (Elt Ideal)) (x1 : (⟨S2x600000, .i32⟩ : BufTy).Contents (Elt Ideal)) (x2 : (⟨S600000x3, .i32⟩ : BufTy).Contents (Elt Ideal)) (x4 : (⟨S5x3x8x128, .f32⟩ : BufTy).Contents (Elt Ideal)) (x5 : (⟨S5x128x128, .f32⟩ : BufTy).Contents (Elt Ideal)) (x6 x7 x8 x9 x10 : (⟨S5x128, .f32⟩ : BufTy).Contents (Elt Ideal)) (x11 : (⟨S5x128x128, .f32⟩ : BufTy).Contents (Elt Ideal)) (x12 x13 x14 x15 x16 : (⟨S5x128, .f32⟩ : BufTy).Contents (Elt Ideal)) (y : S50000x128.Idx) :
    (val_main_v289 (F := Ideal) x0 x1 x2 x4 x5 x6 x7 x8 x9 x10 x11 x12 x13 x14 x15 x16) y
      = Net.layer (fun l => (val_main_v194 (F := Ideal) x0 x1 x2 x4 x5 x6 x7 x8 x9 x10 x11 x12 x13 x14 x15 x16) (ix2 (node y) l)) (fun l => (val_main_v224 (F := Ideal) x0 x1 x2 x4 x5 x6 x7 x8 x9 x10 x11 x12 x13 x14 x15 x16) (ix2 (node y) l))
          (fun l j => (val_main_v227 (F := Ideal) x5) (ix2 l j)) (fun j => (val_main_v230 (F := Ideal) x6) (ix1 j)) (fun j => (val_main_v235 (F := Ideal) x7) (ix1 j)) (fun j => (val_main_v237 (F := Ideal) x8) (ix1 j))
          (fun j => (val_main_v239 (F := Ideal) x9) (ix1 j)) (fun j => (val_main_v241 (F := Ideal) x10) (ix1 j))
          (fun l j => (val_main_v259 (F := Ideal) x11) (ix2 l j)) (fun j => (val_main_v262 (F := Ideal) x12) (ix1 j)) (fun j => (val_main_v267 (F := Ideal) x13) (ix1 j)) (fun j => (val_main_v269 (F := Ideal) x14) (ix1 j))
          (fun j => (val_main_v271 (F := Ideal) x15) (ix1 j)) (fun j => (val_main_v273 (F := Ideal) x16) (ix1 j)) (col y) := by
  rw [unit2]
  unfold Net.layer
  simp only [unit1 x0 x1 x2 x4 x5 x6 x7 x8 x9 x10 x11 x12 x13 x14 x15 x16]
  rfl

end Cert.ReferenceIdeal.Layer2

end
-- ==== Proof.Step2.lean ====
/-
  Layer 2 of the kernel program, read back: from the contents at the exit of region 1 (`W8`) through the
  stretch of host operations before region 2 — the pooled read-out of the layer's input features added to the
  running output, the bond embeddings, the gathered and rectified messages and their scatter-add, the layer's
  parameter slices — and through region 2 itself to the contents at its exit (`W12`). Every buffer that matters
  is the reference's stage of the same arguments: the host operations are the same operations on both sides, and the
  region's output array is the layer of its inputs (Final2), which is the reference's layer (RefLayer2).
-/
import proofs.«180497_j12352325943908_1_alg».proof.Proof.Carried
import proofs.«180497_j12352325943908_1_alg».proof.Proof.Final2
import proofs.«180497_j12352325943908_1_alg».proof.Proof.RefLayer2
import proofs.«180497_j12352325943908_1_alg».proof.Proof.LayerArr

set_option maxRecDepth 16384
set_option maxHeartbeats 4000000

noncomputable section

namespace Cert.KernelIdeal.Step2

open Cert.KernelIdeal Cert.KernelIdeal.Gen Cert.KernelIdeal.GenP Cert.KernelIdeal.Chain Cert.Net
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- What the one-pass reading leaves inside a concatenate's operand list, finished by rewriting: each operation's result at
    its own buffer is its function's value, at any other buffer what was there. -/
macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-! ## The fourteen arrays region 2 reads -/

/-- Window `x` of region 2 as the region finds it. -/
theorem rd_x (hx : W8 m ρ c (Proc.devRef .tc main_v173) = (Cert.ReferenceIdeal.ReadP.val_main_v194 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W8 m ρ c (Proc.devRef .tc main_v108) = (Cert.ReferenceIdeal.ReadP.val_main_v518 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W8 m ρ c)) :
    V11 m ρ c main_v173 = (Cert.ReferenceIdeal.ReadP.val_main_v194 (F := Ideal) (a0 m c) (a1 m c) (a2 m c) (a4 m c) (a5 m c) (a6 m c) (a7 m c) (a8 m c) (a9 m c) (a10 m c) (a11 m c) (a12 m c) (a13 m c) (a14 m c) (a15 m c) (a16 m c)) := by
  show StableHlo.after hostOps2_2 (StableHlo.after hostOps2_1 (StableHlo.after hostOps2 (W8 m ρ c))) (Proc.devRef .tc main_v173) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]

/-- Window `aggr` of region 2 as the region finds it. -/
theorem rd_aggr (hx : W8 m ρ c (Proc.devRef .tc main_v173) = (Cert.ReferenceIdeal.ReadP.val_main_v194 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W8 m ρ c (Proc.devRef .tc main_v108) = (Cert.ReferenceIdeal.ReadP.val_main_v518 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W8 m ρ c)) :
    V11 m ρ c main_v218 = (Cert.ReferenceIdeal.ReadP.val_main_v224 (F := Ideal) (a0 m c) (a1 m c) (a2 m c) (a4 m c) (a5 m c) (a6 m c) (a7 m c) (a8 m c) (a9 m c) (a10 m c) (a11 m c) (a12 m c) (a13 m c) (a14 m c) (a15 m c) (a16 m c)) := by
  show StableHlo.after hostOps2_2 (StableHlo.after hostOps2_1 (StableHlo.after hostOps2 (W8 m ρ c))) (Proc.devRef .tc main_v218) = _
  after_results_simp
  results_rw
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `w1` of region 2 as the region finds it. -/
theorem rd_w1 (hx : W8 m ρ c (Proc.devRef .tc main_v173) = (Cert.ReferenceIdeal.ReadP.val_main_v194 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W8 m ρ c (Proc.devRef .tc main_v108) = (Cert.ReferenceIdeal.ReadP.val_main_v518 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W8 m ρ c)) :
    V11 m ρ c main_v220 = (Cert.ReferenceIdeal.ReadP.val_main_v227 (F := Ideal) (a5 m c)) := by
  show StableHlo.after hostOps2_2 (StableHlo.after hostOps2_1 (StableHlo.after hostOps2 (W8 m ρ c))) (Proc.devRef .tc main_v220) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `b1` of region 2 as the region finds it. -/
theorem rd_b1 (hx : W8 m ρ c (Proc.devRef .tc main_v173) = (Cert.ReferenceIdeal.ReadP.val_main_v194 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W8 m ρ c (Proc.devRef .tc main_v108) = (Cert.ReferenceIdeal.ReadP.val_main_v518 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W8 m ρ c)) :
    V11 m ρ c main_v223 = shapeCast Net.SRow (Cert.ReferenceIdeal.ReadP.val_main_v230 (F := Ideal) (a6 m c)) shapeCasts_S128_S1x128 := by
  show StableHlo.after hostOps2_2 (StableHlo.after hostOps2_1 (StableHlo.after hostOps2 (W8 m ρ c))) (Proc.devRef .tc main_v223) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `g1` of region 2 as the region finds it. -/
theorem rd_g1 (hx : W8 m ρ c (Proc.devRef .tc main_v173) = (Cert.ReferenceIdeal.ReadP.val_main_v194 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W8 m ρ c (Proc.devRef .tc main_v108) = (Cert.ReferenceIdeal.ReadP.val_main_v518 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W8 m ρ c)) :
    V11 m ρ c main_v226 = shapeCast Net.SRow (Cert.ReferenceIdeal.ReadP.val_main_v235 (F := Ideal) (a7 m c)) shapeCasts_S128_S1x128 := by
  show StableHlo.after hostOps2_2 (StableHlo.after hostOps2_1 (StableHlo.after hostOps2 (W8 m ρ c))) (Proc.devRef .tc main_v226) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `be1` of region 2 as the region finds it. -/
theorem rd_be1 (hx : W8 m ρ c (Proc.devRef .tc main_v173) = (Cert.ReferenceIdeal.ReadP.val_main_v194 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W8 m ρ c (Proc.devRef .tc main_v108) = (Cert.ReferenceIdeal.ReadP.val_main_v518 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W8 m ρ c)) :
    V11 m ρ c main_v229 = shapeCast Net.SRow (Cert.ReferenceIdeal.ReadP.val_main_v237 (F := Ideal) (a8 m c)) shapeCasts_S128_S1x128 := by
  show StableHlo.after hostOps2_2 (StableHlo.after hostOps2_1 (StableHlo.after hostOps2 (W8 m ρ c))) (Proc.devRef .tc main_v229) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `m1` of region 2 as the region finds it. -/
theorem rd_m1 (hx : W8 m ρ c (Proc.devRef .tc main_v173) = (Cert.ReferenceIdeal.ReadP.val_main_v194 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W8 m ρ c (Proc.devRef .tc main_v108) = (Cert.ReferenceIdeal.ReadP.val_main_v518 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W8 m ρ c)) :
    V11 m ρ c main_v232 = shapeCast Net.SRow (Cert.ReferenceIdeal.ReadP.val_main_v239 (F := Ideal) (a9 m c)) shapeCasts_S128_S1x128 := by
  show StableHlo.after hostOps2_2 (StableHlo.after hostOps2_1 (StableHlo.after hostOps2 (W8 m ρ c))) (Proc.devRef .tc main_v232) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `v1` of region 2 as the region finds it. -/
theorem rd_v1 (hx : W8 m ρ c (Proc.devRef .tc main_v173) = (Cert.ReferenceIdeal.ReadP.val_main_v194 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W8 m ρ c (Proc.devRef .tc main_v108) = (Cert.ReferenceIdeal.ReadP.val_main_v518 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W8 m ρ c)) :
    V11 m ρ c main_v235 = shapeCast Net.SRow (Cert.ReferenceIdeal.ReadP.val_main_v241 (F := Ideal) (a10 m c)) shapeCasts_S128_S1x128 := by
  show StableHlo.after hostOps2_2 (StableHlo.after hostOps2_1 (StableHlo.after hostOps2 (W8 m ρ c))) (Proc.devRef .tc main_v235) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `w2` of region 2 as the region finds it. -/
theorem rd_w2 (hx : W8 m ρ c (Proc.devRef .tc main_v173) = (Cert.ReferenceIdeal.ReadP.val_main_v194 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W8 m ρ c (Proc.devRef .tc main_v108) = (Cert.ReferenceIdeal.ReadP.val_main_v518 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W8 m ρ c)) :
    V11 m ρ c main_v237 = (Cert.ReferenceIdeal.ReadP.val_main_v259 (F := Ideal) (a11 m c)) := by
  show StableHlo.after hostOps2_2 (StableHlo.after hostOps2_1 (StableHlo.after hostOps2 (W8 m ρ c))) (Proc.devRef .tc main_v237) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `b2` of region 2 as the region finds it. -/
theorem rd_b2 (hx : W8 m ρ c (Proc.devRef .tc main_v173) = (Cert.ReferenceIdeal.ReadP.val_main_v194 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W8 m ρ c (Proc.devRef .tc main_v108) = (Cert.ReferenceIdeal.ReadP.val_main_v518 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W8 m ρ c)) :
    V11 m ρ c main_v240 = shapeCast Net.SRow (Cert.ReferenceIdeal.ReadP.val_main_v262 (F := Ideal) (a12 m c)) shapeCasts_S128_S1x128 := by
  show StableHlo.after hostOps2_2 (StableHlo.after hostOps2_1 (StableHlo.after hostOps2 (W8 m ρ c))) (Proc.devRef .tc main_v240) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `g2` of region 2 as the region finds it. -/
theorem rd_g2 (hx : W8 m ρ c (Proc.devRef .tc main_v173) = (Cert.ReferenceIdeal.ReadP.val_main_v194 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W8 m ρ c (Proc.devRef .tc main_v108) = (Cert.ReferenceIdeal.ReadP.val_main_v518 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W8 m ρ c)) :
    V11 m ρ c main_v243 = shapeCast Net.SRow (Cert.ReferenceIdeal.ReadP.val_main_v267 (F := Ideal) (a13 m c)) shapeCasts_S128_S1x128 := by
  show StableHlo.after hostOps2_2 (StableHlo.after hostOps2_1 (StableHlo.after hostOps2 (W8 m ρ c))) (Proc.devRef .tc main_v243) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `be2` of region 2 as the region finds it. -/
theorem rd_be2 (hx : W8 m ρ c (Proc.devRef .tc main_v173) = (Cert.ReferenceIdeal.ReadP.val_main_v194 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W8 m ρ c (Proc.devRef .tc main_v108) = (Cert.ReferenceIdeal.ReadP.val_main_v518 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W8 m ρ c)) :
    V11 m ρ c main_v246 = shapeCast Net.SRow (Cert.ReferenceIdeal.ReadP.val_main_v269 (F := Ideal) (a14 m c)) shapeCasts_S128_S1x128 := by
  show StableHlo.after hostOps2_2 (StableHlo.after hostOps2_1 (StableHlo.after hostOps2 (W8 m ρ c))) (Proc.devRef .tc main_v246) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `m2` of region 2 as the region finds it. -/
theorem rd_m2 (hx : W8 m ρ c (Proc.devRef .tc main_v173) = (Cert.ReferenceIdeal.ReadP.val_main_v194 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W8 m ρ c (Proc.devRef .tc main_v108) = (Cert.ReferenceIdeal.ReadP.val_main_v518 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W8 m ρ c)) :
    V11 m ρ c main_v249 = shapeCast Net.SRow (Cert.ReferenceIdeal.ReadP.val_main_v271 (F := Ideal) (a15 m c)) shapeCasts_S128_S1x128 := by
  show StableHlo.after hostOps2_2 (StableHlo.after hostOps2_1 (StableHlo.after hostOps2 (W8 m ρ c))) (Proc.devRef .tc main_v249) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `v2` of region 2 as the region finds it. -/
theorem rd_v2 (hx : W8 m ρ c (Proc.devRef .tc main_v173) = (Cert.ReferenceIdeal.ReadP.val_main_v194 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W8 m ρ c (Proc.devRef .tc main_v108) = (Cert.ReferenceIdeal.ReadP.val_main_v518 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W8 m ρ c)) :
    V11 m ρ c main_v252 = shapeCast Net.SRow (Cert.ReferenceIdeal.ReadP.val_main_v273 (F := Ideal) (a16 m c)) shapeCasts_S128_S1x128 := by
  show StableHlo.after hostOps2_2 (StableHlo.after hostOps2_1 (StableHlo.after hostOps2 (W8 m ρ c))) (Proc.devRef .tc main_v252) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-! ## The running output after this layer's read-out -/

/-- The running output `out_2` (pooled features of this layer's input, projected, added to `out_1`) at the
    region's entry. -/
theorem rd_out (hx : W8 m ρ c (Proc.devRef .tc main_v173) = (Cert.ReferenceIdeal.ReadP.val_main_v194 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W8 m ρ c (Proc.devRef .tc main_v108) = (Cert.ReferenceIdeal.ReadP.val_main_v518 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W8 m ρ c)) :
    W11 m ρ c (Proc.devRef .tc main_v188) = (Cert.ReferenceIdeal.ReadP.val_main_v533 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)) := by
  show StableHlo.after hostOps2_2 (StableHlo.after hostOps2_1 (StableHlo.after hostOps2 (W8 m ρ c))) (Proc.devRef .tc main_v188) = _
  after_results_simp
  simp only [hx, hout, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-! ## Through the region -/

/-- A buffer that is no array of region 2 and that no operation of the stretch writes is kept from `W8` to `W12`. -/
theorem keep (b : Ref sig .tc) (hreg : ∀ w, Pipeline.arrRef spec2 w ≠ b)
    (h : StableHlo.after hostOps2_2 (StableHlo.after hostOps2_1 (StableHlo.after hostOps2 (W8 m ρ c))) (Proc.devRef .tc b) = W8 m ρ c (Proc.devRef .tc b)) :
    W12 m ρ c (Proc.devRef .tc b) = W8 m ρ c (Proc.devRef .tc b) :=
  (W12_of_ne m ρ c b hreg).trans h

/-- The carried facts at the region's exit. -/
theorem carried (hc : Carried m c (W8 m ρ c)) : Carried m c (W12 m ρ c) where
    inv := (keep m ρ c main_v12 (by decide) (by show StableHlo.after hostOps2_2 (StableHlo.after hostOps2_1 (StableHlo.after hostOps2 (W8 m ρ c))) (Proc.devRef .tc main_v12) = _; after_results_simp)).trans hc.inv
    src := (keep m ρ c main_v1 (by decide) (by show StableHlo.after hostOps2_2 (StableHlo.after hostOps2_1 (StableHlo.after hostOps2 (W8 m ρ c))) (Proc.devRef .tc main_v1) = _; after_results_simp)).trans hc.src
    dst := (keep m ρ c main_v3 (by decide) (by show StableHlo.after hostOps2_2 (StableHlo.after hostOps2_1 (StableHlo.after hostOps2 (W8 m ρ c))) (Proc.devRef .tc main_v3) = _; after_results_simp)).trans hc.dst
    iota := (keep m ρ c main_v4 (by decide) (by show StableHlo.after hostOps2_2 (StableHlo.after hostOps2_1 (StableHlo.after hostOps2 (W8 m ρ c))) (Proc.devRef .tc main_v4) = _; after_results_simp)).trans hc.iota
    h2 := (keep m ρ c main_arg2 (by decide) (by show StableHlo.after hostOps2_2 (StableHlo.after hostOps2_1 (StableHlo.after hostOps2 (W8 m ρ c))) (Proc.devRef .tc main_arg2) = _; after_results_simp)).trans hc.h2
    h3 := (keep m ρ c main_arg3 (by decide) (by show StableHlo.after hostOps2_2 (StableHlo.after hostOps2_1 (StableHlo.after hostOps2 (W8 m ρ c))) (Proc.devRef .tc main_arg3) = _; after_results_simp)).trans hc.h3
    h4 := (keep m ρ c main_arg4 (by decide) (by show StableHlo.after hostOps2_2 (StableHlo.after hostOps2_1 (StableHlo.after hostOps2 (W8 m ρ c))) (Proc.devRef .tc main_arg4) = _; after_results_simp)).trans hc.h4
    h5 := (keep m ρ c main_arg5 (by decide) (by show StableHlo.after hostOps2_2 (StableHlo.after hostOps2_1 (StableHlo.after hostOps2 (W8 m ρ c))) (Proc.devRef .tc main_arg5) = _; after_results_simp)).trans hc.h5
    h6 := (keep m ρ c main_arg6 (by decide) (by show StableHlo.after hostOps2_2 (StableHlo.after hostOps2_1 (StableHlo.after hostOps2 (W8 m ρ c))) (Proc.devRef .tc main_arg6) = _; after_results_simp)).trans hc.h6
    h7 := (keep m ρ c main_arg7 (by decide) (by show StableHlo.after hostOps2_2 (StableHlo.after hostOps2_1 (StableHlo.after hostOps2 (W8 m ρ c))) (Proc.devRef .tc main_arg7) = _; after_results_simp)).trans hc.h7
    h8 := (keep m ρ c main_arg8 (by decide) (by show StableHlo.after hostOps2_2 (StableHlo.after hostOps2_1 (StableHlo.after hostOps2 (W8 m ρ c))) (Proc.devRef .tc main_arg8) = _; after_results_simp)).trans hc.h8
    h9 := (keep m ρ c main_arg9 (by decide) (by show StableHlo.after hostOps2_2 (StableHlo.after hostOps2_1 (StableHlo.after hostOps2 (W8 m ρ c))) (Proc.devRef .tc main_arg9) = _; after_results_simp)).trans hc.h9
    h10 := (keep m ρ c main_arg10 (by decide) (by show StableHlo.after hostOps2_2 (StableHlo.after hostOps2_1 (StableHlo.after hostOps2 (W8 m ρ c))) (Proc.devRef .tc main_arg10) = _; after_results_simp)).trans hc.h10
    h11 := (keep m ρ c main_arg11 (by decide) (by show StableHlo.after hostOps2_2 (StableHlo.after hostOps2_1 (StableHlo.after hostOps2 (W8 m ρ c))) (Proc.devRef .tc main_arg11) = _; after_results_simp)).trans hc.h11
    h12 := (keep m ρ c main_arg12 (by decide) (by show StableHlo.after hostOps2_2 (StableHlo.after hostOps2_1 (StableHlo.after hostOps2 (W8 m ρ c))) (Proc.devRef .tc main_arg12) = _; after_results_simp)).trans hc.h12
    h13 := (keep m ρ c main_arg13 (by decide) (by show StableHlo.after hostOps2_2 (StableHlo.after hostOps2_1 (StableHlo.after hostOps2 (W8 m ρ c))) (Proc.devRef .tc main_arg13) = _; after_results_simp)).trans hc.h13
    h14 := (keep m ρ c main_arg14 (by decide) (by show StableHlo.after hostOps2_2 (StableHlo.after hostOps2_1 (StableHlo.after hostOps2 (W8 m ρ c))) (Proc.devRef .tc main_arg14) = _; after_results_simp)).trans hc.h14
    h15 := (keep m ρ c main_arg15 (by decide) (by show StableHlo.after hostOps2_2 (StableHlo.after hostOps2_1 (StableHlo.after hostOps2 (W8 m ρ c))) (Proc.devRef .tc main_arg15) = _; after_results_simp)).trans hc.h15
    h16 := (keep m ρ c main_arg16 (by decide) (by show StableHlo.after hostOps2_2 (StableHlo.after hostOps2_1 (StableHlo.after hostOps2 (W8 m ρ c))) (Proc.devRef .tc main_arg16) = _; after_results_simp)).trans hc.h16
    h17 := (keep m ρ c main_arg17 (by decide) (by show StableHlo.after hostOps2_2 (StableHlo.after hostOps2_1 (StableHlo.after hostOps2 (W8 m ρ c))) (Proc.devRef .tc main_arg17) = _; after_results_simp)).trans hc.h17
    h18 := (keep m ρ c main_arg18 (by decide) (by show StableHlo.after hostOps2_2 (StableHlo.after hostOps2_1 (StableHlo.after hostOps2 (W8 m ρ c))) (Proc.devRef .tc main_arg18) = _; after_results_simp)).trans hc.h18

/-- The running output is not touched by the region. -/
theorem out' (hx : W8 m ρ c (Proc.devRef .tc main_v173) = (Cert.ReferenceIdeal.ReadP.val_main_v194 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W8 m ρ c (Proc.devRef .tc main_v108) = (Cert.ReferenceIdeal.ReadP.val_main_v518 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W8 m ρ c)) :
    W12 m ρ c (Proc.devRef .tc main_v188) = (Cert.ReferenceIdeal.ReadP.val_main_v533 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)) :=
  (W12_of_ne m ρ c main_v188 (by decide)).trans (rd_out m ρ c hx hout hc)

/-- THE LAYER: region 2's output array is the reference's stage of the layer's output. -/
theorem x' (hx : W8 m ρ c (Proc.devRef .tc main_v173) = (Cert.ReferenceIdeal.ReadP.val_main_v194 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W8 m ρ c (Proc.devRef .tc main_v108) = (Cert.ReferenceIdeal.ReadP.val_main_v518 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W8 m ρ c)) :
    W12 m ρ c (Proc.devRef .tc main_v253) = (Cert.ReferenceIdeal.ReadP.val_main_v289 (F := Ideal) (a0 m c) (a1 m c) (a2 m c) (a4 m c) (a5 m c) (a6 m c) (a7 m c) (a8 m c) (a9 m c) (a10 m c) (a11 m c) (a12 m c) (a13 m c) (a14 m c) (a15 m c) (a16 m c)) := by
  refine (W12_arr m ρ c 14).trans ?_
  rw [Final2.final (V11 m ρ) c]
  show Net.layerArr (V11 m ρ c main_v173) (V11 m ρ c main_v218) (V11 m ρ c main_v220) (V11 m ρ c main_v223) (V11 m ρ c main_v226) (V11 m ρ c main_v229) (V11 m ρ c main_v232) (V11 m ρ c main_v235) (V11 m ρ c main_v237) (V11 m ρ c main_v240) (V11 m ρ c main_v243) (V11 m ρ c main_v246) (V11 m ρ c main_v249) (V11 m ρ c main_v252) = _
  rw [rd_x m ρ c hx hout hc, rd_aggr m ρ c hx hout hc, rd_w1 m ρ c hx hout hc, rd_b1 m ρ c hx hout hc, rd_g1 m ρ c hx hout hc, rd_be1 m ρ c hx hout hc, rd_m1 m ρ c hx hout hc, rd_v1 m ρ c hx hout hc, rd_w2 m ρ c hx hout hc, rd_b2 m ρ c hx hout hc, rd_g2 m ρ c hx hout hc, rd_be2 m ρ c hx hout hc, rd_m2 m ρ c hx hout hc, rd_v2 m ρ c hx hout hc]
  funext y
  rw [Net.layerArr_rows]
  exact (Cert.ReferenceIdeal.Layer2.layer (a0 m c) (a1 m c) (a2 m c) (a4 m c) (a5 m c) (a6 m c) (a7 m c) (a8 m c) (a9 m c) (a10 m c) (a11 m c) (a12 m c) (a13 m c) (a14 m c) (a15 m c) (a16 m c) y).symm

end Cert.KernelIdeal.Step2

end
-- ==== Proof.Final3.lean ====
/-
  Region 3's output array, whole: the ten blocks of 5000 nodes the grid writes back tile the 50000×128 array, and
  block t holds, at row p, the layer of node 5000·t + p. So after the region the output array is, entry by entry,
  `Net.layer` of that node's row of the two node-major input arrays and of the twelve parameter arrays (each read
  whole at every grid point: their block index is constantly 0): `Net.layerArr` of the fourteen arrays the region finds.
-/
import proofs.«180497_j12352325943908_1_alg».proof.Proof.FrameKI
import proofs.«180497_j12352325943908_1_alg».proof.Proof.KUnit
import proofs.«180497_j12352325943908_1_alg».proof.Proof.LayerArr

set_option maxRecDepth 16384

noncomputable section

namespace Cert.KernelIdeal.Final3

open Cert.KernelIdeal Cert.KernelIdeal.Gen Cert.KernelIdeal.GenP Cert.KernelIdeal.KUnit Cert.Net
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the node-major windows (0, 1 and the output 14) sit at block
    (t, 0); every parameter window at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_14.index t (0 : Fin 2) = t.val ∧ win3_14.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = 0 ∧ win3_9.index t (1 : Fin 2) = 0
    ∧ win3_10.index t (0 : Fin 2) = 0 ∧ win3_10.index t (1 : Fin 2) = 0
    ∧ win3_11.index t (0 : Fin 2) = 0 ∧ win3_11.index t (1 : Fin 2) = 0
    ∧ win3_12.index t (0 : Fin 2) = 0 ∧ win3_12.index t (1 : Fin 2) = 0
    ∧ win3_13.index t (0 : Fin 2) = 0 ∧ win3_13.index t (1 : Fin 2) = 0 :=
  (by decide +kernel : ∀ t : Fin grid3.N, _)

theorem t_lt (t : Fin cfg3.N) : t.val < 10 := by have := t.isLt; have h : cfg3.N = 10 := N_3; omega

/-- The node of row p of block t. -/
abbrev nodeAt (t : Fin cfg3.N) (p : Fin 5000) : Fin 50000 := ⟨t.val * 5000 + p.val, by have := t_lt t; have := p.isLt; omega⟩

/-! ## The blocks a grid point reads -/

/-- Row p of point t's block of window 0 is node 5000·t + p of its array. -/
theorem blk_x (c : Dev nD) (t : Fin cfg3.N) (p : Fin 5000) (l : Fin 128) :
    iblk3 V c 0 t (ix2 p l) = V c main_v253 (ix2 (nodeAt t p) l) := by
  obtain ⟨e0, e1, -⟩ := idx_facts t
  show V c main_v253 (((cfg3.win 0).blk t).view.emb (ix2 p l)) = V c main_v253 (ix2 (nodeAt t p) l)
  refine congrArg (V c main_v253) (funext fun a => Fin.ext ?_)
  match a with
  | ⟨0, _⟩ => show win3_0.index t (0 : Fin 2) * 5000 + 1 * p.val = t.val * 5000 + p.val; omega
  | ⟨1, _⟩ => show win3_0.index t (1 : Fin 2) * 128 + 1 * l.val = l.val; omega

/-- Row p of point t's block of window 1 is node 5000·t + p of its array. -/
theorem blk_a (c : Dev nD) (t : Fin cfg3.N) (p : Fin 5000) (l : Fin 128) :
    iblk3 V c 1 t (ix2 p l) = V c main_v298 (ix2 (nodeAt t p) l) := by
  obtain ⟨-, -, e0, e1, -⟩ := idx_facts t
  show V c main_v298 (((cfg3.win 1).blk t).view.emb (ix2 p l)) = V c main_v298 (ix2 (nodeAt t p) l)
  refine congrArg (V c main_v298) (funext fun a => Fin.ext ?_)
  match a with
  | ⟨0, _⟩ => show win3_1.index t (0 : Fin 2) * 5000 + 1 * p.val = t.val * 5000 + p.val; omega
  | ⟨1, _⟩ => show win3_1.index t (1 : Fin 2) * 128 + 1 * l.val = l.val; omega

/-- Window 2 (a 128×128 weight matrix) is read whole at every point. -/
theorem blk_w1 (c : Dev nD) (t : Fin cfg3.N) (l j : Fin 128) :
    iblk3 V c 2 t (ix2 l j) = V c main_v300 (ix2 l j) := by
  obtain ⟨-, -, -, -, -, -, e0, e1, -⟩ := idx_facts t
  show V c main_v300 (((cfg3.win 2).blk t).view.emb (ix2 l j)) = V c main_v300 (ix2 l j)
  refine congrArg (V c main_v300) (funext fun a => Fin.ext ?_)
  match a with
  | ⟨0, _⟩ => show win3_2.index t (0 : Fin 2) * 128 + 1 * l.val = l.val; omega
  | ⟨1, _⟩ => show win3_2.index t (1 : Fin 2) * 128 + 1 * j.val = j.val; omega

/-- Window 3 (a 1×128 parameter row) is read whole at every point. -/
theorem blk_b1 (c : Dev nD) (t : Fin cfg3.N) (j : Fin 128) :
    iblk3 V c 3 t (ix2 (0 : Fin 1) j) = V c main_v303 (ix2 (0 : Fin 1) j) := by
  obtain ⟨-, -, -, -, -, -, -, -, e0, e1, -⟩ := idx_facts t
  show V c main_v303 (((cfg3.win 3).blk t).view.emb (ix2 (0 : Fin 1) j)) = V c main_v303 (ix2 (0 : Fin 1) j)
  refine congrArg (V c main_v303) (funext fun a => Fin.ext ?_)
  match a with
  | ⟨0, _⟩ => show win3_3.index t (0 : Fin 2) * 1 + 1 * 0 = 0; omega
  | ⟨1, _⟩ => show win3_3.index t (1 : Fin 2) * 128 + 1 * j.val = j.val; omega

/-- Window 4 (a 1×128 parameter row) is read whole at every point. -/
theorem blk_g1 (c : Dev nD) (t : Fin cfg3.N) (j : Fin 128) :
    iblk3 V c 4 t (ix2 (0 : Fin 1) j) = V c main_v306 (ix2 (0 : Fin 1) j) := by
  obtain ⟨-, -, -, -, -, -, -, -, -, -, e0, e1, -⟩ := idx_facts t
  show V c main_v306 (((cfg3.win 4).blk t).view.emb (ix2 (0 : Fin 1) j)) = V c main_v306 (ix2 (0 : Fin 1) j)
  refine congrArg (V c main_v306) (funext fun a => Fin.ext ?_)
  match a with
  | ⟨0, _⟩ => show win3_4.index t (0 : Fin 2) * 1 + 1 * 0 = 0; omega
  | ⟨1, _⟩ => show win3_4.index t (1 : Fin 2) * 128 + 1 * j.val = j.val; omega

/-- Window 5 (a 1×128 parameter row) is read whole at every point. -/
theorem blk_be1 (c : Dev nD) (t : Fin cfg3.N) (j : Fin 128) :
    iblk3 V c 5 t (ix2 (0 : Fin 1) j) = V c main_v309 (ix2 (0 : Fin 1) j) := by
  obtain ⟨-, -, -, -, -, -, -, -, -, -, -, -, e0, e1, -⟩ := idx_facts t
  show V c main_v309 (((cfg3.win 5).blk t).view.emb (ix2 (0 : Fin 1) j)) = V c main_v309 (ix2 (0 : Fin 1) j)
  refine congrArg (V c main_v309) (funext fun a => Fin.ext ?_)
  match a with
  | ⟨0, _⟩ => show win3_5.index t (0 : Fin 2) * 1 + 1 * 0 = 0; omega
  | ⟨1, _⟩ => show win3_5.index t (1 : Fin 2) * 128 + 1 * j.val = j.val; omega

/-- Window 6 (a 1×128 parameter row) is read whole at every point. -/
theorem blk_m1 (c : Dev nD) (t : Fin cfg3.N) (j : Fin 128) :
    iblk3 V c 6 t (ix2 (0 : Fin 1) j) = V c main_v312 (ix2 (0 : Fin 1) j) := by
  obtain ⟨-, -, -, -, -, -, -, -, -, -, -, -, -, -, e0, e1, -⟩ := idx_facts t
  show V c main_v312 (((cfg3.win 6).blk t).view.emb (ix2 (0 : Fin 1) j)) = V c main_v312 (ix2 (0 : Fin 1) j)
  refine congrArg (V c main_v312) (funext fun a => Fin.ext ?_)
  match a with
  | ⟨0, _⟩ => show win3_6.index t (0 : Fin 2) * 1 + 1 * 0 = 0; omega
  | ⟨1, _⟩ => show win3_6.index t (1 : Fin 2) * 128 + 1 * j.val = j.val; omega

/-- Window 7 (a 1×128 parameter row) is read whole at every point. -/
theorem blk_v1 (c : Dev nD) (t : Fin cfg3.N) (j : Fin 128) :
    iblk3 V c 7 t (ix2 (0 : Fin 1) j) = V c main_v315 (ix2 (0 : Fin 1) j) := by
  obtain ⟨-, -, -, -, -, -, -, -, -, -, -, -, -, -, -, -, e0, e1, -⟩ := idx_facts t
  show V c main_v315 (((cfg3.win 7).blk t).view.emb (ix2 (0 : Fin 1) j)) = V c main_v315 (ix2 (0 : Fin 1) j)
  refine congrArg (V c main_v315) (funext fun a => Fin.ext ?_)
  match a with
  | ⟨0, _⟩ => show win3_7.index t (0 : Fin 2) * 1 + 1 * 0 = 0; omega
  | ⟨1, _⟩ => show win3_7.index t (1 : Fin 2) * 128 + 1 * j.val = j.val; omega

/-- Window 8 (a 128×128 weight matrix) is read whole at every point. -/
theorem blk_w2 (c : Dev nD) (t : Fin cfg3.N) (l j : Fin 128) :
    iblk3 V c 8 t (ix2 l j) = V c main_v317 (ix2 l j) := by
  obtain ⟨-, -, -, -, -, -, -, -, -, -, -, -, -, -, -, -, -, -, e0, e1, -⟩ := idx_facts t
  show V c main_v317 (((cfg3.win 8).blk t).view.emb (ix2 l j)) = V c main_v317 (ix2 l j)
  refine congrArg (V c main_v317) (funext fun a => Fin.ext ?_)
  match a with
  | ⟨0, _⟩ => show win3_8.index t (0 : Fin 2) * 128 + 1 * l.val = l.val; omega
  | ⟨1, _⟩ => show win3_8.index t (1 : Fin 2) * 128 + 1 * j.val = j.val; omega

/-- Window 9 (a 1×128 parameter row) is read whole at every point. -/
theorem blk_b2 (c : Dev nD) (t : Fin cfg3.N) (j : Fin 128) :
    iblk3 V c 9 t (ix2 (0 : Fin 1) j) = V c main_v320 (ix2 (0 : Fin 1) j) := by
  obtain ⟨-, -, -, -, -, -, -, -, -, -, -, -, -, -, -, -, -, -, -, -, e0, e1, -⟩ := idx_facts t
  show V c main_v320 (((cfg3.win 9).blk t).view.emb (ix2 (0 : Fin 1) j)) = V c main_v320 (ix2 (0 : Fin 1) j)
  refine congrArg (V c main_v320) (funext fun a => Fin.ext ?_)
  match a with
  | ⟨0, _⟩ => show win3_9.index t (0 : Fin 2) * 1 + 1 * 0 = 0; omega
  | ⟨1, _⟩ => show win3_9.index t (1 : Fin 2) * 128 + 1 * j.val = j.val; omega

/-- Window 10 (a 1×128 parameter row) is read whole at every point. -/
theorem blk_g2 (c : Dev nD) (t : Fin cfg3.N) (j : Fin 128) :
    iblk3 V c 10 t (ix2 (0 : Fin 1) j) = V c main_v323 (ix2 (0 : Fin 1) j) := by
  obtain ⟨-, -, -, -, -, -, -, -, -, -, -, -, -, -, -, -, -, -, -, -, -, -, e0, e1, -⟩ := idx_facts t
  show V c main_v323 (((cfg3.win 10).blk t).view.emb (ix2 (0 : Fin 1) j)) = V c main_v323 (ix2 (0 : Fin 1) j)
  refine congrArg (V c main_v323) (funext fun a => Fin.ext ?_)
  match a with
  | ⟨0, _⟩ => show win3_10.index t (0 : Fin 2) * 1 + 1 * 0 = 0; omega
  | ⟨1, _⟩ => show win3_10.index t (1 : Fin 2) * 128 + 1 * j.val = j.val; omega

/-- Window 11 (a 1×128 parameter row) is read whole at every point. -/
theorem blk_be2 (c : Dev nD) (t : Fin cfg3.N) (j : Fin 128) :
    iblk3 V c 11 t (ix2 (0 : Fin 1) j) = V c main_v326 (ix2 (0 : Fin 1) j) := by
  obtain ⟨-, -, -, -, -, -, -, -, -, -, -, -, -, -, -, -, -, -, -, -, -, -, -, -, e0, e1, -⟩ := idx_facts t
  show V c main_v326 (((cfg3.win 11).blk t).view.emb (ix2 (0 : Fin 1) j)) = V c main_v326 (ix2 (0 : Fin 1) j)
  refine congrArg (V c main_v326) (funext fun a => Fin.ext ?_)
  match a with
  | ⟨0, _⟩ => show win3_11.index t (0 : Fin 2) * 1 + 1 * 0 = 0; omega
  | ⟨1, _⟩ => show win3_11.index t (1 : Fin 2) * 128 + 1 * j.val = j.val; omega

/-- Window 12 (a 1×128 parameter row) is read whole at every point. -/
theorem blk_m2 (c : Dev nD) (t : Fin cfg3.N) (j : Fin 128) :
    iblk3 V c 12 t (ix2 (0 : Fin 1) j) = V c main_v329 (ix2 (0 : Fin 1) j) := by
  obtain ⟨-, -, -, -, -, -, -, -, -, -, -, -, -, -, -, -, -, -, -, -, -, -, -, -, -, -, e0, e1, -⟩ := idx_facts t
  show V c main_v329 (((cfg3.win 12).blk t).view.emb (ix2 (0 : Fin 1) j)) = V c main_v329 (ix2 (0 : Fin 1) j)
  refine congrArg (V c main_v329) (funext fun a => Fin.ext ?_)
  match a with
  | ⟨0, _⟩ => show win3_12.index t (0 : Fin 2) * 1 + 1 * 0 = 0; omega
  | ⟨1, _⟩ => show win3_12.index t (1 : Fin 2) * 128 + 1 * j.val = j.val; omega

/-- Window 13 (a 1×128 parameter row) is read whole at every point. -/
theorem blk_v2 (c : Dev nD) (t : Fin cfg3.N) (j : Fin 128) :
    iblk3 V c 13 t (ix2 (0 : Fin 1) j) = V c main_v332 (ix2 (0 : Fin 1) j) := by
  obtain ⟨-, -, -, -, -, -, -, -, -, -, -, -, -, -, -, -, -, -, -, -, -, -, -, -, -, -, -, -, e0, e1⟩ := idx_facts t
  show V c main_v332 (((cfg3.win 13).blk t).view.emb (ix2 (0 : Fin 1) j)) = V c main_v332 (ix2 (0 : Fin 1) j)
  refine congrArg (V c main_v332) (funext fun a => Fin.ext ?_)
  match a with
  | ⟨0, _⟩ => show win3_13.index t (0 : Fin 2) * 1 + 1 * 0 = 0; omega
  | ⟨1, _⟩ => show win3_13.index t (1 : Fin 2) * 128 + 1 * j.val = j.val; omega

/-! ## What a grid point writes back, and the array -/

/-- The output array as a function of the arrays the region finds. -/
abbrev G (c : Dev nD) : S50000x128.Idx → EReal := Net.layerArr (V c main_v253) (V c main_v298) (V c main_v300) (V c main_v303) (V c main_v306) (V c main_v309) (V c main_v312) (V c main_v315) (V c main_v317) (V c main_v320) (V c main_v323) (V c main_v326) (V c main_v329) (V c main_v332)

/-- WHAT POINT t WRITES BACK is block t of `G`. -/
theorem flushed (c : Dev nD) (t : Fin cfg3.N) :
    (dat3 V c).flushed 14 t = ((cfg3.win 14).blk t).view.read (Elt Ideal) (G V c) := by
  show (cfg3.win 14).cut (grid3.coords t) ((dat3 V c).after 14 t) = _
  rw [after3_14]
  unfold out3_14
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  refine (pay3 (iblk3 V c 0 t) (iblk3 V c 1 t) (iblk3 V c 2 t) (iblk3 V c 3 t) (iblk3 V c 6 t) (iblk3 V c 7 t) (iblk3 V c 4 t) (iblk3 V c 5 t) (iblk3 V c 8 t) (iblk3 V c 9 t) (iblk3 V c 12 t) (iblk3 V c 13 t) (iblk3 V c 10 t) (iblk3 V c 11 t) p q).trans ?_
  obtain ⟨-, -, -, -, e0, e1, -⟩ := idx_facts t
  have hn : node (((cfg3.win 14).blk t).view.emb (ix2 p q)) = nodeAt t p :=
    Fin.ext (by show win3_14.index t (0 : Fin 2) * 5000 + 1 * p.val = t.val * 5000 + p.val; omega)
  have hc : col (((cfg3.win 14).blk t).view.emb (ix2 p q)) = q :=
    Fin.ext (by show win3_14.index t (1 : Fin 2) * 128 + 1 * q.val = q.val; omega)
  show _ = Net.layerArr (V c main_v253) (V c main_v298) (V c main_v300) (V c main_v303) (V c main_v306) (V c main_v309) (V c main_v312) (V c main_v315) (V c main_v317) (V c main_v320) (V c main_v323) (V c main_v326) (V c main_v329) (V c main_v332) (((cfg3.win 14).blk t).view.emb (ix2 p q))
  unfold Net.layerArr
  rw [hn, hc]
  simp only [blk_x, blk_a, blk_w1, blk_b1, blk_g1, blk_be1, blk_m1, blk_v1, blk_w2, blk_b2, blk_g2, blk_be2, blk_m2, blk_v2]

/-- Every entry of the output array is in some point's block: node r is in block r / 5000. -/
theorem cover (c : Dev nD) (i : S50000x128.Idx) :
    ∃ t : Fin cfg3.N, (cfg3.win 14).flush t = true ∧ i ∈ ((cfg3.win 14).blk t).view.set := by
  have hi0 : (i 0).val < 50000 := (i 0).isLt
  have hi1 : (i 1).val < 128 := (i 1).isLt
  let t : Fin cfg3.N := ⟨(i 0).val / 5000, by rw [show cfg3.N = 10 from N_3]; omega⟩
  obtain ⟨-, -, -, -, e0, e1, -⟩ := idx_facts t
  refine ⟨t, flush3_14 t, ?_⟩
  show i ∈ ((View.whole main_v333).slice (win3_14.rect t)).set
  rw [View.set_slice_whole, Rect.mem_set_unit]
  intro a
  match a with
  | ⟨0, _⟩ => show win3_14.index t (0 : Fin 2) * 5000 ≤ (i 0).val ∧ (i 0).val < win3_14.index t (0 : Fin 2) * 5000 + 5000; rw [e0]; show (i 0).val / 5000 * 5000 ≤ (i 0).val ∧ (i 0).val < (i 0).val / 5000 * 5000 + 5000; omega
  | ⟨1, _⟩ => show win3_14.index t (1 : Fin 2) * 128 ≤ (i 1).val ∧ (i 1).val < win3_14.index t (1 : Fin 2) * 128 + 128; omega

/-- THE ARRAY after the region: `Net.layerArr` of the fourteen arrays the region finds. -/
theorem final (c : Dev nD) : (dat3 V c).arrAt 14 cfg3.N = G V c :=
  (dat3 V c).arrAt_eq_of_cover 14 (G V c) (fun t _ => flushed V c t) (cover c)

end Cert.KernelIdeal.Final3

end
-- ==== Proof.RefLayer3.lean ====
/-
  Layer 3 of the reference, read at an entry.

  The reference computes the layer's dense transform with whole-array host operations: `h = x + aggr`, a
  `dot_general` with the layer's weight slice, the bias and the normalisation parameters each sliced out of its
  5×128 table, reshaped to a vector and broadcast over the 50000 nodes, `rsqrt`, and the rectifier. Read at the
  entry (node r, column j) through the stage lemmas, each dense unit is `Net.unit` of row r of its input, so the
  layer's output stage is `Net.layer` of row r of the layer's input features and aggregated messages.
-/
import proofs.«180497_j12352325943908_1_alg».proof.Proof.ReadP
import proofs.«180497_j12352325943908_1_alg».proof.Proof.Spec
import proofs.«180497_j12352325943908_1_alg».proof.Proof.Idx

set_option maxRecDepth 16384

noncomputable section

namespace Cert.ReferenceIdeal.Layer3

open Cert.ReferenceIdeal Cert.ReferenceIdeal.ReadP Cert.Net Idealize.ShloMosaic Idealize.ShloMosaic.ValueIdx

/-- The first dense unit's output stage at (r, j): `Net.unit` of row r of `h = x + aggr`. -/
theorem unit1 (x0 : (⟨S50000x128, .f32⟩ : BufTy).Contents (Elt Ideal)) (x1 : (⟨S2x600000, .i32⟩ : BufTy).Contents (Elt Ideal)) (x2 : (⟨S600000x3, .i32⟩ : BufTy).Contents (Elt Ideal)) (x4 : (⟨S5x3x8x128, .f32⟩ : BufTy).Contents (Elt Ideal)) (x5 : (⟨S5x128x128, .f32⟩ : BufTy).Contents (Elt Ideal)) (x6 x7 x8 x9 x10 : (⟨S5x128, .f32⟩ : BufTy).Contents (Elt Ideal)) (x11 : (⟨S5x128x128, .f32⟩ : BufTy).Contents (Elt Ideal)) (x12 x13 x14 x15 x16 : (⟨S5x128, .f32⟩ : BufTy).Contents (Elt Ideal)) (i : S50000x128.Idx) :
    (val_main_v352 (F := Ideal) x0 x1 x2 x4 x5 x6 x7 x8 x9 x10 x11 x12 x13 x14 x15 x16) i
      = Net.unit (fun k => (val_main_v320 (F := Ideal) x0 x1 x2 x4 x5 x6 x7 x8 x9 x10 x11 x12 x13 x14 x15 x16) (ix2 (node i) k)) (fun k j => (val_main_v322 (F := Ideal) x5) (ix2 k j))
          (fun j => (val_main_v325 (F := Ideal) x6) (ix1 j)) (fun j => (val_main_v334 (F := Ideal) x9) (ix1 j)) (fun j => (val_main_v336 (F := Ideal) x10) (ix1 j))
          (fun j => (val_main_v330 (F := Ideal) x7) (ix1 j)) (fun j => (val_main_v332 (F := Ideal) x8) (ix1 j)) (col i) := by
  have hl : ∀ k, lidx_main_v323 i k = ix2 (node i) k := fun k => funext fun a => by
    match a with
    | ⟨0, _⟩ => rfl
    | ⟨1, _⟩ => rfl
  have hr : ∀ k, ridx_main_v323 i k = ix2 k (col i) := fun k => funext fun a => by
    match a with
    | ⟨0, _⟩ => rfl
    | ⟨1, _⟩ => rfl
  have hb : idx_main_v326 (idx_main_v327 i) = ix1 (col i) := funext fun a => by
    match a with
    | ⟨0, _⟩ => rfl
  have hm : idx_main_v337 (idx_main_v338 i) = ix1 (col i) := funext fun a => by
    match a with
    | ⟨0, _⟩ => rfl
  have hv : idx_main_v343 (idx_main_v344 i) = ix1 (col i) := funext fun a => by
    match a with
    | ⟨0, _⟩ => rfl
  have hg : idx_main_v346 (idx_main_v347 i) = ix1 (col i) := funext fun a => by
    match a with
    | ⟨0, _⟩ => rfl
  have he : idx_main_v349 (idx_main_v350 i) = ix1 (col i) := funext fun a => by
    match a with
    | ⟨0, _⟩ => rfl
  simp only [val_main_v352_apply, val_main_v351_apply, val_main_v348_apply, val_main_v345_apply, val_main_v339_apply, val_main_v328_apply, val_main_v323_apply, val_main_v327_apply, val_main_v326_apply, val_main_v338_apply, val_main_v337_apply, val_main_v344_apply, val_main_v343_apply, val_main_v342_apply, val_main_v341_apply, val_main_v340_apply, val_main_v347_apply, val_main_v346_apply, val_main_v350_apply, val_main_v349_apply, val_main_call10_v0_apply]
  simp only [hl, hr, hb, hm, hv, hg, he]
  rfl

/-- The second dense unit's output stage (the layer's output) at (r, j): `Net.unit` of row r of the first unit's output. -/
theorem unit2 (x0 : (⟨S50000x128, .f32⟩ : BufTy).Contents (Elt Ideal)) (x1 : (⟨S2x600000, .i32⟩ : BufTy).Contents (Elt Ideal)) (x2 : (⟨S600000x3, .i32⟩ : BufTy).Contents (Elt Ideal)) (x4 : (⟨S5x3x8x128, .f32⟩ : BufTy).Contents (Elt Ideal)) (x5 : (⟨S5x128x128, .f32⟩ : BufTy).Contents (Elt Ideal)) (x6 x7 x8 x9 x10 : (⟨S5x128, .f32⟩ : BufTy).Contents (Elt Ideal)) (x11 : (⟨S5x128x128, .f32⟩ : BufTy).Contents (Elt Ideal)) (x12 x13 x14 x15 x16 : (⟨S5x128, .f32⟩ : BufTy).Contents (Elt Ideal)) (i : S50000x128.Idx) :
    (val_main_v384 (F := Ideal) x0 x1 x2 x4 x5 x6 x7 x8 x9 x10 x11 x12 x13 x14 x15 x16) i
      = Net.unit (fun k => (val_main_v352 (F := Ideal) x0 x1 x2 x4 x5 x6 x7 x8 x9 x10 x11 x12 x13 x14 x15 x16) (ix2 (node i) k)) (fun k j => (val_main_v354 (F := Ideal) x11) (ix2 k j))
          (fun j => (val_main_v357 (F := Ideal) x12) (ix1 j)) (fun j => (val_main_v366 (F := Ideal) x15) (ix1 j)) (fun j => (val_main_v368 (F := Ideal) x16) (ix1 j))
          (fun j => (val_main_v362 (F := Ideal) x13) (ix1 j)) (fun j => (val_main_v364 (F := Ideal) x14) (ix1 j)) (col i) := by
  have hl : ∀ k, lidx_main_v355 i k = ix2 (node i) k := fun k => funext fun a => by
    match a with
    | ⟨0, _⟩ => rfl
    | ⟨1, _⟩ => rfl
  have hr : ∀ k, ridx_main_v355 i k = ix2 k (col i) := fun k => funext fun a => by
    match a with
    | ⟨0, _⟩ => rfl
    | ⟨1, _⟩ => rfl
  have hb : idx_main_v358 (idx_main_v359 i) = ix1 (col i) := funext fun a => by
    match a with
    | ⟨0, _⟩ => rfl
  have hm : idx_main_v369 (idx_main_v370 i) = ix1 (col i) := funext fun a => by
    match a with
    | ⟨0, _⟩ => rfl
  have hv : idx_main_v375 (idx_main_v376 i) = ix1 (col i) := funext fun a => by
    match a with
    | ⟨0, _⟩ => rfl
  have hg : idx_main_v378 (idx_main_v379 i) = ix1 (col i) := funext fun a => by
    match a with
    | ⟨0, _⟩ => rfl
  have he : idx_main_v381 (idx_main_v382 i) = ix1 (col i) := funext fun a => by
    match a with
    | ⟨0, _⟩ => rfl
  simp only [val_main_v384_apply, val_main_v383_apply, val_main_v380_apply, val_main_v377_apply, val_main_v371_apply, val_main_v360_apply, val_main_v355_apply, val_main_v359_apply, val_main_v358_apply, val_main_v370_apply, val_main_v369_apply, val_main_v376_apply, val_main_v375_apply, val_main_v374_apply, val_main_v373_apply, val_main_v372_apply, val_main_v379_apply, val_main_v378_apply, val_main_v382_apply, val_main_v381_apply, val_main_call11_v0_apply]
  simp only [hl, hr, hb, hm, hv, hg, he]
  rfl

/-- The layer's output stage at an entry `y`: `Net.layer` of node `y`'s row of the layer's input features and of its
    aggregated messages, the parameters read where the reference keeps them (weights as 128×128 slices, the rest as vectors). -/
theorem layer (x0 : (⟨S50000x128, .f32⟩ : BufTy).Contents (Elt Ideal)) (x1 : (⟨S2x600000, .i32⟩ : BufTy).Contents (Elt Ideal)) (x2 : (⟨S600000x3, .i32⟩ : BufTy).Contents (Elt Ideal)) (x4 : (⟨S5x3x8x128, .f32⟩ : BufTy).Contents (Elt Ideal)) (x5 : (⟨S5x128x128, .f32⟩ : BufTy).Contents (Elt Ideal)) (x6 x7 x8 x9 x10 : (⟨S5x128, .f32⟩ : BufTy).Contents (Elt Ideal)) (x11 : (⟨S5x128x128, .f32⟩ : BufTy).Contents (Elt Ideal)) (x12 x13 x14 x15 x16 : (⟨S5x128, .f32⟩ : BufTy).Contents (Elt Ideal)) (y : S50000x128.Idx) :
    (val_main_v384 (F := Ideal) x0 x1 x2 x4 x5 x6 x7 x8 x9 x10 x11 x12 x13 x14 x15 x16) y
      = Net.layer (fun l => (val_main_v289 (F := Ideal) x0 x1 x2 x4 x5 x6 x7 x8 x9 x10 x11 x12 x13 x14 x15 x16) (ix2 (node y) l)) (fun l => (val_main_v319 (F := Ideal) x0 x1 x2 x4 x5 x6 x7 x8 x9 x10 x11 x12 x13 x14 x15 x16) (ix2 (node y) l))
          (fun l j => (val_main_v322 (F := Ideal) x5) (ix2 l j)) (fun j => (val_main_v325 (F := Ideal) x6) (ix1 j)) (fun j => (val_main_v330 (F := Ideal) x7) (ix1 j)) (fun j => (val_main_v332 (F := Ideal) x8) (ix1 j))
          (fun j => (val_main_v334 (F := Ideal) x9) (ix1 j)) (fun j => (val_main_v336 (F := Ideal) x10) (ix1 j))
          (fun l j => (val_main_v354 (F := Ideal) x11) (ix2 l j)) (fun j => (val_main_v357 (F := Ideal) x12) (ix1 j)) (fun j => (val_main_v362 (F := Ideal) x13) (ix1 j)) (fun j => (val_main_v364 (F := Ideal) x14) (ix1 j))
          (fun j => (val_main_v366 (F := Ideal) x15) (ix1 j)) (fun j => (val_main_v368 (F := Ideal) x16) (ix1 j)) (col y) := by
  rw [unit2]
  unfold Net.layer
  simp only [unit1 x0 x1 x2 x4 x5 x6 x7 x8 x9 x10 x11 x12 x13 x14 x15 x16]
  rfl

end Cert.ReferenceIdeal.Layer3

end
-- ==== Proof.Step3.lean ====
/-
  Layer 3 of the kernel program, read back: from the contents at the exit of region 2 (`W12`) through the
  stretch of host operations before region 3 — the pooled read-out of the layer's input features added to the
  running output, the bond embeddings, the gathered and rectified messages and their scatter-add, the layer's
  parameter slices — and through region 3 itself to the contents at its exit (`W16`). Every buffer that matters
  is the reference's stage of the same arguments: the host operations are the same operations on both sides, and the
  region's output array is the layer of its inputs (Final3), which is the reference's layer (RefLayer3).
-/
import proofs.«180497_j12352325943908_1_alg».proof.Proof.Carried
import proofs.«180497_j12352325943908_1_alg».proof.Proof.Final3
import proofs.«180497_j12352325943908_1_alg».proof.Proof.RefLayer3
import proofs.«180497_j12352325943908_1_alg».proof.Proof.LayerArr

set_option maxRecDepth 16384
set_option maxHeartbeats 4000000

noncomputable section

namespace Cert.KernelIdeal.Step3

open Cert.KernelIdeal Cert.KernelIdeal.Gen Cert.KernelIdeal.GenP Cert.KernelIdeal.Chain Cert.Net
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- What the one-pass reading leaves inside a concatenate's operand list, finished by rewriting: each operation's result at
    its own buffer is its function's value, at any other buffer what was there. -/
macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-! ## The fourteen arrays region 3 reads -/

/-- Window `x` of region 3 as the region finds it. -/
theorem rd_x (hx : W12 m ρ c (Proc.devRef .tc main_v253) = (Cert.ReferenceIdeal.ReadP.val_main_v289 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W12 m ρ c (Proc.devRef .tc main_v188) = (Cert.ReferenceIdeal.ReadP.val_main_v533 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W12 m ρ c)) :
    V15 m ρ c main_v253 = (Cert.ReferenceIdeal.ReadP.val_main_v289 (F := Ideal) (a0 m c) (a1 m c) (a2 m c) (a4 m c) (a5 m c) (a6 m c) (a7 m c) (a8 m c) (a9 m c) (a10 m c) (a11 m c) (a12 m c) (a13 m c) (a14 m c) (a15 m c) (a16 m c)) := by
  show StableHlo.after hostOps3_2 (StableHlo.after hostOps3_1 (StableHlo.after hostOps3 (W12 m ρ c))) (Proc.devRef .tc main_v253) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]

/-- Window `aggr` of region 3 as the region finds it. -/
theorem rd_aggr (hx : W12 m ρ c (Proc.devRef .tc main_v253) = (Cert.ReferenceIdeal.ReadP.val_main_v289 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W12 m ρ c (Proc.devRef .tc main_v188) = (Cert.ReferenceIdeal.ReadP.val_main_v533 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W12 m ρ c)) :
    V15 m ρ c main_v298 = (Cert.ReferenceIdeal.ReadP.val_main_v319 (F := Ideal) (a0 m c) (a1 m c) (a2 m c) (a4 m c) (a5 m c) (a6 m c) (a7 m c) (a8 m c) (a9 m c) (a10 m c) (a11 m c) (a12 m c) (a13 m c) (a14 m c) (a15 m c) (a16 m c)) := by
  show StableHlo.after hostOps3_2 (StableHlo.after hostOps3_1 (StableHlo.after hostOps3 (W12 m ρ c))) (Proc.devRef .tc main_v298) = _
  after_results_simp
  results_rw
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `w1` of region 3 as the region finds it. -/
theorem rd_w1 (hx : W12 m ρ c (Proc.devRef .tc main_v253) = (Cert.ReferenceIdeal.ReadP.val_main_v289 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W12 m ρ c (Proc.devRef .tc main_v188) = (Cert.ReferenceIdeal.ReadP.val_main_v533 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W12 m ρ c)) :
    V15 m ρ c main_v300 = (Cert.ReferenceIdeal.ReadP.val_main_v322 (F := Ideal) (a5 m c)) := by
  show StableHlo.after hostOps3_2 (StableHlo.after hostOps3_1 (StableHlo.after hostOps3 (W12 m ρ c))) (Proc.devRef .tc main_v300) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `b1` of region 3 as the region finds it. -/
theorem rd_b1 (hx : W12 m ρ c (Proc.devRef .tc main_v253) = (Cert.ReferenceIdeal.ReadP.val_main_v289 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W12 m ρ c (Proc.devRef .tc main_v188) = (Cert.ReferenceIdeal.ReadP.val_main_v533 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W12 m ρ c)) :
    V15 m ρ c main_v303 = shapeCast Net.SRow (Cert.ReferenceIdeal.ReadP.val_main_v325 (F := Ideal) (a6 m c)) shapeCasts_S128_S1x128 := by
  show StableHlo.after hostOps3_2 (StableHlo.after hostOps3_1 (StableHlo.after hostOps3 (W12 m ρ c))) (Proc.devRef .tc main_v303) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `g1` of region 3 as the region finds it. -/
theorem rd_g1 (hx : W12 m ρ c (Proc.devRef .tc main_v253) = (Cert.ReferenceIdeal.ReadP.val_main_v289 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W12 m ρ c (Proc.devRef .tc main_v188) = (Cert.ReferenceIdeal.ReadP.val_main_v533 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W12 m ρ c)) :
    V15 m ρ c main_v306 = shapeCast Net.SRow (Cert.ReferenceIdeal.ReadP.val_main_v330 (F := Ideal) (a7 m c)) shapeCasts_S128_S1x128 := by
  show StableHlo.after hostOps3_2 (StableHlo.after hostOps3_1 (StableHlo.after hostOps3 (W12 m ρ c))) (Proc.devRef .tc main_v306) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `be1` of region 3 as the region finds it. -/
theorem rd_be1 (hx : W12 m ρ c (Proc.devRef .tc main_v253) = (Cert.ReferenceIdeal.ReadP.val_main_v289 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W12 m ρ c (Proc.devRef .tc main_v188) = (Cert.ReferenceIdeal.ReadP.val_main_v533 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W12 m ρ c)) :
    V15 m ρ c main_v309 = shapeCast Net.SRow (Cert.ReferenceIdeal.ReadP.val_main_v332 (F := Ideal) (a8 m c)) shapeCasts_S128_S1x128 := by
  show StableHlo.after hostOps3_2 (StableHlo.after hostOps3_1 (StableHlo.after hostOps3 (W12 m ρ c))) (Proc.devRef .tc main_v309) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `m1` of region 3 as the region finds it. -/
theorem rd_m1 (hx : W12 m ρ c (Proc.devRef .tc main_v253) = (Cert.ReferenceIdeal.ReadP.val_main_v289 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W12 m ρ c (Proc.devRef .tc main_v188) = (Cert.ReferenceIdeal.ReadP.val_main_v533 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W12 m ρ c)) :
    V15 m ρ c main_v312 = shapeCast Net.SRow (Cert.ReferenceIdeal.ReadP.val_main_v334 (F := Ideal) (a9 m c)) shapeCasts_S128_S1x128 := by
  show StableHlo.after hostOps3_2 (StableHlo.after hostOps3_1 (StableHlo.after hostOps3 (W12 m ρ c))) (Proc.devRef .tc main_v312) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `v1` of region 3 as the region finds it. -/
theorem rd_v1 (hx : W12 m ρ c (Proc.devRef .tc main_v253) = (Cert.ReferenceIdeal.ReadP.val_main_v289 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W12 m ρ c (Proc.devRef .tc main_v188) = (Cert.ReferenceIdeal.ReadP.val_main_v533 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W12 m ρ c)) :
    V15 m ρ c main_v315 = shapeCast Net.SRow (Cert.ReferenceIdeal.ReadP.val_main_v336 (F := Ideal) (a10 m c)) shapeCasts_S128_S1x128 := by
  show StableHlo.after hostOps3_2 (StableHlo.after hostOps3_1 (StableHlo.after hostOps3 (W12 m ρ c))) (Proc.devRef .tc main_v315) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `w2` of region 3 as the region finds it. -/
theorem rd_w2 (hx : W12 m ρ c (Proc.devRef .tc main_v253) = (Cert.ReferenceIdeal.ReadP.val_main_v289 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W12 m ρ c (Proc.devRef .tc main_v188) = (Cert.ReferenceIdeal.ReadP.val_main_v533 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W12 m ρ c)) :
    V15 m ρ c main_v317 = (Cert.ReferenceIdeal.ReadP.val_main_v354 (F := Ideal) (a11 m c)) := by
  show StableHlo.after hostOps3_2 (StableHlo.after hostOps3_1 (StableHlo.after hostOps3 (W12 m ρ c))) (Proc.devRef .tc main_v317) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `b2` of region 3 as the region finds it. -/
theorem rd_b2 (hx : W12 m ρ c (Proc.devRef .tc main_v253) = (Cert.ReferenceIdeal.ReadP.val_main_v289 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W12 m ρ c (Proc.devRef .tc main_v188) = (Cert.ReferenceIdeal.ReadP.val_main_v533 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W12 m ρ c)) :
    V15 m ρ c main_v320 = shapeCast Net.SRow (Cert.ReferenceIdeal.ReadP.val_main_v357 (F := Ideal) (a12 m c)) shapeCasts_S128_S1x128 := by
  show StableHlo.after hostOps3_2 (StableHlo.after hostOps3_1 (StableHlo.after hostOps3 (W12 m ρ c))) (Proc.devRef .tc main_v320) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `g2` of region 3 as the region finds it. -/
theorem rd_g2 (hx : W12 m ρ c (Proc.devRef .tc main_v253) = (Cert.ReferenceIdeal.ReadP.val_main_v289 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W12 m ρ c (Proc.devRef .tc main_v188) = (Cert.ReferenceIdeal.ReadP.val_main_v533 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W12 m ρ c)) :
    V15 m ρ c main_v323 = shapeCast Net.SRow (Cert.ReferenceIdeal.ReadP.val_main_v362 (F := Ideal) (a13 m c)) shapeCasts_S128_S1x128 := by
  show StableHlo.after hostOps3_2 (StableHlo.after hostOps3_1 (StableHlo.after hostOps3 (W12 m ρ c))) (Proc.devRef .tc main_v323) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `be2` of region 3 as the region finds it. -/
theorem rd_be2 (hx : W12 m ρ c (Proc.devRef .tc main_v253) = (Cert.ReferenceIdeal.ReadP.val_main_v289 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W12 m ρ c (Proc.devRef .tc main_v188) = (Cert.ReferenceIdeal.ReadP.val_main_v533 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W12 m ρ c)) :
    V15 m ρ c main_v326 = shapeCast Net.SRow (Cert.ReferenceIdeal.ReadP.val_main_v364 (F := Ideal) (a14 m c)) shapeCasts_S128_S1x128 := by
  show StableHlo.after hostOps3_2 (StableHlo.after hostOps3_1 (StableHlo.after hostOps3 (W12 m ρ c))) (Proc.devRef .tc main_v326) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `m2` of region 3 as the region finds it. -/
theorem rd_m2 (hx : W12 m ρ c (Proc.devRef .tc main_v253) = (Cert.ReferenceIdeal.ReadP.val_main_v289 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W12 m ρ c (Proc.devRef .tc main_v188) = (Cert.ReferenceIdeal.ReadP.val_main_v533 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W12 m ρ c)) :
    V15 m ρ c main_v329 = shapeCast Net.SRow (Cert.ReferenceIdeal.ReadP.val_main_v366 (F := Ideal) (a15 m c)) shapeCasts_S128_S1x128 := by
  show StableHlo.after hostOps3_2 (StableHlo.after hostOps3_1 (StableHlo.after hostOps3 (W12 m ρ c))) (Proc.devRef .tc main_v329) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `v2` of region 3 as the region finds it. -/
theorem rd_v2 (hx : W12 m ρ c (Proc.devRef .tc main_v253) = (Cert.ReferenceIdeal.ReadP.val_main_v289 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W12 m ρ c (Proc.devRef .tc main_v188) = (Cert.ReferenceIdeal.ReadP.val_main_v533 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W12 m ρ c)) :
    V15 m ρ c main_v332 = shapeCast Net.SRow (Cert.ReferenceIdeal.ReadP.val_main_v368 (F := Ideal) (a16 m c)) shapeCasts_S128_S1x128 := by
  show StableHlo.after hostOps3_2 (StableHlo.after hostOps3_1 (StableHlo.after hostOps3 (W12 m ρ c))) (Proc.devRef .tc main_v332) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-! ## The running output after this layer's read-out -/

/-- The running output `out_3` (pooled features of this layer's input, projected, added to `out_2`) at the
    region's entry. -/
theorem rd_out (hx : W12 m ρ c (Proc.devRef .tc main_v253) = (Cert.ReferenceIdeal.ReadP.val_main_v289 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W12 m ρ c (Proc.devRef .tc main_v188) = (Cert.ReferenceIdeal.ReadP.val_main_v533 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W12 m ρ c)) :
    W15 m ρ c (Proc.devRef .tc main_v268) = (Cert.ReferenceIdeal.ReadP.val_main_v548 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)) := by
  show StableHlo.after hostOps3_2 (StableHlo.after hostOps3_1 (StableHlo.after hostOps3 (W12 m ρ c))) (Proc.devRef .tc main_v268) = _
  after_results_simp
  simp only [hx, hout, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-! ## Through the region -/

/-- A buffer that is no array of region 3 and that no operation of the stretch writes is kept from `W12` to `W16`. -/
theorem keep (b : Ref sig .tc) (hreg : ∀ w, Pipeline.arrRef spec3 w ≠ b)
    (h : StableHlo.after hostOps3_2 (StableHlo.after hostOps3_1 (StableHlo.after hostOps3 (W12 m ρ c))) (Proc.devRef .tc b) = W12 m ρ c (Proc.devRef .tc b)) :
    W16 m ρ c (Proc.devRef .tc b) = W12 m ρ c (Proc.devRef .tc b) :=
  (W16_of_ne m ρ c b hreg).trans h

/-- The carried facts at the region's exit. -/
theorem carried (hc : Carried m c (W12 m ρ c)) : Carried m c (W16 m ρ c) where
    inv := (keep m ρ c main_v12 (by decide) (by show StableHlo.after hostOps3_2 (StableHlo.after hostOps3_1 (StableHlo.after hostOps3 (W12 m ρ c))) (Proc.devRef .tc main_v12) = _; after_results_simp)).trans hc.inv
    src := (keep m ρ c main_v1 (by decide) (by show StableHlo.after hostOps3_2 (StableHlo.after hostOps3_1 (StableHlo.after hostOps3 (W12 m ρ c))) (Proc.devRef .tc main_v1) = _; after_results_simp)).trans hc.src
    dst := (keep m ρ c main_v3 (by decide) (by show StableHlo.after hostOps3_2 (StableHlo.after hostOps3_1 (StableHlo.after hostOps3 (W12 m ρ c))) (Proc.devRef .tc main_v3) = _; after_results_simp)).trans hc.dst
    iota := (keep m ρ c main_v4 (by decide) (by show StableHlo.after hostOps3_2 (StableHlo.after hostOps3_1 (StableHlo.after hostOps3 (W12 m ρ c))) (Proc.devRef .tc main_v4) = _; after_results_simp)).trans hc.iota
    h2 := (keep m ρ c main_arg2 (by decide) (by show StableHlo.after hostOps3_2 (StableHlo.after hostOps3_1 (StableHlo.after hostOps3 (W12 m ρ c))) (Proc.devRef .tc main_arg2) = _; after_results_simp)).trans hc.h2
    h3 := (keep m ρ c main_arg3 (by decide) (by show StableHlo.after hostOps3_2 (StableHlo.after hostOps3_1 (StableHlo.after hostOps3 (W12 m ρ c))) (Proc.devRef .tc main_arg3) = _; after_results_simp)).trans hc.h3
    h4 := (keep m ρ c main_arg4 (by decide) (by show StableHlo.after hostOps3_2 (StableHlo.after hostOps3_1 (StableHlo.after hostOps3 (W12 m ρ c))) (Proc.devRef .tc main_arg4) = _; after_results_simp)).trans hc.h4
    h5 := (keep m ρ c main_arg5 (by decide) (by show StableHlo.after hostOps3_2 (StableHlo.after hostOps3_1 (StableHlo.after hostOps3 (W12 m ρ c))) (Proc.devRef .tc main_arg5) = _; after_results_simp)).trans hc.h5
    h6 := (keep m ρ c main_arg6 (by decide) (by show StableHlo.after hostOps3_2 (StableHlo.after hostOps3_1 (StableHlo.after hostOps3 (W12 m ρ c))) (Proc.devRef .tc main_arg6) = _; after_results_simp)).trans hc.h6
    h7 := (keep m ρ c main_arg7 (by decide) (by show StableHlo.after hostOps3_2 (StableHlo.after hostOps3_1 (StableHlo.after hostOps3 (W12 m ρ c))) (Proc.devRef .tc main_arg7) = _; after_results_simp)).trans hc.h7
    h8 := (keep m ρ c main_arg8 (by decide) (by show StableHlo.after hostOps3_2 (StableHlo.after hostOps3_1 (StableHlo.after hostOps3 (W12 m ρ c))) (Proc.devRef .tc main_arg8) = _; after_results_simp)).trans hc.h8
    h9 := (keep m ρ c main_arg9 (by decide) (by show StableHlo.after hostOps3_2 (StableHlo.after hostOps3_1 (StableHlo.after hostOps3 (W12 m ρ c))) (Proc.devRef .tc main_arg9) = _; after_results_simp)).trans hc.h9
    h10 := (keep m ρ c main_arg10 (by decide) (by show StableHlo.after hostOps3_2 (StableHlo.after hostOps3_1 (StableHlo.after hostOps3 (W12 m ρ c))) (Proc.devRef .tc main_arg10) = _; after_results_simp)).trans hc.h10
    h11 := (keep m ρ c main_arg11 (by decide) (by show StableHlo.after hostOps3_2 (StableHlo.after hostOps3_1 (StableHlo.after hostOps3 (W12 m ρ c))) (Proc.devRef .tc main_arg11) = _; after_results_simp)).trans hc.h11
    h12 := (keep m ρ c main_arg12 (by decide) (by show StableHlo.after hostOps3_2 (StableHlo.after hostOps3_1 (StableHlo.after hostOps3 (W12 m ρ c))) (Proc.devRef .tc main_arg12) = _; after_results_simp)).trans hc.h12
    h13 := (keep m ρ c main_arg13 (by decide) (by show StableHlo.after hostOps3_2 (StableHlo.after hostOps3_1 (StableHlo.after hostOps3 (W12 m ρ c))) (Proc.devRef .tc main_arg13) = _; after_results_simp)).trans hc.h13
    h14 := (keep m ρ c main_arg14 (by decide) (by show StableHlo.after hostOps3_2 (StableHlo.after hostOps3_1 (StableHlo.after hostOps3 (W12 m ρ c))) (Proc.devRef .tc main_arg14) = _; after_results_simp)).trans hc.h14
    h15 := (keep m ρ c main_arg15 (by decide) (by show StableHlo.after hostOps3_2 (StableHlo.after hostOps3_1 (StableHlo.after hostOps3 (W12 m ρ c))) (Proc.devRef .tc main_arg15) = _; after_results_simp)).trans hc.h15
    h16 := (keep m ρ c main_arg16 (by decide) (by show StableHlo.after hostOps3_2 (StableHlo.after hostOps3_1 (StableHlo.after hostOps3 (W12 m ρ c))) (Proc.devRef .tc main_arg16) = _; after_results_simp)).trans hc.h16
    h17 := (keep m ρ c main_arg17 (by decide) (by show StableHlo.after hostOps3_2 (StableHlo.after hostOps3_1 (StableHlo.after hostOps3 (W12 m ρ c))) (Proc.devRef .tc main_arg17) = _; after_results_simp)).trans hc.h17
    h18 := (keep m ρ c main_arg18 (by decide) (by show StableHlo.after hostOps3_2 (StableHlo.after hostOps3_1 (StableHlo.after hostOps3 (W12 m ρ c))) (Proc.devRef .tc main_arg18) = _; after_results_simp)).trans hc.h18

/-- The running output is not touched by the region. -/
theorem out' (hx : W12 m ρ c (Proc.devRef .tc main_v253) = (Cert.ReferenceIdeal.ReadP.val_main_v289 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W12 m ρ c (Proc.devRef .tc main_v188) = (Cert.ReferenceIdeal.ReadP.val_main_v533 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W12 m ρ c)) :
    W16 m ρ c (Proc.devRef .tc main_v268) = (Cert.ReferenceIdeal.ReadP.val_main_v548 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)) :=
  (W16_of_ne m ρ c main_v268 (by decide)).trans (rd_out m ρ c hx hout hc)

/-- THE LAYER: region 3's output array is the reference's stage of the layer's output. -/
theorem x' (hx : W12 m ρ c (Proc.devRef .tc main_v253) = (Cert.ReferenceIdeal.ReadP.val_main_v289 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W12 m ρ c (Proc.devRef .tc main_v188) = (Cert.ReferenceIdeal.ReadP.val_main_v533 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W12 m ρ c)) :
    W16 m ρ c (Proc.devRef .tc main_v333) = (Cert.ReferenceIdeal.ReadP.val_main_v384 (F := Ideal) (a0 m c) (a1 m c) (a2 m c) (a4 m c) (a5 m c) (a6 m c) (a7 m c) (a8 m c) (a9 m c) (a10 m c) (a11 m c) (a12 m c) (a13 m c) (a14 m c) (a15 m c) (a16 m c)) := by
  refine (W16_arr m ρ c 14).trans ?_
  rw [Final3.final (V15 m ρ) c]
  show Net.layerArr (V15 m ρ c main_v253) (V15 m ρ c main_v298) (V15 m ρ c main_v300) (V15 m ρ c main_v303) (V15 m ρ c main_v306) (V15 m ρ c main_v309) (V15 m ρ c main_v312) (V15 m ρ c main_v315) (V15 m ρ c main_v317) (V15 m ρ c main_v320) (V15 m ρ c main_v323) (V15 m ρ c main_v326) (V15 m ρ c main_v329) (V15 m ρ c main_v332) = _
  rw [rd_x m ρ c hx hout hc, rd_aggr m ρ c hx hout hc, rd_w1 m ρ c hx hout hc, rd_b1 m ρ c hx hout hc, rd_g1 m ρ c hx hout hc, rd_be1 m ρ c hx hout hc, rd_m1 m ρ c hx hout hc, rd_v1 m ρ c hx hout hc, rd_w2 m ρ c hx hout hc, rd_b2 m ρ c hx hout hc, rd_g2 m ρ c hx hout hc, rd_be2 m ρ c hx hout hc, rd_m2 m ρ c hx hout hc, rd_v2 m ρ c hx hout hc]
  funext y
  rw [Net.layerArr_rows]
  exact (Cert.ReferenceIdeal.Layer3.layer (a0 m c) (a1 m c) (a2 m c) (a4 m c) (a5 m c) (a6 m c) (a7 m c) (a8 m c) (a9 m c) (a10 m c) (a11 m c) (a12 m c) (a13 m c) (a14 m c) (a15 m c) (a16 m c) y).symm

end Cert.KernelIdeal.Step3

end
-- ==== Proof.Final4.lean ====
/-
  Region 4's output array, whole: the ten blocks of 5000 nodes the grid writes back tile the 50000×128 array, and
  block t holds, at row p, the layer of node 5000·t + p. So after the region the output array is, entry by entry,
  `Net.layer` of that node's row of the two node-major input arrays and of the twelve parameter arrays (each read
  whole at every grid point: their block index is constantly 0): `Net.layerArr` of the fourteen arrays the region finds.
-/
import proofs.«180497_j12352325943908_1_alg».proof.Proof.FrameKI
import proofs.«180497_j12352325943908_1_alg».proof.Proof.KUnit
import proofs.«180497_j12352325943908_1_alg».proof.Proof.LayerArr

set_option maxRecDepth 16384

noncomputable section

namespace Cert.KernelIdeal.Final4

open Cert.KernelIdeal Cert.KernelIdeal.Gen Cert.KernelIdeal.GenP Cert.KernelIdeal.KUnit Cert.Net
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the node-major windows (0, 1 and the output 14) sit at block
    (t, 0); every parameter window at block (0, 0). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_14.index t (0 : Fin 2) = t.val ∧ win4_14.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0
    ∧ win4_9.index t (0 : Fin 2) = 0 ∧ win4_9.index t (1 : Fin 2) = 0
    ∧ win4_10.index t (0 : Fin 2) = 0 ∧ win4_10.index t (1 : Fin 2) = 0
    ∧ win4_11.index t (0 : Fin 2) = 0 ∧ win4_11.index t (1 : Fin 2) = 0
    ∧ win4_12.index t (0 : Fin 2) = 0 ∧ win4_12.index t (1 : Fin 2) = 0
    ∧ win4_13.index t (0 : Fin 2) = 0 ∧ win4_13.index t (1 : Fin 2) = 0 :=
  (by decide +kernel : ∀ t : Fin grid4.N, _)

theorem t_lt (t : Fin cfg4.N) : t.val < 10 := by have := t.isLt; have h : cfg4.N = 10 := N_4; omega

/-- The node of row p of block t. -/
abbrev nodeAt (t : Fin cfg4.N) (p : Fin 5000) : Fin 50000 := ⟨t.val * 5000 + p.val, by have := t_lt t; have := p.isLt; omega⟩

/-! ## The blocks a grid point reads -/

/-- Row p of point t's block of window 0 is node 5000·t + p of its array. -/
theorem blk_x (c : Dev nD) (t : Fin cfg4.N) (p : Fin 5000) (l : Fin 128) :
    iblk4 V c 0 t (ix2 p l) = V c main_v333 (ix2 (nodeAt t p) l) := by
  obtain ⟨e0, e1, -⟩ := idx_facts t
  show V c main_v333 (((cfg4.win 0).blk t).view.emb (ix2 p l)) = V c main_v333 (ix2 (nodeAt t p) l)
  refine congrArg (V c main_v333) (funext fun a => Fin.ext ?_)
  match a with
  | ⟨0, _⟩ => show win4_0.index t (0 : Fin 2) * 5000 + 1 * p.val = t.val * 5000 + p.val; omega
  | ⟨1, _⟩ => show win4_0.index t (1 : Fin 2) * 128 + 1 * l.val = l.val; omega

/-- Row p of point t's block of window 1 is node 5000·t + p of its array. -/
theorem blk_a (c : Dev nD) (t : Fin cfg4.N) (p : Fin 5000) (l : Fin 128) :
    iblk4 V c 1 t (ix2 p l) = V c main_v378 (ix2 (nodeAt t p) l) := by
  obtain ⟨-, -, e0, e1, -⟩ := idx_facts t
  show V c main_v378 (((cfg4.win 1).blk t).view.emb (ix2 p l)) = V c main_v378 (ix2 (nodeAt t p) l)
  refine congrArg (V c main_v378) (funext fun a => Fin.ext ?_)
  match a with
  | ⟨0, _⟩ => show win4_1.index t (0 : Fin 2) * 5000 + 1 * p.val = t.val * 5000 + p.val; omega
  | ⟨1, _⟩ => show win4_1.index t (1 : Fin 2) * 128 + 1 * l.val = l.val; omega

/-- Window 2 (a 128×128 weight matrix) is read whole at every point. -/
theorem blk_w1 (c : Dev nD) (t : Fin cfg4.N) (l j : Fin 128) :
    iblk4 V c 2 t (ix2 l j) = V c main_v380 (ix2 l j) := by
  obtain ⟨-, -, -, -, -, -, e0, e1, -⟩ := idx_facts t
  show V c main_v380 (((cfg4.win 2).blk t).view.emb (ix2 l j)) = V c main_v380 (ix2 l j)
  refine congrArg (V c main_v380) (funext fun a => Fin.ext ?_)
  match a with
  | ⟨0, _⟩ => show win4_2.index t (0 : Fin 2) * 128 + 1 * l.val = l.val; omega
  | ⟨1, _⟩ => show win4_2.index t (1 : Fin 2) * 128 + 1 * j.val = j.val; omega

/-- Window 3 (a 1×128 parameter row) is read whole at every point. -/
theorem blk_b1 (c : Dev nD) (t : Fin cfg4.N) (j : Fin 128) :
    iblk4 V c 3 t (ix2 (0 : Fin 1) j) = V c main_v383 (ix2 (0 : Fin 1) j) := by
  obtain ⟨-, -, -, -, -, -, -, -, e0, e1, -⟩ := idx_facts t
  show V c main_v383 (((cfg4.win 3).blk t).view.emb (ix2 (0 : Fin 1) j)) = V c main_v383 (ix2 (0 : Fin 1) j)
  refine congrArg (V c main_v383) (funext fun a => Fin.ext ?_)
  match a with
  | ⟨0, _⟩ => show win4_3.index t (0 : Fin 2) * 1 + 1 * 0 = 0; omega
  | ⟨1, _⟩ => show win4_3.index t (1 : Fin 2) * 128 + 1 * j.val = j.val; omega

/-- Window 4 (a 1×128 parameter row) is read whole at every point. -/
theorem blk_g1 (c : Dev nD) (t : Fin cfg4.N) (j : Fin 128) :
    iblk4 V c 4 t (ix2 (0 : Fin 1) j) = V c main_v386 (ix2 (0 : Fin 1) j) := by
  obtain ⟨-, -, -, -, -, -, -, -, -, -, e0, e1, -⟩ := idx_facts t
  show V c main_v386 (((cfg4.win 4).blk t).view.emb (ix2 (0 : Fin 1) j)) = V c main_v386 (ix2 (0 : Fin 1) j)
  refine congrArg (V c main_v386) (funext fun a => Fin.ext ?_)
  match a with
  | ⟨0, _⟩ => show win4_4.index t (0 : Fin 2) * 1 + 1 * 0 = 0; omega
  | ⟨1, _⟩ => show win4_4.index t (1 : Fin 2) * 128 + 1 * j.val = j.val; omega

/-- Window 5 (a 1×128 parameter row) is read whole at every point. -/
theorem blk_be1 (c : Dev nD) (t : Fin cfg4.N) (j : Fin 128) :
    iblk4 V c 5 t (ix2 (0 : Fin 1) j) = V c main_v389 (ix2 (0 : Fin 1) j) := by
  obtain ⟨-, -, -, -, -, -, -, -, -, -, -, -, e0, e1, -⟩ := idx_facts t
  show V c main_v389 (((cfg4.win 5).blk t).view.emb (ix2 (0 : Fin 1) j)) = V c main_v389 (ix2 (0 : Fin 1) j)
  refine congrArg (V c main_v389) (funext fun a => Fin.ext ?_)
  match a with
  | ⟨0, _⟩ => show win4_5.index t (0 : Fin 2) * 1 + 1 * 0 = 0; omega
  | ⟨1, _⟩ => show win4_5.index t (1 : Fin 2) * 128 + 1 * j.val = j.val; omega

/-- Window 6 (a 1×128 parameter row) is read whole at every point. -/
theorem blk_m1 (c : Dev nD) (t : Fin cfg4.N) (j : Fin 128) :
    iblk4 V c 6 t (ix2 (0 : Fin 1) j) = V c main_v392 (ix2 (0 : Fin 1) j) := by
  obtain ⟨-, -, -, -, -, -, -, -, -, -, -, -, -, -, e0, e1, -⟩ := idx_facts t
  show V c main_v392 (((cfg4.win 6).blk t).view.emb (ix2 (0 : Fin 1) j)) = V c main_v392 (ix2 (0 : Fin 1) j)
  refine congrArg (V c main_v392) (funext fun a => Fin.ext ?_)
  match a with
  | ⟨0, _⟩ => show win4_6.index t (0 : Fin 2) * 1 + 1 * 0 = 0; omega
  | ⟨1, _⟩ => show win4_6.index t (1 : Fin 2) * 128 + 1 * j.val = j.val; omega

/-- Window 7 (a 1×128 parameter row) is read whole at every point. -/
theorem blk_v1 (c : Dev nD) (t : Fin cfg4.N) (j : Fin 128) :
    iblk4 V c 7 t (ix2 (0 : Fin 1) j) = V c main_v395 (ix2 (0 : Fin 1) j) := by
  obtain ⟨-, -, -, -, -, -, -, -, -, -, -, -, -, -, -, -, e0, e1, -⟩ := idx_facts t
  show V c main_v395 (((cfg4.win 7).blk t).view.emb (ix2 (0 : Fin 1) j)) = V c main_v395 (ix2 (0 : Fin 1) j)
  refine congrArg (V c main_v395) (funext fun a => Fin.ext ?_)
  match a with
  | ⟨0, _⟩ => show win4_7.index t (0 : Fin 2) * 1 + 1 * 0 = 0; omega
  | ⟨1, _⟩ => show win4_7.index t (1 : Fin 2) * 128 + 1 * j.val = j.val; omega

/-- Window 8 (a 128×128 weight matrix) is read whole at every point. -/
theorem blk_w2 (c : Dev nD) (t : Fin cfg4.N) (l j : Fin 128) :
    iblk4 V c 8 t (ix2 l j) = V c main_v397 (ix2 l j) := by
  obtain ⟨-, -, -, -, -, -, -, -, -, -, -, -, -, -, -, -, -, -, e0, e1, -⟩ := idx_facts t
  show V c main_v397 (((cfg4.win 8).blk t).view.emb (ix2 l j)) = V c main_v397 (ix2 l j)
  refine congrArg (V c main_v397) (funext fun a => Fin.ext ?_)
  match a with
  | ⟨0, _⟩ => show win4_8.index t (0 : Fin 2) * 128 + 1 * l.val = l.val; omega
  | ⟨1, _⟩ => show win4_8.index t (1 : Fin 2) * 128 + 1 * j.val = j.val; omega

/-- Window 9 (a 1×128 parameter row) is read whole at every point. -/
theorem blk_b2 (c : Dev nD) (t : Fin cfg4.N) (j : Fin 128) :
    iblk4 V c 9 t (ix2 (0 : Fin 1) j) = V c main_v400 (ix2 (0 : Fin 1) j) := by
  obtain ⟨-, -, -, -, -, -, -, -, -, -, -, -, -, -, -, -, -, -, -, -, e0, e1, -⟩ := idx_facts t
  show V c main_v400 (((cfg4.win 9).blk t).view.emb (ix2 (0 : Fin 1) j)) = V c main_v400 (ix2 (0 : Fin 1) j)
  refine congrArg (V c main_v400) (funext fun a => Fin.ext ?_)
  match a with
  | ⟨0, _⟩ => show win4_9.index t (0 : Fin 2) * 1 + 1 * 0 = 0; omega
  | ⟨1, _⟩ => show win4_9.index t (1 : Fin 2) * 128 + 1 * j.val = j.val; omega

/-- Window 10 (a 1×128 parameter row) is read whole at every point. -/
theorem blk_g2 (c : Dev nD) (t : Fin cfg4.N) (j : Fin 128) :
    iblk4 V c 10 t (ix2 (0 : Fin 1) j) = V c main_v403 (ix2 (0 : Fin 1) j) := by
  obtain ⟨-, -, -, -, -, -, -, -, -, -, -, -, -, -, -, -, -, -, -, -, -, -, e0, e1, -⟩ := idx_facts t
  show V c main_v403 (((cfg4.win 10).blk t).view.emb (ix2 (0 : Fin 1) j)) = V c main_v403 (ix2 (0 : Fin 1) j)
  refine congrArg (V c main_v403) (funext fun a => Fin.ext ?_)
  match a with
  | ⟨0, _⟩ => show win4_10.index t (0 : Fin 2) * 1 + 1 * 0 = 0; omega
  | ⟨1, _⟩ => show win4_10.index t (1 : Fin 2) * 128 + 1 * j.val = j.val; omega

/-- Window 11 (a 1×128 parameter row) is read whole at every point. -/
theorem blk_be2 (c : Dev nD) (t : Fin cfg4.N) (j : Fin 128) :
    iblk4 V c 11 t (ix2 (0 : Fin 1) j) = V c main_v406 (ix2 (0 : Fin 1) j) := by
  obtain ⟨-, -, -, -, -, -, -, -, -, -, -, -, -, -, -, -, -, -, -, -, -, -, -, -, e0, e1, -⟩ := idx_facts t
  show V c main_v406 (((cfg4.win 11).blk t).view.emb (ix2 (0 : Fin 1) j)) = V c main_v406 (ix2 (0 : Fin 1) j)
  refine congrArg (V c main_v406) (funext fun a => Fin.ext ?_)
  match a with
  | ⟨0, _⟩ => show win4_11.index t (0 : Fin 2) * 1 + 1 * 0 = 0; omega
  | ⟨1, _⟩ => show win4_11.index t (1 : Fin 2) * 128 + 1 * j.val = j.val; omega

/-- Window 12 (a 1×128 parameter row) is read whole at every point. -/
theorem blk_m2 (c : Dev nD) (t : Fin cfg4.N) (j : Fin 128) :
    iblk4 V c 12 t (ix2 (0 : Fin 1) j) = V c main_v409 (ix2 (0 : Fin 1) j) := by
  obtain ⟨-, -, -, -, -, -, -, -, -, -, -, -, -, -, -, -, -, -, -, -, -, -, -, -, -, -, e0, e1, -⟩ := idx_facts t
  show V c main_v409 (((cfg4.win 12).blk t).view.emb (ix2 (0 : Fin 1) j)) = V c main_v409 (ix2 (0 : Fin 1) j)
  refine congrArg (V c main_v409) (funext fun a => Fin.ext ?_)
  match a with
  | ⟨0, _⟩ => show win4_12.index t (0 : Fin 2) * 1 + 1 * 0 = 0; omega
  | ⟨1, _⟩ => show win4_12.index t (1 : Fin 2) * 128 + 1 * j.val = j.val; omega

/-- Window 13 (a 1×128 parameter row) is read whole at every point. -/
theorem blk_v2 (c : Dev nD) (t : Fin cfg4.N) (j : Fin 128) :
    iblk4 V c 13 t (ix2 (0 : Fin 1) j) = V c main_v412 (ix2 (0 : Fin 1) j) := by
  obtain ⟨-, -, -, -, -, -, -, -, -, -, -, -, -, -, -, -, -, -, -, -, -, -, -, -, -, -, -, -, e0, e1⟩ := idx_facts t
  show V c main_v412 (((cfg4.win 13).blk t).view.emb (ix2 (0 : Fin 1) j)) = V c main_v412 (ix2 (0 : Fin 1) j)
  refine congrArg (V c main_v412) (funext fun a => Fin.ext ?_)
  match a with
  | ⟨0, _⟩ => show win4_13.index t (0 : Fin 2) * 1 + 1 * 0 = 0; omega
  | ⟨1, _⟩ => show win4_13.index t (1 : Fin 2) * 128 + 1 * j.val = j.val; omega

/-! ## What a grid point writes back, and the array -/

/-- The output array as a function of the arrays the region finds. -/
abbrev G (c : Dev nD) : S50000x128.Idx → EReal := Net.layerArr (V c main_v333) (V c main_v378) (V c main_v380) (V c main_v383) (V c main_v386) (V c main_v389) (V c main_v392) (V c main_v395) (V c main_v397) (V c main_v400) (V c main_v403) (V c main_v406) (V c main_v409) (V c main_v412)

/-- WHAT POINT t WRITES BACK is block t of `G`. -/
theorem flushed (c : Dev nD) (t : Fin cfg4.N) :
    (dat4 V c).flushed 14 t = ((cfg4.win 14).blk t).view.read (Elt Ideal) (G V c) := by
  show (cfg4.win 14).cut (grid4.coords t) ((dat4 V c).after 14 t) = _
  rw [after4_14]
  unfold out4_14
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  refine (pay4 (iblk4 V c 0 t) (iblk4 V c 1 t) (iblk4 V c 2 t) (iblk4 V c 3 t) (iblk4 V c 6 t) (iblk4 V c 7 t) (iblk4 V c 4 t) (iblk4 V c 5 t) (iblk4 V c 8 t) (iblk4 V c 9 t) (iblk4 V c 12 t) (iblk4 V c 13 t) (iblk4 V c 10 t) (iblk4 V c 11 t) p q).trans ?_
  obtain ⟨-, -, -, -, e0, e1, -⟩ := idx_facts t
  have hn : node (((cfg4.win 14).blk t).view.emb (ix2 p q)) = nodeAt t p :=
    Fin.ext (by show win4_14.index t (0 : Fin 2) * 5000 + 1 * p.val = t.val * 5000 + p.val; omega)
  have hc : col (((cfg4.win 14).blk t).view.emb (ix2 p q)) = q :=
    Fin.ext (by show win4_14.index t (1 : Fin 2) * 128 + 1 * q.val = q.val; omega)
  show _ = Net.layerArr (V c main_v333) (V c main_v378) (V c main_v380) (V c main_v383) (V c main_v386) (V c main_v389) (V c main_v392) (V c main_v395) (V c main_v397) (V c main_v400) (V c main_v403) (V c main_v406) (V c main_v409) (V c main_v412) (((cfg4.win 14).blk t).view.emb (ix2 p q))
  unfold Net.layerArr
  rw [hn, hc]
  simp only [blk_x, blk_a, blk_w1, blk_b1, blk_g1, blk_be1, blk_m1, blk_v1, blk_w2, blk_b2, blk_g2, blk_be2, blk_m2, blk_v2]

/-- Every entry of the output array is in some point's block: node r is in block r / 5000. -/
theorem cover (c : Dev nD) (i : S50000x128.Idx) :
    ∃ t : Fin cfg4.N, (cfg4.win 14).flush t = true ∧ i ∈ ((cfg4.win 14).blk t).view.set := by
  have hi0 : (i 0).val < 50000 := (i 0).isLt
  have hi1 : (i 1).val < 128 := (i 1).isLt
  let t : Fin cfg4.N := ⟨(i 0).val / 5000, by rw [show cfg4.N = 10 from N_4]; omega⟩
  obtain ⟨-, -, -, -, e0, e1, -⟩ := idx_facts t
  refine ⟨t, flush4_14 t, ?_⟩
  show i ∈ ((View.whole main_v413).slice (win4_14.rect t)).set
  rw [View.set_slice_whole, Rect.mem_set_unit]
  intro a
  match a with
  | ⟨0, _⟩ => show win4_14.index t (0 : Fin 2) * 5000 ≤ (i 0).val ∧ (i 0).val < win4_14.index t (0 : Fin 2) * 5000 + 5000; rw [e0]; show (i 0).val / 5000 * 5000 ≤ (i 0).val ∧ (i 0).val < (i 0).val / 5000 * 5000 + 5000; omega
  | ⟨1, _⟩ => show win4_14.index t (1 : Fin 2) * 128 ≤ (i 1).val ∧ (i 1).val < win4_14.index t (1 : Fin 2) * 128 + 128; omega

/-- THE ARRAY after the region: `Net.layerArr` of the fourteen arrays the region finds. -/
theorem final (c : Dev nD) : (dat4 V c).arrAt 14 cfg4.N = G V c :=
  (dat4 V c).arrAt_eq_of_cover 14 (G V c) (fun t _ => flushed V c t) (cover c)

end Cert.KernelIdeal.Final4

end
-- ==== Proof.RefLayer4.lean ====
/-
  Layer 4 of the reference, read at an entry.

  The reference computes the layer's dense transform with whole-array host operations: `h = x + aggr`, a
  `dot_general` with the layer's weight slice, the bias and the normalisation parameters each sliced out of its
  5×128 table, reshaped to a vector and broadcast over the 50000 nodes, `rsqrt`, and the rectifier. Read at the
  entry (node r, column j) through the stage lemmas, each dense unit is `Net.unit` of row r of its input, so the
  layer's output stage is `Net.layer` of row r of the layer's input features and aggregated messages.
-/
import proofs.«180497_j12352325943908_1_alg».proof.Proof.ReadP
import proofs.«180497_j12352325943908_1_alg».proof.Proof.Spec
import proofs.«180497_j12352325943908_1_alg».proof.Proof.Idx

set_option maxRecDepth 16384

noncomputable section

namespace Cert.ReferenceIdeal.Layer4

open Cert.ReferenceIdeal Cert.ReferenceIdeal.ReadP Cert.Net Idealize.ShloMosaic Idealize.ShloMosaic.ValueIdx

/-- The first dense unit's output stage at (r, j): `Net.unit` of row r of `h = x + aggr`. -/
theorem unit1 (x0 : (⟨S50000x128, .f32⟩ : BufTy).Contents (Elt Ideal)) (x1 : (⟨S2x600000, .i32⟩ : BufTy).Contents (Elt Ideal)) (x2 : (⟨S600000x3, .i32⟩ : BufTy).Contents (Elt Ideal)) (x4 : (⟨S5x3x8x128, .f32⟩ : BufTy).Contents (Elt Ideal)) (x5 : (⟨S5x128x128, .f32⟩ : BufTy).Contents (Elt Ideal)) (x6 x7 x8 x9 x10 : (⟨S5x128, .f32⟩ : BufTy).Contents (Elt Ideal)) (x11 : (⟨S5x128x128, .f32⟩ : BufTy).Contents (Elt Ideal)) (x12 x13 x14 x15 x16 : (⟨S5x128, .f32⟩ : BufTy).Contents (Elt Ideal)) (i : S50000x128.Idx) :
    (val_main_v447 (F := Ideal) x0 x1 x2 x4 x5 x6 x7 x8 x9 x10 x11 x12 x13 x14 x15 x16) i
      = Net.unit (fun k => (val_main_v415 (F := Ideal) x0 x1 x2 x4 x5 x6 x7 x8 x9 x10 x11 x12 x13 x14 x15 x16) (ix2 (node i) k)) (fun k j => (val_main_v417 (F := Ideal) x5) (ix2 k j))
          (fun j => (val_main_v420 (F := Ideal) x6) (ix1 j)) (fun j => (val_main_v429 (F := Ideal) x9) (ix1 j)) (fun j => (val_main_v431 (F := Ideal) x10) (ix1 j))
          (fun j => (val_main_v425 (F := Ideal) x7) (ix1 j)) (fun j => (val_main_v427 (F := Ideal) x8) (ix1 j)) (col i) := by
  have hl : ∀ k, lidx_main_v418 i k = ix2 (node i) k := fun k => funext fun a => by
    match a with
    | ⟨0, _⟩ => rfl
    | ⟨1, _⟩ => rfl
  have hr : ∀ k, ridx_main_v418 i k = ix2 k (col i) := fun k => funext fun a => by
    match a with
    | ⟨0, _⟩ => rfl
    | ⟨1, _⟩ => rfl
  have hb : idx_main_v421 (idx_main_v422 i) = ix1 (col i) := funext fun a => by
    match a with
    | ⟨0, _⟩ => rfl
  have hm : idx_main_v432 (idx_main_v433 i) = ix1 (col i) := funext fun a => by
    match a with
    | ⟨0, _⟩ => rfl
  have hv : idx_main_v438 (idx_main_v439 i) = ix1 (col i) := funext fun a => by
    match a with
    | ⟨0, _⟩ => rfl
  have hg : idx_main_v441 (idx_main_v442 i) = ix1 (col i) := funext fun a => by
    match a with
    | ⟨0, _⟩ => rfl
  have he : idx_main_v444 (idx_main_v445 i) = ix1 (col i) := funext fun a => by
    match a with
    | ⟨0, _⟩ => rfl
  simp only [val_main_v447_apply, val_main_v446_apply, val_main_v443_apply, val_main_v440_apply, val_main_v434_apply, val_main_v423_apply, val_main_v418_apply, val_main_v422_apply, val_main_v421_apply, val_main_v433_apply, val_main_v432_apply, val_main_v439_apply, val_main_v438_apply, val_main_v437_apply, val_main_v436_apply, val_main_v435_apply, val_main_v442_apply, val_main_v441_apply, val_main_v445_apply, val_main_v444_apply, val_main_call13_v0_apply]
  simp only [hl, hr, hb, hm, hv, hg, he]
  rfl

/-- The second dense unit's output stage (the layer's output) at (r, j): `Net.unit` of row r of the first unit's output. -/
theorem unit2 (x0 : (⟨S50000x128, .f32⟩ : BufTy).Contents (Elt Ideal)) (x1 : (⟨S2x600000, .i32⟩ : BufTy).Contents (Elt Ideal)) (x2 : (⟨S600000x3, .i32⟩ : BufTy).Contents (Elt Ideal)) (x4 : (⟨S5x3x8x128, .f32⟩ : BufTy).Contents (Elt Ideal)) (x5 : (⟨S5x128x128, .f32⟩ : BufTy).Contents (Elt Ideal)) (x6 x7 x8 x9 x10 : (⟨S5x128, .f32⟩ : BufTy).Contents (Elt Ideal)) (x11 : (⟨S5x128x128, .f32⟩ : BufTy).Contents (Elt Ideal)) (x12 x13 x14 x15 x16 : (⟨S5x128, .f32⟩ : BufTy).Contents (Elt Ideal)) (i : S50000x128.Idx) :
    (val_main_v479 (F := Ideal) x0 x1 x2 x4 x5 x6 x7 x8 x9 x10 x11 x12 x13 x14 x15 x16) i
      = Net.unit (fun k => (val_main_v447 (F := Ideal) x0 x1 x2 x4 x5 x6 x7 x8 x9 x10 x11 x12 x13 x14 x15 x16) (ix2 (node i) k)) (fun k j => (val_main_v449 (F := Ideal) x11) (ix2 k j))
          (fun j => (val_main_v452 (F := Ideal) x12) (ix1 j)) (fun j => (val_main_v461 (F := Ideal) x15) (ix1 j)) (fun j => (val_main_v463 (F := Ideal) x16) (ix1 j))
          (fun j => (val_main_v457 (F := Ideal) x13) (ix1 j)) (fun j => (val_main_v459 (F := Ideal) x14) (ix1 j)) (col i) := by
  have hl : ∀ k, lidx_main_v450 i k = ix2 (node i) k := fun k => funext fun a => by
    match a with
    | ⟨0, _⟩ => rfl
    | ⟨1, _⟩ => rfl
  have hr : ∀ k, ridx_main_v450 i k = ix2 k (col i) := fun k => funext fun a => by
    match a with
    | ⟨0, _⟩ => rfl
    | ⟨1, _⟩ => rfl
  have hb : idx_main_v453 (idx_main_v454 i) = ix1 (col i) := funext fun a => by
    match a with
    | ⟨0, _⟩ => rfl
  have hm : idx_main_v464 (idx_main_v465 i) = ix1 (col i) := funext fun a => by
    match a with
    | ⟨0, _⟩ => rfl
  have hv : idx_main_v470 (idx_main_v471 i) = ix1 (col i) := funext fun a => by
    match a with
    | ⟨0, _⟩ => rfl
  have hg : idx_main_v473 (idx_main_v474 i) = ix1 (col i) := funext fun a => by
    match a with
    | ⟨0, _⟩ => rfl
  have he : idx_main_v476 (idx_main_v477 i) = ix1 (col i) := funext fun a => by
    match a with
    | ⟨0, _⟩ => rfl
  simp only [val_main_v479_apply, val_main_v478_apply, val_main_v475_apply, val_main_v472_apply, val_main_v466_apply, val_main_v455_apply, val_main_v450_apply, val_main_v454_apply, val_main_v453_apply, val_main_v465_apply, val_main_v464_apply, val_main_v471_apply, val_main_v470_apply, val_main_v469_apply, val_main_v468_apply, val_main_v467_apply, val_main_v474_apply, val_main_v473_apply, val_main_v477_apply, val_main_v476_apply, val_main_call14_v0_apply]
  simp only [hl, hr, hb, hm, hv, hg, he]
  rfl

/-- The layer's output stage at an entry `y`: `Net.layer` of node `y`'s row of the layer's input features and of its
    aggregated messages, the parameters read where the reference keeps them (weights as 128×128 slices, the rest as vectors). -/
theorem layer (x0 : (⟨S50000x128, .f32⟩ : BufTy).Contents (Elt Ideal)) (x1 : (⟨S2x600000, .i32⟩ : BufTy).Contents (Elt Ideal)) (x2 : (⟨S600000x3, .i32⟩ : BufTy).Contents (Elt Ideal)) (x4 : (⟨S5x3x8x128, .f32⟩ : BufTy).Contents (Elt Ideal)) (x5 : (⟨S5x128x128, .f32⟩ : BufTy).Contents (Elt Ideal)) (x6 x7 x8 x9 x10 : (⟨S5x128, .f32⟩ : BufTy).Contents (Elt Ideal)) (x11 : (⟨S5x128x128, .f32⟩ : BufTy).Contents (Elt Ideal)) (x12 x13 x14 x15 x16 : (⟨S5x128, .f32⟩ : BufTy).Contents (Elt Ideal)) (y : S50000x128.Idx) :
    (val_main_v479 (F := Ideal) x0 x1 x2 x4 x5 x6 x7 x8 x9 x10 x11 x12 x13 x14 x15 x16) y
      = Net.layer (fun l => (val_main_v384 (F := Ideal) x0 x1 x2 x4 x5 x6 x7 x8 x9 x10 x11 x12 x13 x14 x15 x16) (ix2 (node y) l)) (fun l => (val_main_v414 (F := Ideal) x0 x1 x2 x4 x5 x6 x7 x8 x9 x10 x11 x12 x13 x14 x15 x16) (ix2 (node y) l))
          (fun l j => (val_main_v417 (F := Ideal) x5) (ix2 l j)) (fun j => (val_main_v420 (F := Ideal) x6) (ix1 j)) (fun j => (val_main_v425 (F := Ideal) x7) (ix1 j)) (fun j => (val_main_v427 (F := Ideal) x8) (ix1 j))
          (fun j => (val_main_v429 (F := Ideal) x9) (ix1 j)) (fun j => (val_main_v431 (F := Ideal) x10) (ix1 j))
          (fun l j => (val_main_v449 (F := Ideal) x11) (ix2 l j)) (fun j => (val_main_v452 (F := Ideal) x12) (ix1 j)) (fun j => (val_main_v457 (F := Ideal) x13) (ix1 j)) (fun j => (val_main_v459 (F := Ideal) x14) (ix1 j))
          (fun j => (val_main_v461 (F := Ideal) x15) (ix1 j)) (fun j => (val_main_v463 (F := Ideal) x16) (ix1 j)) (col y) := by
  rw [unit2]
  unfold Net.layer
  simp only [unit1 x0 x1 x2 x4 x5 x6 x7 x8 x9 x10 x11 x12 x13 x14 x15 x16]
  rfl

end Cert.ReferenceIdeal.Layer4

end
-- ==== Proof.Step4.lean ====
/-
  Layer 4 of the kernel program, read back: from the contents at the exit of region 3 (`W16`) through the
  stretch of host operations before region 4 — the pooled read-out of the layer's input features added to the
  running output, the bond embeddings, the gathered and rectified messages and their scatter-add, the layer's
  parameter slices — and through region 4 itself to the contents at its exit (`W20`). Every buffer that matters
  is the reference's stage of the same arguments: the host operations are the same operations on both sides, and the
  region's output array is the layer of its inputs (Final4), which is the reference's layer (RefLayer4).
-/
import proofs.«180497_j12352325943908_1_alg».proof.Proof.Carried
import proofs.«180497_j12352325943908_1_alg».proof.Proof.Final4
import proofs.«180497_j12352325943908_1_alg».proof.Proof.RefLayer4
import proofs.«180497_j12352325943908_1_alg».proof.Proof.LayerArr

set_option maxRecDepth 16384
set_option maxHeartbeats 4000000

noncomputable section

namespace Cert.KernelIdeal.Step4

open Cert.KernelIdeal Cert.KernelIdeal.Gen Cert.KernelIdeal.GenP Cert.KernelIdeal.Chain Cert.Net
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- What the one-pass reading leaves inside a concatenate's operand list, finished by rewriting: each operation's result at
    its own buffer is its function's value, at any other buffer what was there. -/
macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-! ## The fourteen arrays region 4 reads -/

/-- Window `x` of region 4 as the region finds it. -/
theorem rd_x (hx : W16 m ρ c (Proc.devRef .tc main_v333) = (Cert.ReferenceIdeal.ReadP.val_main_v384 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W16 m ρ c (Proc.devRef .tc main_v268) = (Cert.ReferenceIdeal.ReadP.val_main_v548 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W16 m ρ c)) :
    V19 m ρ c main_v333 = (Cert.ReferenceIdeal.ReadP.val_main_v384 (F := Ideal) (a0 m c) (a1 m c) (a2 m c) (a4 m c) (a5 m c) (a6 m c) (a7 m c) (a8 m c) (a9 m c) (a10 m c) (a11 m c) (a12 m c) (a13 m c) (a14 m c) (a15 m c) (a16 m c)) := by
  show StableHlo.after hostOps4_2 (StableHlo.after hostOps4_1 (StableHlo.after hostOps4 (W16 m ρ c))) (Proc.devRef .tc main_v333) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]

/-- Window `aggr` of region 4 as the region finds it. -/
theorem rd_aggr (hx : W16 m ρ c (Proc.devRef .tc main_v333) = (Cert.ReferenceIdeal.ReadP.val_main_v384 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W16 m ρ c (Proc.devRef .tc main_v268) = (Cert.ReferenceIdeal.ReadP.val_main_v548 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W16 m ρ c)) :
    V19 m ρ c main_v378 = (Cert.ReferenceIdeal.ReadP.val_main_v414 (F := Ideal) (a0 m c) (a1 m c) (a2 m c) (a4 m c) (a5 m c) (a6 m c) (a7 m c) (a8 m c) (a9 m c) (a10 m c) (a11 m c) (a12 m c) (a13 m c) (a14 m c) (a15 m c) (a16 m c)) := by
  show StableHlo.after hostOps4_2 (StableHlo.after hostOps4_1 (StableHlo.after hostOps4 (W16 m ρ c))) (Proc.devRef .tc main_v378) = _
  after_results_simp
  results_rw
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `w1` of region 4 as the region finds it. -/
theorem rd_w1 (hx : W16 m ρ c (Proc.devRef .tc main_v333) = (Cert.ReferenceIdeal.ReadP.val_main_v384 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W16 m ρ c (Proc.devRef .tc main_v268) = (Cert.ReferenceIdeal.ReadP.val_main_v548 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W16 m ρ c)) :
    V19 m ρ c main_v380 = (Cert.ReferenceIdeal.ReadP.val_main_v417 (F := Ideal) (a5 m c)) := by
  show StableHlo.after hostOps4_2 (StableHlo.after hostOps4_1 (StableHlo.after hostOps4 (W16 m ρ c))) (Proc.devRef .tc main_v380) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `b1` of region 4 as the region finds it. -/
theorem rd_b1 (hx : W16 m ρ c (Proc.devRef .tc main_v333) = (Cert.ReferenceIdeal.ReadP.val_main_v384 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W16 m ρ c (Proc.devRef .tc main_v268) = (Cert.ReferenceIdeal.ReadP.val_main_v548 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W16 m ρ c)) :
    V19 m ρ c main_v383 = shapeCast Net.SRow (Cert.ReferenceIdeal.ReadP.val_main_v420 (F := Ideal) (a6 m c)) shapeCasts_S128_S1x128 := by
  show StableHlo.after hostOps4_2 (StableHlo.after hostOps4_1 (StableHlo.after hostOps4 (W16 m ρ c))) (Proc.devRef .tc main_v383) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `g1` of region 4 as the region finds it. -/
theorem rd_g1 (hx : W16 m ρ c (Proc.devRef .tc main_v333) = (Cert.ReferenceIdeal.ReadP.val_main_v384 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W16 m ρ c (Proc.devRef .tc main_v268) = (Cert.ReferenceIdeal.ReadP.val_main_v548 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W16 m ρ c)) :
    V19 m ρ c main_v386 = shapeCast Net.SRow (Cert.ReferenceIdeal.ReadP.val_main_v425 (F := Ideal) (a7 m c)) shapeCasts_S128_S1x128 := by
  show StableHlo.after hostOps4_2 (StableHlo.after hostOps4_1 (StableHlo.after hostOps4 (W16 m ρ c))) (Proc.devRef .tc main_v386) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `be1` of region 4 as the region finds it. -/
theorem rd_be1 (hx : W16 m ρ c (Proc.devRef .tc main_v333) = (Cert.ReferenceIdeal.ReadP.val_main_v384 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W16 m ρ c (Proc.devRef .tc main_v268) = (Cert.ReferenceIdeal.ReadP.val_main_v548 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W16 m ρ c)) :
    V19 m ρ c main_v389 = shapeCast Net.SRow (Cert.ReferenceIdeal.ReadP.val_main_v427 (F := Ideal) (a8 m c)) shapeCasts_S128_S1x128 := by
  show StableHlo.after hostOps4_2 (StableHlo.after hostOps4_1 (StableHlo.after hostOps4 (W16 m ρ c))) (Proc.devRef .tc main_v389) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `m1` of region 4 as the region finds it. -/
theorem rd_m1 (hx : W16 m ρ c (Proc.devRef .tc main_v333) = (Cert.ReferenceIdeal.ReadP.val_main_v384 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W16 m ρ c (Proc.devRef .tc main_v268) = (Cert.ReferenceIdeal.ReadP.val_main_v548 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W16 m ρ c)) :
    V19 m ρ c main_v392 = shapeCast Net.SRow (Cert.ReferenceIdeal.ReadP.val_main_v429 (F := Ideal) (a9 m c)) shapeCasts_S128_S1x128 := by
  show StableHlo.after hostOps4_2 (StableHlo.after hostOps4_1 (StableHlo.after hostOps4 (W16 m ρ c))) (Proc.devRef .tc main_v392) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `v1` of region 4 as the region finds it. -/
theorem rd_v1 (hx : W16 m ρ c (Proc.devRef .tc main_v333) = (Cert.ReferenceIdeal.ReadP.val_main_v384 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W16 m ρ c (Proc.devRef .tc main_v268) = (Cert.ReferenceIdeal.ReadP.val_main_v548 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W16 m ρ c)) :
    V19 m ρ c main_v395 = shapeCast Net.SRow (Cert.ReferenceIdeal.ReadP.val_main_v431 (F := Ideal) (a10 m c)) shapeCasts_S128_S1x128 := by
  show StableHlo.after hostOps4_2 (StableHlo.after hostOps4_1 (StableHlo.after hostOps4 (W16 m ρ c))) (Proc.devRef .tc main_v395) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `w2` of region 4 as the region finds it. -/
theorem rd_w2 (hx : W16 m ρ c (Proc.devRef .tc main_v333) = (Cert.ReferenceIdeal.ReadP.val_main_v384 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W16 m ρ c (Proc.devRef .tc main_v268) = (Cert.ReferenceIdeal.ReadP.val_main_v548 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W16 m ρ c)) :
    V19 m ρ c main_v397 = (Cert.ReferenceIdeal.ReadP.val_main_v449 (F := Ideal) (a11 m c)) := by
  show StableHlo.after hostOps4_2 (StableHlo.after hostOps4_1 (StableHlo.after hostOps4 (W16 m ρ c))) (Proc.devRef .tc main_v397) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `b2` of region 4 as the region finds it. -/
theorem rd_b2 (hx : W16 m ρ c (Proc.devRef .tc main_v333) = (Cert.ReferenceIdeal.ReadP.val_main_v384 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W16 m ρ c (Proc.devRef .tc main_v268) = (Cert.ReferenceIdeal.ReadP.val_main_v548 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W16 m ρ c)) :
    V19 m ρ c main_v400 = shapeCast Net.SRow (Cert.ReferenceIdeal.ReadP.val_main_v452 (F := Ideal) (a12 m c)) shapeCasts_S128_S1x128 := by
  show StableHlo.after hostOps4_2 (StableHlo.after hostOps4_1 (StableHlo.after hostOps4 (W16 m ρ c))) (Proc.devRef .tc main_v400) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `g2` of region 4 as the region finds it. -/
theorem rd_g2 (hx : W16 m ρ c (Proc.devRef .tc main_v333) = (Cert.ReferenceIdeal.ReadP.val_main_v384 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W16 m ρ c (Proc.devRef .tc main_v268) = (Cert.ReferenceIdeal.ReadP.val_main_v548 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W16 m ρ c)) :
    V19 m ρ c main_v403 = shapeCast Net.SRow (Cert.ReferenceIdeal.ReadP.val_main_v457 (F := Ideal) (a13 m c)) shapeCasts_S128_S1x128 := by
  show StableHlo.after hostOps4_2 (StableHlo.after hostOps4_1 (StableHlo.after hostOps4 (W16 m ρ c))) (Proc.devRef .tc main_v403) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `be2` of region 4 as the region finds it. -/
theorem rd_be2 (hx : W16 m ρ c (Proc.devRef .tc main_v333) = (Cert.ReferenceIdeal.ReadP.val_main_v384 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W16 m ρ c (Proc.devRef .tc main_v268) = (Cert.ReferenceIdeal.ReadP.val_main_v548 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W16 m ρ c)) :
    V19 m ρ c main_v406 = shapeCast Net.SRow (Cert.ReferenceIdeal.ReadP.val_main_v459 (F := Ideal) (a14 m c)) shapeCasts_S128_S1x128 := by
  show StableHlo.after hostOps4_2 (StableHlo.after hostOps4_1 (StableHlo.after hostOps4 (W16 m ρ c))) (Proc.devRef .tc main_v406) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `m2` of region 4 as the region finds it. -/
theorem rd_m2 (hx : W16 m ρ c (Proc.devRef .tc main_v333) = (Cert.ReferenceIdeal.ReadP.val_main_v384 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W16 m ρ c (Proc.devRef .tc main_v268) = (Cert.ReferenceIdeal.ReadP.val_main_v548 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W16 m ρ c)) :
    V19 m ρ c main_v409 = shapeCast Net.SRow (Cert.ReferenceIdeal.ReadP.val_main_v461 (F := Ideal) (a15 m c)) shapeCasts_S128_S1x128 := by
  show StableHlo.after hostOps4_2 (StableHlo.after hostOps4_1 (StableHlo.after hostOps4 (W16 m ρ c))) (Proc.devRef .tc main_v409) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- Window `v2` of region 4 as the region finds it. -/
theorem rd_v2 (hx : W16 m ρ c (Proc.devRef .tc main_v333) = (Cert.ReferenceIdeal.ReadP.val_main_v384 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W16 m ρ c (Proc.devRef .tc main_v268) = (Cert.ReferenceIdeal.ReadP.val_main_v548 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W16 m ρ c)) :
    V19 m ρ c main_v412 = shapeCast Net.SRow (Cert.ReferenceIdeal.ReadP.val_main_v463 (F := Ideal) (a16 m c)) shapeCasts_S128_S1x128 := by
  show StableHlo.after hostOps4_2 (StableHlo.after hostOps4_1 (StableHlo.after hostOps4 (W16 m ρ c))) (Proc.devRef .tc main_v412) = _
  after_results_simp
  simp only [hx, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-! ## The running output after this layer's read-out -/

/-- The running output `out_4` (pooled features of this layer's input, projected, added to `out_3`) at the
    region's entry. -/
theorem rd_out (hx : W16 m ρ c (Proc.devRef .tc main_v333) = (Cert.ReferenceIdeal.ReadP.val_main_v384 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W16 m ρ c (Proc.devRef .tc main_v268) = (Cert.ReferenceIdeal.ReadP.val_main_v548 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W16 m ρ c)) :
    W19 m ρ c (Proc.devRef .tc main_v348) = (Cert.ReferenceIdeal.ReadP.val_main_v563 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)) := by
  show StableHlo.after hostOps4_2 (StableHlo.after hostOps4_1 (StableHlo.after hostOps4 (W16 m ρ c))) (Proc.devRef .tc main_v348) = _
  after_results_simp
  simp only [hx, hout, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-! ## Through the region -/

/-- A buffer that is no array of region 4 and that no operation of the stretch writes is kept from `W16` to `W20`. -/
theorem keep (b : Ref sig .tc) (hreg : ∀ w, Pipeline.arrRef spec4 w ≠ b)
    (h : StableHlo.after hostOps4_2 (StableHlo.after hostOps4_1 (StableHlo.after hostOps4 (W16 m ρ c))) (Proc.devRef .tc b) = W16 m ρ c (Proc.devRef .tc b)) :
    W20 m ρ c (Proc.devRef .tc b) = W16 m ρ c (Proc.devRef .tc b) :=
  (W20_of_ne m ρ c b hreg).trans h

/-- The carried facts at the region's exit. -/
theorem carried (hc : Carried m c (W16 m ρ c)) : Carried m c (W20 m ρ c) where
    inv := (keep m ρ c main_v12 (by decide) (by show StableHlo.after hostOps4_2 (StableHlo.after hostOps4_1 (StableHlo.after hostOps4 (W16 m ρ c))) (Proc.devRef .tc main_v12) = _; after_results_simp)).trans hc.inv
    src := (keep m ρ c main_v1 (by decide) (by show StableHlo.after hostOps4_2 (StableHlo.after hostOps4_1 (StableHlo.after hostOps4 (W16 m ρ c))) (Proc.devRef .tc main_v1) = _; after_results_simp)).trans hc.src
    dst := (keep m ρ c main_v3 (by decide) (by show StableHlo.after hostOps4_2 (StableHlo.after hostOps4_1 (StableHlo.after hostOps4 (W16 m ρ c))) (Proc.devRef .tc main_v3) = _; after_results_simp)).trans hc.dst
    iota := (keep m ρ c main_v4 (by decide) (by show StableHlo.after hostOps4_2 (StableHlo.after hostOps4_1 (StableHlo.after hostOps4 (W16 m ρ c))) (Proc.devRef .tc main_v4) = _; after_results_simp)).trans hc.iota
    h2 := (keep m ρ c main_arg2 (by decide) (by show StableHlo.after hostOps4_2 (StableHlo.after hostOps4_1 (StableHlo.after hostOps4 (W16 m ρ c))) (Proc.devRef .tc main_arg2) = _; after_results_simp)).trans hc.h2
    h3 := (keep m ρ c main_arg3 (by decide) (by show StableHlo.after hostOps4_2 (StableHlo.after hostOps4_1 (StableHlo.after hostOps4 (W16 m ρ c))) (Proc.devRef .tc main_arg3) = _; after_results_simp)).trans hc.h3
    h4 := (keep m ρ c main_arg4 (by decide) (by show StableHlo.after hostOps4_2 (StableHlo.after hostOps4_1 (StableHlo.after hostOps4 (W16 m ρ c))) (Proc.devRef .tc main_arg4) = _; after_results_simp)).trans hc.h4
    h5 := (keep m ρ c main_arg5 (by decide) (by show StableHlo.after hostOps4_2 (StableHlo.after hostOps4_1 (StableHlo.after hostOps4 (W16 m ρ c))) (Proc.devRef .tc main_arg5) = _; after_results_simp)).trans hc.h5
    h6 := (keep m ρ c main_arg6 (by decide) (by show StableHlo.after hostOps4_2 (StableHlo.after hostOps4_1 (StableHlo.after hostOps4 (W16 m ρ c))) (Proc.devRef .tc main_arg6) = _; after_results_simp)).trans hc.h6
    h7 := (keep m ρ c main_arg7 (by decide) (by show StableHlo.after hostOps4_2 (StableHlo.after hostOps4_1 (StableHlo.after hostOps4 (W16 m ρ c))) (Proc.devRef .tc main_arg7) = _; after_results_simp)).trans hc.h7
    h8 := (keep m ρ c main_arg8 (by decide) (by show StableHlo.after hostOps4_2 (StableHlo.after hostOps4_1 (StableHlo.after hostOps4 (W16 m ρ c))) (Proc.devRef .tc main_arg8) = _; after_results_simp)).trans hc.h8
    h9 := (keep m ρ c main_arg9 (by decide) (by show StableHlo.after hostOps4_2 (StableHlo.after hostOps4_1 (StableHlo.after hostOps4 (W16 m ρ c))) (Proc.devRef .tc main_arg9) = _; after_results_simp)).trans hc.h9
    h10 := (keep m ρ c main_arg10 (by decide) (by show StableHlo.after hostOps4_2 (StableHlo.after hostOps4_1 (StableHlo.after hostOps4 (W16 m ρ c))) (Proc.devRef .tc main_arg10) = _; after_results_simp)).trans hc.h10
    h11 := (keep m ρ c main_arg11 (by decide) (by show StableHlo.after hostOps4_2 (StableHlo.after hostOps4_1 (StableHlo.after hostOps4 (W16 m ρ c))) (Proc.devRef .tc main_arg11) = _; after_results_simp)).trans hc.h11
    h12 := (keep m ρ c main_arg12 (by decide) (by show StableHlo.after hostOps4_2 (StableHlo.after hostOps4_1 (StableHlo.after hostOps4 (W16 m ρ c))) (Proc.devRef .tc main_arg12) = _; after_results_simp)).trans hc.h12
    h13 := (keep m ρ c main_arg13 (by decide) (by show StableHlo.after hostOps4_2 (StableHlo.after hostOps4_1 (StableHlo.after hostOps4 (W16 m ρ c))) (Proc.devRef .tc main_arg13) = _; after_results_simp)).trans hc.h13
    h14 := (keep m ρ c main_arg14 (by decide) (by show StableHlo.after hostOps4_2 (StableHlo.after hostOps4_1 (StableHlo.after hostOps4 (W16 m ρ c))) (Proc.devRef .tc main_arg14) = _; after_results_simp)).trans hc.h14
    h15 := (keep m ρ c main_arg15 (by decide) (by show StableHlo.after hostOps4_2 (StableHlo.after hostOps4_1 (StableHlo.after hostOps4 (W16 m ρ c))) (Proc.devRef .tc main_arg15) = _; after_results_simp)).trans hc.h15
    h16 := (keep m ρ c main_arg16 (by decide) (by show StableHlo.after hostOps4_2 (StableHlo.after hostOps4_1 (StableHlo.after hostOps4 (W16 m ρ c))) (Proc.devRef .tc main_arg16) = _; after_results_simp)).trans hc.h16
    h17 := (keep m ρ c main_arg17 (by decide) (by show StableHlo.after hostOps4_2 (StableHlo.after hostOps4_1 (StableHlo.after hostOps4 (W16 m ρ c))) (Proc.devRef .tc main_arg17) = _; after_results_simp)).trans hc.h17
    h18 := (keep m ρ c main_arg18 (by decide) (by show StableHlo.after hostOps4_2 (StableHlo.after hostOps4_1 (StableHlo.after hostOps4 (W16 m ρ c))) (Proc.devRef .tc main_arg18) = _; after_results_simp)).trans hc.h18

/-- The running output is not touched by the region. -/
theorem out' (hx : W16 m ρ c (Proc.devRef .tc main_v333) = (Cert.ReferenceIdeal.ReadP.val_main_v384 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W16 m ρ c (Proc.devRef .tc main_v268) = (Cert.ReferenceIdeal.ReadP.val_main_v548 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W16 m ρ c)) :
    W20 m ρ c (Proc.devRef .tc main_v348) = (Cert.ReferenceIdeal.ReadP.val_main_v563 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)) :=
  (W20_of_ne m ρ c main_v348 (by decide)).trans (rd_out m ρ c hx hout hc)

/-- THE LAYER: region 4's output array is the reference's stage of the layer's output. -/
theorem x' (hx : W16 m ρ c (Proc.devRef .tc main_v333) = (Cert.ReferenceIdeal.ReadP.val_main_v384 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W16 m ρ c (Proc.devRef .tc main_v268) = (Cert.ReferenceIdeal.ReadP.val_main_v548 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W16 m ρ c)) :
    W20 m ρ c (Proc.devRef .tc main_v413) = (Cert.ReferenceIdeal.ReadP.val_main_v479 (F := Ideal) (a0 m c) (a1 m c) (a2 m c) (a4 m c) (a5 m c) (a6 m c) (a7 m c) (a8 m c) (a9 m c) (a10 m c) (a11 m c) (a12 m c) (a13 m c) (a14 m c) (a15 m c) (a16 m c)) := by
  refine (W20_arr m ρ c 14).trans ?_
  rw [Final4.final (V19 m ρ) c]
  show Net.layerArr (V19 m ρ c main_v333) (V19 m ρ c main_v378) (V19 m ρ c main_v380) (V19 m ρ c main_v383) (V19 m ρ c main_v386) (V19 m ρ c main_v389) (V19 m ρ c main_v392) (V19 m ρ c main_v395) (V19 m ρ c main_v397) (V19 m ρ c main_v400) (V19 m ρ c main_v403) (V19 m ρ c main_v406) (V19 m ρ c main_v409) (V19 m ρ c main_v412) = _
  rw [rd_x m ρ c hx hout hc, rd_aggr m ρ c hx hout hc, rd_w1 m ρ c hx hout hc, rd_b1 m ρ c hx hout hc, rd_g1 m ρ c hx hout hc, rd_be1 m ρ c hx hout hc, rd_m1 m ρ c hx hout hc, rd_v1 m ρ c hx hout hc, rd_w2 m ρ c hx hout hc, rd_b2 m ρ c hx hout hc, rd_g2 m ρ c hx hout hc, rd_be2 m ρ c hx hout hc, rd_m2 m ρ c hx hout hc, rd_v2 m ρ c hx hout hc]
  funext y
  rw [Net.layerArr_rows]
  exact (Cert.ReferenceIdeal.Layer4.layer (a0 m c) (a1 m c) (a2 m c) (a4 m c) (a5 m c) (a6 m c) (a7 m c) (a8 m c) (a9 m c) (a10 m c) (a11 m c) (a12 m c) (a13 m c) (a14 m c) (a15 m c) (a16 m c) y).symm

end Cert.KernelIdeal.Step4

end
-- ==== Proof.Step5.lean ====
/-
  The end of the kernel program, read back: from the contents at the exit of the last region (`W20`) through the last
  stretch of host operations — the pooled read-out of the last layer's output, projected and added to the running
  output — to the result buffer. It is the reference's result stage of the same arguments. `result` then chains the
  six steps from the launch memory.
-/
import proofs.«180497_j12352325943908_1_alg».proof.Proof.Carried
import proofs.«180497_j12352325943908_1_alg».proof.Proof.Step0
import proofs.«180497_j12352325943908_1_alg».proof.Proof.Step1
import proofs.«180497_j12352325943908_1_alg».proof.Proof.Step2
import proofs.«180497_j12352325943908_1_alg».proof.Proof.Step3
import proofs.«180497_j12352325943908_1_alg».proof.Proof.Step4

set_option maxRecDepth 16384
set_option maxHeartbeats 4000000

noncomputable section

namespace Cert.KernelIdeal.Step5

open Cert.KernelIdeal Cert.KernelIdeal.Gen Cert.KernelIdeal.GenP Cert.KernelIdeal.Chain Cert.Net
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The result buffer after the last stretch, from the facts at the last region's exit. -/
theorem last (hx : W20 m ρ c (Proc.devRef .tc main_v413) = (Cert.ReferenceIdeal.ReadP.val_main_v479 (F := Ideal) (a0 m c) (a1 m c) (a2 m c) (a4 m c) (a5 m c) (a6 m c) (a7 m c) (a8 m c) (a9 m c) (a10 m c) (a11 m c) (a12 m c) (a13 m c) (a14 m c) (a15 m c) (a16 m c)))
    (hout : W20 m ρ c (Proc.devRef .tc main_v348) = (Cert.ReferenceIdeal.ReadP.val_main_v563 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)))
    (hc : Carried m c (W20 m ρ c)) :
    W21 m ρ c (Proc.devRef .tc main_v428) = (Cert.ReferenceIdeal.ReadP.val_main_v578 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)) := by
  show StableHlo.after hostOps5 (W20 m ρ c) (Proc.devRef .tc main_v428) = _
  after_results_simp
  simp only [hx, hout, hc.inv, hc.src, hc.dst, hc.iota, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

/-- THE RESULT of the kernel program is the reference's result stage of the same arguments. -/
theorem result : W21 m ρ c (Proc.devRef .tc main_v428) = (Cert.ReferenceIdeal.ReadP.val_main_v578 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)) := by
  have c0 := Step0.carried m ρ c
  have x1 := Step0.x' m ρ c
  have o0 := Step0.out' m ρ c
  have c1 := Step1.carried m ρ c c0
  have x2 := Step1.x' m ρ c x1 o0 c0
  have o1 := Step1.out' m ρ c x1 o0 c0
  have c2 := Step2.carried m ρ c c1
  have x3 := Step2.x' m ρ c x2 o1 c1
  have o2 := Step2.out' m ρ c x2 o1 c1
  have c3 := Step3.carried m ρ c c2
  have x4 := Step3.x' m ρ c x3 o2 c2
  have o3 := Step3.out' m ρ c x3 o2 c2
  have c4 := Step4.carried m ρ c c3
  have x5 := Step4.x' m ρ c x4 o3 c3
  have o4 := Step4.out' m ρ c x4 o3 c3
  exact last m ρ c x5 o4 c4

end Cert.KernelIdeal.Step5

end
-- ==== Proof.RCarried.lean ====
/-
  The vocabulary of the chain that reads the reference program's result back: the argument arrays by short names, the
  buffer contents after each of eleven hops through @main's operations (two per layer and the read-outs at the end; each one to three chunks of the operation list; a fold from the launch contents), and the
  facts carried from stretch to stretch — the edges' source and target indices, the bond feature ids and the arguments
  themselves, which every later stretch reads and none writes.
-/
import proofs.«180497_j12352325943908_1_alg».proof.Proof.RunC
import proofs.«180497_j12352325943908_1_alg».proof.Proof.ReadP
import Idealize.ShloMosaic.Lib.Pipeline.Frame

set_option maxRecDepth 16384

noncomputable section

namespace Cert.ReferenceIdeal.RChain

open Cert.ReferenceIdeal Cert.ReferenceIdeal.Gen Cert.ReferenceIdeal.RunC
open Idealize.ShloMosaic Idealize.ShloMosaic.TcCoe Idealize.SL.Sem Idealize.ShloMosaic.StableHlo

variable (m : (ℓ : Loc nD τ sig) → Buf (Elt Ideal) ℓ) (c : Dev nD)

/-- Argument 0 of @main on core `c`, as launched. -/
abbrev b0 := m ((c.tc : Thread nD τ).loc main_arg0)
/-- Argument 1 of @main on core `c`, as launched. -/
abbrev b1 := m ((c.tc : Thread nD τ).loc main_arg1)
/-- Argument 2 of @main on core `c`, as launched. -/
abbrev b2 := m ((c.tc : Thread nD τ).loc main_arg2)
/-- Argument 3 of @main on core `c`, as launched. -/
abbrev b3 := m ((c.tc : Thread nD τ).loc main_arg3)
/-- Argument 4 of @main on core `c`, as launched. -/
abbrev b4 := m ((c.tc : Thread nD τ).loc main_arg4)
/-- Argument 5 of @main on core `c`, as launched. -/
abbrev b5 := m ((c.tc : Thread nD τ).loc main_arg5)
/-- Argument 6 of @main on core `c`, as launched. -/
abbrev b6 := m ((c.tc : Thread nD τ).loc main_arg6)
/-- Argument 7 of @main on core `c`, as launched. -/
abbrev b7 := m ((c.tc : Thread nD τ).loc main_arg7)
/-- Argument 8 of @main on core `c`, as launched. -/
abbrev b8 := m ((c.tc : Thread nD τ).loc main_arg8)
/-- Argument 9 of @main on core `c`, as launched. -/
abbrev b9 := m ((c.tc : Thread nD τ).loc main_arg9)
/-- Argument 10 of @main on core `c`, as launched. -/
abbrev b10 := m ((c.tc : Thread nD τ).loc main_arg10)
/-- Argument 11 of @main on core `c`, as launched. -/
abbrev b11 := m ((c.tc : Thread nD τ).loc main_arg11)
/-- Argument 12 of @main on core `c`, as launched. -/
abbrev b12 := m ((c.tc : Thread nD τ).loc main_arg12)
/-- Argument 13 of @main on core `c`, as launched. -/
abbrev b13 := m ((c.tc : Thread nD τ).loc main_arg13)
/-- Argument 14 of @main on core `c`, as launched. -/
abbrev b14 := m ((c.tc : Thread nD τ).loc main_arg14)
/-- Argument 15 of @main on core `c`, as launched. -/
abbrev b15 := m ((c.tc : Thread nD τ).loc main_arg15)
/-- Argument 16 of @main on core `c`, as launched. -/
abbrev b16 := m ((c.tc : Thread nD τ).loc main_arg16)
/-- Argument 17 of @main on core `c`, as launched. -/
abbrev b17 := m ((c.tc : Thread nD τ).loc main_arg17)
/-- Argument 18 of @main on core `c`, as launched. -/
abbrev b18 := m ((c.tc : Thread nD τ).loc main_arg18)

/-- The buffer contents at launch, and after each hop (plain definitions, so that reading one hop does not unfold the
    hops before it): every layer is read in two hops, the first ending at the
    concatenated bond-feature indices, the second at the layer's output; the last hop is the pooled read-outs. -/
abbrev Q0 : Valuation τ sig (Elt Ideal) := launchContents m c
def Q1 : Valuation τ sig (Elt Ideal) := StableHlo.after ch0 (Q0 m c)
def Q2 : Valuation τ sig (Elt Ideal) := StableHlo.after ch2 (StableHlo.after ch1 (Q1 m c))
def Q3 : Valuation τ sig (Elt Ideal) := StableHlo.after ch4 (StableHlo.after ch3 (Q2 m c))
def Q4 : Valuation τ sig (Elt Ideal) := StableHlo.after ch6 (StableHlo.after ch5 (Q3 m c))
def Q5 : Valuation τ sig (Elt Ideal) := StableHlo.after ch7 (Q4 m c)
def Q6 : Valuation τ sig (Elt Ideal) := StableHlo.after ch10 (StableHlo.after ch9 (StableHlo.after ch8 (Q5 m c)))
def Q7 : Valuation τ sig (Elt Ideal) := StableHlo.after ch11 (Q6 m c)
def Q8 : Valuation τ sig (Elt Ideal) := StableHlo.after ch14 (StableHlo.after ch13 (StableHlo.after ch12 (Q7 m c)))
def Q9 : Valuation τ sig (Elt Ideal) := StableHlo.after ch15 (Q8 m c)
def Q10 : Valuation τ sig (Elt Ideal) := StableHlo.after ch17 (StableHlo.after ch16 (Q9 m c))
def Q11 : Valuation τ sig (Elt Ideal) := StableHlo.after ch20 (StableHlo.after ch19 (StableHlo.after ch18 (Q10 m c)))

/-- The fold of the whole list is the fold of the six stretches in turn. -/
theorem after_ops : StableHlo.after (ops (F := Ideal)) (launchContents m c) = Q11 m c := by
  simp only [ops, StableHlo.after_append]
  rfl

/-- What a stage's contents `X` carry for every later stretch. -/
structure RC (X : Valuation τ sig (Elt Ideal)) : Prop where
  src : X (Proc.devRef .tc main_v1) = (Cert.ReferenceIdeal.ReadP.val_main_v1 (F := Ideal) (b1 m c))
  dst : X (Proc.devRef .tc main_v3) = (Cert.ReferenceIdeal.ReadP.val_main_v3 (F := Ideal) (b1 m c))
  iota : X (Proc.devRef .tc main_v4) = (Cert.ReferenceIdeal.ReadP.val_main_v4 (F := Ideal))
  h0 : X (Proc.devRef .tc main_arg0) = b0 m c
  h2 : X (Proc.devRef .tc main_arg2) = b2 m c
  h3 : X (Proc.devRef .tc main_arg3) = b3 m c
  h4 : X (Proc.devRef .tc main_arg4) = b4 m c
  h5 : X (Proc.devRef .tc main_arg5) = b5 m c
  h6 : X (Proc.devRef .tc main_arg6) = b6 m c
  h7 : X (Proc.devRef .tc main_arg7) = b7 m c
  h8 : X (Proc.devRef .tc main_arg8) = b8 m c
  h9 : X (Proc.devRef .tc main_arg9) = b9 m c
  h10 : X (Proc.devRef .tc main_arg10) = b10 m c
  h11 : X (Proc.devRef .tc main_arg11) = b11 m c
  h12 : X (Proc.devRef .tc main_arg12) = b12 m c
  h13 : X (Proc.devRef .tc main_arg13) = b13 m c
  h14 : X (Proc.devRef .tc main_arg14) = b14 m c
  h15 : X (Proc.devRef .tc main_arg15) = b15 m c
  h16 : X (Proc.devRef .tc main_arg16) = b16 m c
  h17 : X (Proc.devRef .tc main_arg17) = b17 m c
  h18 : X (Proc.devRef .tc main_arg18) = b18 m c

end Cert.ReferenceIdeal.RChain

end
-- ==== Proof.QHop0.lean ====
/-
  Hop 0 of the reference's operations — the first hop of layer 0 (the edges' endpoints, the feature ids, the layer's bond-embedding slice and the index pairs the embedding lookup reads) — read back: what it computes for the
  later hops is the stage of the arguments that the stage functions name, and what the later hops read is kept.
-/
import proofs.«180497_j12352325943908_1_alg».proof.Proof.RCarried

set_option maxRecDepth 16384
set_option maxHeartbeats 4000000

noncomputable section

namespace Cert.ReferenceIdeal.QHop0

open Cert.ReferenceIdeal Cert.ReferenceIdeal.Gen Cert.ReferenceIdeal.RunC Cert.ReferenceIdeal.RChain
open Idealize.ShloMosaic Idealize.ShloMosaic.TcCoe Idealize.SL.Sem Idealize.ShloMosaic.StableHlo

variable (m : (ℓ : Loc nD τ sig) → Buf (Elt Ideal) ℓ) (c : Dev nD)

/-- What the one-pass reading leaves inside a concatenate's operand list, finished by rewriting: each operation's result at
    its own buffer is its function's value, at any other buffer what was there. -/
macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-- The carried facts after the hop. -/
theorem carried : RC m c (Q1 m c) where
    src := by show StableHlo.after ch0 (Q0 m c) (Proc.devRef .tc main_v1) = _; after_results_simp <;> rfl
    dst := by show StableHlo.after ch0 (Q0 m c) (Proc.devRef .tc main_v3) = _; after_results_simp <;> rfl
    iota := by show StableHlo.after ch0 (Q0 m c) (Proc.devRef .tc main_v4) = _; after_results_simp <;> rfl
    h0 := by show StableHlo.after ch0 (Q0 m c) (Proc.devRef .tc main_arg0) = _; after_results_simp <;> rfl
    h2 := by show StableHlo.after ch0 (Q0 m c) (Proc.devRef .tc main_arg2) = _; after_results_simp <;> rfl
    h3 := by show StableHlo.after ch0 (Q0 m c) (Proc.devRef .tc main_arg3) = _; after_results_simp <;> rfl
    h4 := by show StableHlo.after ch0 (Q0 m c) (Proc.devRef .tc main_arg4) = _; after_results_simp <;> rfl
    h5 := by show StableHlo.after ch0 (Q0 m c) (Proc.devRef .tc main_arg5) = _; after_results_simp <;> rfl
    h6 := by show StableHlo.after ch0 (Q0 m c) (Proc.devRef .tc main_arg6) = _; after_results_simp <;> rfl
    h7 := by show StableHlo.after ch0 (Q0 m c) (Proc.devRef .tc main_arg7) = _; after_results_simp <;> rfl
    h8 := by show StableHlo.after ch0 (Q0 m c) (Proc.devRef .tc main_arg8) = _; after_results_simp <;> rfl
    h9 := by show StableHlo.after ch0 (Q0 m c) (Proc.devRef .tc main_arg9) = _; after_results_simp <;> rfl
    h10 := by show StableHlo.after ch0 (Q0 m c) (Proc.devRef .tc main_arg10) = _; after_results_simp <;> rfl
    h11 := by show StableHlo.after ch0 (Q0 m c) (Proc.devRef .tc main_arg11) = _; after_results_simp <;> rfl
    h12 := by show StableHlo.after ch0 (Q0 m c) (Proc.devRef .tc main_arg12) = _; after_results_simp <;> rfl
    h13 := by show StableHlo.after ch0 (Q0 m c) (Proc.devRef .tc main_arg13) = _; after_results_simp <;> rfl
    h14 := by show StableHlo.after ch0 (Q0 m c) (Proc.devRef .tc main_arg14) = _; after_results_simp <;> rfl
    h15 := by show StableHlo.after ch0 (Q0 m c) (Proc.devRef .tc main_arg15) = _; after_results_simp <;> rfl
    h16 := by show StableHlo.after ch0 (Q0 m c) (Proc.devRef .tc main_arg16) = _; after_results_simp <;> rfl
    h17 := by show StableHlo.after ch0 (Q0 m c) (Proc.devRef .tc main_arg17) = _; after_results_simp <;> rfl
    h18 := by show StableHlo.after ch0 (Q0 m c) (Proc.devRef .tc main_arg18) = _; after_results_simp <;> rfl

/-- The concatenated bond-feature indices (feature id beside the bond attribute, for every edge and feature) after the
    hop are their stage of the arguments. What the one-pass reading leaves inside the concatenate's operand list is
    finished by rewriting. -/
theorem cc' :
    Q1 m c (Proc.devRef .tc main_v20) = (Cert.ReferenceIdeal.ReadP.val_main_v20 (F := Ideal) (b2 m c)) := by
  show StableHlo.after ch0 (Q0 m c) (Proc.devRef .tc main_v20) = _
  after_results_simp
  results_rw
  try simp only [TRef.ofBuf, TRef.toBuf, cast_eq]
  rfl

end Cert.ReferenceIdeal.QHop0

end
-- ==== Proof.QHop1.lean ====
/-
  Hop 1 of the reference's operations — the second hop of layer 0 (the embedding lookup and its sum over the three features, the gathered source features, the rectified messages, their scatter-add, and the layer's dense transform) — read back: what it computes for the
  later hops is the stage of the arguments that the stage functions name, and what the later hops read is kept.
-/
import proofs.«180497_j12352325943908_1_alg».proof.Proof.RCarried

set_option maxRecDepth 16384
set_option maxHeartbeats 4000000

noncomputable section

namespace Cert.ReferenceIdeal.QHop1

open Cert.ReferenceIdeal Cert.ReferenceIdeal.Gen Cert.ReferenceIdeal.RunC Cert.ReferenceIdeal.RChain
open Idealize.ShloMosaic Idealize.ShloMosaic.TcCoe Idealize.SL.Sem Idealize.ShloMosaic.StableHlo

variable (m : (ℓ : Loc nD τ sig) → Buf (Elt Ideal) ℓ) (c : Dev nD)

/-- The carried facts after the hop. -/
theorem carried (hc : RC m c (Q1 m c)) : RC m c (Q2 m c) where
    src := (show StableHlo.after ch2 (StableHlo.after ch1 (Q1 m c)) (Proc.devRef .tc main_v1) = Q1 m c (Proc.devRef .tc main_v1) by after_results_simp).trans hc.src
    dst := (show StableHlo.after ch2 (StableHlo.after ch1 (Q1 m c)) (Proc.devRef .tc main_v3) = Q1 m c (Proc.devRef .tc main_v3) by after_results_simp).trans hc.dst
    iota := (show StableHlo.after ch2 (StableHlo.after ch1 (Q1 m c)) (Proc.devRef .tc main_v4) = Q1 m c (Proc.devRef .tc main_v4) by after_results_simp).trans hc.iota
    h0 := (show StableHlo.after ch2 (StableHlo.after ch1 (Q1 m c)) (Proc.devRef .tc main_arg0) = Q1 m c (Proc.devRef .tc main_arg0) by after_results_simp).trans hc.h0
    h2 := (show StableHlo.after ch2 (StableHlo.after ch1 (Q1 m c)) (Proc.devRef .tc main_arg2) = Q1 m c (Proc.devRef .tc main_arg2) by after_results_simp).trans hc.h2
    h3 := (show StableHlo.after ch2 (StableHlo.after ch1 (Q1 m c)) (Proc.devRef .tc main_arg3) = Q1 m c (Proc.devRef .tc main_arg3) by after_results_simp).trans hc.h3
    h4 := (show StableHlo.after ch2 (StableHlo.after ch1 (Q1 m c)) (Proc.devRef .tc main_arg4) = Q1 m c (Proc.devRef .tc main_arg4) by after_results_simp).trans hc.h4
    h5 := (show StableHlo.after ch2 (StableHlo.after ch1 (Q1 m c)) (Proc.devRef .tc main_arg5) = Q1 m c (Proc.devRef .tc main_arg5) by after_results_simp).trans hc.h5
    h6 := (show StableHlo.after ch2 (StableHlo.after ch1 (Q1 m c)) (Proc.devRef .tc main_arg6) = Q1 m c (Proc.devRef .tc main_arg6) by after_results_simp).trans hc.h6
    h7 := (show StableHlo.after ch2 (StableHlo.after ch1 (Q1 m c)) (Proc.devRef .tc main_arg7) = Q1 m c (Proc.devRef .tc main_arg7) by after_results_simp).trans hc.h7
    h8 := (show StableHlo.after ch2 (StableHlo.after ch1 (Q1 m c)) (Proc.devRef .tc main_arg8) = Q1 m c (Proc.devRef .tc main_arg8) by after_results_simp).trans hc.h8
    h9 := (show StableHlo.after ch2 (StableHlo.after ch1 (Q1 m c)) (Proc.devRef .tc main_arg9) = Q1 m c (Proc.devRef .tc main_arg9) by after_results_simp).trans hc.h9
    h10 := (show StableHlo.after ch2 (StableHlo.after ch1 (Q1 m c)) (Proc.devRef .tc main_arg10) = Q1 m c (Proc.devRef .tc main_arg10) by after_results_simp).trans hc.h10
    h11 := (show StableHlo.after ch2 (StableHlo.after ch1 (Q1 m c)) (Proc.devRef .tc main_arg11) = Q1 m c (Proc.devRef .tc main_arg11) by after_results_simp).trans hc.h11
    h12 := (show StableHlo.after ch2 (StableHlo.after ch1 (Q1 m c)) (Proc.devRef .tc main_arg12) = Q1 m c (Proc.devRef .tc main_arg12) by after_results_simp).trans hc.h12
    h13 := (show StableHlo.after ch2 (StableHlo.after ch1 (Q1 m c)) (Proc.devRef .tc main_arg13) = Q1 m c (Proc.devRef .tc main_arg13) by after_results_simp).trans hc.h13
    h14 := (show StableHlo.after ch2 (StableHlo.after ch1 (Q1 m c)) (Proc.devRef .tc main_arg14) = Q1 m c (Proc.devRef .tc main_arg14) by after_results_simp).trans hc.h14
    h15 := (show StableHlo.after ch2 (StableHlo.after ch1 (Q1 m c)) (Proc.devRef .tc main_arg15) = Q1 m c (Proc.devRef .tc main_arg15) by after_results_simp).trans hc.h15
    h16 := (show StableHlo.after ch2 (StableHlo.after ch1 (Q1 m c)) (Proc.devRef .tc main_arg16) = Q1 m c (Proc.devRef .tc main_arg16) by after_results_simp).trans hc.h16
    h17 := (show StableHlo.after ch2 (StableHlo.after ch1 (Q1 m c)) (Proc.devRef .tc main_arg17) = Q1 m c (Proc.devRef .tc main_arg17) by after_results_simp).trans hc.h17
    h18 := (show StableHlo.after ch2 (StableHlo.after ch1 (Q1 m c)) (Proc.devRef .tc main_arg18) = Q1 m c (Proc.devRef .tc main_arg18) by after_results_simp).trans hc.h18

/-- The layer's output buffer after the hop is its stage of the arguments. -/
theorem x' (hc : RC m c (Q1 m c))
    (hcc : Q1 m c (Proc.devRef .tc main_v20) = (Cert.ReferenceIdeal.ReadP.val_main_v20 (F := Ideal) (b2 m c))) :
    Q2 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)) := by
  show StableHlo.after ch2 (StableHlo.after ch1 (Q1 m c)) (Proc.devRef .tc main_v99) = _
  after_results_simp
  simp only [hcc, hc.src, hc.dst, hc.iota, hc.h0, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

end Cert.ReferenceIdeal.QHop1

end
-- ==== Proof.QHop2.lean ====
/-
  Hop 2 of the reference's operations — the first hop of layer 1 (the layer's bond-embedding slice and the index pairs the embedding lookup reads) — read back: what it computes for the
  later hops is the stage of the arguments that the stage functions name, and what the later hops read is kept.
-/
import proofs.«180497_j12352325943908_1_alg».proof.Proof.RCarried

set_option maxRecDepth 16384
set_option maxHeartbeats 4000000

noncomputable section

namespace Cert.ReferenceIdeal.QHop2

open Cert.ReferenceIdeal Cert.ReferenceIdeal.Gen Cert.ReferenceIdeal.RunC Cert.ReferenceIdeal.RChain
open Idealize.ShloMosaic Idealize.ShloMosaic.TcCoe Idealize.SL.Sem Idealize.ShloMosaic.StableHlo

variable (m : (ℓ : Loc nD τ sig) → Buf (Elt Ideal) ℓ) (c : Dev nD)

/-- What the one-pass reading leaves inside a concatenate's operand list, finished by rewriting: each operation's result at
    its own buffer is its function's value, at any other buffer what was there. -/
macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-- The carried facts after the hop. -/
theorem carried (hc : RC m c (Q2 m c)) : RC m c (Q3 m c) where
    src := (show StableHlo.after ch4 (StableHlo.after ch3 (Q2 m c)) (Proc.devRef .tc main_v1) = Q2 m c (Proc.devRef .tc main_v1) by after_results_simp).trans hc.src
    dst := (show StableHlo.after ch4 (StableHlo.after ch3 (Q2 m c)) (Proc.devRef .tc main_v3) = Q2 m c (Proc.devRef .tc main_v3) by after_results_simp).trans hc.dst
    iota := (show StableHlo.after ch4 (StableHlo.after ch3 (Q2 m c)) (Proc.devRef .tc main_v4) = Q2 m c (Proc.devRef .tc main_v4) by after_results_simp).trans hc.iota
    h0 := (show StableHlo.after ch4 (StableHlo.after ch3 (Q2 m c)) (Proc.devRef .tc main_arg0) = Q2 m c (Proc.devRef .tc main_arg0) by after_results_simp).trans hc.h0
    h2 := (show StableHlo.after ch4 (StableHlo.after ch3 (Q2 m c)) (Proc.devRef .tc main_arg2) = Q2 m c (Proc.devRef .tc main_arg2) by after_results_simp).trans hc.h2
    h3 := (show StableHlo.after ch4 (StableHlo.after ch3 (Q2 m c)) (Proc.devRef .tc main_arg3) = Q2 m c (Proc.devRef .tc main_arg3) by after_results_simp).trans hc.h3
    h4 := (show StableHlo.after ch4 (StableHlo.after ch3 (Q2 m c)) (Proc.devRef .tc main_arg4) = Q2 m c (Proc.devRef .tc main_arg4) by after_results_simp).trans hc.h4
    h5 := (show StableHlo.after ch4 (StableHlo.after ch3 (Q2 m c)) (Proc.devRef .tc main_arg5) = Q2 m c (Proc.devRef .tc main_arg5) by after_results_simp).trans hc.h5
    h6 := (show StableHlo.after ch4 (StableHlo.after ch3 (Q2 m c)) (Proc.devRef .tc main_arg6) = Q2 m c (Proc.devRef .tc main_arg6) by after_results_simp).trans hc.h6
    h7 := (show StableHlo.after ch4 (StableHlo.after ch3 (Q2 m c)) (Proc.devRef .tc main_arg7) = Q2 m c (Proc.devRef .tc main_arg7) by after_results_simp).trans hc.h7
    h8 := (show StableHlo.after ch4 (StableHlo.after ch3 (Q2 m c)) (Proc.devRef .tc main_arg8) = Q2 m c (Proc.devRef .tc main_arg8) by after_results_simp).trans hc.h8
    h9 := (show StableHlo.after ch4 (StableHlo.after ch3 (Q2 m c)) (Proc.devRef .tc main_arg9) = Q2 m c (Proc.devRef .tc main_arg9) by after_results_simp).trans hc.h9
    h10 := (show StableHlo.after ch4 (StableHlo.after ch3 (Q2 m c)) (Proc.devRef .tc main_arg10) = Q2 m c (Proc.devRef .tc main_arg10) by after_results_simp).trans hc.h10
    h11 := (show StableHlo.after ch4 (StableHlo.after ch3 (Q2 m c)) (Proc.devRef .tc main_arg11) = Q2 m c (Proc.devRef .tc main_arg11) by after_results_simp).trans hc.h11
    h12 := (show StableHlo.after ch4 (StableHlo.after ch3 (Q2 m c)) (Proc.devRef .tc main_arg12) = Q2 m c (Proc.devRef .tc main_arg12) by after_results_simp).trans hc.h12
    h13 := (show StableHlo.after ch4 (StableHlo.after ch3 (Q2 m c)) (Proc.devRef .tc main_arg13) = Q2 m c (Proc.devRef .tc main_arg13) by after_results_simp).trans hc.h13
    h14 := (show StableHlo.after ch4 (StableHlo.after ch3 (Q2 m c)) (Proc.devRef .tc main_arg14) = Q2 m c (Proc.devRef .tc main_arg14) by after_results_simp).trans hc.h14
    h15 := (show StableHlo.after ch4 (StableHlo.after ch3 (Q2 m c)) (Proc.devRef .tc main_arg15) = Q2 m c (Proc.devRef .tc main_arg15) by after_results_simp).trans hc.h15
    h16 := (show StableHlo.after ch4 (StableHlo.after ch3 (Q2 m c)) (Proc.devRef .tc main_arg16) = Q2 m c (Proc.devRef .tc main_arg16) by after_results_simp).trans hc.h16
    h17 := (show StableHlo.after ch4 (StableHlo.after ch3 (Q2 m c)) (Proc.devRef .tc main_arg17) = Q2 m c (Proc.devRef .tc main_arg17) by after_results_simp).trans hc.h17
    h18 := (show StableHlo.after ch4 (StableHlo.after ch3 (Q2 m c)) (Proc.devRef .tc main_arg18) = Q2 m c (Proc.devRef .tc main_arg18) by after_results_simp).trans hc.h18

/-- A layer output computed earlier is kept by this hop. -/
theorem keep_hx1 (hc : RC m c (Q2 m c))
    (hx1 : Q2 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c))) :
    Q3 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)) :=
  (show StableHlo.after ch4 (StableHlo.after ch3 (Q2 m c)) (Proc.devRef .tc main_v99) = Q2 m c (Proc.devRef .tc main_v99) by after_results_simp).trans hx1

/-- The concatenated bond-feature indices (feature id beside the bond attribute, for every edge and feature) after the
    hop are their stage of the arguments. What the one-pass reading leaves inside the concatenate's operand list is
    finished by rewriting. -/
theorem cc' (hc : RC m c (Q2 m c))
    (hx1 : Q2 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c))) :
    Q3 m c (Proc.devRef .tc main_v115) = (Cert.ReferenceIdeal.ReadP.val_main_v115 (F := Ideal) (b2 m c)) := by
  show StableHlo.after ch4 (StableHlo.after ch3 (Q2 m c)) (Proc.devRef .tc main_v115) = _
  after_results_simp
  results_rw
  rw [hc.iota, hc.h2]
  try simp only [TRef.ofBuf, TRef.toBuf, cast_eq]
  rfl

end Cert.ReferenceIdeal.QHop2

end
-- ==== Proof.QHop3.lean ====
/-
  Hop 3 of the reference's operations — the second hop of layer 1 (the embedding lookup and its sum over the three features, the gathered source features, the rectified messages, their scatter-add, and the layer's dense transform) — read back: what it computes for the
  later hops is the stage of the arguments that the stage functions name, and what the later hops read is kept.
-/
import proofs.«180497_j12352325943908_1_alg».proof.Proof.RCarried

set_option maxRecDepth 16384
set_option maxHeartbeats 4000000

noncomputable section

namespace Cert.ReferenceIdeal.QHop3

open Cert.ReferenceIdeal Cert.ReferenceIdeal.Gen Cert.ReferenceIdeal.RunC Cert.ReferenceIdeal.RChain
open Idealize.ShloMosaic Idealize.ShloMosaic.TcCoe Idealize.SL.Sem Idealize.ShloMosaic.StableHlo

variable (m : (ℓ : Loc nD τ sig) → Buf (Elt Ideal) ℓ) (c : Dev nD)

/-- The carried facts after the hop. -/
theorem carried (hc : RC m c (Q3 m c)) : RC m c (Q4 m c) where
    src := (show StableHlo.after ch6 (StableHlo.after ch5 (Q3 m c)) (Proc.devRef .tc main_v1) = Q3 m c (Proc.devRef .tc main_v1) by after_results_simp).trans hc.src
    dst := (show StableHlo.after ch6 (StableHlo.after ch5 (Q3 m c)) (Proc.devRef .tc main_v3) = Q3 m c (Proc.devRef .tc main_v3) by after_results_simp).trans hc.dst
    iota := (show StableHlo.after ch6 (StableHlo.after ch5 (Q3 m c)) (Proc.devRef .tc main_v4) = Q3 m c (Proc.devRef .tc main_v4) by after_results_simp).trans hc.iota
    h0 := (show StableHlo.after ch6 (StableHlo.after ch5 (Q3 m c)) (Proc.devRef .tc main_arg0) = Q3 m c (Proc.devRef .tc main_arg0) by after_results_simp).trans hc.h0
    h2 := (show StableHlo.after ch6 (StableHlo.after ch5 (Q3 m c)) (Proc.devRef .tc main_arg2) = Q3 m c (Proc.devRef .tc main_arg2) by after_results_simp).trans hc.h2
    h3 := (show StableHlo.after ch6 (StableHlo.after ch5 (Q3 m c)) (Proc.devRef .tc main_arg3) = Q3 m c (Proc.devRef .tc main_arg3) by after_results_simp).trans hc.h3
    h4 := (show StableHlo.after ch6 (StableHlo.after ch5 (Q3 m c)) (Proc.devRef .tc main_arg4) = Q3 m c (Proc.devRef .tc main_arg4) by after_results_simp).trans hc.h4
    h5 := (show StableHlo.after ch6 (StableHlo.after ch5 (Q3 m c)) (Proc.devRef .tc main_arg5) = Q3 m c (Proc.devRef .tc main_arg5) by after_results_simp).trans hc.h5
    h6 := (show StableHlo.after ch6 (StableHlo.after ch5 (Q3 m c)) (Proc.devRef .tc main_arg6) = Q3 m c (Proc.devRef .tc main_arg6) by after_results_simp).trans hc.h6
    h7 := (show StableHlo.after ch6 (StableHlo.after ch5 (Q3 m c)) (Proc.devRef .tc main_arg7) = Q3 m c (Proc.devRef .tc main_arg7) by after_results_simp).trans hc.h7
    h8 := (show StableHlo.after ch6 (StableHlo.after ch5 (Q3 m c)) (Proc.devRef .tc main_arg8) = Q3 m c (Proc.devRef .tc main_arg8) by after_results_simp).trans hc.h8
    h9 := (show StableHlo.after ch6 (StableHlo.after ch5 (Q3 m c)) (Proc.devRef .tc main_arg9) = Q3 m c (Proc.devRef .tc main_arg9) by after_results_simp).trans hc.h9
    h10 := (show StableHlo.after ch6 (StableHlo.after ch5 (Q3 m c)) (Proc.devRef .tc main_arg10) = Q3 m c (Proc.devRef .tc main_arg10) by after_results_simp).trans hc.h10
    h11 := (show StableHlo.after ch6 (StableHlo.after ch5 (Q3 m c)) (Proc.devRef .tc main_arg11) = Q3 m c (Proc.devRef .tc main_arg11) by after_results_simp).trans hc.h11
    h12 := (show StableHlo.after ch6 (StableHlo.after ch5 (Q3 m c)) (Proc.devRef .tc main_arg12) = Q3 m c (Proc.devRef .tc main_arg12) by after_results_simp).trans hc.h12
    h13 := (show StableHlo.after ch6 (StableHlo.after ch5 (Q3 m c)) (Proc.devRef .tc main_arg13) = Q3 m c (Proc.devRef .tc main_arg13) by after_results_simp).trans hc.h13
    h14 := (show StableHlo.after ch6 (StableHlo.after ch5 (Q3 m c)) (Proc.devRef .tc main_arg14) = Q3 m c (Proc.devRef .tc main_arg14) by after_results_simp).trans hc.h14
    h15 := (show StableHlo.after ch6 (StableHlo.after ch5 (Q3 m c)) (Proc.devRef .tc main_arg15) = Q3 m c (Proc.devRef .tc main_arg15) by after_results_simp).trans hc.h15
    h16 := (show StableHlo.after ch6 (StableHlo.after ch5 (Q3 m c)) (Proc.devRef .tc main_arg16) = Q3 m c (Proc.devRef .tc main_arg16) by after_results_simp).trans hc.h16
    h17 := (show StableHlo.after ch6 (StableHlo.after ch5 (Q3 m c)) (Proc.devRef .tc main_arg17) = Q3 m c (Proc.devRef .tc main_arg17) by after_results_simp).trans hc.h17
    h18 := (show StableHlo.after ch6 (StableHlo.after ch5 (Q3 m c)) (Proc.devRef .tc main_arg18) = Q3 m c (Proc.devRef .tc main_arg18) by after_results_simp).trans hc.h18

/-- A layer output computed earlier is kept by this hop. -/
theorem keep_hx1 (hc : RC m c (Q3 m c))
    (hx1 : Q3 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hcc : Q3 m c (Proc.devRef .tc main_v115) = (Cert.ReferenceIdeal.ReadP.val_main_v115 (F := Ideal) (b2 m c))) :
    Q4 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)) :=
  (show StableHlo.after ch6 (StableHlo.after ch5 (Q3 m c)) (Proc.devRef .tc main_v99) = Q3 m c (Proc.devRef .tc main_v99) by after_results_simp).trans hx1

/-- The layer's output buffer after the hop is its stage of the arguments. -/
theorem x' (hc : RC m c (Q3 m c))
    (hx1 : Q3 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hcc : Q3 m c (Proc.devRef .tc main_v115) = (Cert.ReferenceIdeal.ReadP.val_main_v115 (F := Ideal) (b2 m c))) :
    Q4 m c (Proc.devRef .tc main_v194) = (Cert.ReferenceIdeal.ReadP.val_main_v194 (F := Ideal) (b0 m c) (b1 m c) (b2 m c) (b4 m c) (b5 m c) (b6 m c) (b7 m c) (b8 m c) (b9 m c) (b10 m c) (b11 m c) (b12 m c) (b13 m c) (b14 m c) (b15 m c) (b16 m c)) := by
  show StableHlo.after ch6 (StableHlo.after ch5 (Q3 m c)) (Proc.devRef .tc main_v194) = _
  after_results_simp
  simp only [hx1, hcc, hc.src, hc.dst, hc.iota, hc.h0, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

end Cert.ReferenceIdeal.QHop3

end
-- ==== Proof.QHop4.lean ====
/-
  Hop 4 of the reference's operations — the first hop of layer 2 (the layer's bond-embedding slice and the index pairs the embedding lookup reads) — read back: what it computes for the
  later hops is the stage of the arguments that the stage functions name, and what the later hops read is kept.
-/
import proofs.«180497_j12352325943908_1_alg».proof.Proof.RCarried

set_option maxRecDepth 16384
set_option maxHeartbeats 4000000

noncomputable section

namespace Cert.ReferenceIdeal.QHop4

open Cert.ReferenceIdeal Cert.ReferenceIdeal.Gen Cert.ReferenceIdeal.RunC Cert.ReferenceIdeal.RChain
open Idealize.ShloMosaic Idealize.ShloMosaic.TcCoe Idealize.SL.Sem Idealize.ShloMosaic.StableHlo

variable (m : (ℓ : Loc nD τ sig) → Buf (Elt Ideal) ℓ) (c : Dev nD)

/-- What the one-pass reading leaves inside a concatenate's operand list, finished by rewriting: each operation's result at
    its own buffer is its function's value, at any other buffer what was there. -/
macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-- The carried facts after the hop. -/
theorem carried (hc : RC m c (Q4 m c)) : RC m c (Q5 m c) where
    src := (show StableHlo.after ch7 (Q4 m c) (Proc.devRef .tc main_v1) = Q4 m c (Proc.devRef .tc main_v1) by after_results_simp).trans hc.src
    dst := (show StableHlo.after ch7 (Q4 m c) (Proc.devRef .tc main_v3) = Q4 m c (Proc.devRef .tc main_v3) by after_results_simp).trans hc.dst
    iota := (show StableHlo.after ch7 (Q4 m c) (Proc.devRef .tc main_v4) = Q4 m c (Proc.devRef .tc main_v4) by after_results_simp).trans hc.iota
    h0 := (show StableHlo.after ch7 (Q4 m c) (Proc.devRef .tc main_arg0) = Q4 m c (Proc.devRef .tc main_arg0) by after_results_simp).trans hc.h0
    h2 := (show StableHlo.after ch7 (Q4 m c) (Proc.devRef .tc main_arg2) = Q4 m c (Proc.devRef .tc main_arg2) by after_results_simp).trans hc.h2
    h3 := (show StableHlo.after ch7 (Q4 m c) (Proc.devRef .tc main_arg3) = Q4 m c (Proc.devRef .tc main_arg3) by after_results_simp).trans hc.h3
    h4 := (show StableHlo.after ch7 (Q4 m c) (Proc.devRef .tc main_arg4) = Q4 m c (Proc.devRef .tc main_arg4) by after_results_simp).trans hc.h4
    h5 := (show StableHlo.after ch7 (Q4 m c) (Proc.devRef .tc main_arg5) = Q4 m c (Proc.devRef .tc main_arg5) by after_results_simp).trans hc.h5
    h6 := (show StableHlo.after ch7 (Q4 m c) (Proc.devRef .tc main_arg6) = Q4 m c (Proc.devRef .tc main_arg6) by after_results_simp).trans hc.h6
    h7 := (show StableHlo.after ch7 (Q4 m c) (Proc.devRef .tc main_arg7) = Q4 m c (Proc.devRef .tc main_arg7) by after_results_simp).trans hc.h7
    h8 := (show StableHlo.after ch7 (Q4 m c) (Proc.devRef .tc main_arg8) = Q4 m c (Proc.devRef .tc main_arg8) by after_results_simp).trans hc.h8
    h9 := (show StableHlo.after ch7 (Q4 m c) (Proc.devRef .tc main_arg9) = Q4 m c (Proc.devRef .tc main_arg9) by after_results_simp).trans hc.h9
    h10 := (show StableHlo.after ch7 (Q4 m c) (Proc.devRef .tc main_arg10) = Q4 m c (Proc.devRef .tc main_arg10) by after_results_simp).trans hc.h10
    h11 := (show StableHlo.after ch7 (Q4 m c) (Proc.devRef .tc main_arg11) = Q4 m c (Proc.devRef .tc main_arg11) by after_results_simp).trans hc.h11
    h12 := (show StableHlo.after ch7 (Q4 m c) (Proc.devRef .tc main_arg12) = Q4 m c (Proc.devRef .tc main_arg12) by after_results_simp).trans hc.h12
    h13 := (show StableHlo.after ch7 (Q4 m c) (Proc.devRef .tc main_arg13) = Q4 m c (Proc.devRef .tc main_arg13) by after_results_simp).trans hc.h13
    h14 := (show StableHlo.after ch7 (Q4 m c) (Proc.devRef .tc main_arg14) = Q4 m c (Proc.devRef .tc main_arg14) by after_results_simp).trans hc.h14
    h15 := (show StableHlo.after ch7 (Q4 m c) (Proc.devRef .tc main_arg15) = Q4 m c (Proc.devRef .tc main_arg15) by after_results_simp).trans hc.h15
    h16 := (show StableHlo.after ch7 (Q4 m c) (Proc.devRef .tc main_arg16) = Q4 m c (Proc.devRef .tc main_arg16) by after_results_simp).trans hc.h16
    h17 := (show StableHlo.after ch7 (Q4 m c) (Proc.devRef .tc main_arg17) = Q4 m c (Proc.devRef .tc main_arg17) by after_results_simp).trans hc.h17
    h18 := (show StableHlo.after ch7 (Q4 m c) (Proc.devRef .tc main_arg18) = Q4 m c (Proc.devRef .tc main_arg18) by after_results_simp).trans hc.h18

/-- A layer output computed earlier is kept by this hop. -/
theorem keep_hx1 (hc : RC m c (Q4 m c))
    (hx1 : Q4 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx2 : Q4 m c (Proc.devRef .tc main_v194) = (Cert.ReferenceIdeal.ReadP.val_main_v194 (F := Ideal) (b0 m c) (b1 m c) (b2 m c) (b4 m c) (b5 m c) (b6 m c) (b7 m c) (b8 m c) (b9 m c) (b10 m c) (b11 m c) (b12 m c) (b13 m c) (b14 m c) (b15 m c) (b16 m c))) :
    Q5 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)) :=
  (show StableHlo.after ch7 (Q4 m c) (Proc.devRef .tc main_v99) = Q4 m c (Proc.devRef .tc main_v99) by after_results_simp).trans hx1

/-- A layer output computed earlier is kept by this hop. -/
theorem keep_hx2 (hc : RC m c (Q4 m c))
    (hx1 : Q4 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx2 : Q4 m c (Proc.devRef .tc main_v194) = (Cert.ReferenceIdeal.ReadP.val_main_v194 (F := Ideal) (b0 m c) (b1 m c) (b2 m c) (b4 m c) (b5 m c) (b6 m c) (b7 m c) (b8 m c) (b9 m c) (b10 m c) (b11 m c) (b12 m c) (b13 m c) (b14 m c) (b15 m c) (b16 m c))) :
    Q5 m c (Proc.devRef .tc main_v194) = (Cert.ReferenceIdeal.ReadP.val_main_v194 (F := Ideal) (b0 m c) (b1 m c) (b2 m c) (b4 m c) (b5 m c) (b6 m c) (b7 m c) (b8 m c) (b9 m c) (b10 m c) (b11 m c) (b12 m c) (b13 m c) (b14 m c) (b15 m c) (b16 m c)) :=
  (show StableHlo.after ch7 (Q4 m c) (Proc.devRef .tc main_v194) = Q4 m c (Proc.devRef .tc main_v194) by after_results_simp).trans hx2

/-- The concatenated bond-feature indices (feature id beside the bond attribute, for every edge and feature) after the
    hop are their stage of the arguments. What the one-pass reading leaves inside the concatenate's operand list is
    finished by rewriting. -/
theorem cc' (hc : RC m c (Q4 m c))
    (hx1 : Q4 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx2 : Q4 m c (Proc.devRef .tc main_v194) = (Cert.ReferenceIdeal.ReadP.val_main_v194 (F := Ideal) (b0 m c) (b1 m c) (b2 m c) (b4 m c) (b5 m c) (b6 m c) (b7 m c) (b8 m c) (b9 m c) (b10 m c) (b11 m c) (b12 m c) (b13 m c) (b14 m c) (b15 m c) (b16 m c))) :
    Q5 m c (Proc.devRef .tc main_v210) = (Cert.ReferenceIdeal.ReadP.val_main_v210 (F := Ideal) (b2 m c)) := by
  show StableHlo.after ch7 (Q4 m c) (Proc.devRef .tc main_v210) = _
  after_results_simp
  results_rw
  rw [hc.iota, hc.h2]
  try simp only [TRef.ofBuf, TRef.toBuf, cast_eq]
  rfl

end Cert.ReferenceIdeal.QHop4

end
-- ==== Proof.QHop5.lean ====
/-
  Hop 5 of the reference's operations — the second hop of layer 2 (the embedding lookup and its sum over the three features, the gathered source features, the rectified messages, their scatter-add, and the layer's dense transform) — read back: what it computes for the
  later hops is the stage of the arguments that the stage functions name, and what the later hops read is kept.
-/
import proofs.«180497_j12352325943908_1_alg».proof.Proof.RCarried

set_option maxRecDepth 16384
set_option maxHeartbeats 4000000

noncomputable section

namespace Cert.ReferenceIdeal.QHop5

open Cert.ReferenceIdeal Cert.ReferenceIdeal.Gen Cert.ReferenceIdeal.RunC Cert.ReferenceIdeal.RChain
open Idealize.ShloMosaic Idealize.ShloMosaic.TcCoe Idealize.SL.Sem Idealize.ShloMosaic.StableHlo

variable (m : (ℓ : Loc nD τ sig) → Buf (Elt Ideal) ℓ) (c : Dev nD)

/-- The carried facts after the hop. -/
theorem carried (hc : RC m c (Q5 m c)) : RC m c (Q6 m c) where
    src := (show StableHlo.after ch10 (StableHlo.after ch9 (StableHlo.after ch8 (Q5 m c))) (Proc.devRef .tc main_v1) = Q5 m c (Proc.devRef .tc main_v1) by after_results_simp).trans hc.src
    dst := (show StableHlo.after ch10 (StableHlo.after ch9 (StableHlo.after ch8 (Q5 m c))) (Proc.devRef .tc main_v3) = Q5 m c (Proc.devRef .tc main_v3) by after_results_simp).trans hc.dst
    iota := (show StableHlo.after ch10 (StableHlo.after ch9 (StableHlo.after ch8 (Q5 m c))) (Proc.devRef .tc main_v4) = Q5 m c (Proc.devRef .tc main_v4) by after_results_simp).trans hc.iota
    h0 := (show StableHlo.after ch10 (StableHlo.after ch9 (StableHlo.after ch8 (Q5 m c))) (Proc.devRef .tc main_arg0) = Q5 m c (Proc.devRef .tc main_arg0) by after_results_simp).trans hc.h0
    h2 := (show StableHlo.after ch10 (StableHlo.after ch9 (StableHlo.after ch8 (Q5 m c))) (Proc.devRef .tc main_arg2) = Q5 m c (Proc.devRef .tc main_arg2) by after_results_simp).trans hc.h2
    h3 := (show StableHlo.after ch10 (StableHlo.after ch9 (StableHlo.after ch8 (Q5 m c))) (Proc.devRef .tc main_arg3) = Q5 m c (Proc.devRef .tc main_arg3) by after_results_simp).trans hc.h3
    h4 := (show StableHlo.after ch10 (StableHlo.after ch9 (StableHlo.after ch8 (Q5 m c))) (Proc.devRef .tc main_arg4) = Q5 m c (Proc.devRef .tc main_arg4) by after_results_simp).trans hc.h4
    h5 := (show StableHlo.after ch10 (StableHlo.after ch9 (StableHlo.after ch8 (Q5 m c))) (Proc.devRef .tc main_arg5) = Q5 m c (Proc.devRef .tc main_arg5) by after_results_simp).trans hc.h5
    h6 := (show StableHlo.after ch10 (StableHlo.after ch9 (StableHlo.after ch8 (Q5 m c))) (Proc.devRef .tc main_arg6) = Q5 m c (Proc.devRef .tc main_arg6) by after_results_simp).trans hc.h6
    h7 := (show StableHlo.after ch10 (StableHlo.after ch9 (StableHlo.after ch8 (Q5 m c))) (Proc.devRef .tc main_arg7) = Q5 m c (Proc.devRef .tc main_arg7) by after_results_simp).trans hc.h7
    h8 := (show StableHlo.after ch10 (StableHlo.after ch9 (StableHlo.after ch8 (Q5 m c))) (Proc.devRef .tc main_arg8) = Q5 m c (Proc.devRef .tc main_arg8) by after_results_simp).trans hc.h8
    h9 := (show StableHlo.after ch10 (StableHlo.after ch9 (StableHlo.after ch8 (Q5 m c))) (Proc.devRef .tc main_arg9) = Q5 m c (Proc.devRef .tc main_arg9) by after_results_simp).trans hc.h9
    h10 := (show StableHlo.after ch10 (StableHlo.after ch9 (StableHlo.after ch8 (Q5 m c))) (Proc.devRef .tc main_arg10) = Q5 m c (Proc.devRef .tc main_arg10) by after_results_simp).trans hc.h10
    h11 := (show StableHlo.after ch10 (StableHlo.after ch9 (StableHlo.after ch8 (Q5 m c))) (Proc.devRef .tc main_arg11) = Q5 m c (Proc.devRef .tc main_arg11) by after_results_simp).trans hc.h11
    h12 := (show StableHlo.after ch10 (StableHlo.after ch9 (StableHlo.after ch8 (Q5 m c))) (Proc.devRef .tc main_arg12) = Q5 m c (Proc.devRef .tc main_arg12) by after_results_simp).trans hc.h12
    h13 := (show StableHlo.after ch10 (StableHlo.after ch9 (StableHlo.after ch8 (Q5 m c))) (Proc.devRef .tc main_arg13) = Q5 m c (Proc.devRef .tc main_arg13) by after_results_simp).trans hc.h13
    h14 := (show StableHlo.after ch10 (StableHlo.after ch9 (StableHlo.after ch8 (Q5 m c))) (Proc.devRef .tc main_arg14) = Q5 m c (Proc.devRef .tc main_arg14) by after_results_simp).trans hc.h14
    h15 := (show StableHlo.after ch10 (StableHlo.after ch9 (StableHlo.after ch8 (Q5 m c))) (Proc.devRef .tc main_arg15) = Q5 m c (Proc.devRef .tc main_arg15) by after_results_simp).trans hc.h15
    h16 := (show StableHlo.after ch10 (StableHlo.after ch9 (StableHlo.after ch8 (Q5 m c))) (Proc.devRef .tc main_arg16) = Q5 m c (Proc.devRef .tc main_arg16) by after_results_simp).trans hc.h16
    h17 := (show StableHlo.after ch10 (StableHlo.after ch9 (StableHlo.after ch8 (Q5 m c))) (Proc.devRef .tc main_arg17) = Q5 m c (Proc.devRef .tc main_arg17) by after_results_simp).trans hc.h17
    h18 := (show StableHlo.after ch10 (StableHlo.after ch9 (StableHlo.after ch8 (Q5 m c))) (Proc.devRef .tc main_arg18) = Q5 m c (Proc.devRef .tc main_arg18) by after_results_simp).trans hc.h18

/-- A layer output computed earlier is kept by this hop. -/
theorem keep_hx1 (hc : RC m c (Q5 m c))
    (hx1 : Q5 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx2 : Q5 m c (Proc.devRef .tc main_v194) = (Cert.ReferenceIdeal.ReadP.val_main_v194 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hcc : Q5 m c (Proc.devRef .tc main_v210) = (Cert.ReferenceIdeal.ReadP.val_main_v210 (F := Ideal) (b2 m c))) :
    Q6 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)) :=
  (show StableHlo.after ch10 (StableHlo.after ch9 (StableHlo.after ch8 (Q5 m c))) (Proc.devRef .tc main_v99) = Q5 m c (Proc.devRef .tc main_v99) by after_results_simp).trans hx1

/-- A layer output computed earlier is kept by this hop. -/
theorem keep_hx2 (hc : RC m c (Q5 m c))
    (hx1 : Q5 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx2 : Q5 m c (Proc.devRef .tc main_v194) = (Cert.ReferenceIdeal.ReadP.val_main_v194 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hcc : Q5 m c (Proc.devRef .tc main_v210) = (Cert.ReferenceIdeal.ReadP.val_main_v210 (F := Ideal) (b2 m c))) :
    Q6 m c (Proc.devRef .tc main_v194) = (Cert.ReferenceIdeal.ReadP.val_main_v194 (F := Ideal) (b0 m c) (b1 m c) (b2 m c) (b4 m c) (b5 m c) (b6 m c) (b7 m c) (b8 m c) (b9 m c) (b10 m c) (b11 m c) (b12 m c) (b13 m c) (b14 m c) (b15 m c) (b16 m c)) :=
  (show StableHlo.after ch10 (StableHlo.after ch9 (StableHlo.after ch8 (Q5 m c))) (Proc.devRef .tc main_v194) = Q5 m c (Proc.devRef .tc main_v194) by after_results_simp).trans hx2

/-- The layer's output buffer after the hop is its stage of the arguments. -/
theorem x' (hc : RC m c (Q5 m c))
    (hx1 : Q5 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx2 : Q5 m c (Proc.devRef .tc main_v194) = (Cert.ReferenceIdeal.ReadP.val_main_v194 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hcc : Q5 m c (Proc.devRef .tc main_v210) = (Cert.ReferenceIdeal.ReadP.val_main_v210 (F := Ideal) (b2 m c))) :
    Q6 m c (Proc.devRef .tc main_v289) = (Cert.ReferenceIdeal.ReadP.val_main_v289 (F := Ideal) (b0 m c) (b1 m c) (b2 m c) (b4 m c) (b5 m c) (b6 m c) (b7 m c) (b8 m c) (b9 m c) (b10 m c) (b11 m c) (b12 m c) (b13 m c) (b14 m c) (b15 m c) (b16 m c)) := by
  show StableHlo.after ch10 (StableHlo.after ch9 (StableHlo.after ch8 (Q5 m c))) (Proc.devRef .tc main_v289) = _
  after_results_simp
  simp only [hx1, hx2, hcc, hc.src, hc.dst, hc.iota, hc.h0, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

end Cert.ReferenceIdeal.QHop5

end
-- ==== Proof.QHop6.lean ====
/-
  Hop 6 of the reference's operations — the first hop of layer 3 (the layer's bond-embedding slice and the index pairs the embedding lookup reads) — read back: what it computes for the
  later hops is the stage of the arguments that the stage functions name, and what the later hops read is kept.
-/
import proofs.«180497_j12352325943908_1_alg».proof.Proof.RCarried

set_option maxRecDepth 16384
set_option maxHeartbeats 4000000

noncomputable section

namespace Cert.ReferenceIdeal.QHop6

open Cert.ReferenceIdeal Cert.ReferenceIdeal.Gen Cert.ReferenceIdeal.RunC Cert.ReferenceIdeal.RChain
open Idealize.ShloMosaic Idealize.ShloMosaic.TcCoe Idealize.SL.Sem Idealize.ShloMosaic.StableHlo

variable (m : (ℓ : Loc nD τ sig) → Buf (Elt Ideal) ℓ) (c : Dev nD)

/-- What the one-pass reading leaves inside a concatenate's operand list, finished by rewriting: each operation's result at
    its own buffer is its function's value, at any other buffer what was there. -/
macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-- The carried facts after the hop. -/
theorem carried (hc : RC m c (Q6 m c)) : RC m c (Q7 m c) where
    src := (show StableHlo.after ch11 (Q6 m c) (Proc.devRef .tc main_v1) = Q6 m c (Proc.devRef .tc main_v1) by after_results_simp).trans hc.src
    dst := (show StableHlo.after ch11 (Q6 m c) (Proc.devRef .tc main_v3) = Q6 m c (Proc.devRef .tc main_v3) by after_results_simp).trans hc.dst
    iota := (show StableHlo.after ch11 (Q6 m c) (Proc.devRef .tc main_v4) = Q6 m c (Proc.devRef .tc main_v4) by after_results_simp).trans hc.iota
    h0 := (show StableHlo.after ch11 (Q6 m c) (Proc.devRef .tc main_arg0) = Q6 m c (Proc.devRef .tc main_arg0) by after_results_simp).trans hc.h0
    h2 := (show StableHlo.after ch11 (Q6 m c) (Proc.devRef .tc main_arg2) = Q6 m c (Proc.devRef .tc main_arg2) by after_results_simp).trans hc.h2
    h3 := (show StableHlo.after ch11 (Q6 m c) (Proc.devRef .tc main_arg3) = Q6 m c (Proc.devRef .tc main_arg3) by after_results_simp).trans hc.h3
    h4 := (show StableHlo.after ch11 (Q6 m c) (Proc.devRef .tc main_arg4) = Q6 m c (Proc.devRef .tc main_arg4) by after_results_simp).trans hc.h4
    h5 := (show StableHlo.after ch11 (Q6 m c) (Proc.devRef .tc main_arg5) = Q6 m c (Proc.devRef .tc main_arg5) by after_results_simp).trans hc.h5
    h6 := (show StableHlo.after ch11 (Q6 m c) (Proc.devRef .tc main_arg6) = Q6 m c (Proc.devRef .tc main_arg6) by after_results_simp).trans hc.h6
    h7 := (show StableHlo.after ch11 (Q6 m c) (Proc.devRef .tc main_arg7) = Q6 m c (Proc.devRef .tc main_arg7) by after_results_simp).trans hc.h7
    h8 := (show StableHlo.after ch11 (Q6 m c) (Proc.devRef .tc main_arg8) = Q6 m c (Proc.devRef .tc main_arg8) by after_results_simp).trans hc.h8
    h9 := (show StableHlo.after ch11 (Q6 m c) (Proc.devRef .tc main_arg9) = Q6 m c (Proc.devRef .tc main_arg9) by after_results_simp).trans hc.h9
    h10 := (show StableHlo.after ch11 (Q6 m c) (Proc.devRef .tc main_arg10) = Q6 m c (Proc.devRef .tc main_arg10) by after_results_simp).trans hc.h10
    h11 := (show StableHlo.after ch11 (Q6 m c) (Proc.devRef .tc main_arg11) = Q6 m c (Proc.devRef .tc main_arg11) by after_results_simp).trans hc.h11
    h12 := (show StableHlo.after ch11 (Q6 m c) (Proc.devRef .tc main_arg12) = Q6 m c (Proc.devRef .tc main_arg12) by after_results_simp).trans hc.h12
    h13 := (show StableHlo.after ch11 (Q6 m c) (Proc.devRef .tc main_arg13) = Q6 m c (Proc.devRef .tc main_arg13) by after_results_simp).trans hc.h13
    h14 := (show StableHlo.after ch11 (Q6 m c) (Proc.devRef .tc main_arg14) = Q6 m c (Proc.devRef .tc main_arg14) by after_results_simp).trans hc.h14
    h15 := (show StableHlo.after ch11 (Q6 m c) (Proc.devRef .tc main_arg15) = Q6 m c (Proc.devRef .tc main_arg15) by after_results_simp).trans hc.h15
    h16 := (show StableHlo.after ch11 (Q6 m c) (Proc.devRef .tc main_arg16) = Q6 m c (Proc.devRef .tc main_arg16) by after_results_simp).trans hc.h16
    h17 := (show StableHlo.after ch11 (Q6 m c) (Proc.devRef .tc main_arg17) = Q6 m c (Proc.devRef .tc main_arg17) by after_results_simp).trans hc.h17
    h18 := (show StableHlo.after ch11 (Q6 m c) (Proc.devRef .tc main_arg18) = Q6 m c (Proc.devRef .tc main_arg18) by after_results_simp).trans hc.h18

/-- A layer output computed earlier is kept by this hop. -/
theorem keep_hx1 (hc : RC m c (Q6 m c))
    (hx1 : Q6 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx2 : Q6 m c (Proc.devRef .tc main_v194) = (Cert.ReferenceIdeal.ReadP.val_main_v194 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx3 : Q6 m c (Proc.devRef .tc main_v289) = (Cert.ReferenceIdeal.ReadP.val_main_v289 (F := Ideal) (b0 m c) (b1 m c) (b2 m c) (b4 m c) (b5 m c) (b6 m c) (b7 m c) (b8 m c) (b9 m c) (b10 m c) (b11 m c) (b12 m c) (b13 m c) (b14 m c) (b15 m c) (b16 m c))) :
    Q7 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)) :=
  (show StableHlo.after ch11 (Q6 m c) (Proc.devRef .tc main_v99) = Q6 m c (Proc.devRef .tc main_v99) by after_results_simp).trans hx1

/-- A layer output computed earlier is kept by this hop. -/
theorem keep_hx2 (hc : RC m c (Q6 m c))
    (hx1 : Q6 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx2 : Q6 m c (Proc.devRef .tc main_v194) = (Cert.ReferenceIdeal.ReadP.val_main_v194 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx3 : Q6 m c (Proc.devRef .tc main_v289) = (Cert.ReferenceIdeal.ReadP.val_main_v289 (F := Ideal) (b0 m c) (b1 m c) (b2 m c) (b4 m c) (b5 m c) (b6 m c) (b7 m c) (b8 m c) (b9 m c) (b10 m c) (b11 m c) (b12 m c) (b13 m c) (b14 m c) (b15 m c) (b16 m c))) :
    Q7 m c (Proc.devRef .tc main_v194) = (Cert.ReferenceIdeal.ReadP.val_main_v194 (F := Ideal) (b0 m c) (b1 m c) (b2 m c) (b4 m c) (b5 m c) (b6 m c) (b7 m c) (b8 m c) (b9 m c) (b10 m c) (b11 m c) (b12 m c) (b13 m c) (b14 m c) (b15 m c) (b16 m c)) :=
  (show StableHlo.after ch11 (Q6 m c) (Proc.devRef .tc main_v194) = Q6 m c (Proc.devRef .tc main_v194) by after_results_simp).trans hx2

/-- A layer output computed earlier is kept by this hop. -/
theorem keep_hx3 (hc : RC m c (Q6 m c))
    (hx1 : Q6 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx2 : Q6 m c (Proc.devRef .tc main_v194) = (Cert.ReferenceIdeal.ReadP.val_main_v194 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx3 : Q6 m c (Proc.devRef .tc main_v289) = (Cert.ReferenceIdeal.ReadP.val_main_v289 (F := Ideal) (b0 m c) (b1 m c) (b2 m c) (b4 m c) (b5 m c) (b6 m c) (b7 m c) (b8 m c) (b9 m c) (b10 m c) (b11 m c) (b12 m c) (b13 m c) (b14 m c) (b15 m c) (b16 m c))) :
    Q7 m c (Proc.devRef .tc main_v289) = (Cert.ReferenceIdeal.ReadP.val_main_v289 (F := Ideal) (b0 m c) (b1 m c) (b2 m c) (b4 m c) (b5 m c) (b6 m c) (b7 m c) (b8 m c) (b9 m c) (b10 m c) (b11 m c) (b12 m c) (b13 m c) (b14 m c) (b15 m c) (b16 m c)) :=
  (show StableHlo.after ch11 (Q6 m c) (Proc.devRef .tc main_v289) = Q6 m c (Proc.devRef .tc main_v289) by after_results_simp).trans hx3

/-- The concatenated bond-feature indices (feature id beside the bond attribute, for every edge and feature) after the
    hop are their stage of the arguments. What the one-pass reading leaves inside the concatenate's operand list is
    finished by rewriting. -/
theorem cc' (hc : RC m c (Q6 m c))
    (hx1 : Q6 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx2 : Q6 m c (Proc.devRef .tc main_v194) = (Cert.ReferenceIdeal.ReadP.val_main_v194 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx3 : Q6 m c (Proc.devRef .tc main_v289) = (Cert.ReferenceIdeal.ReadP.val_main_v289 (F := Ideal) (b0 m c) (b1 m c) (b2 m c) (b4 m c) (b5 m c) (b6 m c) (b7 m c) (b8 m c) (b9 m c) (b10 m c) (b11 m c) (b12 m c) (b13 m c) (b14 m c) (b15 m c) (b16 m c))) :
    Q7 m c (Proc.devRef .tc main_v305) = (Cert.ReferenceIdeal.ReadP.val_main_v305 (F := Ideal) (b2 m c)) := by
  show StableHlo.after ch11 (Q6 m c) (Proc.devRef .tc main_v305) = _
  after_results_simp
  results_rw
  rw [hc.iota, hc.h2]
  try simp only [TRef.ofBuf, TRef.toBuf, cast_eq]
  rfl

end Cert.ReferenceIdeal.QHop6

end
-- ==== Proof.QHop7.lean ====
/-
  Hop 7 of the reference's operations — the second hop of layer 3 (the embedding lookup and its sum over the three features, the gathered source features, the rectified messages, their scatter-add, and the layer's dense transform) — read back: what it computes for the
  later hops is the stage of the arguments that the stage functions name, and what the later hops read is kept.
-/
import proofs.«180497_j12352325943908_1_alg».proof.Proof.RCarried

set_option maxRecDepth 16384
set_option maxHeartbeats 4000000

noncomputable section

namespace Cert.ReferenceIdeal.QHop7

open Cert.ReferenceIdeal Cert.ReferenceIdeal.Gen Cert.ReferenceIdeal.RunC Cert.ReferenceIdeal.RChain
open Idealize.ShloMosaic Idealize.ShloMosaic.TcCoe Idealize.SL.Sem Idealize.ShloMosaic.StableHlo

variable (m : (ℓ : Loc nD τ sig) → Buf (Elt Ideal) ℓ) (c : Dev nD)

/-- The carried facts after the hop. -/
theorem carried (hc : RC m c (Q7 m c)) : RC m c (Q8 m c) where
    src := (show StableHlo.after ch14 (StableHlo.after ch13 (StableHlo.after ch12 (Q7 m c))) (Proc.devRef .tc main_v1) = Q7 m c (Proc.devRef .tc main_v1) by after_results_simp).trans hc.src
    dst := (show StableHlo.after ch14 (StableHlo.after ch13 (StableHlo.after ch12 (Q7 m c))) (Proc.devRef .tc main_v3) = Q7 m c (Proc.devRef .tc main_v3) by after_results_simp).trans hc.dst
    iota := (show StableHlo.after ch14 (StableHlo.after ch13 (StableHlo.after ch12 (Q7 m c))) (Proc.devRef .tc main_v4) = Q7 m c (Proc.devRef .tc main_v4) by after_results_simp).trans hc.iota
    h0 := (show StableHlo.after ch14 (StableHlo.after ch13 (StableHlo.after ch12 (Q7 m c))) (Proc.devRef .tc main_arg0) = Q7 m c (Proc.devRef .tc main_arg0) by after_results_simp).trans hc.h0
    h2 := (show StableHlo.after ch14 (StableHlo.after ch13 (StableHlo.after ch12 (Q7 m c))) (Proc.devRef .tc main_arg2) = Q7 m c (Proc.devRef .tc main_arg2) by after_results_simp).trans hc.h2
    h3 := (show StableHlo.after ch14 (StableHlo.after ch13 (StableHlo.after ch12 (Q7 m c))) (Proc.devRef .tc main_arg3) = Q7 m c (Proc.devRef .tc main_arg3) by after_results_simp).trans hc.h3
    h4 := (show StableHlo.after ch14 (StableHlo.after ch13 (StableHlo.after ch12 (Q7 m c))) (Proc.devRef .tc main_arg4) = Q7 m c (Proc.devRef .tc main_arg4) by after_results_simp).trans hc.h4
    h5 := (show StableHlo.after ch14 (StableHlo.after ch13 (StableHlo.after ch12 (Q7 m c))) (Proc.devRef .tc main_arg5) = Q7 m c (Proc.devRef .tc main_arg5) by after_results_simp).trans hc.h5
    h6 := (show StableHlo.after ch14 (StableHlo.after ch13 (StableHlo.after ch12 (Q7 m c))) (Proc.devRef .tc main_arg6) = Q7 m c (Proc.devRef .tc main_arg6) by after_results_simp).trans hc.h6
    h7 := (show StableHlo.after ch14 (StableHlo.after ch13 (StableHlo.after ch12 (Q7 m c))) (Proc.devRef .tc main_arg7) = Q7 m c (Proc.devRef .tc main_arg7) by after_results_simp).trans hc.h7
    h8 := (show StableHlo.after ch14 (StableHlo.after ch13 (StableHlo.after ch12 (Q7 m c))) (Proc.devRef .tc main_arg8) = Q7 m c (Proc.devRef .tc main_arg8) by after_results_simp).trans hc.h8
    h9 := (show StableHlo.after ch14 (StableHlo.after ch13 (StableHlo.after ch12 (Q7 m c))) (Proc.devRef .tc main_arg9) = Q7 m c (Proc.devRef .tc main_arg9) by after_results_simp).trans hc.h9
    h10 := (show StableHlo.after ch14 (StableHlo.after ch13 (StableHlo.after ch12 (Q7 m c))) (Proc.devRef .tc main_arg10) = Q7 m c (Proc.devRef .tc main_arg10) by after_results_simp).trans hc.h10
    h11 := (show StableHlo.after ch14 (StableHlo.after ch13 (StableHlo.after ch12 (Q7 m c))) (Proc.devRef .tc main_arg11) = Q7 m c (Proc.devRef .tc main_arg11) by after_results_simp).trans hc.h11
    h12 := (show StableHlo.after ch14 (StableHlo.after ch13 (StableHlo.after ch12 (Q7 m c))) (Proc.devRef .tc main_arg12) = Q7 m c (Proc.devRef .tc main_arg12) by after_results_simp).trans hc.h12
    h13 := (show StableHlo.after ch14 (StableHlo.after ch13 (StableHlo.after ch12 (Q7 m c))) (Proc.devRef .tc main_arg13) = Q7 m c (Proc.devRef .tc main_arg13) by after_results_simp).trans hc.h13
    h14 := (show StableHlo.after ch14 (StableHlo.after ch13 (StableHlo.after ch12 (Q7 m c))) (Proc.devRef .tc main_arg14) = Q7 m c (Proc.devRef .tc main_arg14) by after_results_simp).trans hc.h14
    h15 := (show StableHlo.after ch14 (StableHlo.after ch13 (StableHlo.after ch12 (Q7 m c))) (Proc.devRef .tc main_arg15) = Q7 m c (Proc.devRef .tc main_arg15) by after_results_simp).trans hc.h15
    h16 := (show StableHlo.after ch14 (StableHlo.after ch13 (StableHlo.after ch12 (Q7 m c))) (Proc.devRef .tc main_arg16) = Q7 m c (Proc.devRef .tc main_arg16) by after_results_simp).trans hc.h16
    h17 := (show StableHlo.after ch14 (StableHlo.after ch13 (StableHlo.after ch12 (Q7 m c))) (Proc.devRef .tc main_arg17) = Q7 m c (Proc.devRef .tc main_arg17) by after_results_simp).trans hc.h17
    h18 := (show StableHlo.after ch14 (StableHlo.after ch13 (StableHlo.after ch12 (Q7 m c))) (Proc.devRef .tc main_arg18) = Q7 m c (Proc.devRef .tc main_arg18) by after_results_simp).trans hc.h18

/-- A layer output computed earlier is kept by this hop. -/
theorem keep_hx1 (hc : RC m c (Q7 m c))
    (hx1 : Q7 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx2 : Q7 m c (Proc.devRef .tc main_v194) = (Cert.ReferenceIdeal.ReadP.val_main_v194 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx3 : Q7 m c (Proc.devRef .tc main_v289) = (Cert.ReferenceIdeal.ReadP.val_main_v289 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hcc : Q7 m c (Proc.devRef .tc main_v305) = (Cert.ReferenceIdeal.ReadP.val_main_v305 (F := Ideal) (b2 m c))) :
    Q8 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)) :=
  (show StableHlo.after ch14 (StableHlo.after ch13 (StableHlo.after ch12 (Q7 m c))) (Proc.devRef .tc main_v99) = Q7 m c (Proc.devRef .tc main_v99) by after_results_simp).trans hx1

/-- A layer output computed earlier is kept by this hop. -/
theorem keep_hx2 (hc : RC m c (Q7 m c))
    (hx1 : Q7 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx2 : Q7 m c (Proc.devRef .tc main_v194) = (Cert.ReferenceIdeal.ReadP.val_main_v194 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx3 : Q7 m c (Proc.devRef .tc main_v289) = (Cert.ReferenceIdeal.ReadP.val_main_v289 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hcc : Q7 m c (Proc.devRef .tc main_v305) = (Cert.ReferenceIdeal.ReadP.val_main_v305 (F := Ideal) (b2 m c))) :
    Q8 m c (Proc.devRef .tc main_v194) = (Cert.ReferenceIdeal.ReadP.val_main_v194 (F := Ideal) (b0 m c) (b1 m c) (b2 m c) (b4 m c) (b5 m c) (b6 m c) (b7 m c) (b8 m c) (b9 m c) (b10 m c) (b11 m c) (b12 m c) (b13 m c) (b14 m c) (b15 m c) (b16 m c)) :=
  (show StableHlo.after ch14 (StableHlo.after ch13 (StableHlo.after ch12 (Q7 m c))) (Proc.devRef .tc main_v194) = Q7 m c (Proc.devRef .tc main_v194) by after_results_simp).trans hx2

/-- A layer output computed earlier is kept by this hop. -/
theorem keep_hx3 (hc : RC m c (Q7 m c))
    (hx1 : Q7 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx2 : Q7 m c (Proc.devRef .tc main_v194) = (Cert.ReferenceIdeal.ReadP.val_main_v194 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx3 : Q7 m c (Proc.devRef .tc main_v289) = (Cert.ReferenceIdeal.ReadP.val_main_v289 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hcc : Q7 m c (Proc.devRef .tc main_v305) = (Cert.ReferenceIdeal.ReadP.val_main_v305 (F := Ideal) (b2 m c))) :
    Q8 m c (Proc.devRef .tc main_v289) = (Cert.ReferenceIdeal.ReadP.val_main_v289 (F := Ideal) (b0 m c) (b1 m c) (b2 m c) (b4 m c) (b5 m c) (b6 m c) (b7 m c) (b8 m c) (b9 m c) (b10 m c) (b11 m c) (b12 m c) (b13 m c) (b14 m c) (b15 m c) (b16 m c)) :=
  (show StableHlo.after ch14 (StableHlo.after ch13 (StableHlo.after ch12 (Q7 m c))) (Proc.devRef .tc main_v289) = Q7 m c (Proc.devRef .tc main_v289) by after_results_simp).trans hx3

/-- The layer's output buffer after the hop is its stage of the arguments. -/
theorem x' (hc : RC m c (Q7 m c))
    (hx1 : Q7 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx2 : Q7 m c (Proc.devRef .tc main_v194) = (Cert.ReferenceIdeal.ReadP.val_main_v194 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx3 : Q7 m c (Proc.devRef .tc main_v289) = (Cert.ReferenceIdeal.ReadP.val_main_v289 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hcc : Q7 m c (Proc.devRef .tc main_v305) = (Cert.ReferenceIdeal.ReadP.val_main_v305 (F := Ideal) (b2 m c))) :
    Q8 m c (Proc.devRef .tc main_v384) = (Cert.ReferenceIdeal.ReadP.val_main_v384 (F := Ideal) (b0 m c) (b1 m c) (b2 m c) (b4 m c) (b5 m c) (b6 m c) (b7 m c) (b8 m c) (b9 m c) (b10 m c) (b11 m c) (b12 m c) (b13 m c) (b14 m c) (b15 m c) (b16 m c)) := by
  show StableHlo.after ch14 (StableHlo.after ch13 (StableHlo.after ch12 (Q7 m c))) (Proc.devRef .tc main_v384) = _
  after_results_simp
  simp only [hx1, hx2, hx3, hcc, hc.src, hc.dst, hc.iota, hc.h0, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

end Cert.ReferenceIdeal.QHop7

end
-- ==== Proof.QHop8.lean ====
/-
  Hop 8 of the reference's operations — the first hop of layer 4 (the layer's bond-embedding slice and the index pairs the embedding lookup reads) — read back: what it computes for the
  later hops is the stage of the arguments that the stage functions name, and what the later hops read is kept.
-/
import proofs.«180497_j12352325943908_1_alg».proof.Proof.RCarried

set_option maxRecDepth 16384
set_option maxHeartbeats 4000000

noncomputable section

namespace Cert.ReferenceIdeal.QHop8

open Cert.ReferenceIdeal Cert.ReferenceIdeal.Gen Cert.ReferenceIdeal.RunC Cert.ReferenceIdeal.RChain
open Idealize.ShloMosaic Idealize.ShloMosaic.TcCoe Idealize.SL.Sem Idealize.ShloMosaic.StableHlo

variable (m : (ℓ : Loc nD τ sig) → Buf (Elt Ideal) ℓ) (c : Dev nD)

/-- What the one-pass reading leaves inside a concatenate's operand list, finished by rewriting: each operation's result at
    its own buffer is its function's value, at any other buffer what was there. -/
macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-- The carried facts after the hop. -/
theorem carried (hc : RC m c (Q8 m c)) : RC m c (Q9 m c) where
    src := (show StableHlo.after ch15 (Q8 m c) (Proc.devRef .tc main_v1) = Q8 m c (Proc.devRef .tc main_v1) by after_results_simp).trans hc.src
    dst := (show StableHlo.after ch15 (Q8 m c) (Proc.devRef .tc main_v3) = Q8 m c (Proc.devRef .tc main_v3) by after_results_simp).trans hc.dst
    iota := (show StableHlo.after ch15 (Q8 m c) (Proc.devRef .tc main_v4) = Q8 m c (Proc.devRef .tc main_v4) by after_results_simp).trans hc.iota
    h0 := (show StableHlo.after ch15 (Q8 m c) (Proc.devRef .tc main_arg0) = Q8 m c (Proc.devRef .tc main_arg0) by after_results_simp).trans hc.h0
    h2 := (show StableHlo.after ch15 (Q8 m c) (Proc.devRef .tc main_arg2) = Q8 m c (Proc.devRef .tc main_arg2) by after_results_simp).trans hc.h2
    h3 := (show StableHlo.after ch15 (Q8 m c) (Proc.devRef .tc main_arg3) = Q8 m c (Proc.devRef .tc main_arg3) by after_results_simp).trans hc.h3
    h4 := (show StableHlo.after ch15 (Q8 m c) (Proc.devRef .tc main_arg4) = Q8 m c (Proc.devRef .tc main_arg4) by after_results_simp).trans hc.h4
    h5 := (show StableHlo.after ch15 (Q8 m c) (Proc.devRef .tc main_arg5) = Q8 m c (Proc.devRef .tc main_arg5) by after_results_simp).trans hc.h5
    h6 := (show StableHlo.after ch15 (Q8 m c) (Proc.devRef .tc main_arg6) = Q8 m c (Proc.devRef .tc main_arg6) by after_results_simp).trans hc.h6
    h7 := (show StableHlo.after ch15 (Q8 m c) (Proc.devRef .tc main_arg7) = Q8 m c (Proc.devRef .tc main_arg7) by after_results_simp).trans hc.h7
    h8 := (show StableHlo.after ch15 (Q8 m c) (Proc.devRef .tc main_arg8) = Q8 m c (Proc.devRef .tc main_arg8) by after_results_simp).trans hc.h8
    h9 := (show StableHlo.after ch15 (Q8 m c) (Proc.devRef .tc main_arg9) = Q8 m c (Proc.devRef .tc main_arg9) by after_results_simp).trans hc.h9
    h10 := (show StableHlo.after ch15 (Q8 m c) (Proc.devRef .tc main_arg10) = Q8 m c (Proc.devRef .tc main_arg10) by after_results_simp).trans hc.h10
    h11 := (show StableHlo.after ch15 (Q8 m c) (Proc.devRef .tc main_arg11) = Q8 m c (Proc.devRef .tc main_arg11) by after_results_simp).trans hc.h11
    h12 := (show StableHlo.after ch15 (Q8 m c) (Proc.devRef .tc main_arg12) = Q8 m c (Proc.devRef .tc main_arg12) by after_results_simp).trans hc.h12
    h13 := (show StableHlo.after ch15 (Q8 m c) (Proc.devRef .tc main_arg13) = Q8 m c (Proc.devRef .tc main_arg13) by after_results_simp).trans hc.h13
    h14 := (show StableHlo.after ch15 (Q8 m c) (Proc.devRef .tc main_arg14) = Q8 m c (Proc.devRef .tc main_arg14) by after_results_simp).trans hc.h14
    h15 := (show StableHlo.after ch15 (Q8 m c) (Proc.devRef .tc main_arg15) = Q8 m c (Proc.devRef .tc main_arg15) by after_results_simp).trans hc.h15
    h16 := (show StableHlo.after ch15 (Q8 m c) (Proc.devRef .tc main_arg16) = Q8 m c (Proc.devRef .tc main_arg16) by after_results_simp).trans hc.h16
    h17 := (show StableHlo.after ch15 (Q8 m c) (Proc.devRef .tc main_arg17) = Q8 m c (Proc.devRef .tc main_arg17) by after_results_simp).trans hc.h17
    h18 := (show StableHlo.after ch15 (Q8 m c) (Proc.devRef .tc main_arg18) = Q8 m c (Proc.devRef .tc main_arg18) by after_results_simp).trans hc.h18

/-- A layer output computed earlier is kept by this hop. -/
theorem keep_hx1 (hc : RC m c (Q8 m c))
    (hx1 : Q8 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx2 : Q8 m c (Proc.devRef .tc main_v194) = (Cert.ReferenceIdeal.ReadP.val_main_v194 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx3 : Q8 m c (Proc.devRef .tc main_v289) = (Cert.ReferenceIdeal.ReadP.val_main_v289 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx4 : Q8 m c (Proc.devRef .tc main_v384) = (Cert.ReferenceIdeal.ReadP.val_main_v384 (F := Ideal) (b0 m c) (b1 m c) (b2 m c) (b4 m c) (b5 m c) (b6 m c) (b7 m c) (b8 m c) (b9 m c) (b10 m c) (b11 m c) (b12 m c) (b13 m c) (b14 m c) (b15 m c) (b16 m c))) :
    Q9 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)) :=
  (show StableHlo.after ch15 (Q8 m c) (Proc.devRef .tc main_v99) = Q8 m c (Proc.devRef .tc main_v99) by after_results_simp).trans hx1

/-- A layer output computed earlier is kept by this hop. -/
theorem keep_hx2 (hc : RC m c (Q8 m c))
    (hx1 : Q8 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx2 : Q8 m c (Proc.devRef .tc main_v194) = (Cert.ReferenceIdeal.ReadP.val_main_v194 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx3 : Q8 m c (Proc.devRef .tc main_v289) = (Cert.ReferenceIdeal.ReadP.val_main_v289 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx4 : Q8 m c (Proc.devRef .tc main_v384) = (Cert.ReferenceIdeal.ReadP.val_main_v384 (F := Ideal) (b0 m c) (b1 m c) (b2 m c) (b4 m c) (b5 m c) (b6 m c) (b7 m c) (b8 m c) (b9 m c) (b10 m c) (b11 m c) (b12 m c) (b13 m c) (b14 m c) (b15 m c) (b16 m c))) :
    Q9 m c (Proc.devRef .tc main_v194) = (Cert.ReferenceIdeal.ReadP.val_main_v194 (F := Ideal) (b0 m c) (b1 m c) (b2 m c) (b4 m c) (b5 m c) (b6 m c) (b7 m c) (b8 m c) (b9 m c) (b10 m c) (b11 m c) (b12 m c) (b13 m c) (b14 m c) (b15 m c) (b16 m c)) :=
  (show StableHlo.after ch15 (Q8 m c) (Proc.devRef .tc main_v194) = Q8 m c (Proc.devRef .tc main_v194) by after_results_simp).trans hx2

/-- A layer output computed earlier is kept by this hop. -/
theorem keep_hx3 (hc : RC m c (Q8 m c))
    (hx1 : Q8 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx2 : Q8 m c (Proc.devRef .tc main_v194) = (Cert.ReferenceIdeal.ReadP.val_main_v194 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx3 : Q8 m c (Proc.devRef .tc main_v289) = (Cert.ReferenceIdeal.ReadP.val_main_v289 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx4 : Q8 m c (Proc.devRef .tc main_v384) = (Cert.ReferenceIdeal.ReadP.val_main_v384 (F := Ideal) (b0 m c) (b1 m c) (b2 m c) (b4 m c) (b5 m c) (b6 m c) (b7 m c) (b8 m c) (b9 m c) (b10 m c) (b11 m c) (b12 m c) (b13 m c) (b14 m c) (b15 m c) (b16 m c))) :
    Q9 m c (Proc.devRef .tc main_v289) = (Cert.ReferenceIdeal.ReadP.val_main_v289 (F := Ideal) (b0 m c) (b1 m c) (b2 m c) (b4 m c) (b5 m c) (b6 m c) (b7 m c) (b8 m c) (b9 m c) (b10 m c) (b11 m c) (b12 m c) (b13 m c) (b14 m c) (b15 m c) (b16 m c)) :=
  (show StableHlo.after ch15 (Q8 m c) (Proc.devRef .tc main_v289) = Q8 m c (Proc.devRef .tc main_v289) by after_results_simp).trans hx3

/-- A layer output computed earlier is kept by this hop. -/
theorem keep_hx4 (hc : RC m c (Q8 m c))
    (hx1 : Q8 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx2 : Q8 m c (Proc.devRef .tc main_v194) = (Cert.ReferenceIdeal.ReadP.val_main_v194 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx3 : Q8 m c (Proc.devRef .tc main_v289) = (Cert.ReferenceIdeal.ReadP.val_main_v289 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx4 : Q8 m c (Proc.devRef .tc main_v384) = (Cert.ReferenceIdeal.ReadP.val_main_v384 (F := Ideal) (b0 m c) (b1 m c) (b2 m c) (b4 m c) (b5 m c) (b6 m c) (b7 m c) (b8 m c) (b9 m c) (b10 m c) (b11 m c) (b12 m c) (b13 m c) (b14 m c) (b15 m c) (b16 m c))) :
    Q9 m c (Proc.devRef .tc main_v384) = (Cert.ReferenceIdeal.ReadP.val_main_v384 (F := Ideal) (b0 m c) (b1 m c) (b2 m c) (b4 m c) (b5 m c) (b6 m c) (b7 m c) (b8 m c) (b9 m c) (b10 m c) (b11 m c) (b12 m c) (b13 m c) (b14 m c) (b15 m c) (b16 m c)) :=
  (show StableHlo.after ch15 (Q8 m c) (Proc.devRef .tc main_v384) = Q8 m c (Proc.devRef .tc main_v384) by after_results_simp).trans hx4

/-- The concatenated bond-feature indices (feature id beside the bond attribute, for every edge and feature) after the
    hop are their stage of the arguments. What the one-pass reading leaves inside the concatenate's operand list is
    finished by rewriting. -/
theorem cc' (hc : RC m c (Q8 m c))
    (hx1 : Q8 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx2 : Q8 m c (Proc.devRef .tc main_v194) = (Cert.ReferenceIdeal.ReadP.val_main_v194 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx3 : Q8 m c (Proc.devRef .tc main_v289) = (Cert.ReferenceIdeal.ReadP.val_main_v289 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx4 : Q8 m c (Proc.devRef .tc main_v384) = (Cert.ReferenceIdeal.ReadP.val_main_v384 (F := Ideal) (b0 m c) (b1 m c) (b2 m c) (b4 m c) (b5 m c) (b6 m c) (b7 m c) (b8 m c) (b9 m c) (b10 m c) (b11 m c) (b12 m c) (b13 m c) (b14 m c) (b15 m c) (b16 m c))) :
    Q9 m c (Proc.devRef .tc main_v400) = (Cert.ReferenceIdeal.ReadP.val_main_v400 (F := Ideal) (b2 m c)) := by
  show StableHlo.after ch15 (Q8 m c) (Proc.devRef .tc main_v400) = _
  after_results_simp
  results_rw
  rw [hc.iota, hc.h2]
  try simp only [TRef.ofBuf, TRef.toBuf, cast_eq]
  rfl

end Cert.ReferenceIdeal.QHop8

end
-- ==== Proof.QHop9.lean ====
/-
  Hop 9 of the reference's operations — the second hop of layer 4 (the embedding lookup and its sum over the three features, the gathered source features, the rectified messages, their scatter-add, and the layer's dense transform) — read back: what it computes for the
  later hops is the stage of the arguments that the stage functions name, and what the later hops read is kept.
-/
import proofs.«180497_j12352325943908_1_alg».proof.Proof.RCarried

set_option maxRecDepth 16384
set_option maxHeartbeats 4000000

noncomputable section

namespace Cert.ReferenceIdeal.QHop9

open Cert.ReferenceIdeal Cert.ReferenceIdeal.Gen Cert.ReferenceIdeal.RunC Cert.ReferenceIdeal.RChain
open Idealize.ShloMosaic Idealize.ShloMosaic.TcCoe Idealize.SL.Sem Idealize.ShloMosaic.StableHlo

variable (m : (ℓ : Loc nD τ sig) → Buf (Elt Ideal) ℓ) (c : Dev nD)

/-- The carried facts after the hop. -/
theorem carried (hc : RC m c (Q9 m c)) : RC m c (Q10 m c) where
    src := (show StableHlo.after ch17 (StableHlo.after ch16 (Q9 m c)) (Proc.devRef .tc main_v1) = Q9 m c (Proc.devRef .tc main_v1) by after_results_simp).trans hc.src
    dst := (show StableHlo.after ch17 (StableHlo.after ch16 (Q9 m c)) (Proc.devRef .tc main_v3) = Q9 m c (Proc.devRef .tc main_v3) by after_results_simp).trans hc.dst
    iota := (show StableHlo.after ch17 (StableHlo.after ch16 (Q9 m c)) (Proc.devRef .tc main_v4) = Q9 m c (Proc.devRef .tc main_v4) by after_results_simp).trans hc.iota
    h0 := (show StableHlo.after ch17 (StableHlo.after ch16 (Q9 m c)) (Proc.devRef .tc main_arg0) = Q9 m c (Proc.devRef .tc main_arg0) by after_results_simp).trans hc.h0
    h2 := (show StableHlo.after ch17 (StableHlo.after ch16 (Q9 m c)) (Proc.devRef .tc main_arg2) = Q9 m c (Proc.devRef .tc main_arg2) by after_results_simp).trans hc.h2
    h3 := (show StableHlo.after ch17 (StableHlo.after ch16 (Q9 m c)) (Proc.devRef .tc main_arg3) = Q9 m c (Proc.devRef .tc main_arg3) by after_results_simp).trans hc.h3
    h4 := (show StableHlo.after ch17 (StableHlo.after ch16 (Q9 m c)) (Proc.devRef .tc main_arg4) = Q9 m c (Proc.devRef .tc main_arg4) by after_results_simp).trans hc.h4
    h5 := (show StableHlo.after ch17 (StableHlo.after ch16 (Q9 m c)) (Proc.devRef .tc main_arg5) = Q9 m c (Proc.devRef .tc main_arg5) by after_results_simp).trans hc.h5
    h6 := (show StableHlo.after ch17 (StableHlo.after ch16 (Q9 m c)) (Proc.devRef .tc main_arg6) = Q9 m c (Proc.devRef .tc main_arg6) by after_results_simp).trans hc.h6
    h7 := (show StableHlo.after ch17 (StableHlo.after ch16 (Q9 m c)) (Proc.devRef .tc main_arg7) = Q9 m c (Proc.devRef .tc main_arg7) by after_results_simp).trans hc.h7
    h8 := (show StableHlo.after ch17 (StableHlo.after ch16 (Q9 m c)) (Proc.devRef .tc main_arg8) = Q9 m c (Proc.devRef .tc main_arg8) by after_results_simp).trans hc.h8
    h9 := (show StableHlo.after ch17 (StableHlo.after ch16 (Q9 m c)) (Proc.devRef .tc main_arg9) = Q9 m c (Proc.devRef .tc main_arg9) by after_results_simp).trans hc.h9
    h10 := (show StableHlo.after ch17 (StableHlo.after ch16 (Q9 m c)) (Proc.devRef .tc main_arg10) = Q9 m c (Proc.devRef .tc main_arg10) by after_results_simp).trans hc.h10
    h11 := (show StableHlo.after ch17 (StableHlo.after ch16 (Q9 m c)) (Proc.devRef .tc main_arg11) = Q9 m c (Proc.devRef .tc main_arg11) by after_results_simp).trans hc.h11
    h12 := (show StableHlo.after ch17 (StableHlo.after ch16 (Q9 m c)) (Proc.devRef .tc main_arg12) = Q9 m c (Proc.devRef .tc main_arg12) by after_results_simp).trans hc.h12
    h13 := (show StableHlo.after ch17 (StableHlo.after ch16 (Q9 m c)) (Proc.devRef .tc main_arg13) = Q9 m c (Proc.devRef .tc main_arg13) by after_results_simp).trans hc.h13
    h14 := (show StableHlo.after ch17 (StableHlo.after ch16 (Q9 m c)) (Proc.devRef .tc main_arg14) = Q9 m c (Proc.devRef .tc main_arg14) by after_results_simp).trans hc.h14
    h15 := (show StableHlo.after ch17 (StableHlo.after ch16 (Q9 m c)) (Proc.devRef .tc main_arg15) = Q9 m c (Proc.devRef .tc main_arg15) by after_results_simp).trans hc.h15
    h16 := (show StableHlo.after ch17 (StableHlo.after ch16 (Q9 m c)) (Proc.devRef .tc main_arg16) = Q9 m c (Proc.devRef .tc main_arg16) by after_results_simp).trans hc.h16
    h17 := (show StableHlo.after ch17 (StableHlo.after ch16 (Q9 m c)) (Proc.devRef .tc main_arg17) = Q9 m c (Proc.devRef .tc main_arg17) by after_results_simp).trans hc.h17
    h18 := (show StableHlo.after ch17 (StableHlo.after ch16 (Q9 m c)) (Proc.devRef .tc main_arg18) = Q9 m c (Proc.devRef .tc main_arg18) by after_results_simp).trans hc.h18

/-- A layer output computed earlier is kept by this hop. -/
theorem keep_hx1 (hc : RC m c (Q9 m c))
    (hx1 : Q9 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx2 : Q9 m c (Proc.devRef .tc main_v194) = (Cert.ReferenceIdeal.ReadP.val_main_v194 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx3 : Q9 m c (Proc.devRef .tc main_v289) = (Cert.ReferenceIdeal.ReadP.val_main_v289 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx4 : Q9 m c (Proc.devRef .tc main_v384) = (Cert.ReferenceIdeal.ReadP.val_main_v384 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hcc : Q9 m c (Proc.devRef .tc main_v400) = (Cert.ReferenceIdeal.ReadP.val_main_v400 (F := Ideal) (b2 m c))) :
    Q10 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)) :=
  (show StableHlo.after ch17 (StableHlo.after ch16 (Q9 m c)) (Proc.devRef .tc main_v99) = Q9 m c (Proc.devRef .tc main_v99) by after_results_simp).trans hx1

/-- A layer output computed earlier is kept by this hop. -/
theorem keep_hx2 (hc : RC m c (Q9 m c))
    (hx1 : Q9 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx2 : Q9 m c (Proc.devRef .tc main_v194) = (Cert.ReferenceIdeal.ReadP.val_main_v194 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx3 : Q9 m c (Proc.devRef .tc main_v289) = (Cert.ReferenceIdeal.ReadP.val_main_v289 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx4 : Q9 m c (Proc.devRef .tc main_v384) = (Cert.ReferenceIdeal.ReadP.val_main_v384 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hcc : Q9 m c (Proc.devRef .tc main_v400) = (Cert.ReferenceIdeal.ReadP.val_main_v400 (F := Ideal) (b2 m c))) :
    Q10 m c (Proc.devRef .tc main_v194) = (Cert.ReferenceIdeal.ReadP.val_main_v194 (F := Ideal) (b0 m c) (b1 m c) (b2 m c) (b4 m c) (b5 m c) (b6 m c) (b7 m c) (b8 m c) (b9 m c) (b10 m c) (b11 m c) (b12 m c) (b13 m c) (b14 m c) (b15 m c) (b16 m c)) :=
  (show StableHlo.after ch17 (StableHlo.after ch16 (Q9 m c)) (Proc.devRef .tc main_v194) = Q9 m c (Proc.devRef .tc main_v194) by after_results_simp).trans hx2

/-- A layer output computed earlier is kept by this hop. -/
theorem keep_hx3 (hc : RC m c (Q9 m c))
    (hx1 : Q9 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx2 : Q9 m c (Proc.devRef .tc main_v194) = (Cert.ReferenceIdeal.ReadP.val_main_v194 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx3 : Q9 m c (Proc.devRef .tc main_v289) = (Cert.ReferenceIdeal.ReadP.val_main_v289 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx4 : Q9 m c (Proc.devRef .tc main_v384) = (Cert.ReferenceIdeal.ReadP.val_main_v384 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hcc : Q9 m c (Proc.devRef .tc main_v400) = (Cert.ReferenceIdeal.ReadP.val_main_v400 (F := Ideal) (b2 m c))) :
    Q10 m c (Proc.devRef .tc main_v289) = (Cert.ReferenceIdeal.ReadP.val_main_v289 (F := Ideal) (b0 m c) (b1 m c) (b2 m c) (b4 m c) (b5 m c) (b6 m c) (b7 m c) (b8 m c) (b9 m c) (b10 m c) (b11 m c) (b12 m c) (b13 m c) (b14 m c) (b15 m c) (b16 m c)) :=
  (show StableHlo.after ch17 (StableHlo.after ch16 (Q9 m c)) (Proc.devRef .tc main_v289) = Q9 m c (Proc.devRef .tc main_v289) by after_results_simp).trans hx3

/-- A layer output computed earlier is kept by this hop. -/
theorem keep_hx4 (hc : RC m c (Q9 m c))
    (hx1 : Q9 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx2 : Q9 m c (Proc.devRef .tc main_v194) = (Cert.ReferenceIdeal.ReadP.val_main_v194 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx3 : Q9 m c (Proc.devRef .tc main_v289) = (Cert.ReferenceIdeal.ReadP.val_main_v289 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx4 : Q9 m c (Proc.devRef .tc main_v384) = (Cert.ReferenceIdeal.ReadP.val_main_v384 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hcc : Q9 m c (Proc.devRef .tc main_v400) = (Cert.ReferenceIdeal.ReadP.val_main_v400 (F := Ideal) (b2 m c))) :
    Q10 m c (Proc.devRef .tc main_v384) = (Cert.ReferenceIdeal.ReadP.val_main_v384 (F := Ideal) (b0 m c) (b1 m c) (b2 m c) (b4 m c) (b5 m c) (b6 m c) (b7 m c) (b8 m c) (b9 m c) (b10 m c) (b11 m c) (b12 m c) (b13 m c) (b14 m c) (b15 m c) (b16 m c)) :=
  (show StableHlo.after ch17 (StableHlo.after ch16 (Q9 m c)) (Proc.devRef .tc main_v384) = Q9 m c (Proc.devRef .tc main_v384) by after_results_simp).trans hx4

/-- The layer's output buffer after the hop is its stage of the arguments. -/
theorem x' (hc : RC m c (Q9 m c))
    (hx1 : Q9 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx2 : Q9 m c (Proc.devRef .tc main_v194) = (Cert.ReferenceIdeal.ReadP.val_main_v194 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx3 : Q9 m c (Proc.devRef .tc main_v289) = (Cert.ReferenceIdeal.ReadP.val_main_v289 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx4 : Q9 m c (Proc.devRef .tc main_v384) = (Cert.ReferenceIdeal.ReadP.val_main_v384 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hcc : Q9 m c (Proc.devRef .tc main_v400) = (Cert.ReferenceIdeal.ReadP.val_main_v400 (F := Ideal) (b2 m c))) :
    Q10 m c (Proc.devRef .tc main_v479) = (Cert.ReferenceIdeal.ReadP.val_main_v479 (F := Ideal) (b0 m c) (b1 m c) (b2 m c) (b4 m c) (b5 m c) (b6 m c) (b7 m c) (b8 m c) (b9 m c) (b10 m c) (b11 m c) (b12 m c) (b13 m c) (b14 m c) (b15 m c) (b16 m c)) := by
  show StableHlo.after ch17 (StableHlo.after ch16 (Q9 m c)) (Proc.devRef .tc main_v479) = _
  after_results_simp
  simp only [hx1, hx2, hx3, hx4, hcc, hc.src, hc.dst, hc.iota, hc.h0, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

end Cert.ReferenceIdeal.QHop9

end
-- ==== Proof.QHop10.lean ====
/-
  Hop 10 of the reference's operations — the last hop (the per-graph node counts and their reciprocals, the pooled read-out of the input features and of each layer's output, projected and summed) — read back: what it computes for the
  later hops is the stage of the arguments that the stage functions name, and what the later hops read is kept.
-/
import proofs.«180497_j12352325943908_1_alg».proof.Proof.RCarried

set_option maxRecDepth 16384
set_option maxHeartbeats 4000000

noncomputable section

namespace Cert.ReferenceIdeal.QHop10

open Cert.ReferenceIdeal Cert.ReferenceIdeal.Gen Cert.ReferenceIdeal.RunC Cert.ReferenceIdeal.RChain
open Idealize.ShloMosaic Idealize.ShloMosaic.TcCoe Idealize.SL.Sem Idealize.ShloMosaic.StableHlo

variable (m : (ℓ : Loc nD τ sig) → Buf (Elt Ideal) ℓ) (c : Dev nD)

/-- The carried facts after the hop. -/
theorem carried (hc : RC m c (Q10 m c)) : RC m c (Q11 m c) where
    src := (show StableHlo.after ch20 (StableHlo.after ch19 (StableHlo.after ch18 (Q10 m c))) (Proc.devRef .tc main_v1) = Q10 m c (Proc.devRef .tc main_v1) by after_results_simp).trans hc.src
    dst := (show StableHlo.after ch20 (StableHlo.after ch19 (StableHlo.after ch18 (Q10 m c))) (Proc.devRef .tc main_v3) = Q10 m c (Proc.devRef .tc main_v3) by after_results_simp).trans hc.dst
    iota := (show StableHlo.after ch20 (StableHlo.after ch19 (StableHlo.after ch18 (Q10 m c))) (Proc.devRef .tc main_v4) = Q10 m c (Proc.devRef .tc main_v4) by after_results_simp).trans hc.iota
    h0 := (show StableHlo.after ch20 (StableHlo.after ch19 (StableHlo.after ch18 (Q10 m c))) (Proc.devRef .tc main_arg0) = Q10 m c (Proc.devRef .tc main_arg0) by after_results_simp).trans hc.h0
    h2 := (show StableHlo.after ch20 (StableHlo.after ch19 (StableHlo.after ch18 (Q10 m c))) (Proc.devRef .tc main_arg2) = Q10 m c (Proc.devRef .tc main_arg2) by after_results_simp).trans hc.h2
    h3 := (show StableHlo.after ch20 (StableHlo.after ch19 (StableHlo.after ch18 (Q10 m c))) (Proc.devRef .tc main_arg3) = Q10 m c (Proc.devRef .tc main_arg3) by after_results_simp).trans hc.h3
    h4 := (show StableHlo.after ch20 (StableHlo.after ch19 (StableHlo.after ch18 (Q10 m c))) (Proc.devRef .tc main_arg4) = Q10 m c (Proc.devRef .tc main_arg4) by after_results_simp).trans hc.h4
    h5 := (show StableHlo.after ch20 (StableHlo.after ch19 (StableHlo.after ch18 (Q10 m c))) (Proc.devRef .tc main_arg5) = Q10 m c (Proc.devRef .tc main_arg5) by after_results_simp).trans hc.h5
    h6 := (show StableHlo.after ch20 (StableHlo.after ch19 (StableHlo.after ch18 (Q10 m c))) (Proc.devRef .tc main_arg6) = Q10 m c (Proc.devRef .tc main_arg6) by after_results_simp).trans hc.h6
    h7 := (show StableHlo.after ch20 (StableHlo.after ch19 (StableHlo.after ch18 (Q10 m c))) (Proc.devRef .tc main_arg7) = Q10 m c (Proc.devRef .tc main_arg7) by after_results_simp).trans hc.h7
    h8 := (show StableHlo.after ch20 (StableHlo.after ch19 (StableHlo.after ch18 (Q10 m c))) (Proc.devRef .tc main_arg8) = Q10 m c (Proc.devRef .tc main_arg8) by after_results_simp).trans hc.h8
    h9 := (show StableHlo.after ch20 (StableHlo.after ch19 (StableHlo.after ch18 (Q10 m c))) (Proc.devRef .tc main_arg9) = Q10 m c (Proc.devRef .tc main_arg9) by after_results_simp).trans hc.h9
    h10 := (show StableHlo.after ch20 (StableHlo.after ch19 (StableHlo.after ch18 (Q10 m c))) (Proc.devRef .tc main_arg10) = Q10 m c (Proc.devRef .tc main_arg10) by after_results_simp).trans hc.h10
    h11 := (show StableHlo.after ch20 (StableHlo.after ch19 (StableHlo.after ch18 (Q10 m c))) (Proc.devRef .tc main_arg11) = Q10 m c (Proc.devRef .tc main_arg11) by after_results_simp).trans hc.h11
    h12 := (show StableHlo.after ch20 (StableHlo.after ch19 (StableHlo.after ch18 (Q10 m c))) (Proc.devRef .tc main_arg12) = Q10 m c (Proc.devRef .tc main_arg12) by after_results_simp).trans hc.h12
    h13 := (show StableHlo.after ch20 (StableHlo.after ch19 (StableHlo.after ch18 (Q10 m c))) (Proc.devRef .tc main_arg13) = Q10 m c (Proc.devRef .tc main_arg13) by after_results_simp).trans hc.h13
    h14 := (show StableHlo.after ch20 (StableHlo.after ch19 (StableHlo.after ch18 (Q10 m c))) (Proc.devRef .tc main_arg14) = Q10 m c (Proc.devRef .tc main_arg14) by after_results_simp).trans hc.h14
    h15 := (show StableHlo.after ch20 (StableHlo.after ch19 (StableHlo.after ch18 (Q10 m c))) (Proc.devRef .tc main_arg15) = Q10 m c (Proc.devRef .tc main_arg15) by after_results_simp).trans hc.h15
    h16 := (show StableHlo.after ch20 (StableHlo.after ch19 (StableHlo.after ch18 (Q10 m c))) (Proc.devRef .tc main_arg16) = Q10 m c (Proc.devRef .tc main_arg16) by after_results_simp).trans hc.h16
    h17 := (show StableHlo.after ch20 (StableHlo.after ch19 (StableHlo.after ch18 (Q10 m c))) (Proc.devRef .tc main_arg17) = Q10 m c (Proc.devRef .tc main_arg17) by after_results_simp).trans hc.h17
    h18 := (show StableHlo.after ch20 (StableHlo.after ch19 (StableHlo.after ch18 (Q10 m c))) (Proc.devRef .tc main_arg18) = Q10 m c (Proc.devRef .tc main_arg18) by after_results_simp).trans hc.h18

/-- A layer output computed earlier is kept by this hop. -/
theorem keep_hx1 (hc : RC m c (Q10 m c))
    (hx1 : Q10 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx2 : Q10 m c (Proc.devRef .tc main_v194) = (Cert.ReferenceIdeal.ReadP.val_main_v194 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx3 : Q10 m c (Proc.devRef .tc main_v289) = (Cert.ReferenceIdeal.ReadP.val_main_v289 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx4 : Q10 m c (Proc.devRef .tc main_v384) = (Cert.ReferenceIdeal.ReadP.val_main_v384 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx5 : Q10 m c (Proc.devRef .tc main_v479) = (Cert.ReferenceIdeal.ReadP.val_main_v479 (F := Ideal) (b0 m c) (b1 m c) (b2 m c) (b4 m c) (b5 m c) (b6 m c) (b7 m c) (b8 m c) (b9 m c) (b10 m c) (b11 m c) (b12 m c) (b13 m c) (b14 m c) (b15 m c) (b16 m c))) :
    Q11 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)) :=
  (show StableHlo.after ch20 (StableHlo.after ch19 (StableHlo.after ch18 (Q10 m c))) (Proc.devRef .tc main_v99) = Q10 m c (Proc.devRef .tc main_v99) by after_results_simp).trans hx1

/-- A layer output computed earlier is kept by this hop. -/
theorem keep_hx2 (hc : RC m c (Q10 m c))
    (hx1 : Q10 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx2 : Q10 m c (Proc.devRef .tc main_v194) = (Cert.ReferenceIdeal.ReadP.val_main_v194 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx3 : Q10 m c (Proc.devRef .tc main_v289) = (Cert.ReferenceIdeal.ReadP.val_main_v289 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx4 : Q10 m c (Proc.devRef .tc main_v384) = (Cert.ReferenceIdeal.ReadP.val_main_v384 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx5 : Q10 m c (Proc.devRef .tc main_v479) = (Cert.ReferenceIdeal.ReadP.val_main_v479 (F := Ideal) (b0 m c) (b1 m c) (b2 m c) (b4 m c) (b5 m c) (b6 m c) (b7 m c) (b8 m c) (b9 m c) (b10 m c) (b11 m c) (b12 m c) (b13 m c) (b14 m c) (b15 m c) (b16 m c))) :
    Q11 m c (Proc.devRef .tc main_v194) = (Cert.ReferenceIdeal.ReadP.val_main_v194 (F := Ideal) (b0 m c) (b1 m c) (b2 m c) (b4 m c) (b5 m c) (b6 m c) (b7 m c) (b8 m c) (b9 m c) (b10 m c) (b11 m c) (b12 m c) (b13 m c) (b14 m c) (b15 m c) (b16 m c)) :=
  (show StableHlo.after ch20 (StableHlo.after ch19 (StableHlo.after ch18 (Q10 m c))) (Proc.devRef .tc main_v194) = Q10 m c (Proc.devRef .tc main_v194) by after_results_simp).trans hx2

/-- A layer output computed earlier is kept by this hop. -/
theorem keep_hx3 (hc : RC m c (Q10 m c))
    (hx1 : Q10 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx2 : Q10 m c (Proc.devRef .tc main_v194) = (Cert.ReferenceIdeal.ReadP.val_main_v194 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx3 : Q10 m c (Proc.devRef .tc main_v289) = (Cert.ReferenceIdeal.ReadP.val_main_v289 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx4 : Q10 m c (Proc.devRef .tc main_v384) = (Cert.ReferenceIdeal.ReadP.val_main_v384 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx5 : Q10 m c (Proc.devRef .tc main_v479) = (Cert.ReferenceIdeal.ReadP.val_main_v479 (F := Ideal) (b0 m c) (b1 m c) (b2 m c) (b4 m c) (b5 m c) (b6 m c) (b7 m c) (b8 m c) (b9 m c) (b10 m c) (b11 m c) (b12 m c) (b13 m c) (b14 m c) (b15 m c) (b16 m c))) :
    Q11 m c (Proc.devRef .tc main_v289) = (Cert.ReferenceIdeal.ReadP.val_main_v289 (F := Ideal) (b0 m c) (b1 m c) (b2 m c) (b4 m c) (b5 m c) (b6 m c) (b7 m c) (b8 m c) (b9 m c) (b10 m c) (b11 m c) (b12 m c) (b13 m c) (b14 m c) (b15 m c) (b16 m c)) :=
  (show StableHlo.after ch20 (StableHlo.after ch19 (StableHlo.after ch18 (Q10 m c))) (Proc.devRef .tc main_v289) = Q10 m c (Proc.devRef .tc main_v289) by after_results_simp).trans hx3

/-- A layer output computed earlier is kept by this hop. -/
theorem keep_hx4 (hc : RC m c (Q10 m c))
    (hx1 : Q10 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx2 : Q10 m c (Proc.devRef .tc main_v194) = (Cert.ReferenceIdeal.ReadP.val_main_v194 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx3 : Q10 m c (Proc.devRef .tc main_v289) = (Cert.ReferenceIdeal.ReadP.val_main_v289 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx4 : Q10 m c (Proc.devRef .tc main_v384) = (Cert.ReferenceIdeal.ReadP.val_main_v384 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx5 : Q10 m c (Proc.devRef .tc main_v479) = (Cert.ReferenceIdeal.ReadP.val_main_v479 (F := Ideal) (b0 m c) (b1 m c) (b2 m c) (b4 m c) (b5 m c) (b6 m c) (b7 m c) (b8 m c) (b9 m c) (b10 m c) (b11 m c) (b12 m c) (b13 m c) (b14 m c) (b15 m c) (b16 m c))) :
    Q11 m c (Proc.devRef .tc main_v384) = (Cert.ReferenceIdeal.ReadP.val_main_v384 (F := Ideal) (b0 m c) (b1 m c) (b2 m c) (b4 m c) (b5 m c) (b6 m c) (b7 m c) (b8 m c) (b9 m c) (b10 m c) (b11 m c) (b12 m c) (b13 m c) (b14 m c) (b15 m c) (b16 m c)) :=
  (show StableHlo.after ch20 (StableHlo.after ch19 (StableHlo.after ch18 (Q10 m c))) (Proc.devRef .tc main_v384) = Q10 m c (Proc.devRef .tc main_v384) by after_results_simp).trans hx4

/-- A layer output computed earlier is kept by this hop. -/
theorem keep_hx5 (hc : RC m c (Q10 m c))
    (hx1 : Q10 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx2 : Q10 m c (Proc.devRef .tc main_v194) = (Cert.ReferenceIdeal.ReadP.val_main_v194 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx3 : Q10 m c (Proc.devRef .tc main_v289) = (Cert.ReferenceIdeal.ReadP.val_main_v289 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx4 : Q10 m c (Proc.devRef .tc main_v384) = (Cert.ReferenceIdeal.ReadP.val_main_v384 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx5 : Q10 m c (Proc.devRef .tc main_v479) = (Cert.ReferenceIdeal.ReadP.val_main_v479 (F := Ideal) (b0 m c) (b1 m c) (b2 m c) (b4 m c) (b5 m c) (b6 m c) (b7 m c) (b8 m c) (b9 m c) (b10 m c) (b11 m c) (b12 m c) (b13 m c) (b14 m c) (b15 m c) (b16 m c))) :
    Q11 m c (Proc.devRef .tc main_v479) = (Cert.ReferenceIdeal.ReadP.val_main_v479 (F := Ideal) (b0 m c) (b1 m c) (b2 m c) (b4 m c) (b5 m c) (b6 m c) (b7 m c) (b8 m c) (b9 m c) (b10 m c) (b11 m c) (b12 m c) (b13 m c) (b14 m c) (b15 m c) (b16 m c)) :=
  (show StableHlo.after ch20 (StableHlo.after ch19 (StableHlo.after ch18 (Q10 m c))) (Proc.devRef .tc main_v479) = Q10 m c (Proc.devRef .tc main_v479) by after_results_simp).trans hx5

/-- The result buffer after the last hop is the result stage of the arguments. -/
theorem last (hc : RC m c (Q10 m c))
    (hx1 : Q10 m c (Proc.devRef .tc main_v99) = (Cert.ReferenceIdeal.ReadP.val_main_v99 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx2 : Q10 m c (Proc.devRef .tc main_v194) = (Cert.ReferenceIdeal.ReadP.val_main_v194 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx3 : Q10 m c (Proc.devRef .tc main_v289) = (Cert.ReferenceIdeal.ReadP.val_main_v289 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx4 : Q10 m c (Proc.devRef .tc main_v384) = (Cert.ReferenceIdeal.ReadP.val_main_v384 (F := Ideal) (b0 m c) (b1 m c) (b2 m c) (b4 m c) (b5 m c) (b6 m c) (b7 m c) (b8 m c) (b9 m c) (b10 m c) (b11 m c) (b12 m c) (b13 m c) (b14 m c) (b15 m c) (b16 m c)))
    (hx5 : Q10 m c (Proc.devRef .tc main_v479) = (Cert.ReferenceIdeal.ReadP.val_main_v479 (F := Ideal) (b0 m c) (b1 m c) (b2 m c) (b4 m c) (b5 m c) (b6 m c) (b7 m c) (b8 m c) (b9 m c) (b10 m c) (b11 m c) (b12 m c) (b13 m c) (b14 m c) (b15 m c) (b16 m c))) :
    Q11 m c (Proc.devRef .tc main_v578) = (Cert.ReferenceIdeal.ReadP.val_main_v578 (F := Ideal) (b0 m c) (b1 m c) (b2 m c) (b3 m c) (b4 m c) (b5 m c) (b6 m c) (b7 m c) (b8 m c) (b9 m c) (b10 m c) (b11 m c) (b12 m c) (b13 m c) (b14 m c) (b15 m c) (b16 m c) (b17 m c) (b18 m c)) := by
  show StableHlo.after ch20 (StableHlo.after ch19 (StableHlo.after ch18 (Q10 m c))) (Proc.devRef .tc main_v578) = _
  after_results_simp
  simp only [hx1, hx2, hx3, hx4, hx5, hc.src, hc.dst, hc.iota, hc.h0, hc.h2, hc.h3, hc.h4, hc.h5, hc.h6, hc.h7, hc.h8, hc.h9, hc.h10, hc.h11, hc.h12, hc.h13, hc.h14, hc.h15, hc.h16, hc.h17, hc.h18]
  try simp only [TRef.ofBuf, TRef.toBuf, cast_eq]
  rfl

end Cert.ReferenceIdeal.QHop10

end
-- ==== Proof.RStage5.lean ====
/-
  The chain of the eleven hops: the result buffer after @main's operations is the result stage of the arguments.
-/
import proofs.«180497_j12352325943908_1_alg».proof.Proof.RCarried
import proofs.«180497_j12352325943908_1_alg».proof.Proof.QHop0
import proofs.«180497_j12352325943908_1_alg».proof.Proof.QHop1
import proofs.«180497_j12352325943908_1_alg».proof.Proof.QHop2
import proofs.«180497_j12352325943908_1_alg».proof.Proof.QHop3
import proofs.«180497_j12352325943908_1_alg».proof.Proof.QHop4
import proofs.«180497_j12352325943908_1_alg».proof.Proof.QHop5
import proofs.«180497_j12352325943908_1_alg».proof.Proof.QHop6
import proofs.«180497_j12352325943908_1_alg».proof.Proof.QHop7
import proofs.«180497_j12352325943908_1_alg».proof.Proof.QHop8
import proofs.«180497_j12352325943908_1_alg».proof.Proof.QHop9
import proofs.«180497_j12352325943908_1_alg».proof.Proof.QHop10

set_option maxRecDepth 16384

noncomputable section

namespace Cert.ReferenceIdeal.RStage5

open Cert.ReferenceIdeal Cert.ReferenceIdeal.Gen Cert.ReferenceIdeal.RunC Cert.ReferenceIdeal.RChain
open Idealize.ShloMosaic Idealize.ShloMosaic.TcCoe Idealize.SL.Sem Idealize.ShloMosaic.StableHlo

variable (m : (ℓ : Loc nD τ sig) → Buf (Elt Ideal) ℓ) (c : Dev nD)

/-- THE RESULT of the reference's operations is the result stage of the arguments. -/
theorem result : StableHlo.after (ops (F := Ideal)) (launchContents m c) (Proc.devRef .tc main_v578) = (Cert.ReferenceIdeal.ReadP.val_main_v578 (F := Ideal) (b0 m c) (b1 m c) (b2 m c) (b3 m c) (b4 m c) (b5 m c) (b6 m c) (b7 m c) (b8 m c) (b9 m c) (b10 m c) (b11 m c) (b12 m c) (b13 m c) (b14 m c) (b15 m c) (b16 m c) (b17 m c) (b18 m c)) := by
  rw [after_ops]
  have C1 := QHop0.carried m c
  have K1 := QHop0.cc' m c
  have C2 := QHop1.carried m c C1
  have X1_2 := QHop1.x' m c C1 K1
  have C3 := QHop2.carried m c C2
  have X1_3 := QHop2.keep_hx1 m c C2 X1_2
  have K3 := QHop2.cc' m c C2 X1_2
  have C4 := QHop3.carried m c C3
  have X1_4 := QHop3.keep_hx1 m c C3 X1_3 K3
  have X2_4 := QHop3.x' m c C3 X1_3 K3
  have C5 := QHop4.carried m c C4
  have X1_5 := QHop4.keep_hx1 m c C4 X1_4 X2_4
  have X2_5 := QHop4.keep_hx2 m c C4 X1_4 X2_4
  have K5 := QHop4.cc' m c C4 X1_4 X2_4
  have C6 := QHop5.carried m c C5
  have X1_6 := QHop5.keep_hx1 m c C5 X1_5 X2_5 K5
  have X2_6 := QHop5.keep_hx2 m c C5 X1_5 X2_5 K5
  have X3_6 := QHop5.x' m c C5 X1_5 X2_5 K5
  have C7 := QHop6.carried m c C6
  have X1_7 := QHop6.keep_hx1 m c C6 X1_6 X2_6 X3_6
  have X2_7 := QHop6.keep_hx2 m c C6 X1_6 X2_6 X3_6
  have X3_7 := QHop6.keep_hx3 m c C6 X1_6 X2_6 X3_6
  have K7 := QHop6.cc' m c C6 X1_6 X2_6 X3_6
  have C8 := QHop7.carried m c C7
  have X1_8 := QHop7.keep_hx1 m c C7 X1_7 X2_7 X3_7 K7
  have X2_8 := QHop7.keep_hx2 m c C7 X1_7 X2_7 X3_7 K7
  have X3_8 := QHop7.keep_hx3 m c C7 X1_7 X2_7 X3_7 K7
  have X4_8 := QHop7.x' m c C7 X1_7 X2_7 X3_7 K7
  have C9 := QHop8.carried m c C8
  have X1_9 := QHop8.keep_hx1 m c C8 X1_8 X2_8 X3_8 X4_8
  have X2_9 := QHop8.keep_hx2 m c C8 X1_8 X2_8 X3_8 X4_8
  have X3_9 := QHop8.keep_hx3 m c C8 X1_8 X2_8 X3_8 X4_8
  have X4_9 := QHop8.keep_hx4 m c C8 X1_8 X2_8 X3_8 X4_8
  have K9 := QHop8.cc' m c C8 X1_8 X2_8 X3_8 X4_8
  have C10 := QHop9.carried m c C9
  have X1_10 := QHop9.keep_hx1 m c C9 X1_9 X2_9 X3_9 X4_9 K9
  have X2_10 := QHop9.keep_hx2 m c C9 X1_9 X2_9 X3_9 X4_9 K9
  have X3_10 := QHop9.keep_hx3 m c C9 X1_9 X2_9 X3_9 X4_9 K9
  have X4_10 := QHop9.keep_hx4 m c C9 X1_9 X2_9 X3_9 X4_9 K9
  have X5_10 := QHop9.x' m c C9 X1_9 X2_9 X3_9 X4_9 K9
  exact QHop10.last m c C10 X1_10 X2_10 X3_10 X4_10 X5_10

end Cert.ReferenceIdeal.RStage5

end
-- ==== Proof.lean ====
/-
  The certificate's proof: a five-layer message-passing network whose node-wise dense transform runs, per layer, as one
  pipelined kernel over ten blocks of 5000 nodes, against the same network written with whole-array host operations.

  The two programs apply the SAME host operations around the dense transform — the bond embeddings, the gather of
  source features, the rectified messages, their scatter-add over target nodes, the pooled read-outs and their
  projection — so each such buffer of the kernel program is, by unfolding both sides, the reference's stage of the same
  arguments. The dense transform itself differs only in form: the kernel narrows its operands to 16-bit floats before
  each matrix product (the identity over the extended reals), multiplies into a zero accumulator block by block (the
  same sum over the 128 contracted columns as the reference's whole-array product), and receives the normalisation
  parameters as 1×128 rows (the reference keeps 128-vectors): entry by entry both are `Net.layer` of the node's row.
  No law of the extended reals beyond this rearrangement is used, so the finiteness of the inputs is not needed.

  The frames of the two kernel programs are the generated frame certificates (in patched copies: see their headers);
  the reference's frame is its run (the generated operation list run by the library's straight-line rule, in a patched copy) with the result dropped; the ideal pass rewrote nothing, so `preserves`
  is trivial.
-/
import proofs.«180497_j12352325943908_1_alg».proof.Defs
import proofs.«180497_j12352325943908_1_alg».proof.Proof.Gen.Kernel
import proofs.«180497_j12352325943908_1_alg».proof.Proof.Gen.KernelIdeal
import proofs.«180497_j12352325943908_1_alg».proof.Proof.Gen.ReferenceIdeal
import proofs.«180497_j12352325943908_1_alg».proof.Proof.Gen.Pre_finite_inputs
import proofs.«180497_j12352325943908_1_alg».proof.Proof.RunC
import proofs.«180497_j12352325943908_1_alg».proof.Proof.ReadP
import proofs.«180497_j12352325943908_1_alg».proof.Proof.FrameK
import proofs.«180497_j12352325943908_1_alg».proof.Proof.FrameKI
import proofs.«180497_j12352325943908_1_alg».proof.Proof.RunMain
import proofs.«180497_j12352325943908_1_alg».proof.Proof.Step5
import proofs.«180497_j12352325943908_1_alg».proof.Proof.RStage5
import Idealize.ShloMosaic.Adequacy
import Idealize.ShloMosaic.Init

set_option maxRecDepth 16384

noncomputable section

namespace Cert.Proof

open Idealize.ShloMosaic Idealize.SL.Sem

theorem frame_k : @Cert.frame_Kernel Cert.Kernel.Gen.facts Cert.Pre_finite_inputs.Gen.facts :=
  fun m ρ _ => Cert.Kernel.GenP.frame m ρ

theorem frame_ki : @Cert.frame_KernelIdeal Cert.KernelIdeal.Gen.facts Cert.Pre_finite_inputs.Gen.facts :=
  fun m ρ _ => Cert.KernelIdeal.GenP.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.RunC.run_after (F := Ideal) m ρ)

/-- Both programs, from memories agreeing on the arguments, end with the same result: the kernel program's result
    buffer read back through its segments (`Step5.result`) and the reference's result buffer read back through its six
    stretches of operations (`RStage5.result`) are the same stage function of the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.GenP.W21 m ρ c (Proc.devRef .tc Cert.KernelIdeal.main_v428), Cert.KernelIdeal.ValueRun.run_main (F := Ideal) m ρ, ?_⟩
  refine (θ_run Cert.ReferenceIdeal.defs _ _).mono (fun _ h c => ⟨(h c).1.trans ?_, (h c).2⟩)
    (Cert.ReferenceIdeal.RunC.run_after (F := Ideal) m' ρ')
  obtain ⟨e0, e1, e2, e3, e4, e5, e6, e7, e8, e9, e10, e11, e12, e13, e14, e15, e16, e17, e18⟩ := hagree c
  have hb0 : Cert.ReferenceIdeal.RChain.b0 m' c = Cert.KernelIdeal.Chain.a0 m c := e0
  have hb1 : Cert.ReferenceIdeal.RChain.b1 m' c = Cert.KernelIdeal.Chain.a1 m c := e1
  have hb2 : Cert.ReferenceIdeal.RChain.b2 m' c = Cert.KernelIdeal.Chain.a2 m c := e2
  have hb3 : Cert.ReferenceIdeal.RChain.b3 m' c = Cert.KernelIdeal.Chain.a3 m c := e3
  have hb4 : Cert.ReferenceIdeal.RChain.b4 m' c = Cert.KernelIdeal.Chain.a4 m c := e4
  have hb5 : Cert.ReferenceIdeal.RChain.b5 m' c = Cert.KernelIdeal.Chain.a5 m c := e5
  have hb6 : Cert.ReferenceIdeal.RChain.b6 m' c = Cert.KernelIdeal.Chain.a6 m c := e6
  have hb7 : Cert.ReferenceIdeal.RChain.b7 m' c = Cert.KernelIdeal.Chain.a7 m c := e7
  have hb8 : Cert.ReferenceIdeal.RChain.b8 m' c = Cert.KernelIdeal.Chain.a8 m c := e8
  have hb9 : Cert.ReferenceIdeal.RChain.b9 m' c = Cert.KernelIdeal.Chain.a9 m c := e9
  have hb10 : Cert.ReferenceIdeal.RChain.b10 m' c = Cert.KernelIdeal.Chain.a10 m c := e10
  have hb11 : Cert.ReferenceIdeal.RChain.b11 m' c = Cert.KernelIdeal.Chain.a11 m c := e11
  have hb12 : Cert.ReferenceIdeal.RChain.b12 m' c = Cert.KernelIdeal.Chain.a12 m c := e12
  have hb13 : Cert.ReferenceIdeal.RChain.b13 m' c = Cert.KernelIdeal.Chain.a13 m c := e13
  have hb14 : Cert.ReferenceIdeal.RChain.b14 m' c = Cert.KernelIdeal.Chain.a14 m c := e14
  have hb15 : Cert.ReferenceIdeal.RChain.b15 m' c = Cert.KernelIdeal.Chain.a15 m c := e15
  have hb16 : Cert.ReferenceIdeal.RChain.b16 m' c = Cert.KernelIdeal.Chain.a16 m c := e16
  have hb17 : Cert.ReferenceIdeal.RChain.b17 m' c = Cert.KernelIdeal.Chain.a17 m c := e17
  have hb18 : Cert.ReferenceIdeal.RChain.b18 m' c = Cert.KernelIdeal.Chain.a18 m c := e18
  rw [Cert.ReferenceIdeal.RStage5.result m' c, hb0, hb1, hb2, hb3, hb4, hb5, hb6, hb7, hb8, hb9, hb10, hb11, hb12, hb13, hb14, hb15, hb16, hb17, hb18]
  exact (Cert.KernelIdeal.Step5.result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
